-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S2x1200000 : Shape := ⟨2, ![2, 1200000]⟩
abbrev S1200000 : Shape := ⟨1, ![1200000]⟩
abbrev S4x32x64 : Shape := ⟨3, ![4, 32, 64]⟩
abbrev S64 : Shape := ⟨1, ![64]⟩
abbrev S4x64x64 : Shape := ⟨3, ![4, 64, 64]⟩
abbrev S4x64x1 : Shape := ⟨3, ![4, 64, 1]⟩
abbrev S_ : Shape := ⟨0, ![]⟩
abbrev S1x1200000 : Shape := ⟨2, ![1, 1200000]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S4x32x64 : S_.BroadcastsInDim S4x32x64 (![] : Fin 0 → Fin S4x32x64.rank)
  reducesTo_S4x32x64_S_d0_1_2 : S4x32x64.ReducesTo [0, 1, 2] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64x1 : S_.BroadcastsInDim S4x64x1 (![] : Fin 0 → Fin S4x64x1.rank)
  reducesTo_S4x64x1_S_d0_1_2 : S4x64x1.ReducesTo [0, 1, 2] S_
  slices_S2x1200000_S1x1200000_0_0 : S2x1200000.Slices ![0, 0] S1x1200000
  shapeCasts_S1x1200000_S1200000 : S1x1200000.ShapeCasts S1200000

variable [Facts]

def fn_part2 {F : FTy → Type} [FloatOps F] (main_arg1 : IVec S2x1200000 32) (main_v33 : IVec S_ 1) : IVec S_ 1 :=
  let main_v34 : IVec S1x1200000 32 := (extractStridedSlice S1x1200000 ![0, 0] · slices_S2x1200000_S1x1200000_0_0) main_arg1
  let main_v35 : IVec S1200000 32 := shapeCast S1200000 main_v34 shapeCasts_S1x1200000_S1200000
  let main_c_12 : IVec S_ 32 := constantI S_ 32 0#32
  let main_v36 : IVec S1200000 32 := broadcastInDim S1200000 ![] bcast_S_S1200000 main_c_12
  let main_v37 : IVec S1200000 1 := cmpi .sge main_v35 main_v36
  let main_v38 : IVec S1x1200000 32 := (extractStridedSlice S1x1200000 ![0, 0] · slices_S2x1200000_S1x1200000_0_0) main_arg1
  let main_v39 : IVec S1200000 32 := shapeCast S1200000 main_v38 shapeCasts_S1x1200000_S1200000
  let main_c_13 : IVec S_ 32 := constantI S_ 32 50000#32
  let main_v40 : IVec S1200000 32 := broadcastInDim S1200000 ![] bcast_S_S1200000 main_c_13
  let main_v41 : IVec S1200000 1 := cmpi .slt main_v39 main_v40
  let main_v42 : IVec S1200000 1 := andi main_v37 main_v41
  let main_c_14 : IVec S_ 1 := constantI S_ 1 1#1
  let main_v43 : IVec S_ 1 := (fun x v => Host.reduce IntOp.andi x v reducesTo_S1200000_S_d0 h_S_) main_v42 main_c_14
  let main_v44 : IVec S_ 1 := andi main_v33 main_v43
  main_v44

def fn_part1 {F : FTy → Type} [FloatOps F] (main_arg1 : IVec S2x1200000 32) (main_arg5 : FVec F S4x64x64 .f32) (main_arg6 : FVec F S64 .f32) (main_arg7 : FVec F S4x64x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg5
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x64x1 .f32 := Host.absf main_arg7
  let main_cst_10 : FVec F S_ .f32 := constant S_ .f32 0x7F800000#32
  let main_v30 : FVec F S4x64x1 .f32 := broadcastInDim S4x64x1 ![] bcast_S_S4x64x1 main_cst_10
  let main_v31 : IVec S4x64x1 1 := cmpf .olt main_v29 main_v30
  let main_c_11 : IVec S_ 1 := constantI S_ 1 1#1
  let main_v32 : IVec S_ 1 := (fun x v => Host.reduce IntOp.andi x v reducesTo_S4x64x1_S_d0_1_2 h_S_) main_v31 main_c_11
  let main_v33 : IVec S_ 1 := andi main_v28 main_v32
  fn_part2 (F := F) main_arg1 main_v33

def fn {F : FTy → Type} [FloatOps F] (main_arg0 : FVec F S50000x32 .f32) (main_arg1 : IVec S2x1200000 32) (main_arg2 : FVec F S1200000 .f32) (main_arg3 : FVec F S4x32x64 .f32) (main_arg4 : FVec F S64 .f32) (main_arg5 : FVec F S4x64x64 .f32) (main_arg6 : FVec F S64 .f32) (main_arg7 : FVec F S4x64x1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S4x32x64 .f32 := Host.absf main_arg3
  let main_cst_2 : FVec F S_ .f32 := constant S_ .f32 0x7F800000#32
  let main_v10 : FVec F S4x32x64 .f32 := broadcastInDim S4x32x64 ![] bcast_S_S4x32x64 main_cst_2
  let main_v11 : IVec S4x32x64 1 := cmpf .olt main_v9 main_v10
  let main_c_3 : IVec S_ 1 := constantI S_ 1 1#1
  let main_v12 : IVec S_ 1 := (fun x v => Host.reduce IntOp.andi x v reducesTo_S4x32x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_v13 main_v16
-- ==== Kernel.lean ====
abbrev S50000x32 : Shape := ⟨2, ![50000, 32]⟩
abbrev S2x1200000 : Shape := ⟨2, ![2, 1200000]⟩
abbrev S1200000 : Shape := ⟨1, ![1200000]⟩
abbrev S4x32x64 : Shape := ⟨3, ![4, 32, 64]⟩
abbrev S64 : Shape := ⟨1, ![64]⟩
abbrev S4x64x64 : Shape := ⟨3, ![4, 64, 64]⟩
abbrev S4x64x1 : Shape := ⟨3, ![4, 64, 1]⟩
abbrev S1x1200000 : Shape := ⟨2, ![1, 1200000]⟩
abbrev S_ : Shape := ⟨0, ![]⟩
abbrev S1200000x1 : Shape := ⟨2, ![1200000, 1]⟩
abbrev S1 : Shape := ⟨1, ![1]⟩
abbrev S1x1 : Shape := ⟨2, ![1, 1]⟩
abbrev S1200000x32 : Shape := ⟨2, ![1200000, 32]⟩
abbrev S1x50000x32 : Shape := ⟨3, ![1, 50000, 32]⟩
abbrev S4x50000x32 : Shape := ⟨3, ![4, 50000, 32]⟩
abbrev S1x64 : Shape := ⟨2, ![1, 64]⟩
abbrev S50000x64 : Shape := ⟨2, ![50000, 64]⟩
abbrev S1x5000x32 : Shape := ⟨3, ![1, 5000, 32]⟩
abbrev S1x32x64 : Shape := ⟨3, ![1, 32, 64]⟩
abbrev S5000x64 : Shape := ⟨2, ![5000, 64]⟩
abbrev S5000x32 : Shape := ⟨2, ![5000, 32]⟩
abbrev S32x64 : Shape := ⟨2, ![32, 64]⟩
abbrev S1200000x64 : Shape := ⟨2, ![1200000, 64]⟩
abbrev S1x50000x64 : Shape := ⟨3, ![1, 50000, 64]⟩
abbrev S4x50000x64 : Shape := ⟨3, ![4, 50000, 64]⟩
abbrev S1x5000x64 : Shape := ⟨3, ![1, 5000, 64]⟩
abbrev S1x64x64 : Shape := ⟨3, ![1, 64, 64]⟩
abbrev S64x64 : Shape := ⟨2, ![64, 64]⟩
abbrev S50000x1 : Shape := ⟨2, ![50000, 1]⟩
abbrev S1x64x1 : Shape := ⟨3, ![1, 64, 1]⟩
abbrev S5000x1 : Shape := ⟨2, ![5000, 1]⟩
abbrev S64x1 : Shape := ⟨2, ![64, 1]⟩

abbrev nBuf : Space → Nat
  | .hbm => 304
  | .vmem => 24
  | .smem => 0
  | _ => 0

abbrev hbmTy0_0 (i : Nat) : BufTy := match i % 128 with
  | 0 => ⟨S50000x32, .f32⟩
  | 1 => ⟨S2x1200000, .i32⟩
  | 2 => ⟨S1200000, .f32⟩
  | 3 => ⟨S4x32x64, .f32⟩
  | 4 => ⟨S64, .f32⟩
  | 5 => ⟨S4x64x64, .f32⟩
  | 6 => ⟨S64, .f32⟩
  | 7 => ⟨S4x64x1, .f32⟩
  | 8 => ⟨S1x1200000, .i32⟩
  | 9 => ⟨S1200000, .i32⟩
  | 10 => ⟨S1x1200000, .i32⟩
  | 11 => ⟨S1200000, .i32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1, .i32⟩
  | 21 => ⟨S_, .i32⟩
  | 22 => ⟨S1200000x1, .i32⟩
  | 23 => ⟨S1200000x1, .i1⟩
  | 24 => ⟨S1x1, .i32⟩
  | 25 => ⟨S1200000x1, .i32⟩
  | 26 => ⟨S1200000x1, .i1⟩
  | 27 => ⟨S1200000x1, .i1⟩
  | 28 => ⟨S_, .i1⟩
  | 29 => ⟨S1200000, .i1⟩
  | 30 => ⟨S1200000x32, .f32⟩
  | 31 => ⟨S1200000x32, .i1⟩
  | 32 => ⟨S_, .f32⟩
  | 33 => ⟨S1200000x32, .f32⟩
  | 34 => ⟨S1200000x32, .f32⟩
  | 35 => ⟨S1200000x1, .f32⟩
  | 36 => ⟨S1200000x32, .f32⟩
  | 37 => ⟨S1200000x32, .f32⟩
  | 38 => ⟨S_, .f32⟩
  | 39 => ⟨S50000x32, .f32⟩
  | 40 => ⟨S1200000x1, .i32⟩
  | 41 => ⟨S50000x32, .f32⟩
  | 42 => ⟨S_, .i32⟩
  | 43 => ⟨S1200000, .i32⟩
  | 44 => ⟨S1200000, .i1⟩
  | 45 => ⟨S_, .i32⟩
  | 46 => ⟨S1200000, .i32⟩
  | 47 => ⟨S1200000, .i32⟩
  | 48 => ⟨S1200000, .i32⟩
  | 49 => ⟨S1200000x1, .i32⟩
  | 50 => ⟨S1, .i32⟩
  | 51 => ⟨S_, .i32⟩
  | 52 => ⟨S1200000x1, .i32⟩
  | 53 => ⟨S1200000x1, .i1⟩
  | 54 => ⟨S1x1, .i32⟩
  | 55 => ⟨S1200000x1, .i32⟩
  | 56 => ⟨S1200000x1, .i1⟩
  | 57 => ⟨S1200000x1, .i1⟩
  | 58 => ⟨S_, .i1⟩
  | 59 => ⟨S1200000, .i1⟩
  | 60 => ⟨S1200000x32, .f32⟩
  | 61 => ⟨S1200000x32, .i1⟩
  | 62 => ⟨S_, .f32⟩
  | 63 => ⟨S1200000x32, .f32⟩
  | 64 => ⟨S1200000x32, .f32⟩
  | 65 => ⟨S1200000x1, .f32⟩
  | 66 => ⟨S1200000x32, .f32⟩
  | 67 => ⟨S1200000x32, .f32⟩
  | 68 => ⟨S_, .f32⟩
  | 69 => ⟨S50000x32, .f32⟩
  | 70 => ⟨S1200000x1, .i32⟩
  | 71 => ⟨S50000x32, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1, .i32⟩
  | 81 => ⟨S_, .i32⟩
  | 82 => ⟨S1200000x1, .i32⟩
  | 83 => ⟨S1200000x1, .i1⟩
  | 84 => ⟨S1x1, .i32⟩
  | 85 => ⟨S1200000x1, .i32⟩
  | 86 => ⟨S1200000x1, .i1⟩
  | 87 => ⟨S1200000x1, .i1⟩
  | 88 => ⟨S_, .i1⟩
  | 89 => ⟨S1200000, .i1⟩
  | 90 => ⟨S1200000x32, .f32⟩
  | 91 => ⟨S1200000x32, .i1⟩
  | 92 => ⟨S_, .f32⟩
  | 93 => ⟨S1200000x32, .f32⟩
  | 94 => ⟨S1200000x32, .f32⟩
  | 95 => ⟨S1200000x1, .f32⟩
  | 96 => ⟨S1200000x32, .f32⟩
  | 97 => ⟨S1200000x32, .f32⟩
  | 98 => ⟨S_, .f32⟩
  | 99 => ⟨S50000x32, .f32⟩
  | 100 => ⟨S1200000x1, .i32⟩
  | 101 => ⟨S50000x32, .f32⟩
  | 102 => ⟨S1x50000x32, .f32⟩
  | 103 => ⟨S1x50000x32, .f32⟩
  | 104 => ⟨S1x50000x32, .f32⟩
  | 105 => ⟨S1x50000x32, .f32⟩
  | 106 => ⟨S4x50000x32, .f32⟩
  | 107 => ⟨S1x64, .f32⟩
  | 108 => ⟨S50000x64, .f32⟩
  | 109 => ⟨S_, .i32⟩
  | 110 => ⟨S1200000, .i32⟩
  | 111 => ⟨S1200000, .i1⟩
  | 112 => ⟨S_, .i32⟩
  | 113 => ⟨S1200000, .i32⟩
  | 114 => ⟨S1200000, .i32⟩
  | 115 => ⟨S1200000, .i32⟩
  | 116 => ⟨S1200000x1, .i32⟩
  | 117 => ⟨S1, .i32⟩
  | 118 => ⟨S_, .i32⟩
  | 119 => ⟨S1200000x1, .i32⟩
  | 120 => ⟨S1200000x1, .i1⟩
  | 121 => ⟨S1x1, .i32⟩
  | 122 => ⟨S1200000x1, .i32⟩
  | 123 => ⟨S1200000x1, .i1⟩
  | 124 => ⟨S1200000x1, .i1⟩
  | 125 => ⟨S_, .i1⟩
  | 126 => ⟨S1200000, .i1⟩
  | 127 => ⟨S1200000x64, .f32⟩
  | _ => ⟨S50000x32, .f32⟩

abbrev hbmTy0_1 (i : Nat) : BufTy := match i % 128 with
  | 0 => ⟨S1200000x64, .i1⟩
  | 1 => ⟨S_, .f32⟩
  | 2 => ⟨S1200000x64, .f32⟩
  | 3 => ⟨S1200000x64, .f32⟩
  | 4 => ⟨S1200000x1, .f32⟩
  | 5 => ⟨S1200000x64, .f32⟩
  | 6 => ⟨S1200000x64, .f32⟩
  | 7 => ⟨S_, .f32⟩
  | 8 => ⟨S50000x64, .f32⟩
  | 9 => ⟨S1200000x1, .i32⟩
  | 10 => ⟨S50000x64, .f32⟩
  | 11 => ⟨S_, .i32⟩
  | 12 => ⟨S1200000, .i32⟩
  | 13 => ⟨S1200000, .i1⟩
  | 14 => ⟨S_, .i32⟩
  | 15 => ⟨S1200000, .i32⟩
  | 16 => ⟨S1200000, .i32⟩
  | 17 => ⟨S1200000, .i32⟩
  | 18 => ⟨S1200000x1, .i32⟩
  | 19 => ⟨S1, .i32⟩
  | 20 => ⟨S_, .i32⟩
  | 21 => ⟨S1200000x1, .i32⟩
  | 22 => ⟨S1200000x1, .i1⟩
  | 23 => ⟨S1x1, .i32⟩
  | 24 => ⟨S1200000x1, .i32⟩
  | 25 => ⟨S1200000x1, .i1⟩
  | 26 => ⟨S1200000x1, .i1⟩
  | 27 => ⟨S_, .i1⟩
  | 28 => ⟨S1200000, .i1⟩
  | 29 => ⟨S1200000x64, .f32⟩
  | 30 => ⟨S1200000x64, .i1⟩
  | 31 => ⟨S_, .f32⟩
  | 32 => ⟨S1200000x64, .f32⟩
  | 33 => ⟨S1200000x64, .f32⟩
  | 34 => ⟨S1200000x1, .f32⟩
  | 35 => ⟨S1200000x64, .f32⟩
  | 36 => ⟨S1200000x64, .f32⟩
  | 37 => ⟨S_, .f32⟩
  | 38 => ⟨S50000x64, .f32⟩
  | 39 => ⟨S1200000x1, .i32⟩
  | 40 => ⟨S50000x64, .f32⟩
  | 41 => ⟨S_, .i32⟩
  | 42 => ⟨S1200000, .i32⟩
  | 43 => ⟨S1200000, .i1⟩
  | 44 => ⟨S_, .i32⟩
  | 45 => ⟨S1200000, .i32⟩
  | 46 => ⟨S1200000, .i32⟩
  | 47 => ⟨S1200000, .i32⟩
  | 48 => ⟨S1200000x1, .i32⟩
  | 49 => ⟨S1, .i32⟩
  | 50 => ⟨S_, .i32⟩
  | 51 => ⟨S1200000x1, .i32⟩
  | 52 => ⟨S1200000x1, .i1⟩
  | 53 => ⟨S1x1, .i32⟩
  | 54 => ⟨S1200000x1, .i32⟩
  | 55 => ⟨S1200000x1, .i1⟩
  | 56 => ⟨S1200000x1, .i1⟩
  | 57 => ⟨S_, .i1⟩
  | 58 => ⟨S1200000, .i1⟩
  | 59 => ⟨S1200000x64, .f32⟩
  | 60 => ⟨S1200000x64, .i1⟩
  | 61 => ⟨S_, .f32⟩
  | 62 => ⟨S1200000x64, .f32⟩
  | 63 => ⟨S1200000x64, .f32⟩
  | 64 => ⟨S1200000x1, .f32⟩
  | 65 => ⟨S1200000x64, .f32⟩
  | 66 => ⟨S1200000x64, .f32⟩
  | 67 => ⟨S_, .f32⟩
  | 68 => ⟨S50000x64, .f32⟩
  | 69 => ⟨S1200000x1, .i32⟩
  | 70 => ⟨S50000x64, .f32⟩
  | 71 => ⟨S1x50000x64, .f32⟩
  | 72 => ⟨S1x50000x64, .f32⟩
  | 73 => ⟨S1x50000x64, .f32⟩
  | 74 => ⟨S1x50000x64, .f32⟩
  | 75 => ⟨S4x50000x64, .f32⟩
  | 76 => ⟨S1x64, .f32⟩
  | 77 => ⟨S50000x64, .f32⟩
  | 78 => ⟨S_, .i32⟩
  | 79 => ⟨S1200000, .i32⟩
  | 80 => ⟨S1200000, .i1⟩
  | 81 => ⟨S_, .i32⟩
  | 82 => ⟨S1200000, .i32⟩
  | 83 => ⟨S1200000, .i32⟩
  | 84 => ⟨S1200000, .i32⟩
  | 85 => ⟨S1200000x1, .i32⟩
  | 86 => ⟨S1, .i32⟩
  | 87 => ⟨S_, .i32⟩
  | 88 => ⟨S1200000x1, .i32⟩
  | 89 => ⟨S1200000x1, .i1⟩
  | 90 => ⟨S1x1, .i32⟩
  | 91 => ⟨S1200000x1, .i32⟩
  | 92 => ⟨S1200000x1, .i1⟩
  | 93 => ⟨S1200000x1, .i1⟩
  | 94 => ⟨S_, .i1⟩
  | 95 => ⟨S1200000, .i1⟩
  | 96 => ⟨S1200000x64, .f32⟩
  | 97 => ⟨S1200000x64, .i1⟩
  | 98 => ⟨S_, .f32⟩
  | 99 => ⟨S1200000x64, .f32⟩
  | 100 => ⟨S1200000x64, .f32⟩
  | 101 => ⟨S1200000x1, .f32⟩
  | 102 => ⟨S1200000x64, .f32⟩
  | 103 => ⟨S1200000x64, .f32⟩
  | 104 => ⟨S_, .f32⟩
  | 105 => ⟨S50000x64, .f32⟩
  | 106 => ⟨S1200000x1, .i32⟩
  | 107 => ⟨S50000x64, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1, .i32⟩
  | 117 => ⟨S_, .i32⟩
  | 118 => ⟨S1200000x1, .i32⟩
  | 119 => ⟨S1200000x1, .i1⟩
  | 120 => ⟨S1x1, .i32⟩
  | 121 => ⟨S1200000x1, .i32⟩
  | 122 => ⟨S1200000x1, .i1⟩
  | 123 => ⟨S1200000x1, .i1⟩
  | 124 => ⟨S_, .i1⟩
  | 125 => ⟨S1200000, .i1⟩
  | 126 => ⟨S1200000x64, .f32⟩
  | 127 => ⟨S1200000x64, .i1⟩
  | _ => ⟨S50000x32, .f32⟩

abbrev hbmTy0_2 (i : Nat) : BufTy := match i % 128 with
  | 0 => ⟨S_, .f32⟩
  | 1 => ⟨S1200000x64, .f32⟩
  | 2 => ⟨S1200000x64, .f32⟩
  | 3 => ⟨S1200000x1, .f32⟩
  | 4 => ⟨S1200000x64, .f32⟩
  | 5 => ⟨S1200000x64, .f32⟩
  | 6 => ⟨S_, .f32⟩
  | 7 => ⟨S50000x64, .f32⟩
  | 8 => ⟨S1200000x1, .i32⟩
  | 9 => ⟨S50000x64, .f32⟩
  | 10 => ⟨S_, .i32⟩
  | 11 => ⟨S1200000, .i32⟩
  | 12 => ⟨S1200000, .i1⟩
  | 13 => ⟨S_, .i32⟩
  | 14 => ⟨S1200000, .i32⟩
  | 15 => ⟨S1200000, .i32⟩
  | 16 => ⟨S1200000, .i32⟩
  | 17 => ⟨S1200000x1, .i32⟩
  | 18 => ⟨S1, .i32⟩
  | 19 => ⟨S_, .i32⟩
  | 20 => ⟨S1200000x1, .i32⟩
  | 21 => ⟨S1200000x1, .i1⟩
  | 22 => ⟨S1x1, .i32⟩
  | 23 => ⟨S1200000x1, .i32⟩
  | 24 => ⟨S1200000x1, .i1⟩
  | 25 => ⟨S1200000x1, .i1⟩
  | 26 => ⟨S_, .i1⟩
  | 27 => ⟨S1200000, .i1⟩
  | 28 => ⟨S1200000x64, .f32⟩
  | 29 => ⟨S1200000x64, .i1⟩
  | 30 => ⟨S_, .f32⟩
  | 31 => ⟨S1200000x64, .f32⟩
  | 32 => ⟨S1200000x64, .f32⟩
  | 33 => ⟨S1200000x1, .f32⟩
  | 34 => ⟨S1200000x64, .f32⟩
  | 35 => ⟨S1200000x64, .f32⟩
  | 36 => ⟨S_, .f32⟩
  | 37 => ⟨S50000x64, .f32⟩
  | 38 => ⟨S1200000x1, .i32⟩
  | 39 => ⟨S50000x64, .f32⟩
  | 40 => ⟨S1x50000x64, .f32⟩
  | 41 => ⟨S1x50000x64, .f32⟩
  | 42 => ⟨S1x50000x64, .f32⟩
  | 43 => ⟨S1x50000x64, .f32⟩
  | 44 => ⟨S4x50000x64, .f32⟩
  | 45 => ⟨S_, .f32⟩
  | 46 => ⟨S1x1, .f32⟩
  | 47 => ⟨S50000x1, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | .local _ .vmem, ⟨0, _⟩ => ⟨S1x5000x32, .f32⟩
  | .local _ .vmem, ⟨1, _⟩ => ⟨S1x5000x32, .f32⟩
  | .local _ .vmem, ⟨2, _⟩ => ⟨S1x32x64, .f32⟩
  | .local _ .vmem, ⟨3, _⟩ => ⟨S1x32x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x5000x64, .f32⟩
  | .local _ .vmem, ⟨9, _⟩ => ⟨S1x5000x64, .f32⟩
  | .local _ .vmem, ⟨10, _⟩ => ⟨S1x64x64, .f32⟩
  | .local _ .vmem, ⟨11, _⟩ => ⟨S1x64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x5000x64, .f32⟩
  | .local _ .vmem, ⟨17, _⟩ => ⟨S1x5000x64, .f32⟩
  | .local _ .vmem, ⟨18, _⟩ => ⟨S1x64x1, .f32⟩
  | .local _ .vmem, ⟨19, _⟩ => ⟨S1x64x1, .f32⟩
  | .local _ .vmem, ⟨20, _⟩ => ⟨S1x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_0 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_cst_1 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v32 : Ref sig .tc := ⟨.hbm, 131, rfl⟩
abbrev main_v33 : Ref sig .tc := ⟨.hbm, 132, rfl⟩
abbrev main_v34 : Ref sig .tc := ⟨.hbm, 133, rfl⟩
abbrev main_v35 : Ref sig .tc := ⟨.hbm, 134, rfl⟩
abbrev main_cst_2 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_call4_c : Ref sig .tc := ⟨.hbm, 139, rfl⟩
abbrev main_call4_v0 : Ref sig .tc := ⟨.hbm, 140, rfl⟩
abbrev main_call4_v1 : Ref sig .tc := ⟨.hbm, 141, rfl⟩
abbrev main_call4_c_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_c_1 : Ref sig .tc := ⟨.hbm, 147, rfl⟩
abbrev main_call4_c_2 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_c_3 : Ref sig .tc := ⟨.hbm, 155, rfl⟩
abbrev main_call4_v12 : Ref sig .tc := ⟨.hbm, 156, rfl⟩
abbrev main_call4_v13 : Ref sig .tc := ⟨.hbm, 157, rfl⟩
abbrev main_call4_v14 : Ref sig .tc := ⟨.hbm, 158, rfl⟩
abbrev main_call4_cst : Ref sig .tc := ⟨.hbm, 159, rfl⟩
abbrev main_call4_v15 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_cst_3 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_call5_c : Ref sig .tc := ⟨.hbm, 169, rfl⟩
abbrev main_call5_v0 : Ref sig .tc := ⟨.hbm, 170, rfl⟩
abbrev main_call5_v1 : Ref sig .tc := ⟨.hbm, 171, rfl⟩
abbrev main_call5_c_0 : Ref sig .tc := ⟨.hbm, 172, rfl⟩
abbrev main_call5_v2 : Ref sig .tc := ⟨.hbm, 173, rfl⟩
abbrev main_call5_v3 : Ref sig .tc := ⟨.hbm, 174, rfl⟩
abbrev main_call5_v4 : Ref sig .tc := ⟨.hbm, 175, rfl⟩
abbrev main_call5_v5 : Ref sig .tc := ⟨.hbm, 176, rfl⟩
abbrev main_call5_c_1 : Ref sig .tc := ⟨.hbm, 177, rfl⟩
abbrev main_call5_c_2 : Ref sig .tc := ⟨.hbm, 178, rfl⟩
abbrev main_call5_v6 : Ref sig .tc := ⟨.hbm, 179, rfl⟩
abbrev main_call5_v7 : Ref sig .tc := ⟨.hbm, 180, rfl⟩
abbrev main_call5_v8 : Ref sig .tc := ⟨.hbm, 181, rfl⟩
abbrev main_call5_v9 : Ref sig .tc := ⟨.hbm, 182, rfl⟩
abbrev main_call5_v10 : Ref sig .tc := ⟨.hbm, 183, rfl⟩
abbrev main_call5_v11 : Ref sig .tc := ⟨.hbm, 184, rfl⟩
abbrev main_call5_c_3 : Ref sig .tc := ⟨.hbm, 185, rfl⟩
abbrev main_call5_v12 : Ref sig .tc := ⟨.hbm, 186, rfl⟩
abbrev main_call5_v13 : Ref sig .tc := ⟨.hbm, 187, rfl⟩
abbrev main_call5_v14 : Ref sig .tc := ⟨.hbm, 188, rfl⟩
abbrev main_call5_cst : Ref sig .tc := ⟨.hbm, 189, rfl⟩
abbrev main_call5_v15 : Ref sig .tc := ⟨.hbm, 190, rfl⟩
abbrev main_v46 : Ref sig .tc := ⟨.hbm, 191, rfl⟩
abbrev main_v47 : Ref sig .tc := ⟨.hbm, 192, rfl⟩
abbrev main_v48 : Ref sig .tc := ⟨.hbm, 193, rfl⟩
abbrev main_v49 : Ref sig .tc := ⟨.hbm, 194, rfl⟩
abbrev main_cst_4 : Ref sig .tc := ⟨.hbm, 195, rfl⟩
abbrev main_v50 : Ref sig .tc := ⟨.hbm, 196, rfl⟩
abbrev main_v51 : Ref sig .tc := ⟨.hbm, 197, rfl⟩
abbrev main_v52 : Ref sig .tc := ⟨.hbm, 198, rfl⟩
abbrev main_v53 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_v58 : Ref sig .tc := ⟨.hbm, 204, rfl⟩
abbrev main_v59 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_c_1 : Ref sig .tc := ⟨.hbm, 214, rfl⟩
abbrev main_call6_c_2 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_3 : Ref sig .tc := ⟨.hbm, 222, rfl⟩
abbrev main_call6_v12 : Ref sig .tc := ⟨.hbm, 223, rfl⟩
abbrev main_call6_v13 : Ref sig .tc := ⟨.hbm, 224, rfl⟩
abbrev main_call6_v14 : Ref sig .tc := ⟨.hbm, 225, rfl⟩
abbrev main_call6_cst : Ref sig .tc := ⟨.hbm, 226, rfl⟩
abbrev main_call6_v15 : Ref sig .tc := ⟨.hbm, 227, rfl⟩
abbrev main_v60 : Ref sig .tc := ⟨.hbm, 228, rfl⟩
abbrev main_v61 : Ref sig .tc := ⟨.hbm, 229, rfl⟩
abbrev main_v62 : Ref sig .tc := ⟨.hbm, 230, rfl⟩
abbrev main_v63 : Ref sig .tc := ⟨.hbm, 231, rfl⟩
abbrev main_cst_5 : Ref sig .tc := ⟨.hbm, 232, rfl⟩
abbrev main_v64 : Ref sig .tc := ⟨.hbm, 233, rfl⟩
abbrev main_v65 : Ref sig .tc := ⟨.hbm, 234, rfl⟩
abbrev main_v66 : Ref sig .tc := ⟨.hbm, 235, rfl⟩
abbrev main_call7_c : Ref sig .tc := ⟨.hbm, 236, rfl⟩
abbrev main_call7_v0 : Ref sig .tc := ⟨.hbm, 237, rfl⟩
abbrev main_call7_v1 : Ref sig .tc := ⟨.hbm, 238, rfl⟩
abbrev main_call7_c_0 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_call7_v5 : Ref sig .tc := ⟨.hbm, 243, rfl⟩
abbrev main_call7_c_1 : Ref sig .tc := ⟨.hbm, 244, rfl⟩
abbrev main_call7_c_2 : Ref sig .tc := ⟨.hbm, 245, rfl⟩
abbrev main_call7_v6 : Ref sig .tc := ⟨.hbm, 246, rfl⟩
abbrev main_call7_v7 : Ref sig .tc := ⟨.hbm, 247, rfl⟩
abbrev main_call7_v8 : Ref sig .tc := ⟨.hbm, 248, rfl⟩
abbrev main_call7_v9 : Ref sig .tc := ⟨.hbm, 249, rfl⟩
abbrev main_call7_v10 : Ref sig .tc := ⟨.hbm, 250, rfl⟩
abbrev main_call7_v11 : Ref sig .tc := ⟨.hbm, 251, rfl⟩
abbrev main_call7_c_3 : Ref sig .tc := ⟨.hbm, 252, rfl⟩
abbrev main_call7_v12 : Ref sig .tc := ⟨.hbm, 253, rfl⟩
abbrev main_call7_v13 : Ref sig .tc := ⟨.hbm, 254, rfl⟩
abbrev main_call7_v14 : Ref sig .tc := ⟨.hbm, 255, rfl⟩
abbrev main_call7_cst : Ref sig .tc := ⟨.hbm, 256, rfl⟩
abbrev main_call7_v15 : Ref sig .tc := ⟨.hbm, 257, rfl⟩
abbrev main_v67 : Ref sig .tc := ⟨.hbm, 258, rfl⟩
abbrev main_v68 : Ref sig .tc := ⟨.hbm, 259, rfl⟩
abbrev main_v69 : Ref sig .tc := ⟨.hbm, 260, rfl⟩
abbrev main_v70 : Ref sig .tc := ⟨.hbm, 261, rfl⟩
abbrev main_cst_6 : Ref sig .tc := ⟨.hbm, 262, rfl⟩
abbrev main_v71 : Ref sig .tc := ⟨.hbm, 263, rfl⟩
abbrev main_v72 : Ref sig .tc := ⟨.hbm, 264, rfl⟩
abbrev main_v73 : Ref sig .tc := ⟨.hbm, 265, rfl⟩
abbrev main_call8_c : Ref sig .tc := ⟨.hbm, 266, rfl⟩
abbrev main_call8_v0 : Ref sig .tc := ⟨.hbm, 267, rfl⟩
abbrev main_call8_v1 : Ref sig .tc := ⟨.hbm, 268, rfl⟩
abbrev main_call8_c_0 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_c_1 : Ref sig .tc := ⟨.hbm, 274, rfl⟩
abbrev main_call8_c_2 : Ref sig .tc := ⟨.hbm, 275, rfl⟩
abbrev main_call8_v6 : Ref sig .tc := ⟨.hbm, 276, rfl⟩
abbrev main_call8_v7 : Ref sig .tc := ⟨.hbm, 277, rfl⟩
abbrev main_call8_v8 : Ref sig .tc := ⟨.hbm, 278, rfl⟩
abbrev main_call8_v9 : Ref sig .tc := ⟨.hbm, 279, rfl⟩
abbrev main_call8_v10 : Ref sig .tc := ⟨.hbm, 280, rfl⟩
abbrev main_call8_v11 : Ref sig .tc := ⟨.hbm, 281, rfl⟩
abbrev main_call8_c_3 : Ref sig .tc := ⟨.hbm, 282, rfl⟩
abbrev main_call8_v12 : Ref sig .tc := ⟨.hbm, 283, rfl⟩
abbrev main_call8_v13 : Ref sig .tc := ⟨.hbm, 284, rfl⟩
abbrev main_call8_v14 : Ref sig .tc := ⟨.hbm, 285, rfl⟩
abbrev main_call8_cst : Ref sig .tc := ⟨.hbm, 286, rfl⟩
abbrev main_call8_v15 : Ref sig .tc := ⟨.hbm, 287, rfl⟩
abbrev main_v74 : Ref sig .tc := ⟨.hbm, 288, rfl⟩
abbrev main_v75 : Ref sig .tc := ⟨.hbm, 289, rfl⟩
abbrev main_v76 : Ref sig .tc := ⟨.hbm, 290, rfl⟩
abbrev main_v77 : Ref sig .tc := ⟨.hbm, 291, rfl⟩
abbrev main_cst_7 : Ref sig .tc := ⟨.hbm, 292, rfl⟩
abbrev main_v78 : Ref sig .tc := ⟨.hbm, 293, rfl⟩
abbrev main_v79 : Ref sig .tc := ⟨.hbm, 294, rfl⟩
abbrev main_v80 : Ref sig .tc := ⟨.hbm, 295, rfl⟩
abbrev main_v81 : Ref sig .tc := ⟨.hbm, 296, rfl⟩
abbrev main_v82 : Ref sig .tc := ⟨.hbm, 297, rfl⟩
abbrev main_v83 : Ref sig .tc := ⟨.hbm, 298, rfl⟩
abbrev main_v84 : Ref sig .tc := ⟨.hbm, 299, rfl⟩
abbrev main_v85 : Ref sig .tc := ⟨.hbm, 300, rfl⟩
abbrev main_cst_8 : Ref sig .tc := ⟨.hbm, 301, rfl⟩
abbrev main_v86 : Ref sig .tc := ⟨.hbm, 302, rfl⟩
abbrev main_v87 : Ref sig .tc := ⟨.hbm, 303, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![10, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![10, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![10, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x32_0 : S1200000.BroadcastsInDim S1200000x32 (![0] : Fin 1 → Fin S1200000x32.rank)
  bcast_S_S1200000x32 : S_.BroadcastsInDim S1200000x32 (![] : Fin 0 → Fin S1200000x32.rank)
  bcast_S1200000x1_S1200000x32_0_1 : S1200000x1.BroadcastsInDim S1200000x32 (![0, 1] : Fin 2 → Fin S1200000x32.rank)
  bcast_S_S50000x32 : S_.BroadcastsInDim S50000x32 (![] : Fin 0 → Fin S50000x32.rank)
  bcast_S50000x32_S1x50000x32_1_2 : S50000x32.BroadcastsInDim S1x50000x32 (![1, 2] : Fin 2 → Fin S1x50000x32.rank)
  concatenates_S1x50000x32_S1x50000x32_S1x50000x32_S1x50000x32_S4x50000x32_d0 : Shape.Concatenates [S1x50000x32, S1x50000x32, S1x50000x32, S1x50000x32] S4x50000x32 0
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x5000x32_S1x5000x32_0_0_0 : ∀ a, (![0, 0, 0] : Fin 3 → Nat) a + S1x5000x32.size a ≤ S1x5000x32.size a
  h_S1x5000x32 : 0 < S1x5000x32.numel
  shapeCasts_S1x5000x32_S5000x32 : S1x5000x32.ShapeCasts S5000x32
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  bcast_S1200000x1_S1200000x64_0_1 : S1200000x1.BroadcastsInDim S1200000x64 (![0, 1] : Fin 2 → Fin S1200000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S4x50000x64_d0 : Shape.Concatenates [S1x50000x64, S1x50000x64, S1x50000x64, S1x50000x64] S4x50000x64 0
  inb_S1x5000x64_S1x5000x64_0_0_0 : ∀ a, (![0, 0, 0] : Fin 3 → Nat) a + S1x5000x64.size a ≤ S1x5000x64.size a
  h_S1x5000x64 : 0 < S1x5000x64.numel
  shapeCasts_S1x5000x64_S5000x64 : S1x5000x64.ShapeCasts S5000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  bcast_S_S1x1 : S_.BroadcastsInDim S1x1 (![] : Fin 0 → Fin S1x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S50000x32_S1200000x1_S1200000x32_1_0_n_n_0_1_132_wf : GatherDims.WF S50000x32 S1200000x1 S1200000x32 [1] [0] [] [0] [] 1 ![1, 32]
  scatter_S50000x32_S1200000x1_S1200000x32_1_0_0_1_wf : ScatterDims.WF S50000x32 S1200000x1 S1200000x32 [1] [0] [0] 1
  dot_S5000x32_S32x64_S5000x64_1_0_0_1_n_n_wf : DotDims.WF S5000x32 S32x64 S5000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x32.size a ≤ S4x50000x32.size a
  hwx0_0 : ∀ i : grid0.Coords, EltTy.bits .f32 = 32 ∨ (Rect.block (s := S4x50000x32) S1x5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64.size a ≤ S4x32x64.size a
  hwx0_1 : ∀ i : grid0.Coords, EltTy.bits .f32 = 32 ∨ (Rect.block (s := S4x32x64) S1x32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x5000x64.size a ≤ S4x50000x64.size a
  hwx1_0 : ∀ i : grid1.Coords, EltTy.bits .f32 = 32 ∨ (Rect.block (s := S4x50000x64) S1x5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S4x64x64.size a
  hwx1_1 : ∀ i : grid1.Coords, EltTy.bits .f32 = 32 ∨ (Rect.block (s := S4x64x64) S1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5000x64.size a ≤ S4x50000x64.size a
  hwx2_0 : ∀ i : grid2.Coords, EltTy.bits .f32 = 32 ∨ (Rect.block (s := S4x50000x64) S1x5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1.size a ≤ S4x64x1.size a
  hwx2_1 : ∀ i : grid2.Coords, EltTy.bits .f32 = 32 ∨ (Rect.block (s := S4x64x1) S1x64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)

variable [Facts₀]

def gather_S50000x32_S1200000x1_S1200000x32_1_0_n_n_0_1_132 : GatherDims S50000x32 S1200000x1 S1200000x32 where
  offsetDims := [1]
  collapsedSliceDims := [0]
  operandBatchingDims := []
  startIndicesBatchingDims := []
  startIndexMap := [0]
  indexVectorDim := 1
  sliceSizes := ![1, 32]
  wf := gather_S50000x32_S1200000x1_S1200000x32_1_0_n_n_0_1_132_wf
def scatter_S50000x32_S1200000x1_S1200000x32_1_0_0_1 : ScatterDims S50000x32 S1200000x1 S1200000x32 where
  updateWindowDims := [1]
  insertedWindowDims := [0]
  scatterDimsToOperandDims := [0]
  indexVectorDim := 1
  wf := scatter_S50000x32_S1200000x1_S1200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v29) S1x5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v57) S1x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v85) S1x5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1x64x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x32 : Shape := ⟨2, ![50000, 32]⟩
abbrev S2x1200000 : Shape := ⟨2, ![2, 1200000]⟩
abbrev S1200000 : Shape := ⟨1, ![1200000]⟩
abbrev S4x32x64 : Shape := ⟨3, ![4, 32, 64]⟩
abbrev S64 : Shape := ⟨1, ![64]⟩
abbrev S4x64x64 : Shape := ⟨3, ![4, 64, 64]⟩
abbrev S4x64x1 : Shape := ⟨3, ![4, 64, 1]⟩
abbrev S1x1200000 : Shape := ⟨2, ![1, 1200000]⟩
abbrev S1x32x64 : Shape := ⟨3, ![1, 32, 64]⟩
abbrev S32x64 : Shape := ⟨2, ![32, 64]⟩
abbrev S50000x64 : Shape := ⟨2, ![50000, 64]⟩
abbrev S_ : Shape := ⟨0, ![]⟩
abbrev S1200000x1 : Shape := ⟨2, ![1200000, 1]⟩
abbrev S1200000x32 : Shape := ⟨2, ![1200000, 32]⟩
abbrev S1x64 : Shape := ⟨2, ![1, 64]⟩
abbrev S1x64x64 : Shape := ⟨3, ![1, 64, 64]⟩
abbrev S64x64 : Shape := ⟨2, ![64, 64]⟩
abbrev S1200000x64 : Shape := ⟨2, ![1200000, 64]⟩
abbrev S1x64x1 : Shape := ⟨3, ![1, 64, 1]⟩
abbrev S64x1 : Shape := ⟨2, ![64, 1]⟩
abbrev S50000x1 : Shape := ⟨2, ![50000, 1]⟩

abbrev nBuf : Space → Nat
  | .hbm => 223
  | .vmem => 0
  | .smem => 0
  | _ => 0

abbrev hbmTy0_0 (i : Nat) : BufTy := match i % 128 with
  | 0 => ⟨S50000x32, .f32⟩
  | 1 => ⟨S2x1200000, .i32⟩
  | 2 => ⟨S1200000, .f32⟩
  | 3 => ⟨S4x32x64, .f32⟩
  | 4 => ⟨S64, .f32⟩
  | 5 => ⟨S4x64x64, .f32⟩
  | 6 => ⟨S64, .f32⟩
  | 7 => ⟨S4x64x1, .f32⟩
  | 8 => ⟨S1x1200000, .i32⟩
  | 9 => ⟨S1200000, .i32⟩
  | 10 => ⟨S1x1200000, .i32⟩
  | 11 => ⟨S1200000, .i32⟩
  | 12 => ⟨S1x32x64, .f32⟩
  | 13 => ⟨S32x64, .f32⟩
  | 14 => ⟨S50000x64, .f32⟩
  | 15 => ⟨S_, .i32⟩
  | 16 => ⟨S1200000, .i32⟩
  | 17 => ⟨S1200000, .i1⟩
  | 18 => ⟨S_, .i32⟩
  | 19 => ⟨S1200000, .i32⟩
  | 20 => ⟨S1200000, .i32⟩
  | 21 => ⟨S1200000, .i32⟩
  | 22 => ⟨S1200000x1, .i32⟩
  | 23 => ⟨S1200000x32, .f32⟩
  | 24 => ⟨S1200000x1, .f32⟩
  | 25 => ⟨S1200000x32, .f32⟩
  | 26 => ⟨S1200000x32, .f32⟩
  | 27 => ⟨S_, .f32⟩
  | 28 => ⟨S50000x32, .f32⟩
  | 29 => ⟨S1200000x1, .i32⟩
  | 30 => ⟨S50000x32, .f32⟩
  | 31 => ⟨S1x32x64, .f32⟩
  | 32 => ⟨S32x64, .f32⟩
  | 33 => ⟨S50000x64, .f32⟩
  | 34 => ⟨S50000x64, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000x32, .f32⟩
  | 44 => ⟨S1200000x1, .f32⟩
  | 45 => ⟨S1200000x32, .f32⟩
  | 46 => ⟨S1200000x32, .f32⟩
  | 47 => ⟨S_, .f32⟩
  | 48 => ⟨S50000x32, .f32⟩
  | 49 => ⟨S1200000x1, .i32⟩
  | 50 => ⟨S50000x32, .f32⟩
  | 51 => ⟨S1x32x64, .f32⟩
  | 52 => ⟨S32x64, .f32⟩
  | 53 => ⟨S50000x64, .f32⟩
  | 54 => ⟨S50000x64, .f32⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x32, .f32⟩
  | 64 => ⟨S1200000x1, .f32⟩
  | 65 => ⟨S1200000x32, .f32⟩
  | 66 => ⟨S1200000x32, .f32⟩
  | 67 => ⟨S_, .f32⟩
  | 68 => ⟨S50000x32, .f32⟩
  | 69 => ⟨S1200000x1, .i32⟩
  | 70 => ⟨S50000x32, .f32⟩
  | 71 => ⟨S1x32x64, .f32⟩
  | 72 => ⟨S32x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S_, .f32⟩
  | 80 => ⟨S50000x64, .f32⟩
  | 81 => ⟨S50000x64, .i1⟩
  | 82 => ⟨S_, .f32⟩
  | 83 => ⟨S50000x64, .f32⟩
  | 84 => ⟨S50000x64, .f32⟩
  | 85 => ⟨S50000x64, .f32⟩
  | 86 => ⟨S1x64x64, .f32⟩
  | 87 => ⟨S64x64, .f32⟩
  | 88 => ⟨S50000x64, .f32⟩
  | 89 => ⟨S_, .i32⟩
  | 90 => ⟨S1200000, .i32⟩
  | 91 => ⟨S1200000, .i1⟩
  | 92 => ⟨S_, .i32⟩
  | 93 => ⟨S1200000, .i32⟩
  | 94 => ⟨S1200000, .i32⟩
  | 95 => ⟨S1200000, .i32⟩
  | 96 => ⟨S1200000x1, .i32⟩
  | 97 => ⟨S1200000x64, .f32⟩
  | 98 => ⟨S1200000x1, .f32⟩
  | 99 => ⟨S1200000x64, .f32⟩
  | 100 => ⟨S1200000x64, .f32⟩
  | 101 => ⟨S_, .f32⟩
  | 102 => ⟨S50000x64, .f32⟩
  | 103 => ⟨S1200000x1, .i32⟩
  | 104 => ⟨S50000x64, .f32⟩
  | 105 => ⟨S1x64x64, .f32⟩
  | 106 => ⟨S64x64, .f32⟩
  | 107 => ⟨S50000x64, .f32⟩
  | 108 => ⟨S50000x64, .f32⟩
  | 109 => ⟨S_, .i32⟩
  | 110 => ⟨S1200000, .i32⟩
  | 111 => ⟨S1200000, .i1⟩
  | 112 => ⟨S_, .i32⟩
  | 113 => ⟨S1200000, .i32⟩
  | 114 => ⟨S1200000, .i32⟩
  | 115 => ⟨S1200000, .i32⟩
  | 116 => ⟨S1200000x1, .i32⟩
  | 117 => ⟨S1200000x64, .f32⟩
  | 118 => ⟨S1200000x1, .f32⟩
  | 119 => ⟨S1200000x64, .f32⟩
  | 120 => ⟨S1200000x64, .f32⟩
  | 121 => ⟨S_, .f32⟩
  | 122 => ⟨S50000x64, .f32⟩
  | 123 => ⟨S1200000x1, .i32⟩
  | 124 => ⟨S50000x64, .f32⟩
  | 125 => ⟨S1x64x64, .f32⟩
  | 126 => ⟨S64x64, .f32⟩
  | 127 => ⟨S50000x64, .f32⟩
  | _ => ⟨S50000x32, .f32⟩

abbrev hbmTy0_1 (i : Nat) : BufTy := match i % 128 with
  | 0 => ⟨S50000x64, .f32⟩
  | 1 => ⟨S_, .i32⟩
  | 2 => ⟨S1200000, .i32⟩
  | 3 => ⟨S1200000, .i1⟩
  | 4 => ⟨S_, .i32⟩
  | 5 => ⟨S1200000, .i32⟩
  | 6 => ⟨S1200000, .i32⟩
  | 7 => ⟨S1200000, .i32⟩
  | 8 => ⟨S1200000x1, .i32⟩
  | 9 => ⟨S1200000x64, .f32⟩
  | 10 => ⟨S1200000x1, .f32⟩
  | 11 => ⟨S1200000x64, .f32⟩
  | 12 => ⟨S1200000x64, .f32⟩
  | 13 => ⟨S_, .f32⟩
  | 14 => ⟨S50000x64, .f32⟩
  | 15 => ⟨S1200000x1, .i32⟩
  | 16 => ⟨S50000x64, .f32⟩
  | 17 => ⟨S1x64x64, .f32⟩
  | 18 => ⟨S64x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S_, .f32⟩
  | 26 => ⟨S50000x64, .f32⟩
  | 27 => ⟨S50000x64, .i1⟩
  | 28 => ⟨S_, .f32⟩
  | 29 => ⟨S50000x64, .f32⟩
  | 30 => ⟨S50000x64, .f32⟩
  | 31 => ⟨S50000x64, .f32⟩
  | 32 => ⟨S1x64x1, .f32⟩
  | 33 => ⟨S64x1, .f32⟩
  | 34 => ⟨S50000x1, .f32⟩
  | 35 => ⟨S_, .i32⟩
  | 36 => ⟨S1200000, .i32⟩
  | 37 => ⟨S1200000, .i1⟩
  | 38 => ⟨S_, .i32⟩
  | 39 => ⟨S1200000, .i32⟩
  | 40 => ⟨S1200000, .i32⟩
  | 41 => ⟨S1200000, .i32⟩
  | 42 => ⟨S1200000x1, .i32⟩
  | 43 => ⟨S1200000x64, .f32⟩
  | 44 => ⟨S1200000x1, .f32⟩
  | 45 => ⟨S1200000x64, .f32⟩
  | 46 => ⟨S1200000x64, .f32⟩
  | 47 => ⟨S_, .f32⟩
  | 48 => ⟨S50000x64, .f32⟩
  | 49 => ⟨S1200000x1, .i32⟩
  | 50 => ⟨S50000x64, .f32⟩
  | 51 => ⟨S1x64x1, .f32⟩
  | 52 => ⟨S64x1, .f32⟩
  | 53 => ⟨S50000x1, .f32⟩
  | 54 => ⟨S50000x1, .f32⟩
  | 55 => ⟨S_, .i32⟩
  | 56 => ⟨S1200000, .i32⟩
  | 57 => ⟨S1200000, .i1⟩
  | 58 => ⟨S_, .i32⟩
  | 59 => ⟨S1200000, .i32⟩
  | 60 => ⟨S1200000, .i32⟩
  | 61 => ⟨S1200000, .i32⟩
  | 62 => ⟨S1200000x1, .i32⟩
  | 63 => ⟨S1200000x64, .f32⟩
  | 64 => ⟨S1200000x1, .f32⟩
  | 65 => ⟨S1200000x64, .f32⟩
  | 66 => ⟨S1200000x64, .f32⟩
  | 67 => ⟨S_, .f32⟩
  | 68 => ⟨S50000x64, .f32⟩
  | 69 => ⟨S1200000x1, .i32⟩
  | 70 => ⟨S50000x64, .f32⟩
  | 71 => ⟨S1x64x1, .f32⟩
  | 72 => ⟨S64x1, .f32⟩
  | 73 => ⟨S50000x1, .f32⟩
  | 74 => ⟨S50000x1, .f32⟩
  | 75 => ⟨S_, .i32⟩
  | 76 => ⟨S1200000, .i32⟩
  | 77 => ⟨S1200000, .i1⟩
  | 78 => ⟨S_, .i32⟩
  | 79 => ⟨S1200000, .i32⟩
  | 80 => ⟨S1200000, .i32⟩
  | 81 => ⟨S1200000, .i32⟩
  | 82 => ⟨S1200000x1, .i32⟩
  | 83 => ⟨S1200000x64, .f32⟩
  | 84 => ⟨S1200000x1, .f32⟩
  | 85 => ⟨S1200000x64, .f32⟩
  | 86 => ⟨S1200000x64, .f32⟩
  | 87 => ⟨S_, .f32⟩
  | 88 => ⟨S50000x64, .f32⟩
  | 89 => ⟨S1200000x1, .i32⟩
  | 90 => ⟨S50000x64, .f32⟩
  | 91 => ⟨S1x64x1, .f32⟩
  | 92 => ⟨S64x1, .f32⟩
  | 93 => ⟨S50000x1, .f32⟩
  | 94 => ⟨S50000x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_8 : Ref sig .tc := ⟨.hbm, 89, rfl⟩
abbrev main_v65 : Ref sig .tc := ⟨.hbm, 90, rfl⟩
abbrev main_v66 : Ref sig .tc := ⟨.hbm, 91, rfl⟩
abbrev main_c_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_11 : Ref sig .tc := ⟨.hbm, 109, rfl⟩
abbrev main_v82 : Ref sig .tc := ⟨.hbm, 110, rfl⟩
abbrev main_v83 : Ref sig .tc := ⟨.hbm, 111, rfl⟩
abbrev main_c_12 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_14 : Ref sig .tc := ⟨.hbm, 129, rfl⟩
abbrev main_v99 : Ref sig .tc := ⟨.hbm, 130, rfl⟩
abbrev main_v100 : Ref sig .tc := ⟨.hbm, 131, rfl⟩
abbrev main_c_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_17 : Ref sig .tc := ⟨.hbm, 152, rfl⟩
abbrev main_call1_cst : Ref sig .tc := ⟨.hbm, 153, rfl⟩
abbrev main_call1_v0 : Ref sig .tc := ⟨.hbm, 154, rfl⟩
abbrev main_call1_v1 : Ref sig .tc := ⟨.hbm, 155, rfl⟩
abbrev main_call1_v2 : Ref sig .tc := ⟨.hbm, 156, rfl⟩
abbrev main_call1_v3 : Ref sig .tc := ⟨.hbm, 157, rfl⟩
abbrev main_call1_v4 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_c_18 : Ref sig .tc := ⟨.hbm, 163, rfl⟩
abbrev main_v123 : Ref sig .tc := ⟨.hbm, 164, rfl⟩
abbrev main_v124 : Ref sig .tc := ⟨.hbm, 165, rfl⟩
abbrev main_c_19 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_20 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_21 : Ref sig .tc := ⟨.hbm, 183, rfl⟩
abbrev main_v140 : Ref sig .tc := ⟨.hbm, 184, rfl⟩
abbrev main_v141 : Ref sig .tc := ⟨.hbm, 185, rfl⟩
abbrev main_c_22 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_23 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_c_24 : Ref sig .tc := ⟨.hbm, 203, rfl⟩
abbrev main_v157 : Ref sig .tc := ⟨.hbm, 204, rfl⟩
abbrev main_v158 : Ref sig .tc := ⟨.hbm, 205, rfl⟩
abbrev main_c_25 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_26 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S4x32x64_S1x32x64_0_0_0 : S4x32x64.Slices ![0, 0, 0] S1x32x64
  shapeCasts_S1x32x64_S32x64 : S1x32x64.ShapeCasts S32x64
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x32_0_1 : S1200000x1.BroadcastsInDim S1200000x32 (![0, 1] : Fin 2 → Fin S1200000x32.rank)
  bcast_S_S50000x32 : S_.BroadcastsInDim S50000x32 (![] : Fin 0 → Fin S50000x32.rank)
  slices_S4x32x64_S1x32x64_1_0_0 : S4x32x64.Slices ![1, 0, 0] S1x32x64
  slices_S4x32x64_S1x32x64_2_0_0 : S4x32x64.Slices ![2, 0, 0] S1x32x64
  slices_S4x32x64_S1x32x64_3_0_0 : S4x32x64.Slices ![3, 0, 0] S1x32x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S4x64x64_S1x64x64_0_0_0 : S4x64x64.Slices ![0, 0, 0] S1x64x64
  shapeCasts_S1x64x64_S64x64 : S1x64x64.ShapeCasts S64x64
  bcast_S1200000x1_S1200000x64_0_1 : S1200000x1.BroadcastsInDim S1200000x64 (![0, 1] : Fin 2 → Fin S1200000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  slices_S4x64x1_S1x64x1_0_0_0 : S4x64x1.Slices ![0, 0, 0] S1x64x1
  shapeCasts_S1x64x1_S64x1 : S1x64x1.ShapeCasts S64x1
  slices_S4x64x1_S1x64x1_1_0_0 : S4x64x1.Slices ![1, 0, 0] S1x64x1
  slices_S4x64x1_S1x64x1_2_0_0 : S4x64x1.Slices ![2, 0, 0] S1x64x1
  slices_S4x64x1_S1x64x1_3_0_0 : S4x64x1.Slices ![3, 0, 0] S1x64x1
  dot_S50000x32_S32x64_S50000x64_1_0_0_1_n_n_wf : DotDims.WF S50000x32 S32x64 S50000x64 [1] [0] [0] [1] [] []
  gather_S50000x32_S1200000x1_S1200000x32_1_0_n_n_0_1_132_wf : GatherDims.WF S50000x32 S1200000x1 S1200000x32 [1] [0] [] [0] [] 1 ![1, 32]
  scatter_S50000x32_S1200000x1_S1200000x32_1_0_0_1_wf : ScatterDims.WF S50000x32 S1200000x1 S1200000x32 [1] [0] [0] 1
  dot_S50000x64_S64x64_S50000x64_1_0_0_1_n_n_wf : DotDims.WF S50000x64 S64x64 S50000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  dot_S50000x64_S64x1_S50000x1_1_0_0_1_n_n_wf : DotDims.WF S50000x64 S64x1 S50000x1 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x32_S1200000x1_S1200000x32_1_0_n_n_0_1_132 : GatherDims S50000x32 S1200000x1 S1200000x32 where
  offsetDims := [1]
  collapsedSliceDims := [0]
  operandBatchingDims := []
  startIndicesBatchingDims := []
  startIndexMap := [0]
  indexVectorDim := 1
  sliceSizes := ![1, 32]
  wf := gather_S50000x32_S1200000x1_S1200000x32_1_0_n_n_0_1_132_wf
def scatter_S50000x32_S1200000x1_S1200000x32_1_0_0_1 : ScatterDims S50000x32 S1200000x1 S1200000x32 where
  updateWindowDims := [1]
  insertedWindowDims := [0]
  scatterDimsToOperandDims := [0]
  indexVectorDim := 1
  wf := scatter_S50000x32_S1200000x1_S1200000x32_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.K.Reg0.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.Kernel.Launch
import proofs.«401537_j29600914604721_1_alg».proof.Proof.Gen.Kernel.Skeleton
import proofs.«401537_j29600914604721_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block, the weight block and the bias row at point `t`, at their literal types. -/
abbrev hblk (c : Dev nD) (t : Fin cfg0.N) : Vec F S1x5000x32 .f32 := iblk V c 0 t
abbrev wblk (c : Dev nD) (t : Fin cfg0.N) : Vec F S1x32x64 .f32 := iblk V c 1 t
abbrev bblk (c : Dev nD) (t : Fin cfg0.N) : Vec F S1x64 .f32 := iblk V c 2 t

/-! ## The accumulator, point by point -/

/-- What the scratch accumulator holds after the body at position `n`: at a hop-0 point the product added to
    zeros, elsewhere the product added to what the point before left. -/
def accAt (c : Dev nD) : (n : ℕ) → n < cfg0.N → Vec F S5000x64 .f32
  | 0, hn => Gen.k0_pay2 (Gen.k0_pay1 (F := F)) (hblk V c ⟨0, hn⟩) (wblk V c ⟨0, hn⟩)
  | n + 1, hn =>
    if (n + 1) % 4 = 0 then
      Gen.k0_pay2 (Gen.k0_pay1 (F := F)) (hblk V c ⟨n + 1, hn⟩) (wblk V c ⟨n + 1, hn⟩)
    else
      Gen.k0_pay2 (accAt c n (Nat.lt_of_succ_lt hn)) (hblk V c ⟨n + 1, hn⟩) (wblk V c ⟨n + 1, hn⟩)

theorem accAt_first (c : Dev nD) (t : Fin cfg0.N) (h : t.val % 4 = 0) :
    accAt V c t.val t.isLt = Gen.k0_pay2 (Gen.k0_pay1 (F := F)) (hblk V c t) (wblk V c t) := by
  obtain ⟨n, hn⟩ := t
  cases n with
  | zero => rfl
  | succ n => exact if_pos h

theorem accAt_next (c : Dev nD) (t : Fin cfg0.N) (h : ¬ t.val % 4 = 0) :
    accAt V c t.val t.isLt = Gen.k0_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg0.N) : Vec F S5000x64 .f32 := Gen.k0_pay3 (accAt V c t.val t.isLt) (bblk V c t)

/-! ## The body's two conditions -/

/-- The condition of the body's first conditional (the accumulator is zeroed), from the grid coordinates. -/
abbrev cond1 (i : grid0.Coords) : Prop := (Scalar.cmpi .ne (Scalar.extui (Scalar.cmpi .eq (BitVec.ofNat 32 (i 1).val) 0#32)) 0#32) = 1#1
/-- It holds at the points of hop 0. -/
theorem hcond1 : ∀ t : Fin cfg0.N, cond1 (grid0.coords t) ↔ t.val % 4 = 0 :=
  (by decide +kernel : ∀ t : Fin grid0.N, cond1 (grid0.coords t) ↔ t.val % 4 = 0)

/-- The condition of the body's second conditional (the output block is stored), from the grid coordinates. -/
abbrev cond2 (i : grid0.Coords) : Prop := k0_cond2 i = 1#1
/-- It holds at the points of hop 3. -/
theorem hcond2 : ∀ t : Fin cfg0.N, cond2 (grid0.coords t) ↔ t.val % 4 = 3 :=
  (by decide +kernel : ∀ t : Fin grid0.N, cond2 (grid0.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : cond1 i) (hc2 : ¬cond2 i)
    (x0 : Vec F S1x5000x32 .f32) (x1 : Vec F S1x32x64 .f32) (x2 : Vec F S1x64 .f32) (x3 : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (k0_pay1 (F := F)) x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

set_option maxHeartbeats 1000000 in
/-- The body at a hop-1 or hop-2 point: the accumulator at what the point before left; it leaves the accumulator
    at the product added to that. -/
theorem run_B (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : ¬cond2 i)
    (x0 : Vec F S1x5000x32 .f32) (x1 : Vec F S1x32x64 .f32) (x2 : Vec F S1x64 .f32) (x3 : Vec F S5000x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : cond2 i)
    (x0 : Vec F S1x5000x32 .f32) (x1 : Vec F S1x32x64 .f32) (x2 : Vec F S1x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x64_S5000x64_0_0 y⟩)]
    rw [View.canon_cons_unit_zero hz2]
    simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

/-! ## The region invariant -/

/-- The scratch accumulator as a memref: a whole scoped buffer of the kernel's own. -/
abbrev scM : Memref sig .tc .vmem S5000x64 .f32 := Memref.whole cc0_scratch0

/-- Each window's current staging memref at point `t`, spelled as the pipeline passes it, and its wholeness. -/
abbrev ms0 (t : Fin cfg0.N) : Memref sig .tc .vmem S1x5000x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x64 .f32 := win0_3.stage (cfg0.slots t 3)
abbrev hs3 (t : Fin cfg0.N) : (ms3 t).IsWhole := hstage0_3 ((cfg0.slots t 3).cast nbuf0_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec0 c [cc0_scratch0]

/-- The launch's invariant with the accumulator split off as a memref owned at some contents. -/
theorem PhiA_eq (c : Dev nD) :
    (Pipeline.ΦA spec0 c : sProp 𝕄)
      = iprop(iprop((∃ d, owns (c : Thread nD τ) scM fullShare d) ∗ restS (F := F) c) ∗ (∃ r, prngReg c r)) := by
  unfold Pipeline.ΦA
  rw [Pipeline.scopedRest_split_of_list spec0 c [cc0_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem PhiS_castSucc (c : Dev nD) (t : Fin cfg0.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
/-- Off hop 3 the output window is idle and is not written back; at hop 3 it is live. -/
theorem idleAt3 : ∀ t : Fin cfg0.N, ¬cond2 (grid0.coords t) → cfg0.idle 3 (grid0.coords t) = true := by decide +kernel
theorem noFlush3 : ∀ t : Fin cfg0.N, ¬cond2 (grid0.coords t) → (cfg0.win 3).flush t = false := by decide +kernel
theorem liveAt3 : ∀ t : Fin cfg0.N, cond2 (grid0.coords t) → cfg0.idle 3 (grid0.coords t) = false := by decide +kernel

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg0.N = 40 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid0.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 40 := N_0; omega)

end Cert.Kernel.Reg0

end
-- ==== Proof.K.Reg1.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.Kernel.Launch
import proofs.«401537_j29600914604721_1_alg».proof.Proof.Gen.Kernel.Skeleton
import proofs.«401537_j29600914604721_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block, the weight block and the bias row at point `t`, at their literal types. -/
abbrev hblk (c : Dev nD) (t : Fin cfg1.N) : Vec F S1x5000x64 .f32 := iblk V c 0 t
abbrev wblk (c : Dev nD) (t : Fin cfg1.N) : Vec F S1x64x64 .f32 := iblk V c 1 t
abbrev bblk (c : Dev nD) (t : Fin cfg1.N) : Vec F S1x64 .f32 := iblk V c 2 t

/-! ## The accumulator, point by point -/

/-- What the scratch accumulator holds after the body at position `n`: at a hop-0 point the product added to
    zeros, elsewhere the product added to what the point before left. -/
def accAt (c : Dev nD) : (n : ℕ) → n < cfg1.N → Vec F S5000x64 .f32
  | 0, hn => Gen.k1_pay2 (Gen.k1_pay1 (F := F)) (hblk V c ⟨0, hn⟩) (wblk V c ⟨0, hn⟩)
  | n + 1, hn =>
    if (n + 1) % 4 = 0 then
      Gen.k1_pay2 (Gen.k1_pay1 (F := F)) (hblk V c ⟨n + 1, hn⟩) (wblk V c ⟨n + 1, hn⟩)
    else
      Gen.k1_pay2 (accAt c n (Nat.lt_of_succ_lt hn)) (hblk V c ⟨n + 1, hn⟩) (wblk V c ⟨n + 1, hn⟩)

theorem accAt_first (c : Dev nD) (t : Fin cfg1.N) (h : t.val % 4 = 0) :
    accAt V c t.val t.isLt = Gen.k1_pay2 (Gen.k1_pay1 (F := F)) (hblk V c t) (wblk V c t) := by
  obtain ⟨n, hn⟩ := t
  cases n with
  | zero => rfl
  | succ n => exact if_pos h

theorem accAt_next (c : Dev nD) (t : Fin cfg1.N) (h : ¬ t.val % 4 = 0) :
    accAt V c t.val t.isLt = Gen.k1_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg1.N) : Vec F S5000x64 .f32 := Gen.k1_pay3 (accAt V c t.val t.isLt) (bblk V c t)

/-! ## The body's two conditions -/

/-- The condition of the body's first conditional (the accumulator is zeroed), from the grid coordinates. -/
abbrev cond1 (i : grid1.Coords) : Prop := (Scalar.cmpi .ne (Scalar.extui (Scalar.cmpi .eq (BitVec.ofNat 32 (i 1).val) 0#32)) 0#32) = 1#1
/-- It holds at the points of hop 0. -/
theorem hcond1 : ∀ t : Fin cfg1.N, cond1 (grid1.coords t) ↔ t.val % 4 = 0 :=
  (by decide +kernel : ∀ t : Fin grid1.N, cond1 (grid1.coords t) ↔ t.val % 4 = 0)

/-- The condition of the body's second conditional (the output block is stored), from the grid coordinates. -/
abbrev cond2 (i : grid1.Coords) : Prop := k1_cond2 i = 1#1
/-- It holds at the points of hop 3. -/
theorem hcond2 : ∀ t : Fin cfg1.N, cond2 (grid1.coords t) ↔ t.val % 4 = 3 :=
  (by decide +kernel : ∀ t : Fin grid1.N, cond2 (grid1.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : cond1 i) (hc2 : ¬cond2 i)
    (x0 : Vec F S1x5000x64 .f32) (x1 : Vec F S1x64x64 .f32) (x2 : Vec F S1x64 .f32) (x3 : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 (k1_pay1 (F := F)) x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

set_option maxHeartbeats 1000000 in
/-- The body at a hop-1 or hop-2 point: the accumulator at what the point before left; it leaves the accumulator
    at the product added to that. -/
theorem run_B (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : ¬cond2 i)
    (x0 : Vec F S1x5000x64 .f32) (x1 : Vec F S1x64x64 .f32) (x2 : Vec F S1x64 .f32) (x3 : Vec F S5000x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : cond2 i)
    (x0 : Vec F S1x5000x64 .f32) (x1 : Vec F S1x64x64 .f32) (x2 : Vec F S1x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x64_S5000x64_0_0 y⟩)]
    rw [View.canon_cons_unit_zero hz2]
    simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

/-! ## The region invariant -/

/-- The scratch accumulator as a memref: a whole scoped buffer of the kernel's own. -/
abbrev scM : Memref sig .tc .vmem S5000x64 .f32 := Memref.whole cc1_scratch0

/-- Each window's current staging memref at point `t`, spelled as the pipeline passes it, and its wholeness. -/
abbrev ms0 (t : Fin cfg1.N) : Memref sig .tc .vmem S1x5000x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x64x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S5000x64 .f32 := win1_3.stage (cfg1.slots t 3)
abbrev hs3 (t : Fin cfg1.N) : (ms3 t).IsWhole := hstage1_3 ((cfg1.slots t 3).cast nbuf1_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec1 c [cc1_scratch0]

/-- The launch's invariant with the accumulator split off as a memref owned at some contents. -/
theorem PhiA_eq (c : Dev nD) :
    (Pipeline.ΦA spec1 c : sProp 𝕄)
      = iprop(iprop((∃ d, owns (c : Thread nD τ) scM fullShare d) ∗ restS (F := F) c) ∗ (∃ r, prngReg c r)) := by
  unfold Pipeline.ΦA
  rw [Pipeline.scopedRest_split_of_list spec1 c [cc1_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restS (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem PhiS_castSucc (c : Dev nD) (t : Fin cfg1.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
/-- Off hop 3 the output window is idle and is not written back; at hop 3 it is live. -/
theorem idleAt3 : ∀ t : Fin cfg1.N, ¬cond2 (grid1.coords t) → cfg1.idle 3 (grid1.coords t) = true := by decide +kernel
theorem noFlush3 : ∀ t : Fin cfg1.N, ¬cond2 (grid1.coords t) → (cfg1.win 3).flush t = false := by decide +kernel
theorem liveAt3 : ∀ t : Fin cfg1.N, cond2 (grid1.coords t) → cfg1.idle 3 (grid1.coords t) = false := by decide +kernel

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg1.N = 40 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid1.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid1.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid1.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid1.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 40 := N_1; omega)

end Cert.Kernel.Reg1

end
-- ==== Proof.K.Reg2.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.Kernel.Launch
import proofs.«401537_j29600914604721_1_alg».proof.Proof.Gen.Kernel.Skeleton
import proofs.«401537_j29600914604721_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block, the weight block and the bias row at point `t`, at their literal types. -/
abbrev hblk (c : Dev nD) (t : Fin cfg2.N) : Vec F S1x5000x64 .f32 := iblk V c 0 t
abbrev wblk (c : Dev nD) (t : Fin cfg2.N) : Vec F S1x64x1 .f32 := iblk V c 1 t
abbrev bblk (c : Dev nD) (t : Fin cfg2.N) : Vec F S1x1 .f32 := iblk V c 2 t

/-! ## The accumulator, point by point -/

/-- What the scratch accumulator holds after the body at position `n`: at a hop-0 point the product added to
    zeros, elsewhere the product added to what the point before left. -/
def accAt (c : Dev nD) : (n : ℕ) → n < cfg2.N → Vec F S5000x1 .f32
  | 0, hn => Gen.k2_pay2 (Gen.k2_pay1 (F := F)) (hblk V c ⟨0, hn⟩) (wblk V c ⟨0, hn⟩)
  | n + 1, hn =>
    if (n + 1) % 4 = 0 then
      Gen.k2_pay2 (Gen.k2_pay1 (F := F)) (hblk V c ⟨n + 1, hn⟩) (wblk V c ⟨n + 1, hn⟩)
    else
      Gen.k2_pay2 (accAt c n (Nat.lt_of_succ_lt hn)) (hblk V c ⟨n + 1, hn⟩) (wblk V c ⟨n + 1, hn⟩)

theorem accAt_first (c : Dev nD) (t : Fin cfg2.N) (h : t.val % 4 = 0) :
    accAt V c t.val t.isLt = Gen.k2_pay2 (Gen.k2_pay1 (F := F)) (hblk V c t) (wblk V c t) := by
  obtain ⟨n, hn⟩ := t
  cases n with
  | zero => rfl
  | succ n => exact if_pos h

theorem accAt_next (c : Dev nD) (t : Fin cfg2.N) (h : ¬ t.val % 4 = 0) :
    accAt V c t.val t.isLt = Gen.k2_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg2.N) : Vec F S5000x1 .f32 := Gen.k2_pay3 (accAt V c t.val t.isLt) (bblk V c t)

/-! ## The body's two conditions -/

/-- The condition of the body's first conditional (the accumulator is zeroed), from the grid coordinates. -/
abbrev cond1 (i : grid2.Coords) : Prop := (Scalar.cmpi .ne (Scalar.extui (Scalar.cmpi .eq (BitVec.ofNat 32 (i 1).val) 0#32)) 0#32) = 1#1
/-- It holds at the points of hop 0. -/
theorem hcond1 : ∀ t : Fin cfg2.N, cond1 (grid2.coords t) ↔ t.val % 4 = 0 :=
  (by decide +kernel : ∀ t : Fin grid2.N, cond1 (grid2.coords t) ↔ t.val % 4 = 0)

/-- The condition of the body's second conditional (the output block is stored), from the grid coordinates. -/
abbrev cond2 (i : grid2.Coords) : Prop := k2_cond2 i = 1#1
/-- It holds at the points of hop 3. -/
theorem hcond2 : ∀ t : Fin cfg2.N, cond2 (grid2.coords t) ↔ t.val % 4 = 3 :=
  (by decide +kernel : ∀ t : Fin grid2.N, cond2 (grid2.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : cond1 i) (hc2 : ¬cond2 i)
    (x0 : Vec F S1x5000x64 .f32) (x1 : Vec F S1x64x1 .f32) (x2 : Vec F S1x1 .f32) (x3 : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 (k2_pay1 (F := F)) x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

set_option maxHeartbeats 1000000 in
/-- The body at a hop-1 or hop-2 point: the accumulator at what the point before left; it leaves the accumulator
    at the product added to that. -/
theorem run_B (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : ¬cond1 i) (hc2 : ¬cond2 i)
    (x0 : Vec F S1x5000x64 .f32) (x1 : Vec F S1x64x1 .f32) (x2 : Vec F S1x1 .f32) (x3 : Vec F S5000x1 .f32) (xs : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 xs x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : ¬cond1 i) (hc2 : cond2 i)
    (x0 : Vec F S1x5000x64 .f32) (x1 : Vec F S1x64x1 .f32) (x2 : Vec F S1x1 .f32) (xs : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1) x2) ∗ owns (c : Thread nD τ) arg6 fullShare (k2_pay2 xs x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x1_S5000x1_0_0 y⟩)]
    rw [View.canon_cons_unit_zero hz2]
    simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

/-! ## The region invariant -/

/-- The scratch accumulator as a memref: a whole scoped buffer of the kernel's own. -/
abbrev scM : Memref sig .tc .vmem S5000x1 .f32 := Memref.whole cc2_scratch0

/-- Each window's current staging memref at point `t`, spelled as the pipeline passes it, and its wholeness. -/
abbrev ms0 (t : Fin cfg2.N) : Memref sig .tc .vmem S1x5000x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x64x1 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S5000x1 .f32 := win2_3.stage (cfg2.slots t 3)
abbrev hs3 (t : Fin cfg2.N) : (ms3 t).IsWhole := hstage2_3 ((cfg2.slots t 3).cast nbuf2_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec2 c [cc2_scratch0]

/-- The launch's invariant with the accumulator split off as a memref owned at some contents. -/
theorem PhiA_eq (c : Dev nD) :
    (Pipeline.ΦA spec2 c : sProp 𝕄)
      = iprop(iprop((∃ d, owns (c : Thread nD τ) scM fullShare d) ∗ restS (F := F) c) ∗ (∃ r, prngReg c r)) := by
  unfold Pipeline.ΦA
  rw [Pipeline.scopedRest_split_of_list spec2 c [cc2_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg2.N → sProp 𝕄
  | 0, _ => Pipeline.ΦA spec2 c
  | n + 1, hn => iprop(iprop(owns (c : Thread nD τ) scM fullShare (accAt V c n hn) ∗ restS (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg2.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outAt V c t := by dsimp only [dat]

theorem PhiS_castSucc (c : Dev nD) (t : Fin cfg2.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
/-- Off hop 3 the output window is idle and is not written back; at hop 3 it is live. -/
theorem idleAt3 : ∀ t : Fin cfg2.N, ¬cond2 (grid2.coords t) → cfg2.idle 3 (grid2.coords t) = true := by decide +kernel
theorem noFlush3 : ∀ t : Fin cfg2.N, ¬cond2 (grid2.coords t) → (cfg2.win 3).flush t = false := by decide +kernel
theorem liveAt3 : ∀ t : Fin cfg2.N, cond2 (grid2.coords t) → cfg2.idle 3 (grid2.coords t) = false := by decide +kernel

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg2.N = 40 from N_2)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid2.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid2.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid2.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid2.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant's two ends -/

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg2.N) ⊢ Pipeline.ΦA spec2 c :=
  Phi_out V c _ (by rw [Fin.val_last]; have : cfg2.N = 40 := N_2; omega)

end Cert.Kernel.Reg2

end
-- ==== Proof.K.Asm.lean ====
/-
  The frame of the program's three kernel regions, assembled.

  Between two items of @main every unscoped buffer of a core is held whole at a named valuation: the launch memory, then
  each host stretch applied, then, after a kernel region, that region's output array at what its pipeline leaves (the
  write-backs of the region's proof data folded over the grid) and every other buffer as the region found it.  Each
  region is entered from the valuation before it: its four window arrays are split out of the unscoped buffers, the
  region's invariant takes the scoped buffers and the generator register, and at the exit the arrays are put back.  No
  core owes another anything, and no kernel has a semaphore of its own.
-/
import proofs.«401537_j29600914604721_1_alg».proof.Proof.Gen.Kernel.Regions
import proofs.«401537_j29600914604721_1_alg».proof.Proof.K.Reg0
import proofs.«401537_j29600914604721_1_alg».proof.Proof.K.Reg1
import proofs.«401537_j29600914604721_1_alg».proof.Proof.K.Reg2
import Idealize.ShloMosaic.Lib.Pipeline.RegionsLoop
import Idealize.ShloMosaic.Lib.Pipeline.FrameSuffix

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) :=
  fun c b => W c b

/-! ## What the regions leave -/

/-- After region 0: its arrays at what the pipeline leaves, every other buffer as entered. -/
def W8 (c : Dev nD) : Valuation τ sig (Elt F) :=
  Pipeline.withArrays spec0 c (V7 m c) fun w => (Reg0.dat (rd (V7 m)) c).arrAt w cfg0.N
/-- The regions' contents with region 0's named. -/
def outsA : Outs (F := F) := fun _ r c => W8 m c r
/-- After region 1. -/
def W15 (c : Dev nD) : Valuation τ sig (Elt F) :=
  Pipeline.withArrays spec1 c (V14 m (outsA m) c) fun w => (Reg1.dat (rd (V14 m (outsA m))) c).arrAt w cfg1.N
/-- The regions' contents with regions 0 and 1 named. -/
def outsB : Outs (F := F) := fun J r c => if J = 8 then W8 m c r else W15 m c r
/-- After region 2. -/
def W22 (c : Dev nD) : Valuation τ sig (Elt F) :=
  Pipeline.withArrays spec2 c (V21 m (outsB m) c) fun w => (Reg2.dat (rd (V21 m (outsB m))) c).arrAt w cfg2.N
/-- What each region leaves in the buffer it may change. -/
def outs : Outs (F := F) := fun J r c => if J = 8 then W8 m c r else if J = 15 then W15 m c r else W22 m c r

theorem outs_8 (r : Ref sig .tc) (c : Dev nD) : outs m 8 r c = W8 m c r := rfl
theorem outs_15 (r : Ref sig .tc) (c : Dev nD) : outs m 15 r c = W15 m c r := rfl
theorem outs_22 (r : Ref sig .tc) (c : Dev nD) : outs m 22 r c = W22 m c r := rfl

/-- The valuations before regions 1 and 2 read the regions' contents only at the regions before them. -/
theorem V8_outs (c : Dev nD) : V8 m (outs m) c = V8 m (outsA m) c := rfl
theorem V14_outs (c : Dev nD) : V14 m (outs m) c = V14 m (outsA m) c := by
  unfold V14 V13 V12 V11 V10 V9; rw [V8_outs]
theorem V15_outs (c : Dev nD) : V15 m (outs m) c = V15 m (outsB m) c := by
  unfold V15; rw [V14_outs m c, show V14 m (outsB m) c = V14 m (outsA m) c from by unfold V14 V13 V12 V11 V10 V9; rfl]; rfl
theorem V21_outs (c : Dev nD) : V21 m (outs m) c = V21 m (outsB m) c := by
  unfold V21 V20 V19 V18 V17 V16; rw [V15_outs]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Reg0.dat (rd (V7 m)) c
  | ⟨1, _⟩ => fun c => Reg1.dat (rd (V14 m (outsA m))) c
  | ⟨2, _⟩ => fun c => Reg2.dat (rd (V21 m (outsB m))) c

/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input its entry contents, the output
    the folded write-backs. -/
theorem hF0 (c : Dev nD) : ∀ w : Fin cfg0.W, (pdats m 0 c).arrAt w cfg0.N = rd (V8 m (outs m)) c (Pipeline.arrRef spec0 w)
  | ⟨0, _⟩ => ((pdats m 0 c).arrAt_in 0 rfl _).trans ((Reg0.A_eq _ c 0).trans ((V8_of m (outs m) c main_v29 (by decide)).symm))
  | ⟨1, _⟩ => ((pdats m 0 c).arrAt_in 1 rfl _).trans ((Reg0.A_eq _ c 1).trans ((V8_of m (outs m) c main_arg3 (by decide)).symm))
  | ⟨2, _⟩ => ((pdats m 0 c).arrAt_in 2 rfl _).trans ((Reg0.A_eq _ c 2).trans ((V8_of m (outs m) c main_v30 (by decide)).symm))
  | ⟨3, _⟩ => (Pipeline.withArrays_arr spec0 launch0.win.arr_inj c _ _ 3).symm.trans (by
      show W8 m c main_v31 = V8 m (outs m) c main_v31
      unfold V8; rw [Function.update_self]; rfl)
/-- Every other buffer is as the region found it. -/
theorem hrest0 (c : Dev nD) : ∀ b, b ∉ Finset.univ.image (Pipeline.arrRef spec0) → rd (V8 m (outs m)) c b = rd (V7 m) c b :=
  fun b hb => V8_of m (outs m) c b (fun h => hb (by
    rw [List.mem_singleton] at h; subst h; exact Finset.mem_image.mpr ⟨3, Finset.mem_univ _, rfl⟩))

set_option backward.isDefEq.respectTransparency.types false in
/-- Region 0 over the thread state "every unscoped buffer held, the generator register, nothing owed". -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation _ c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V7 m) c) (fun w => Reg0.A_eq _ c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (Reg0.hin _ c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Reg0.hout _ c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V7 m) c) (rd (V8 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The proof data's entry valuation is the one the chain arrives with. -/
theorem Vin1_eq (c : Dev nD) : V14 m (outs m) c = V14 m (outsA m) c := V14_outs m c

/-- At region 1's exit each of its arrays holds what the pipeline leaves: an input its entry contents, the output
    the folded write-backs. -/
theorem hF1 (c : Dev nD) : ∀ w : Fin cfg1.W, (pdats m 1 c).arrAt w cfg1.N = rd (V15 m (outs m)) c (Pipeline.arrRef spec1 w)
  | ⟨0, _⟩ => ((pdats m 1 c).arrAt_in 0 rfl _).trans ((Reg1.A_eq _ c 0).trans ((congrFun (Vin1_eq m c) _).symm.trans (V15_of m (outs m) c main_v57 (by decide)).symm))
  | ⟨1, _⟩ => ((pdats m 1 c).arrAt_in 1 rfl _).trans ((Reg1.A_eq _ c 1).trans ((congrFun (Vin1_eq m c) _).symm.trans (V15_of m (outs m) c main_arg5 (by decide)).symm))
  | ⟨2, _⟩ => ((pdats m 1 c).arrAt_in 2 rfl _).trans ((Reg1.A_eq _ c 2).trans ((congrFun (Vin1_eq m c) _).symm.trans (V15_of m (outs m) c main_v58 (by decide)).symm))
  | ⟨3, _⟩ => (Pipeline.withArrays_arr spec1 launch1.win.arr_inj c _ _ 3).symm.trans (by
      show W15 m c main_v59 = V15 m (outs m) c main_v59
      unfold V15; rw [Function.update_self]; rfl)
/-- Every other buffer is as the region found it. -/
theorem hrest1 (c : Dev nD) : ∀ b, b ∉ Finset.univ.image (Pipeline.arrRef spec1) → rd (V15 m (outs m)) c b = rd (V14 m (outs m)) c b :=
  fun b hb => V15_of m (outs m) c b (fun h => hb (by
    rw [List.mem_singleton] at h; subst h; exact Finset.mem_image.mpr ⟨3, Finset.mem_univ _, rfl⟩))

set_option backward.isDefEq.respectTransparency.types false in
/-- Region 1 over the thread state "every unscoped buffer held, the generator register, nothing owed". -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Reg1.body_obligation _ c).loose
  hwaits := Pipeline.hwaits_of_owed_zero _ _ _ _ L lv 1 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V14 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V14 m (outs m)) c) (fun w => (Reg1.A_eq _ c w).trans (congrFun (Vin1_eq m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (Reg1.hin _ c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (Reg1.hout _ c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V14 m (outs m)) c) (rd (V15 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The proof data's entry valuation is the one the chain arrives with. -/
theorem Vin2_eq (c : Dev nD) : V21 m (outs m) c = V21 m (outsB m) c := V21_outs m c

/-- At region 2's exit each of its arrays holds what the pipeline leaves: an input its entry contents, the output
    the folded write-backs. -/
theorem hF2 (c : Dev nD) : ∀ w : Fin cfg2.W, (pdats m 2 c).arrAt w cfg2.N = rd (V22 m (outs m)) c (Pipeline.arrRef spec2 w)
  | ⟨0, _⟩ => ((pdats m 2 c).arrAt_in 0 rfl _).trans ((Reg2.A_eq _ c 0).trans ((congrFun (Vin2_eq m c) _).symm.trans (V22_of m (outs m) c main_v85 (by decide)).symm))
  | ⟨1, _⟩ => ((pdats m 2 c).arrAt_in 1 rfl _).trans ((Reg2.A_eq _ c 1).trans ((congrFun (Vin2_eq m c) _).symm.trans (V22_of m (outs m) c main_arg7 (by decide)).symm))
  | ⟨2, _⟩ => ((pdats m 2 c).arrAt_in 2 rfl _).trans ((Reg2.A_eq _ c 2).trans ((congrFun (Vin2_eq m c) _).symm.trans (V22_of m (outs m) c main_v86 (by decide)).symm))
  | ⟨3, _⟩ => (Pipeline.withArrays_arr spec2 launch2.win.arr_inj c _ _ 3).symm.trans (by
      show W22 m c main_v87 = V22 m (outs m) c main_v87
      unfold V22; rw [Function.update_self]; rfl)
/-- Every other buffer is as the region found it. -/
theorem hrest2 (c : Dev nD) : ∀ b, b ∉ Finset.univ.image (Pipeline.arrRef spec2) → rd (V22 m (outs m)) c b = rd (V21 m (outs m)) c b :=
  fun b hb => V22_of m (outs m) c b (fun h => hb (by
    rw [List.mem_singleton] at h; subst h; exact Finset.mem_image.mpr ⟨3, Finset.mem_univ _, rfl⟩))

set_option backward.isDefEq.respectTransparency.types false in
/-- Region 2 over the thread state "every unscoped buffer held, the generator register, nothing owed". -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation _ c).loose
  hwaits := Pipeline.hwaits_of_owed_zero _ _ _ _ L lv 2 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V21 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V21 m (outs m)) c) (fun w => (Reg2.A_eq _ c w).trans (congrFun (Vin2_eq m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (Reg2.hin _ c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (Reg2.hout _ c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V21 m (outs m)) c) (rd (V22 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (emb₁ (A := UR sig nD τ)) () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun _ => .rfl) (fun _ => .rfl)
    (reg1 m) (fun _ => .rfl) (fun _ => .rfl)
    (reg2 m) (fun _ => .rfl) (fun _ => .rfl)

end Cert.Kernel.Asm

end
-- ==== Proof.KI.Reg0.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.KernelIdeal.Launch
import proofs.«401537_j29600914604721_1_alg».proof.Proof.Gen.KernelIdeal.Skeleton
import proofs.«401537_j29600914604721_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block, the weight block and the bias row at point `t`, at their literal types. -/
abbrev hblk (c : Dev nD) (t : Fin cfg0.N) : Vec F S1x5000x32 .f32 := iblk V c 0 t
abbrev wblk (c : Dev nD) (t : Fin cfg0.N) : Vec F S1x32x64 .f32 := iblk V c 1 t
abbrev bblk (c : Dev nD) (t : Fin cfg0.N) : Vec F S1x64 .f32 := iblk V c 2 t

/-! ## The accumulator, point by point -/

/-- What the scratch accumulator holds after the body at position `n`: at a hop-0 point the product added to
    zeros, elsewhere the product added to what the point before left. -/
def accAt (c : Dev nD) : (n : ℕ) → n < cfg0.N → Vec F S5000x64 .f32
  | 0, hn => Gen.k0_pay2 (Gen.k0_pay1 (F := F)) (hblk V c ⟨0, hn⟩) (wblk V c ⟨0, hn⟩)
  | n + 1, hn =>
    if (n + 1) % 4 = 0 then
      Gen.k0_pay2 (Gen.k0_pay1 (F := F)) (hblk V c ⟨n + 1, hn⟩) (wblk V c ⟨n + 1, hn⟩)
    else
      Gen.k0_pay2 (accAt c n (Nat.lt_of_succ_lt hn)) (hblk V c ⟨n + 1, hn⟩) (wblk V c ⟨n + 1, hn⟩)

theorem accAt_first (c : Dev nD) (t : Fin cfg0.N) (h : t.val % 4 = 0) :
    accAt V c t.val t.isLt = Gen.k0_pay2 (Gen.k0_pay1 (F := F)) (hblk V c t) (wblk V c t) := by
  obtain ⟨n, hn⟩ := t
  cases n with
  | zero => rfl
  | succ n => exact if_pos h

theorem accAt_next (c : Dev nD) (t : Fin cfg0.N) (h : ¬ t.val % 4 = 0) :
    accAt V c t.val t.isLt = Gen.k0_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg0.N) : Vec F S5000x64 .f32 := Gen.k0_pay3 (accAt V c t.val t.isLt) (bblk V c t)

/-! ## The body's two conditions -/

/-- The condition of the body's first conditional (the accumulator is zeroed), from the grid coordinates. -/
abbrev cond1 (i : grid0.Coords) : Prop := (Scalar.cmpi .ne (Scalar.extui (Scalar.cmpi .eq (BitVec.ofNat 32 (i 1).val) 0#32)) 0#32) = 1#1
/-- It holds at the points of hop 0. -/
theorem hcond1 : ∀ t : Fin cfg0.N, cond1 (grid0.coords t) ↔ t.val % 4 = 0 :=
  (by decide +kernel : ∀ t : Fin grid0.N, cond1 (grid0.coords t) ↔ t.val % 4 = 0)

/-- The condition of the body's second conditional (the output block is stored), from the grid coordinates. -/
abbrev cond2 (i : grid0.Coords) : Prop := k0_cond2 i = 1#1
/-- It holds at the points of hop 3. -/
theorem hcond2 : ∀ t : Fin cfg0.N, cond2 (grid0.coords t) ↔ t.val % 4 = 3 :=
  (by decide +kernel : ∀ t : Fin grid0.N, cond2 (grid0.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : cond1 i) (hc2 : ¬cond2 i)
    (x0 : Vec F S1x5000x32 .f32) (x1 : Vec F S1x32x64 .f32) (x2 : Vec F S1x64 .f32) (x3 : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 (k0_pay1 (F := F)) x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

set_option maxHeartbeats 1000000 in
/-- The body at a hop-1 or hop-2 point: the accumulator at what the point before left; it leaves the accumulator
    at the product added to that. -/
theorem run_B (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : ¬cond2 i)
    (x0 : Vec F S1x5000x32 .f32) (x1 : Vec F S1x32x64 .f32) (x2 : Vec F S1x64 .f32) (x3 : Vec F S5000x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid0.Coords)
    (arg2 : Memref sig .tc .vmem S1x5000x32 .f32) (harg2 : arg2.IsWhole) (arg3 : Memref sig .tc .vmem S1x32x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : cond2 i)
    (x0 : Vec F S1x5000x32 .f32) (x1 : Vec F S1x32x64 .f32) (x2 : Vec F S1x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x32.rank → Nat) = fun _ => 0 := by funext a; fin_cases a <;> rfl
  have hz3b : (![0, 0, 0] : Fin S1x32x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x64_S5000x64_0_0 y⟩)]
    rw [View.canon_cons_unit_zero hz2]
    simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x32) hz3a, View.ld_unit_zero (S := S1x32x64) hz3b, View.ld_unit_zero (S := S1x64) hz2b, View.ld_unit_zero (S := S5000x64) hz2, View.readCov_unit_zero (S := S5000x64) _ hz2]

/-! ## The region invariant -/

/-- The scratch accumulator as a memref: a whole scoped buffer of the kernel's own. -/
abbrev scM : Memref sig .tc .vmem S5000x64 .f32 := Memref.whole cc0_scratch0

/-- Each window's current staging memref at point `t`, spelled as the pipeline passes it, and its wholeness. -/
abbrev ms0 (t : Fin cfg0.N) : Memref sig .tc .vmem S1x5000x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x32x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5000x64 .f32 := win0_3.stage (cfg0.slots t 3)
abbrev hs3 (t : Fin cfg0.N) : (ms3 t).IsWhole := hstage0_3 ((cfg0.slots t 3).cast nbuf0_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec0 c [cc0_scratch0]

/-- The launch's invariant with the accumulator split off as a memref owned at some contents. -/
theorem PhiA_eq (c : Dev nD) :
    (Pipeline.ΦA spec0 c : sProp 𝕄)
      = iprop(iprop((∃ d, owns (c : Thread nD τ) scM fullShare d) ∗ restS (F := F) c) ∗ (∃ r, prngReg c r)) := by
  unfold Pipeline.ΦA
  rw [Pipeline.scopedRest_split_of_list spec0 c [cc0_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = outAt V c t := by dsimp only [dat]

theorem PhiS_castSucc (c : Dev nD) (t : Fin cfg0.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
/-- Off hop 3 the output window is idle and is not written back; at hop 3 it is live. -/
theorem idleAt3 : ∀ t : Fin cfg0.N, ¬cond2 (grid0.coords t) → cfg0.idle 3 (grid0.coords t) = true := by decide +kernel
theorem noFlush3 : ∀ t : Fin cfg0.N, ¬cond2 (grid0.coords t) → (cfg0.win 3).flush t = false := by decide +kernel
theorem liveAt3 : ∀ t : Fin cfg0.N, cond2 (grid0.coords t) → cfg0.idle 3 (grid0.coords t) = false := by decide +kernel

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg0.N = 40 from N_0)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid0.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid0.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid0.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant's two ends -/

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 40 := N_0; omega)

end Cert.KernelIdeal.Reg0

end
-- ==== Proof.KI.Reg1.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.KernelIdeal.Launch
import proofs.«401537_j29600914604721_1_alg».proof.Proof.Gen.KernelIdeal.Skeleton
import proofs.«401537_j29600914604721_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block, the weight block and the bias row at point `t`, at their literal types. -/
abbrev hblk (c : Dev nD) (t : Fin cfg1.N) : Vec F S1x5000x64 .f32 := iblk V c 0 t
abbrev wblk (c : Dev nD) (t : Fin cfg1.N) : Vec F S1x64x64 .f32 := iblk V c 1 t
abbrev bblk (c : Dev nD) (t : Fin cfg1.N) : Vec F S1x64 .f32 := iblk V c 2 t

/-! ## The accumulator, point by point -/

/-- What the scratch accumulator holds after the body at position `n`: at a hop-0 point the product added to
    zeros, elsewhere the product added to what the point before left. -/
def accAt (c : Dev nD) : (n : ℕ) → n < cfg1.N → Vec F S5000x64 .f32
  | 0, hn => Gen.k1_pay2 (Gen.k1_pay1 (F := F)) (hblk V c ⟨0, hn⟩) (wblk V c ⟨0, hn⟩)
  | n + 1, hn =>
    if (n + 1) % 4 = 0 then
      Gen.k1_pay2 (Gen.k1_pay1 (F := F)) (hblk V c ⟨n + 1, hn⟩) (wblk V c ⟨n + 1, hn⟩)
    else
      Gen.k1_pay2 (accAt c n (Nat.lt_of_succ_lt hn)) (hblk V c ⟨n + 1, hn⟩) (wblk V c ⟨n + 1, hn⟩)

theorem accAt_first (c : Dev nD) (t : Fin cfg1.N) (h : t.val % 4 = 0) :
    accAt V c t.val t.isLt = Gen.k1_pay2 (Gen.k1_pay1 (F := F)) (hblk V c t) (wblk V c t) := by
  obtain ⟨n, hn⟩ := t
  cases n with
  | zero => rfl
  | succ n => exact if_pos h

theorem accAt_next (c : Dev nD) (t : Fin cfg1.N) (h : ¬ t.val % 4 = 0) :
    accAt V c t.val t.isLt = Gen.k1_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg1.N) : Vec F S5000x64 .f32 := Gen.k1_pay3 (accAt V c t.val t.isLt) (bblk V c t)

/-! ## The body's two conditions -/

/-- The condition of the body's first conditional (the accumulator is zeroed), from the grid coordinates. -/
abbrev cond1 (i : grid1.Coords) : Prop := (Scalar.cmpi .ne (Scalar.extui (Scalar.cmpi .eq (BitVec.ofNat 32 (i 1).val) 0#32)) 0#32) = 1#1
/-- It holds at the points of hop 0. -/
theorem hcond1 : ∀ t : Fin cfg1.N, cond1 (grid1.coords t) ↔ t.val % 4 = 0 :=
  (by decide +kernel : ∀ t : Fin grid1.N, cond1 (grid1.coords t) ↔ t.val % 4 = 0)

/-- The condition of the body's second conditional (the output block is stored), from the grid coordinates. -/
abbrev cond2 (i : grid1.Coords) : Prop := k1_cond2 i = 1#1
/-- It holds at the points of hop 3. -/
theorem hcond2 : ∀ t : Fin cfg1.N, cond2 (grid1.coords t) ↔ t.val % 4 = 3 :=
  (by decide +kernel : ∀ t : Fin grid1.N, cond2 (grid1.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : cond1 i) (hc2 : ¬cond2 i)
    (x0 : Vec F S1x5000x64 .f32) (x1 : Vec F S1x64x64 .f32) (x2 : Vec F S1x64 .f32) (x3 : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 (k1_pay1 (F := F)) x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

set_option maxHeartbeats 1000000 in
/-- The body at a hop-1 or hop-2 point: the accumulator at what the point before left; it leaves the accumulator
    at the product added to that. -/
theorem run_B (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : ¬cond2 i)
    (x0 : Vec F S1x5000x64 .f32) (x1 : Vec F S1x64x64 .f32) (x2 : Vec F S1x64 .f32) (x3 : Vec F S5000x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid1.Coords)
    (arg2 : Memref sig .tc .vmem S1x5000x64 .f32) (harg2 : arg2.IsWhole) (arg3 : Memref sig .tc .vmem S1x64x64 .f32) (harg3 : arg3.IsWhole)
    (arg4 : Memref sig .tc .vmem S1x64 .f32) (harg4 : arg4.IsWhole) (arg5 : Memref sig .tc .vmem S5000x64 .f32) (harg5 : arg5.IsWhole)
    (arg6 : Memref sig .tc .vmem S5000x64 .f32) (harg6 : arg6.IsWhole) (hc1 : ¬cond1 i) (hc2 : cond2 i)
    (x0 : Vec F S1x5000x64 .f32) (x1 : Vec F S1x64x64 .f32) (x2 : Vec F S1x64 .f32) (xs : Vec F S5000x64 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x64.rank → Nat) = fun _ => 0 := by funext a; fin_cases a <;> rfl
  have hz2b : (![0, 0] : Fin S1x64.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x64.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x64_S5000x64_0_0 y⟩)]
    rw [View.canon_cons_unit_zero hz2]
    simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]
  iexists _; isplitr
  swap; · iexact H6
  ipureintro
  (try sl_unfold_run_names)
  rw [View.read_writes_eq_canon _ _ _ (fun y => ⟨_, List.mem_cons_self, View.mem_set_unit_zero hz2 inb_S5000x64_S5000x64_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x64) hz3b, View.ld_unit_zero (S := S1x64) hz2b, View.ld_unit_zero (S := S5000x64) hz2, View.readCov_unit_zero (S := S5000x64) _ hz2]

/-! ## The region invariant -/

/-- The scratch accumulator as a memref: a whole scoped buffer of the kernel's own. -/
abbrev scM : Memref sig .tc .vmem S5000x64 .f32 := Memref.whole cc1_scratch0

/-- Each window's current staging memref at point `t`, spelled as the pipeline passes it, and its wholeness. -/
abbrev ms0 (t : Fin cfg1.N) : Memref sig .tc .vmem S1x5000x64 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x64x64 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S5000x64 .f32 := win1_3.stage (cfg1.slots t 3)
abbrev hs3 (t : Fin cfg1.N) : (ms3 t).IsWhole := hstage1_3 ((cfg1.slots t 3).cast nbuf1_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec1 c [cc1_scratch0]

/-- The launch's invariant with the accumulator split off as a memref owned at some contents. -/
theorem PhiA_eq (c : Dev nD) :
    (Pipeline.ΦA spec1 c : sProp 𝕄)
      = iprop(iprop((∃ d, owns (c : Thread nD τ) scM fullShare d) ∗ restS (F := F) c) ∗ (∃ r, prngReg c r)) := by
  unfold Pipeline.ΦA
  rw [Pipeline.scopedRest_split_of_list spec1 c [cc1_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restS (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem PhiS_castSucc (c : Dev nD) (t : Fin cfg1.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
/-- Off hop 3 the output window is idle and is not written back; at hop 3 it is live. -/
theorem idleAt3 : ∀ t : Fin cfg1.N, ¬cond2 (grid1.coords t) → cfg1.idle 3 (grid1.coords t) = true := by decide +kernel
theorem noFlush3 : ∀ t : Fin cfg1.N, ¬cond2 (grid1.coords t) → (cfg1.win 3).flush t = false := by decide +kernel
theorem liveAt3 : ∀ t : Fin cfg1.N, cond2 (grid1.coords t) → cfg1.idle 3 (grid1.coords t) = false := by decide +kernel

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg1.N = 40 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid1.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid1.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid1.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid1.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 40 := N_1; omega)

end Cert.KernelIdeal.Reg1

end
-- ==== Proof.KI.Reg2.lean ====
/-
  One pallas_call region as a pipeline with a carried scratch: the windows' blocks read off the arrays as the
  region finds them, what the accumulator holds after each grid point, what the output window's staging buffer
  holds where it is written back, the proof data, the body obligation and the two ends of the region invariant.
  Generic in the float interpretation.

  The grid is 10 row blocks by 4 hops, the hop index innermost (point t has hop t % 4). At hop 0 the body
  zeroes the accumulator (the first payload); at every hop it adds the product of the hop's feature block with
  the hop's weight block (the second payload); at hop 3 it stores the output block computed from the accumulator
  and the bias row (the third payload).
-/
import proofs.«401537_j29600914604721_1_alg».proof.Proof.Gen.KernelIdeal.Launch
import proofs.«401537_j29600914604721_1_alg».proof.Proof.Gen.KernelIdeal.Skeleton
import proofs.«401537_j29600914604721_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Reg2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature block, the weight block and the bias row at point `t`, at their literal types. -/
abbrev hblk (c : Dev nD) (t : Fin cfg2.N) : Vec F S1x5000x64 .f32 := iblk V c 0 t
abbrev wblk (c : Dev nD) (t : Fin cfg2.N) : Vec F S1x64x1 .f32 := iblk V c 1 t
abbrev bblk (c : Dev nD) (t : Fin cfg2.N) : Vec F S1x1 .f32 := iblk V c 2 t

/-! ## The accumulator, point by point -/

/-- What the scratch accumulator holds after the body at position `n`: at a hop-0 point the product added to
    zeros, elsewhere the product added to what the point before left. -/
def accAt (c : Dev nD) : (n : ℕ) → n < cfg2.N → Vec F S5000x1 .f32
  | 0, hn => Gen.k2_pay2 (Gen.k2_pay1 (F := F)) (hblk V c ⟨0, hn⟩) (wblk V c ⟨0, hn⟩)
  | n + 1, hn =>
    if (n + 1) % 4 = 0 then
      Gen.k2_pay2 (Gen.k2_pay1 (F := F)) (hblk V c ⟨n + 1, hn⟩) (wblk V c ⟨n + 1, hn⟩)
    else
      Gen.k2_pay2 (accAt c n (Nat.lt_of_succ_lt hn)) (hblk V c ⟨n + 1, hn⟩) (wblk V c ⟨n + 1, hn⟩)

theorem accAt_first (c : Dev nD) (t : Fin cfg2.N) (h : t.val % 4 = 0) :
    accAt V c t.val t.isLt = Gen.k2_pay2 (Gen.k2_pay1 (F := F)) (hblk V c t) (wblk V c t) := by
  obtain ⟨n, hn⟩ := t
  cases n with
  | zero => rfl
  | succ n => exact if_pos h

theorem accAt_next (c : Dev nD) (t : Fin cfg2.N) (h : ¬ t.val % 4 = 0) :
    accAt V c t.val t.isLt = Gen.k2_pay2 (accAt V c (t.val - 1) (Nat.lt_of_le_of_lt (Nat.sub_le _ _) t.isLt)) (hblk V c t) (wblk V c t) := by
  obtain ⟨n, hn⟩ := t
  cases n with
  | zero => exact absurd (Nat.zero_mod _) h
  | succ n => exact if_neg h

/-- What the body stores into the output window's staging buffer at a hop-3 point (and the name of the
    output window's contents at every point: only hop-3 points are written back). -/
def outAt (c : Dev nD) (t : Fin cfg2.N) : Vec F S5000x1 .f32 := Gen.k2_pay3 (accAt V c t.val t.isLt) (bblk V c t)

/-! ## The body's two conditions -/

/-- The condition of the body's first conditional (the accumulator is zeroed), from the grid coordinates. -/
abbrev cond1 (i : grid2.Coords) : Prop := (Scalar.cmpi .ne (Scalar.extui (Scalar.cmpi .eq (BitVec.ofNat 32 (i 1).val) 0#32)) 0#32) = 1#1
/-- It holds at the points of hop 0. -/
theorem hcond1 : ∀ t : Fin cfg2.N, cond1 (grid2.coords t) ↔ t.val % 4 = 0 :=
  (by decide +kernel : ∀ t : Fin grid2.N, cond1 (grid2.coords t) ↔ t.val % 4 = 0)

/-- The condition of the body's second conditional (the output block is stored), from the grid coordinates. -/
abbrev cond2 (i : grid2.Coords) : Prop := k2_cond2 i = 1#1
/-- It holds at the points of hop 3. -/
theorem hcond2 : ∀ t : Fin cfg2.N, cond2 (grid2.coords t) ↔ t.val % 4 = 3 :=
  (by decide +kernel : ∀ t : Fin grid2.N, cond2 (grid2.coords t) ↔ t.val % 4 = 3)

/-! ## The body on any whole memrefs, case by case -/

set_option maxHeartbeats 1000000 in
/-- The body at a hop-0 point, on whole memrefs: the inputs at their contents and the output window's buffer at
    contents it hands back untouched, the accumulator at anything; it leaves the accumulator at the product added
    to zeros. -/
theorem run_A (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : cond1 i) (hc2 : ¬cond2 i)
    (x0 : Vec F S1x5000x64 .f32) (x1 : Vec F S1x64x1 .f32) (x2 : Vec F S1x1 .f32) (x3 : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 (k2_pay1 (F := F)) x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d6, %f6, -, H6⟩, Hk⟩
  obtain rfl := harg2.eq_unread hf0; obtain rfl := harg3.eq_unread hf1; obtain rfl := harg4.eq_unread hf2; obtain rfl := harg5.eq_unread hf3
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

set_option maxHeartbeats 1000000 in
/-- The body at a hop-1 or hop-2 point: the accumulator at what the point before left; it leaves the accumulator
    at the product added to that. -/
theorem run_B (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : ¬cond1 i) (hc2 : ¬cond2 i)
    (x0 : Vec F S1x5000x64 .f32) (x1 : Vec F S1x64x1 .f32) (x2 : Vec F S1x1 .f32) (x3 : Vec F S5000x1 .f32) (xs : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay2 xs x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf6
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

set_option maxHeartbeats 1000000 in
/-- The body at a hop-3 point: the accumulator at what the point before left, the output window's buffer at
    anything; it leaves the accumulator at the product added to that and the output window's buffer at the third
    payload of the new accumulator and the bias row. -/
theorem run_C (c : Dev nD) (i : grid2.Coords)
    (arg2 : Memref sig .tc .vmem S1x5000x64 .f32) (harg2 : arg2.IsWhole) (arg3 : Memref sig .tc .vmem S1x64x1 .f32) (harg3 : arg3.IsWhole)
    (arg4 : Memref sig .tc .vmem S1x1 .f32) (harg4 : arg4.IsWhole) (arg5 : Memref sig .tc .vmem S5000x1 .f32) (harg5 : arg5.IsWhole)
    (arg6 : Memref sig .tc .vmem S5000x1 .f32) (harg6 : arg6.IsWhole) (hc1 : ¬cond1 i) (hc2 : cond2 i)
    (x0 : Vec F S1x5000x64 .f32) (x1 : Vec F S1x64x1 .f32) (x2 : Vec F S1x1 .f32) (xs : Vec F S5000x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1) x2) ∗ owns (c : Thread nD τ) arg6 fullShare (k2_pay2 xs x0 x1)) -∗ K ⟨⟩))
      ⊢ wp frame (wpE (defs₀ (F := F)) Variants.none c none) E (cc2_kernel i arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, ⟨%f6, %hf6, H6⟩, Hk⟩
  obtain rfl := harg2.eq_unread hf0; obtain rfl := harg3.eq_unread hf1; obtain rfl := harg4.eq_unread hf2; obtain rfl := harg6.eq_unread hf6
  sl_exec (disch := first | exact hc1 | exact hc2)
  sl_step
  iapply Hk
  have hz2 : (![0, 0] : Fin S5000x1.rank → Nat) = fun _ => 0 := by funext a; fin_cases a <;> rfl
  have hz2b : (![0, 0] : Fin S1x1.rank → Nat) = fun _ => 0 := by funext a; fin_cases a <;> rfl
  have hz3a : (![0, 0, 0] : Fin S1x5000x64.rank → Nat) = fun _ => 0 := by funext a; fin_cases a <;> rfl
  have hz3b : (![0, 0, 0] : Fin S1x64x1.rank → Nat) = fun _ => 0 := by funext a; fin_cases a <;> rfl
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    (try sl_unfold_run_names)
    rw [View.read_writes_eq_canon _ _ _ (fun y => ⟨_, List.mem_cons_self, View.mem_set_unit_zero hz2 inb_S5000x1_S5000x1_0_0 y⟩)]
    rw [View.canon_cons_unit_zero hz2]
    simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]
  iexists _; isplitr
  swap; · iexact H6
  ipureintro
  (try sl_unfold_run_names)
  rw [View.read_writes_eq_canon _ _ _ (fun y => ⟨_, List.mem_cons_self, View.mem_set_unit_zero hz2 inb_S5000x1_S5000x1_0_0 y⟩)]
  rw [View.canon_cons_unit_zero hz2]
  simp only [View.readAt_eq_ld, harg2.read_unread, harg3.read_unread, harg4.read_unread, harg6.read_unread, View.ld_unit_zero (S := S1x5000x64) hz3a, View.ld_unit_zero (S := S1x64x1) hz3b, View.ld_unit_zero (S := S1x1) hz2b, View.ld_unit_zero (S := S5000x1) hz2, View.readCov_unit_zero (S := S5000x1) _ hz2]

/-! ## The region invariant -/

/-- The scratch accumulator as a memref: a whole scoped buffer of the kernel's own. -/
abbrev scM : Memref sig .tc .vmem S5000x1 .f32 := Memref.whole cc2_scratch0

/-- Each window's current staging memref at point `t`, spelled as the pipeline passes it, and its wholeness. -/
abbrev ms0 (t : Fin cfg2.N) : Memref sig .tc .vmem S1x5000x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x64x1 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x1 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S5000x1 .f32 := win2_3.stage (cfg2.slots t 3)
abbrev hs3 (t : Fin cfg2.N) : (ms3 t).IsWhole := hstage2_3 ((cfg2.slots t 3).cast nbuf2_3)

/-- The core's scoped buffers other than this region's staging buffers and its accumulator, at some contents
    each: carried through the region unopened. -/
abbrev restS (c : Dev nD) : sProp 𝕄 :=
  Pipeline.scopedRestBut (Ix := Unit) (Name := ℕ) (U := UR sig nD τ) (Lvl := ℕ) (Val := Elt F) spec2 c [cc2_scratch0]

/-- The launch's invariant with the accumulator split off as a memref owned at some contents. -/
theorem PhiA_eq (c : Dev nD) :
    (Pipeline.ΦA spec2 c : sProp 𝕄)
      = iprop(iprop((∃ d, owns (c : Thread nD τ) scM fullShare d) ∗ restS (F := F) c) ∗ (∃ r, prngReg c r)) := by
  unfold Pipeline.ΦA
  rw [Pipeline.scopedRest_split_of_list spec2 c [cc2_scratch0] (by decide) (by decide)]
  simp only [bigSepL_singleton, scM, owns_whole]; try rfl

/-- The region invariant before position `n`: before the first point the launch's; afterwards the accumulator at
    what the point before left, the other scoped buffers at anything, the generator register at some state. -/
def PhiS (c : Dev nD) : (n : ℕ) → n ≤ cfg2.N → sProp 𝕄
  | 0, _ => Pipeline.ΦA spec2 c
  | n + 1, hn => iprop(iprop(owns (c : Thread nD τ) scM fullShare (accAt V c n hn) ∗ restS (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg2.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The proof data -/

/-- The proof data of region 0 on core `c`: the arrays as the region finds them; after the body at point `t` each
    input's buffer at its block and the output's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = outAt V c t := by dsimp only [dat]

theorem PhiS_castSucc (c : Dev nD) (t : Fin cfg2.N) :
    (dat V c).Φ t.castSucc = PhiS V c t.val (Nat.le_of_lt t.isLt) := by
  dsimp only [dat]; simp only [Fin.coe_castSucc]

/-! ## What the body finds in the input windows' buffers -/

/-- Each input's current staging buffer holds its block at every point, fetched there or not: the window is
    uncut and never idle, and the body leaves the block in place. -/
theorem before0 (c : Dev nD) (t : Fin cfg2.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg2.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg2.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## Where the windows are idle -/

/-- The inputs are never idle. -/
theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
/-- Off hop 3 the output window is idle and is not written back; at hop 3 it is live. -/
theorem idleAt3 : ∀ t : Fin cfg2.N, ¬cond2 (grid2.coords t) → cfg2.idle 3 (grid2.coords t) = true := by decide +kernel
theorem noFlush3 : ∀ t : Fin cfg2.N, ¬cond2 (grid2.coords t) → (cfg2.win 3).flush t = false := by decide +kernel
theorem liveAt3 : ∀ t : Fin cfg2.N, cond2 (grid2.coords t) → cfg2.idle 3 (grid2.coords t) = false := by decide +kernel

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the hop decides the case; the invariant hands
    the body the accumulator at what the point before left (at anything before the first point) and takes it
    back at this point's contents; off hop 3 the output window's buffer is handed back as found, at hop 3 it is
    left at the third payload. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2]
  rw [show (dat V c).owesAt () t.succ = (dat V c).owesAt () t.castSucc from rfl]
  rw [show (dat V c).Φ t.succ = PhiS V c (t.val + 1) t.isLt from rfl, PhiS_succ]
  have hN : t.val < 40 := lt_of_lt_of_eq t.isLt (show cfg2.N = 40 from N_2)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h3 : ¬t.val % 4 = 3 := by omega
    rw [Dat.leavesExact_idle (dat V c) 3 t (idleAt3 t (fun h => h3 ((hcond2 t).mp h))) (noFlush3 t (fun h => h3 ((hcond2 t).mp h)))]
    rw [accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩⟩
      iapply (run_A c (grid2.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_A c (grid2.coords t) (ms0 t) (hs0 t) (ms1 t) (hs1 t) (ms2 t) (hs2 t) (ms3 t) (hs3 t) scM (Memref.isWhole_whole _) ((hcond1 t).mpr h0) (fun h => h3 ((hcond2 t).mp h)) (hblk V c t) (wblk V c t) (bblk V c t) ((dat V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 4 = 3
    · rw [show (dat V c).leavesExact 3 t = owns (c : Thread nD τ) (ms3 t) fullShare ((dat V c).after 3 t) from by
        unfold Dat.leavesExact; rw [liveAt3 t ((hcond2 t).mpr h3)], after3]
      unfold outAt
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_C c (grid2.coords t) (ms0 t) (hs0 t) (ms1 t) (hs1 t) (ms2 t) (hs2 t) (ms3 t) (hs3 t) scM (Memref.isWhole_whole _) (fun h => h0 ((hcond1 t).mp h)) ((hcond2 t).mpr h3) (hblk V c t) (wblk V c t) (bblk V c t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat V c) 3 t (idleAt3 t (fun h => h3 ((hcond2 t).mp h))) (noFlush3 t (fun h => h3 ((hcond2 t).mp h)))]
      rw [accAt_next V c t h0]
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply (run_B c (grid2.coords t) (ms0 t) (hs0 t) (ms1 t) (hs1 t) (ms2 t) (hs2 t) (ms3 t) (hs3 t) scM (Memref.isWhole_whole _) (fun h => h0 ((hcond1 t).mp h)) (fun h => h3 ((hcond2 t).mp h)) (hblk V c t) (wblk V c t) (bblk V c t) ((dat V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant's two ends -/

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg2.N) ⊢ Pipeline.ΦA spec2 c :=
  Phi_out V c _ (by rw [Fin.val_last]; have : cfg2.N = 40 := N_2; omega)

end Cert.KernelIdeal.Reg2

end
-- ==== Proof.KI.Asm.lean ====
/-
  The frame of the program's three kernel regions, assembled.

  Between two items of @main every unscoped buffer of a core is held whole at a named valuation: the launch memory, then
  each host stretch applied, then, after a kernel region, that region's output array at what its pipeline leaves (the
  write-backs of the region's proof data folded over the grid) and every other buffer as the region found it.  Each
  region is entered from the valuation before it: its four window arrays are split out of the unscoped buffers, the
  region's invariant takes the scoped buffers and the generator register, and at the exit the arrays are put back.  No
  core owes another anything, and no kernel has a semaphore of its own.
-/
import proofs.«401537_j29600914604721_1_alg».proof.Proof.Gen.KernelIdeal.Regions
import proofs.«401537_j29600914604721_1_alg».proof.Proof.KI.Reg0
import proofs.«401537_j29600914604721_1_alg».proof.Proof.KI.Reg1
import proofs.«401537_j29600914604721_1_alg».proof.Proof.KI.Reg2
import Idealize.ShloMosaic.Lib.Pipeline.RegionsLoop
import Idealize.ShloMosaic.Lib.Pipeline.FrameSuffix

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) :=
  fun c b => W c b

/-! ## What the regions leave -/

/-- After region 0: its arrays at what the pipeline leaves, every other buffer as entered. -/
def W8 (c : Dev nD) : Valuation τ sig (Elt F) :=
  Pipeline.withArrays spec0 c (V7 m c) fun w => (Reg0.dat (rd (V7 m)) c).arrAt w cfg0.N
/-- The regions' contents with region 0's named. -/
def outsA : Outs (F := F) := fun _ r c => W8 m c r
/-- After region 1. -/
def W15 (c : Dev nD) : Valuation τ sig (Elt F) :=
  Pipeline.withArrays spec1 c (V14 m (outsA m) c) fun w => (Reg1.dat (rd (V14 m (outsA m))) c).arrAt w cfg1.N
/-- The regions' contents with regions 0 and 1 named. -/
def outsB : Outs (F := F) := fun J r c => if J = 8 then W8 m c r else W15 m c r
/-- After region 2. -/
def W22 (c : Dev nD) : Valuation τ sig (Elt F) :=
  Pipeline.withArrays spec2 c (V21 m (outsB m) c) fun w => (Reg2.dat (rd (V21 m (outsB m))) c).arrAt w cfg2.N
/-- What each region leaves in the buffer it may change. -/
def outs : Outs (F := F) := fun J r c => if J = 8 then W8 m c r else if J = 15 then W15 m c r else W22 m c r

theorem outs_8 (r : Ref sig .tc) (c : Dev nD) : outs m 8 r c = W8 m c r := rfl
theorem outs_15 (r : Ref sig .tc) (c : Dev nD) : outs m 15 r c = W15 m c r := rfl
theorem outs_22 (r : Ref sig .tc) (c : Dev nD) : outs m 22 r c = W22 m c r := rfl

/-- The valuations before regions 1 and 2 read the regions' contents only at the regions before them. -/
theorem V8_outs (c : Dev nD) : V8 m (outs m) c = V8 m (outsA m) c := rfl
theorem V14_outs (c : Dev nD) : V14 m (outs m) c = V14 m (outsA m) c := by
  unfold V14 V13 V12 V11 V10 V9; rw [V8_outs]
theorem V15_outs (c : Dev nD) : V15 m (outs m) c = V15 m (outsB m) c := by
  unfold V15; rw [V14_outs m c, show V14 m (outsB m) c = V14 m (outsA m) c from by unfold V14 V13 V12 V11 V10 V9; rfl]; rfl
theorem V21_outs (c : Dev nD) : V21 m (outs m) c = V21 m (outsB m) c := by
  unfold V21 V20 V19 V18 V17 V16; rw [V15_outs]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Reg0.dat (rd (V7 m)) c
  | ⟨1, _⟩ => fun c => Reg1.dat (rd (V14 m (outsA m))) c
  | ⟨2, _⟩ => fun c => Reg2.dat (rd (V21 m (outsB m))) c

/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 -/

/-- At region 0's exit each of its arrays holds what the pipeline leaves: an input its entry contents, the output
    the folded write-backs. -/
theorem hF0 (c : Dev nD) : ∀ w : Fin cfg0.W, (pdats m 0 c).arrAt w cfg0.N = rd (V8 m (outs m)) c (Pipeline.arrRef spec0 w)
  | ⟨0, _⟩ => ((pdats m 0 c).arrAt_in 0 rfl _).trans ((Reg0.A_eq _ c 0).trans ((V8_of m (outs m) c main_v29 (by decide)).symm))
  | ⟨1, _⟩ => ((pdats m 0 c).arrAt_in 1 rfl _).trans ((Reg0.A_eq _ c 1).trans ((V8_of m (outs m) c main_arg3 (by decide)).symm))
  | ⟨2, _⟩ => ((pdats m 0 c).arrAt_in 2 rfl _).trans ((Reg0.A_eq _ c 2).trans ((V8_of m (outs m) c main_v30 (by decide)).symm))
  | ⟨3, _⟩ => (Pipeline.withArrays_arr spec0 launch0.win.arr_inj c _ _ 3).symm.trans (by
      show W8 m c main_v31 = V8 m (outs m) c main_v31
      unfold V8; rw [Function.update_self]; rfl)
/-- Every other buffer is as the region found it. -/
theorem hrest0 (c : Dev nD) : ∀ b, b ∉ Finset.univ.image (Pipeline.arrRef spec0) → rd (V8 m (outs m)) c b = rd (V7 m) c b :=
  fun b hb => V8_of m (outs m) c b (fun h => hb (by
    rw [List.mem_singleton] at h; subst h; exact Finset.mem_image.mpr ⟨3, Finset.mem_univ _, rfl⟩))

set_option backward.isDefEq.respectTransparency.types false in
/-- Region 0 over the thread state "every unscoped buffer held, the generator register, nothing owed". -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Reg0.body_obligation _ c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (rd (V7 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (V7 m) c) (fun w => Reg0.A_eq _ c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h.trans (Reg0.hin _ c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (Reg0.hout _ c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (V7 m) c) (rd (V8 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- The proof data's entry valuation is the one the chain arrives with. -/
theorem Vin1_eq (c : Dev nD) : V14 m (outs m) c = V14 m (outsA m) c := V14_outs m c

/-- At region 1's exit each of its arrays holds what the pipeline leaves: an input its entry contents, the output
    the folded write-backs. -/
theorem hF1 (c : Dev nD) : ∀ w : Fin cfg1.W, (pdats m 1 c).arrAt w cfg1.N = rd (V15 m (outs m)) c (Pipeline.arrRef spec1 w)
  | ⟨0, _⟩ => ((pdats m 1 c).arrAt_in 0 rfl _).trans ((Reg1.A_eq _ c 0).trans ((congrFun (Vin1_eq m c) _).symm.trans (V15_of m (outs m) c main_v57 (by decide)).symm))
  | ⟨1, _⟩ => ((pdats m 1 c).arrAt_in 1 rfl _).trans ((Reg1.A_eq _ c 1).trans ((congrFun (Vin1_eq m c) _).symm.trans (V15_of m (outs m) c main_arg5 (by decide)).symm))
  | ⟨2, _⟩ => ((pdats m 1 c).arrAt_in 2 rfl _).trans ((Reg1.A_eq _ c 2).trans ((congrFun (Vin1_eq m c) _).symm.trans (V15_of m (outs m) c main_v58 (by decide)).symm))
  | ⟨3, _⟩ => (Pipeline.withArrays_arr spec1 launch1.win.arr_inj c _ _ 3).symm.trans (by
      show W15 m c main_v59 = V15 m (outs m) c main_v59
      unfold V15; rw [Function.update_self]; rfl)
/-- Every other buffer is as the region found it. -/
theorem hrest1 (c : Dev nD) : ∀ b, b ∉ Finset.univ.image (Pipeline.arrRef spec1) → rd (V15 m (outs m)) c b = rd (V14 m (outs m)) c b :=
  fun b hb => V15_of m (outs m) c b (fun h => hb (by
    rw [List.mem_singleton] at h; subst h; exact Finset.mem_image.mpr ⟨3, Finset.mem_univ _, rfl⟩))

set_option backward.isDefEq.respectTransparency.types false in
/-- Region 1 over the thread state "every unscoped buffer held, the generator register, nothing owed". -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Reg1.body_obligation _ c).loose
  hwaits := Pipeline.hwaits_of_owed_zero _ _ _ _ L lv 1 fun _ _ => rfl
  pre c := iprop(StableHlo.held (c : Thread nD τ) (Pipeline.ucRefs τ sig) (V14 m (outs m) c) ∗ R c)
  post c := iprop(StableHlo.held (c : Thread nD τ) (Pipeline.ucRefs τ sig) (V15 m (outs m) c) ∗ R c)
  X c := iprop(∃ r, prngReg c r)
  Y c := iprop(∃ r, prngReg c r)
  Z c := Pipeline.unscopedRest (Ix := Unit) (Name := ℕ) (U := UR sig nD τ) (Lvl := ℕ) spec1 c (rd (V14 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (V14 m (outs m)) c) (fun w => (Reg1.A_eq _ c w).trans (congrFun (Vin1_eq m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h.trans (Reg1.hin _ c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (Reg1.hout _ c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (V14 m (outs m)) c) (rd (V15 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- The proof data's entry valuation is the one the chain arrives with. -/
theorem Vin2_eq (c : Dev nD) : V21 m (outs m) c = V21 m (outsB m) c := V21_outs m c

/-- At region 2's exit each of its arrays holds what the pipeline leaves: an input its entry contents, the output
    the folded write-backs. -/
theorem hF2 (c : Dev nD) : ∀ w : Fin cfg2.W, (pdats m 2 c).arrAt w cfg2.N = rd (V22 m (outs m)) c (Pipeline.arrRef spec2 w)
  | ⟨0, _⟩ => ((pdats m 2 c).arrAt_in 0 rfl _).trans ((Reg2.A_eq _ c 0).trans ((congrFun (Vin2_eq m c) _).symm.trans (V22_of m (outs m) c main_v85 (by decide)).symm))
  | ⟨1, _⟩ => ((pdats m 2 c).arrAt_in 1 rfl _).trans ((Reg2.A_eq _ c 1).trans ((congrFun (Vin2_eq m c) _).symm.trans (V22_of m (outs m) c main_arg7 (by decide)).symm))
  | ⟨2, _⟩ => ((pdats m 2 c).arrAt_in 2 rfl _).trans ((Reg2.A_eq _ c 2).trans ((congrFun (Vin2_eq m c) _).symm.trans (V22_of m (outs m) c main_v86 (by decide)).symm))
  | ⟨3, _⟩ => (Pipeline.withArrays_arr spec2 launch2.win.arr_inj c _ _ 3).symm.trans (by
      show W22 m c main_v87 = V22 m (outs m) c main_v87
      unfold V22; rw [Function.update_self]; rfl)
/-- Every other buffer is as the region found it. -/
theorem hrest2 (c : Dev nD) : ∀ b, b ∉ Finset.univ.image (Pipeline.arrRef spec2) → rd (V22 m (outs m)) c b = rd (V21 m (outs m)) c b :=
  fun b hb => V22_of m (outs m) c b (fun h => hb (by
    rw [List.mem_singleton] at h; subst h; exact Finset.mem_image.mpr ⟨3, Finset.mem_univ _, rfl⟩))

set_option backward.isDefEq.respectTransparency.types false in
/-- Region 2 over the thread state "every unscoped buffer held, the generator register, nothing owed". -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (Reg2.body_obligation _ c).loose
  hwaits := Pipeline.hwaits_of_owed_zero _ _ _ _ L lv 2 fun _ _ => rfl
  pre c := iprop(StableHlo.held (c : Thread nD τ) (Pipeline.ucRefs τ sig) (V21 m (outs m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (rd (V21 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (V21 m (outs m)) c) (fun w => (Reg2.A_eq _ c w).trans (congrFun (Vin2_eq m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h.trans (Reg2.hin _ c)
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (Reg2.hout _ c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (V21 m (outs m)) c) (rd (V22 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main terminates, nothing faulting, and every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m (emb₁ (A := UR sig nD τ)) () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun _ => .rfl) (fun _ => .rfl)
    (reg1 m) (fun _ => .rfl) (fun _ => .rfl)
    (reg2 m) (fun _ => .rfl) (fun _ => .rfl)

end Cert.KernelIdeal.Asm

end
-- ==== Proof.KI.Run.lean ====
/-
  The idealized kernel program's run with its result named: the regions' records of the frame, composed by the
  launch theorem read also at the result buffer.
-/
import proofs.«401537_j29600914604721_1_alg».proof.Proof.KI.Asm
import proofs.«401537_j29600914604721_1_alg».proof.Proof.KI.RunCond

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The run, the result named -/

set_option backward.isDefEq.respectTransparency.types false in
/-- Every weakly fair execution of @main terminates, nothing faulting; the result buffer ends at what the last
    region's pipeline leaves in its output array, and every argument array ends as launched. -/
theorem run (ρ : Dev nD → PrngReg) : θ_run defs (onTc (τ := τ) (main (F := F))) ⟨m, fun _ => 0, ρ⟩ (fun r => ∀ c : Dev nD,
      r.2.mem ((c.tc : Thread nD τ).loc main_v87) = V22 m (outs m) c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (emb₁ (A := UR sig nD τ)) () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, H⟩; iexact H)
    (reg0 m) (fun _ => .rfl) (fun _ => .rfl)
    (reg1 m) (fun _ => .rfl) (fun _ => .rfl)
    (reg2 m) (fun _ => .rfl) (fun _ => .rfl)

end Cert.KernelIdeal.Asm

end
-- ==== Proof.Spec.lean ====
/-
  The mathematics both programs compute, stated once over the extended reals and literal shapes.

  One graph layer takes four node-feature arrays h₀ … h₃ (h₀ the layer's input, hₖ₊₁ one weighted hop of hₖ), a
  stack of four weight matrices W and a bias row b, and returns at node i, output channel j

      act ( ((( Σ_d h₀[i,d]·W[0,d,j] + Σ_d h₁[i,d]·W[1,d,j] ) + Σ_d h₂[i,d]·W[2,d,j] ) + Σ_d h₃[i,d]·W[3,d,j] ) + b[j] ).

  The sums are exact; addition of extended reals is commutative and associative and has 0 as a unit, which is all
  the two programs' different groupings of these sums need.  The activation is the leaky rectifier written exactly as
  both programs write it: where v ≥ 0 (an ordered compare) the value v, elsewhere the product of the slope literal
  with v.  The last layer has no bias and no activation.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Node features [50000, D], a weight stack [4, D, E], an output [50000, E], a bias [E]. -/
abbrev SX (D : Nat) : Shape := ⟨2, ![50000, D]⟩
abbrev SW (D E : Nat) : Shape := ⟨3, ![4, D, E]⟩
abbrev SB (E : Nat) : Shape := ⟨1, ![E]⟩

/-- Row i of h times column j of the k-th weight matrix: Σ_d h[i,d]·W[k,d,j]. -/
def rowdot {D E : Nat} (h : FVec Ideal (SX D) .f32) (W : FVec Ideal (SW D E) .f32) (k : Fin 4) (i : Fin 50000) (j : Fin E) : EReal :=
  ∑ d : Fin D, h (ix2 i d) * W (ix3 k d j)

/-- The four hop terms summed left to right. -/
def lin {D E : Nat} (h0 h1 h2 h3 : FVec Ideal (SX D) .f32) (W : FVec Ideal (SW D E) .f32) (i : Fin 50000) (j : Fin E) : EReal :=
  ((rowdot h0 W 0 i j + rowdot h1 W 1 i j) + rowdot h2 W 2 i j) + rowdot h3 W 3 i j

/-- The leaky rectifier on a whole array, written with the vector operations both programs print:
    select (v ≥ 0) v (slope · v), the zero and the slope as splats of their f32 words. -/
def act {E : Nat} (v : FVec Ideal (SX E) .f32) : FVec Ideal (SX E) .f32 :=
  select (cmpf .oge v (broadcast (SX E) (Scalar.ofBits (F := Ideal) .f32 0x00000000#32))) v
    (mulf (broadcast (SX E) (Scalar.ofBits (F := Ideal) .f32 0x3C23D70A#32)) v)

/-- A layer with bias and activation. -/
def layerAct {D E : Nat} (h0 h1 h2 h3 : FVec Ideal (SX D) .f32) (W : FVec Ideal (SW D E) .f32) (b : FVec Ideal (SB E) .f32) :
    FVec Ideal (SX E) .f32 :=
  act (fun ij => lin h0 h1 h2 h3 W (ij 0) (ij 1) + b (ix1 (ij 1)))

/-- The last layer: no bias, no activation. -/
def layerLin {D E : Nat} (h0 h1 h2 h3 : FVec Ideal (SX D) .f32) (W : FVec Ideal (SW D E) .f32) : FVec Ideal (SX E) .f32 :=
  fun ij => lin h0 h1 h2 h3 W (ij 0) (ij 1)

end Cert.Spec

end
-- ==== Proof.Hop.lean ====
/-
  The hop both programs apply nine times, and the network both compute, as functions of the argument arrays.

  hop(u)[i, :] = Σ over edges e with dst[e] = i of w[e] · u[src[e], :]  (the exact sum: a scatter-add into zeros of
  the gathered, weighted rows).  With source indices in range the kernel's masked take and the reference's wrapped
  take are both this plain gather.  The network is three layers of Spec's form over (u, hop u, hop² u, hop³ u).
-/
import proofs.«401537_j29600914604721_1_alg».proof.KernelIdeal
import proofs.«401537_j29600914604721_1_alg».proof.Proof.Gen.KernelIdeal
import proofs.«401537_j29600914604721_1_alg».proof.Proof.Spec

noncomputable section

namespace Cert.KernelIdeal.Hop

open Idealize.ShloMosaic Idealize.ShloMosaic.ValueIdx Cert.KernelIdeal
open Cert.KernelIdeal.Facts₀ Cert.KernelIdeal.Facts

/-- One weighted hop over the edge list at width 32: row src[e] of u times w[e], added into row dst[e] of zeros
    (an edge whose destination is out of range is dropped by the scatter). -/
def hop32 (u : FVec Ideal S50000x32 .f32) (src dst : IVec S1200000 32) (w : FVec Ideal S1200000 .f32) : FVec Ideal S50000x32 .f32 :=
  Host.scatterAdd scatter_S50000x32_S1200000x1_S1200000x32_1_0_0_1
    (broadcastInDim S50000x32 ![] bcast_S_S50000x32 (constant (F := Ideal) S_ .f32 0x00000000#32))
    (broadcastInDim S1200000x1 ![0] bcast_S1200000_S1200000x1_0 dst)
    (mulf (Host.gather gather_S50000x32_S1200000x1_S1200000x32_1_0_n_n_0_1_132 u (broadcastInDim S1200000x1 ![0] bcast_S1200000_S1200000x1_0 src))
      (broadcastInDim S1200000x32 ![0, 1] bcast_S1200000x1_S1200000x32_0_1 (broadcastInDim S1200000x1 ![0] bcast_S1200000_S1200000x1_0 w)))

/-- One weighted hop over the edge list at width 64: row src[e] of u times w[e], added into row dst[e] of zeros
    (an edge whose destination is out of range is dropped by the scatter). -/
def hop64 (u : FVec Ideal S50000x64 .f32) (src dst : IVec S1200000 32) (w : FVec Ideal S1200000 .f32) : FVec Ideal S50000x64 .f32 :=
  Host.scatterAdd scatter_S50000x64_S1200000x1_S1200000x64_1_0_0_1
    (broadcastInDim S50000x64 ![] bcast_S_S50000x64 (constant (F := Ideal) S_ .f32 0x00000000#32))
    (broadcastInDim S1200000x1 ![0] bcast_S1200000_S1200000x1_0 dst)
    (mulf (Host.gather gather_S50000x64_S1200000x1_S1200000x64_1_0_n_n_0_1_164 u (broadcastInDim S1200000x1 ![0] bcast_S1200000_S1200000x1_0 src))
      (broadcastInDim S1200000x64 ![0, 1] bcast_S1200000x1_S1200000x64_0_1 (broadcastInDim S1200000x1 ![0] bcast_S1200000_S1200000x1_0 w)))

/-- Row 0 of the edge index: the sources; row 1: the destinations. -/
def srcOf (ei : IVec S2x1200000 32) : IVec S1200000 32 :=
  shapeCast S1200000 (extractStridedSlice S1x1200000 ![0, 0] ei slices_S2x1200000_S1x1200000_0_0) shapeCasts_S1x1200000_S1200000
def dstOf (ei : IVec S2x1200000 32) : IVec S1200000 32 :=
  shapeCast S1200000 (extractStridedSlice S1x1200000 ![1, 0] ei slices_S2x1200000_S1x1200000_1_0) shapeCasts_S1x1200000_S1200000

/-- The network: three layers, each over its input and three successive hops of it. -/
def net (x : FVec Ideal S50000x32 .f32) (ei : IVec S2x1200000 32) (w : FVec Ideal S1200000 .f32)
    (W0 : FVec Ideal S4x32x64 .f32) (b0 : FVec Ideal S64 .f32) (W1 : FVec Ideal S4x64x64 .f32) (b1 : FVec Ideal S64 .f32)
    (W2 : FVec Ideal S4x64x1 .f32) : FVec Ideal S50000x1 .f32 :=
  let s := srcOf ei
  let d := dstOf ei
  let x1 := hop32 x s d w
  let x2 := hop32 x1 s d w
  let x3 := hop32 x2 s d w
  let y : FVec Ideal S50000x64 .f32 := Cert.Spec.layerAct (D := 32) (E := 64) x x1 x2 x3 W0 b0
  let y1 := hop64 y s d w
  let y2 := hop64 y1 s d w
  let y3 := hop64 y2 s d w
  let z : FVec Ideal S50000x64 .f32 := Cert.Spec.layerAct (D := 64) (E := 64) y y1 y2 y3 W1 b1
  let z1 := hop64 z s d w
  let z2 := hop64 z1 s d w
  let z3 := hop64 z2 s d w
  Cert.Spec.layerLin (D := 64) (E := 1) z z1 z2 z3 W2

end Cert.KernelIdeal.Hop

end
-- ==== Proof.KI.Pre.lean ====
/-
  The precondition decoded: the last conjunct of the printed predicate says that every entry of row 0 of the edge
  list (the source node of each edge), read as a signed 32-bit integer, lies in [0, 50000). The predicate ends in a
  conjunction whose second operand is the all-reduction by "and" of the elementwise test (0 ≤ s) ∧ (s < 50000); the
  claim states the result is 1, so each operand of the conjunction is 1, every element of the reduced array is 1, and
  each of its two comparisons holds of the words compared.
-/
import proofs.«401537_j29600914604721_1_alg».proof.Defs
import proofs.«401537_j29600914604721_1_alg».proof.Proof.Hop
import proofs.«401537_j29600914604721_1_alg».proof.Proof.Gen.KernelIdeal
import proofs.«401537_j29600914604721_1_alg».proof.Proof.Gen.Pre_finite_inputs
import Idealize.ShloMosaic.Lib.ReduceAll
import Idealize.ShloMosaic.Lib.ValueIdx

noncomputable section

namespace Cert.KernelIdeal.HHost

open Cert.KernelIdeal Cert.KernelIdeal.Gen
open Idealize.ShloMosaic Idealize.ShloMosaic.TcCoe Idealize.SL.Sem Idealize.ShloMosaic.ValueIdx

/-- Every entry, read signed, names a node: 0 ≤ s e < 50000. -/
def InRange (s : IVec S1200000 32) : Prop := ∀ e : S1200000.Idx, 0 ≤ (s e).toInt ∧ (s e).toInt < 50000

instance : Subsingleton Cert.Pre_finite_inputs.S_.Idx := ⟨fun a b => funext fun d => d.elim0⟩

/-- The predicate's closing part at its one index: when it is 1, row 0 of the edge list is in range. -/
theorem inRange_of_part2 {F : FTy → Type} [FloatOps F] (a1 : IVec S2x1200000 32) (v : IVec Cert.Pre_finite_inputs.S_ 1)
    (e : Cert.Pre_finite_inputs.fn_part2 (F := F) a1 v ix0 = 1#1) : InRange (Hop.srcOf a1) := by
  unfold Cert.Pre_finite_inputs.fn_part2 at e
  dsimp only at e
  have e2 := (IntOp.andi_eq_one.1 e).2
  intro i
  have e3 := Host.reduce_andi_all _ _ _ _ _ e2 i
  obtain ⟨h0, h1⟩ := IntOp.andi_eq_one.1 e3
  have g0 := IntOp.cmpi_sge.1 h0
  have g1 := IntOp.cmpi_slt.1 h1
  exact ⟨g0, g1⟩

/-- THE PRECONDITION DECODED: on every device the source row of the edge list is in range. -/
theorem hsrc (m : (ℓ : Loc nD τ sig) → Buf (Elt Ideal) ℓ) (h : Cert.Pre_KernelIdeal m) (c : Dev nD) :
    InRange (Hop.srcOf (m ((c.tc : Thread nD τ).loc main_arg1))) :=
  inRange_of_part2 (F := Ideal) _ _ (congrFun (h c) ix0)

end Cert.KernelIdeal.HHost

end
-- ==== Proof.Ref.Ops0.lean ====
/- Tables for the reference's @main, statements of its window 0 (60 operations, a called function's operations
   listed at the call over the call's buffers): the operations in order as lists c0; for each list, that every operation
   touches TensorCore buffers only, that every operation determines its result, and the buffers the list writes. -/
import proofs.«401537_j29600914604721_1_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀

variable {F : FTy → Type} [FloatOps F]

/-- 60 operations, in order. -/
abbrev c0 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    unary main_arg3 main_v4 ((extractStridedSlice S1x32x64 ![0, 0, 0] · slices_S4x32x64_S1x32x64_0_0_0) : (⟨S4x32x64, .f32⟩ : BufTy).Contents (Elt F) → (⟨S1x32x64, .f32⟩ : BufTy).Contents (Elt F)),
    reshape main_v4 main_v5 rfl shapeCasts_S1x32x64_S32x64,
    binary main_arg0 main_v5 main_v6 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    nullary main_c (constantI S_ 32 0#32),
    unary main_c main_v7 (broadcastInDim S1200000 ![] bcast_S_S1200000 : (⟨S_, .i32⟩ : BufTy).Contents (Elt F) → (⟨S1200000, .i32⟩ : BufTy).Contents (Elt F)),
    binary main_v1 main_v7 main_v8 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 50000#32),
    unary main_c_0 main_v9 (broadcastInDim S1200000 ![] bcast_S_S1200000 : (⟨S_, .i32⟩ : BufTy).Contents (Elt F) → (⟨S1200000, .i32⟩ : BufTy).Contents (Elt F)),
    binary main_v1 main_v9 main_v10 (addi : (⟨S1200000, .i32⟩ : BufTy).Contents (Elt F) → (⟨S1200000, .i32⟩ : BufTy).Contents (Elt F) → (⟨S1200000, .i32⟩ : BufTy).Contents (Elt F)),
    ternary main_v8 main_v10 main_v1 main_v11 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v11 main_v12 (broadcastInDim S1200000x1 ![0] bcast_S1200000_S1200000x1_0 : (⟨S1200000, .i32⟩ : BufTy).Contents (Elt F) → (⟨S1200000x1, .i32⟩ : BufTy).Contents (Elt F)),
    binary main_arg0 main_v12 main_v13 ((fun x i => Host.gather gather_S50000x32_S1200000x1_S1200000x32_1_0_n_n_0_1_132 x i) : (⟨S50000x32, .f32⟩ : BufTy).Contents (Elt F) → (⟨S1200000x1, .i32⟩ : BufTy).Contents (Elt F) → (⟨S1200000x32, .f32⟩ : BufTy).Contents (Elt F)),
    unary main_arg2 main_v14 (broadcastInDim S1200000x1 ![0] bcast_S1200000_S1200000x1_0 : (⟨S1200000, .f32⟩ : BufTy).Contents (Elt F) → (⟨S1200000x1, .f32⟩ : BufTy).Contents (Elt F)),
    unary main_v14 main_v15 (broadcastInDim S1200000x32 ![0, 1] bcast_S1200000x1_S1200000x32_0_1 : (⟨S1200000x1, .f32⟩ : BufTy).Contents (Elt F) → (⟨S1200000x32, .f32⟩ : BufTy).Contents (Elt F)),
    binary main_v13 main_v15 main_v16 (mulf : (⟨S1200000x32, .f32⟩ : BufTy).Contents (Elt F) → (⟨S1200000x32, .f32⟩ : BufTy).Contents (Elt F) → (⟨S1200000x32, .f32⟩ : BufTy).Contents (Elt F)),
    nullary main_cst (constant S_ .f32 0x00000000#32),
    unary main_cst main_v17 (broadcastInDim S50000x32 ![] bcast_S_S50000x32 : (⟨S_, .f32⟩ : BufTy).Contents (Elt F) → (⟨S50000x32, .f32⟩ : BufTy).Contents (Elt F)),
    unary main_v3 main_v18 (broadcastInDim S1200000x1 ![0] bcast_S1200000_S1200000x1_0 : (⟨S1200000, .i32⟩ : BufTy).Contents (Elt F) → (⟨S1200000x1, .i32⟩ : BufTy).Contents (Elt F)),
    ternary main_v17 main_v18 main_v16 main_v19 ((fun x i u => Host.scatterAdd scatter_S50000x32_S1200000x1_S1200000x32_1_0_0_1 x i u) : (⟨S50000x32, .f32⟩ : BufTy).Contents (Elt F) → (⟨S1200000x1, .i32⟩ : BufTy).Contents (Elt F) → (⟨S1200000x32, .f32⟩ : BufTy).Contents (Elt F) → (⟨S50000x32, .f32⟩ : BufTy).Contents (Elt F)),
    unary main_arg3 main_v20 ((extractStridedSlice S1x32x64 ![1, 0, 0] · slices_S4x32x64_S1x32x64_1_0_0) : (⟨S4x32x64, .f32⟩ : BufTy).Contents (Elt F) → (⟨S1x32x64, .f32⟩ : BufTy).Contents (Elt F)),
    reshape main_v20 main_v21 rfl shapeCasts_S1x32x64_S32x64,
    binary main_v19 main_v21 main_v22 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    binary main_v6 main_v22 main_v23 (addf : (⟨S50000x64, .f32⟩ : BufTy).Contents (Elt F) → (⟨S50000x64, .f32⟩ : BufTy).Contents (Elt F) → (⟨S50000x64, .f32⟩ : BufTy).Contents (Elt F)),
    nullary main_c_1 (constantI S_ 32 0#32),
    unary main_c_1 main_v24 (broadcastInDim S1200000 ![] bcast_S_S1200000 : (⟨S_, .i32⟩ : BufTy).Contents (Elt F) → (⟨S1200000, .i32⟩ : BufTy).Contents (Elt F)),
    binary main_v1 main_v24 main_v25 (cmpi .slt : (⟨S1200000, .i32⟩ : BufTy).Contents (Elt F) → (⟨S1200000, .i32⟩ : BufTy).Contents (Elt F) → (⟨S1200000, .i1⟩ : BufTy).Contents (Elt F)),
    nullary main_c_2 (constantI S_ 32 50000#32),
    unary main_c_2 main_v26 (broadcastInDim S1200000 ![] bcast_S_S1200000 : (⟨S_, .i32⟩ : BufTy).Contents (Elt F) → (⟨S1200000, .i32⟩ : BufTy).Contents (Elt F)),
    binary main_v1 main_v26 main_v27 (addi : (⟨S1200000, .i32⟩ : BufTy).Contents (Elt F) → (⟨S1200000, .i32⟩ : BufTy).Contents (Elt F) → (⟨S1200000, .i32⟩ : BufTy).Contents (Elt F)),
    ternary main_v25 main_v27 main_v1 main_v28 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v28 main_v29 (broadcastInDim S1200000x1 ![0] bcast_S1200000_S1200000x1_0 : (⟨S1200000, .i32⟩ : BufTy).Contents (Elt F) → (⟨S1200000x1, .i32⟩ : BufTy).Contents (Elt F)),
    binary main_v19 main_v29 main_v30 ((fun x i => Host.gather gather_S50000x32_S1200000x1_S1200000x32_1_0_n_n_0_1_132 x i) : (⟨S50000x32, .f32⟩ : BufTy).Contents (Elt F) → (⟨S1200000x1, .i32⟩ : BufTy).Contents (Elt F) → (⟨S1200000x32, .f32⟩ : BufTy).Contents (Elt F)),
    unary main_arg2 main_v31 (broadcastInDim S1200000x1 ![0] bcast_S1200000_S1200000x1_0 : (⟨S1200000, .f32⟩ : BufTy).Contents (Elt F) → (⟨S1200000x1, .f32⟩ : BufTy).Contents (Elt F)),
    unary main_v31 main_v32 (broadcastInDim S1200000x32 ![0, 1] bcast_S1200000x1_S1200000x32_0_1 : (⟨S1200000x1, .f32⟩ : BufTy).Contents (Elt F) → (⟨S1200000x32, .f32⟩ : BufTy).Contents (Elt F)),
    binary main_v30 main_v32 main_v33 (mulf : (⟨S1200000x32, .f32⟩ : BufTy).Contents (Elt F) → (⟨S1200000x32, .f32⟩ : BufTy).Contents (Elt F) → (⟨S1200000x32, .f32⟩ : BufTy).Contents (Elt F)),
    nullary main_cst_3 (constant S_ .f32 0x00000000#32),
    unary main_cst_3 main_v34 (broadcastInDim S50000x32 ![] bcast_S_S50000x32 : (⟨S_, .f32⟩ : BufTy).Contents (Elt F) → (⟨S50000x32, .f32⟩ : BufTy).Contents (Elt F)),
    unary main_v3 main_v35 (broadcastInDim S1200000x1 ![0] bcast_S1200000_S1200000x1_0 : (⟨S1200000, .i32⟩ : BufTy).Contents (Elt F) → (⟨S1200000x1, .i32⟩ : BufTy).Contents (Elt F)),
    ternary main_v34 main_v35 main_v33 main_v36 ((fun x i u => Host.scatterAdd scatter_S50000x32_S1200000x1_S1200000x32_1_0_0_1 x i u) : (⟨S50000x32, .f32⟩ : BufTy).Contents (Elt F) → (⟨S1200000x1, .i32⟩ : BufTy).Contents (Elt F) → (⟨S1200000x32, .f32⟩ : BufTy).Contents (Elt F) → (⟨S50000x32, .f32⟩ : BufTy).Contents (Elt F)),
    unary main_arg3 main_v37 ((extractStridedSlice S1x32x64 ![2, 0, 0] · slices_S4x32x64_S1x32x64_2_0_0) : (⟨S4x32x64, .f32⟩ : BufTy).Contents (Elt F) → (⟨S1x32x64, .f32⟩ : BufTy).Contents (Elt F)),
    reshape main_v37 main_v38 rfl shapeCasts_S1x32x64_S32x64,
    binary main_v36 main_v38 main_v39 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    binary main_v23 main_v39 main_v40 (addf : (⟨S50000x64, .f32⟩ : BufTy).Contents (Elt F) → (⟨S50000x64, .f32⟩ : BufTy).Contents (Elt F) → (⟨S50000x64, .f32⟩ : BufTy).Contents (Elt F)),
    nullary main_c_4 (constantI S_ 32 0#32),
    unary main_c_4 main_v41 (broadcastInDim S1200000 ![] bcast_S_S1200000 : (⟨S_, .i32⟩ : BufTy).Contents (Elt F) → (⟨S1200000, .i32⟩ : BufTy).Contents (Elt F)),
    binary main_v1 main_v41 main_v42 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 50000#32),
    unary main_c_5 main_v43 (broadcastInDim S1200000 ![] bcast_S_S1200000 : (⟨S_, .i32⟩ : BufTy).Contents (Elt F) → (⟨S1200000, .i32⟩ : BufTy).Contents (Elt F)),
    binary main_v1 main_v43 main_v44 (addi : (⟨S1200000, .i32⟩ : BufTy).Contents (Elt F) → (⟨S1200000, .i32⟩ : BufTy).Contents (Elt F) → (⟨S1200000, .i32⟩ : BufTy).Contents (Elt F)),
    ternary main_v42 main_v44 main_v1 main_v45 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v45 main_v46 (broadcastInDim S1200000x1 ![0] bcast_S1200000_S1200000x1_0 : (⟨S1200000, .i32⟩ : BufTy).Contents (Elt F) → (⟨S1200000x1, .i32⟩ : BufTy).Contents (Elt F)),
    binary main_v36 main_v46 main_v47 ((fun x i => Host.gather gather_S50000x32_S1200000x1_S1200000x32_1_0_n_n_0_1_132 x i) : (⟨S50000x32, .f32⟩ : BufTy).Contents (Elt F) → (⟨S1200000x1, .i32⟩ : BufTy).Contents (Elt F) → (⟨S1200000x32, .f32⟩ : BufTy).Contents (Elt F)),
    unary main_arg2 main_v48 (broadcastInDim S1200000x1 ![0] bcast_S1200000_S1200000x1_0 : (⟨S1200000, .f32⟩ : BufTy).Contents (Elt F) → (⟨S1200000x1, .f32⟩ : BufTy).Contents (Elt F)),
    unary main_v48 main_v49 (broadcastInDim S1200000x32 ![0, 1] bcast_S1200000x1_S1200000x32_0_1 : (⟨S1200000x1, .f32⟩ : BufTy).Contents (Elt F) → (⟨S1200000x32, .f32⟩ : BufTy).Contents (Elt F)),
    binary main_v47 main_v49 main_v50 (mulf : (⟨S1200000x32, .f32⟩ : BufTy).Contents (Elt F) → (⟨S1200000x32, .f32⟩ : BufTy).Contents (Elt F) → (⟨S1200000x32, .f32⟩ : BufTy).Contents (Elt F)),
    nullary main_cst_6 (constant S_ .f32 0x00000000#32) ]

set_option maxRecDepth 8192 in
theorem c0_sub : (c0 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub ..⟩

set_option maxRecDepth 8192 in
theorem c0_fresh : (c0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers c0 writes. -/
abbrev c0_W : List (Ref sig .tc) := [main_v0, main_v1, main_v2, main_v3, main_v4, main_v5, main_v6, main_c, main_v7, main_v8, main_c_0, main_v9, main_v10, main_v11, main_v12, main_v13, main_v14, main_v15, main_v16, main_cst, main_v17, main_v18, main_v19, main_v20, main_v21, main_v22, main_v23, main_c_1, main_v24, main_v25, main_c_2, main_v26, main_v27, main_v28, main_v29, main_v30, main_v31, main_v32, main_v33, main_cst_3, main_v34, main_v35, main_v36, main_v37, main_v38, main_v39, main_v40, main_c_4, main_v41, main_v42, main_c_5, main_v43, main_v44, main_v45, main_v46, main_v47, main_v48, main_v49, main_v50, main_cst_6]

end Cert.ReferenceIdeal.HRun

end
-- ==== Proof.Ref.Chain.lean ====
/-
  The reference's printed operations, composed as pure functions of the program's arguments.

  One hop takes node features u, the edge list (row 0 the sources, row 1 the destinations) and the edge weights w:
  the sources are wrapped (a negative index has the node count added), the rows of u at the sources are gathered,
  each is multiplied by its edge's weight, and the products are scatter-added into a zero array at the destinations.
  A layer is the sum, left to right, of the four products  hop^k u · W[k]  (W[k] the k-th slice of the weight stack,
  reshaped to a matrix), plus the bias row broadcast down the nodes, through the leaky rectifier; the last layer has
  neither bias nor rectifier.  Every definition is the printed operation applied to the printed operands, at any
  instance of the float operations.
-/
import proofs.«401537_j29600914604721_1_alg».proof.Proof.Gen.ReferenceIdeal

noncomputable section

namespace Cert.ReferenceIdeal.HVal

open Idealize.ShloMosaic Cert.ReferenceIdeal Cert.ReferenceIdeal.Facts₀

variable {F : FTy → Type} [FloatOps F]

/-- The contents of a buffer of shape S and element type e. -/
abbrev Arr (F : FTy → Type) (S : Shape) (e : EltTy) : Type := (⟨S, e⟩ : BufTy).Contents (Elt F)

/-- Row 0 of the edge list, as a vector: the source of each edge. -/
def edgeSrc (ei : Arr F S2x1200000 .i32) : Arr F S1200000 .i32 :=
  shapeCast S1200000 (extractStridedSlice S1x1200000 ![0, 0] ei slices_S2x1200000_S1x1200000_0_0) shapeCasts_S1x1200000_S1200000

/-- Row 1 of the edge list, as a vector: the destination of each edge. -/
def edgeDst (ei : Arr F S2x1200000 .i32) : Arr F S1200000 .i32 :=
  shapeCast S1200000 (extractStridedSlice S1x1200000 ![1, 0] ei slices_S2x1200000_S1x1200000_1_0) shapeCasts_S1x1200000_S1200000

/-- The gather's index column: the sources, a negative one wrapped by the node count. -/
def srcCol (ei : Arr F S2x1200000 .i32) : Arr F S1200000x1 .i32 :=
  broadcastInDim S1200000x1 ![0] bcast_S1200000_S1200000x1_0
    (select (cmpi .slt (edgeSrc (F := F) ei) (broadcastInDim S1200000 ![] bcast_S_S1200000 (constantI S_ 32 0#32)))
      (addi (edgeSrc (F := F) ei) (broadcastInDim S1200000 ![] bcast_S_S1200000 (constantI S_ 32 50000#32)))
      (edgeSrc (F := F) ei))

/-- The scatter's index column: the destinations. -/
def dstCol (ei : Arr F S2x1200000 .i32) : Arr F S1200000x1 .i32 :=
  broadcastInDim S1200000x1 ![0] bcast_S1200000_S1200000x1_0 (edgeDst (F := F) ei)

/-- One weighted hop of 32-channel features. -/
def hop32 (ei : Arr F S2x1200000 .i32) (w : Arr F S1200000 .f32) (u : Arr F S50000x32 .f32) : Arr F S50000x32 .f32 :=
  Host.scatterAdd scatter_S50000x32_S1200000x1_S1200000x32_1_0_0_1
    (broadcastInDim S50000x32 ![] bcast_S_S50000x32 (constant S_ .f32 0x00000000#32))
    (dstCol (F := F) ei)
    (mulf (Host.gather gather_S50000x32_S1200000x1_S1200000x32_1_0_n_n_0_1_132 u (srcCol (F := F) ei))
      (broadcastInDim S1200000x32 ![0, 1] bcast_S1200000x1_S1200000x32_0_1
        (broadcastInDim S1200000x1 ![0] bcast_S1200000_S1200000x1_0 w)))

/-- One weighted hop of 64-channel features. -/
def hop64 (ei : Arr F S2x1200000 .i32) (w : Arr F S1200000 .f32) (u : Arr F S50000x64 .f32) : Arr F S50000x64 .f32 :=
  Host.scatterAdd scatter_S50000x64_S1200000x1_S1200000x64_1_0_0_1
    (broadcastInDim S50000x64 ![] bcast_S_S50000x64 (constant S_ .f32 0x00000000#32))
    (dstCol (F := F) ei)
    (mulf (Host.gather gather_S50000x64_S1200000x1_S1200000x64_1_0_n_n_0_1_164 u (srcCol (F := F) ei))
      (broadcastInDim S1200000x64 ![0, 1] bcast_S1200000x1_S1200000x64_0_1
        (broadcastInDim S1200000x1 ![0] bcast_S1200000_S1200000x1_0 w)))

/-- The four matrices of the first layer's weight stack. -/
def w1_0 (W : Arr F S4x32x64 .f32) : Arr F S32x64 .f32 :=
  shapeCast S32x64 (extractStridedSlice S1x32x64 ![0, 0, 0] W slices_S4x32x64_S1x32x64_0_0_0) shapeCasts_S1x32x64_S32x64
def w1_1 (W : Arr F S4x32x64 .f32) : Arr F S32x64 .f32 :=
  shapeCast S32x64 (extractStridedSlice S1x32x64 ![1, 0, 0] W slices_S4x32x64_S1x32x64_1_0_0) shapeCasts_S1x32x64_S32x64
def w1_2 (W : Arr F S4x32x64 .f32) : Arr F S32x64 .f32 :=
  shapeCast S32x64 (extractStridedSlice S1x32x64 ![2, 0, 0] W slices_S4x32x64_S1x32x64_2_0_0) shapeCasts_S1x32x64_S32x64
def w1_3 (W : Arr F S4x32x64 .f32) : Arr F S32x64 .f32 :=
  shapeCast S32x64 (extractStridedSlice S1x32x64 ![3, 0, 0] W slices_S4x32x64_S1x32x64_3_0_0) shapeCasts_S1x32x64_S32x64

/-- The four matrices of the second layer's weight stack. -/
def w2_0 (W : Arr F S4x64x64 .f32) : Arr F S64x64 .f32 :=
  shapeCast S64x64 (extractStridedSlice S1x64x64 ![0, 0, 0] W slices_S4x64x64_S1x64x64_0_0_0) shapeCasts_S1x64x64_S64x64
def w2_1 (W : Arr F S4x64x64 .f32) : Arr F S64x64 .f32 :=
  shapeCast S64x64 (extractStridedSlice S1x64x64 ![1, 0, 0] W slices_S4x64x64_S1x64x64_1_0_0) shapeCasts_S1x64x64_S64x64
def w2_2 (W : Arr F S4x64x64 .f32) : Arr F S64x64 .f32 :=
  shapeCast S64x64 (extractStridedSlice S1x64x64 ![2, 0, 0] W slices_S4x64x64_S1x64x64_2_0_0) shapeCasts_S1x64x64_S64x64
def w2_3 (W : Arr F S4x64x64 .f32) : Arr F S64x64 .f32 :=
  shapeCast S64x64 (extractStridedSlice S1x64x64 ![3, 0, 0] W slices_S4x64x64_S1x64x64_3_0_0) shapeCasts_S1x64x64_S64x64

/-- The four matrices of the last layer's weight stack. -/
def w3_0 (W : Arr F S4x64x1 .f32) : Arr F S64x1 .f32 :=
  shapeCast S64x1 (extractStridedSlice S1x64x1 ![0, 0, 0] W slices_S4x64x1_S1x64x1_0_0_0) shapeCasts_S1x64x1_S64x1
def w3_1 (W : Arr F S4x64x1 .f32) : Arr F S64x1 .f32 :=
  shapeCast S64x1 (extractStridedSlice S1x64x1 ![1, 0, 0] W slices_S4x64x1_S1x64x1_1_0_0) shapeCasts_S1x64x1_S64x1
def w3_2 (W : Arr F S4x64x1 .f32) : Arr F S64x1 .f32 :=
  shapeCast S64x1 (extractStridedSlice S1x64x1 ![2, 0, 0] W slices_S4x64x1_S1x64x1_2_0_0) shapeCasts_S1x64x1_S64x1
def w3_3 (W : Arr F S4x64x1 .f32) : Arr F S64x1 .f32 :=
  shapeCast S64x1 (extractStridedSlice S1x64x1 ![3, 0, 0] W slices_S4x64x1_S1x64x1_3_0_0) shapeCasts_S1x64x1_S64x1

/-- The three matrix products the layers use. -/
def dot1 (h : Arr F S50000x32 .f32) (m : Arr F S32x64 .f32) : Arr F S50000x64 .f32 :=
  Host.dotGeneral dot_S50000x32_S32x64_S50000x64_1_0_0_1_n_n none h m
def dot2 (h : Arr F S50000x64 .f32) (m : Arr F S64x64 .f32) : Arr F S50000x64 .f32 :=
  Host.dotGeneral dot_S50000x64_S64x64_S50000x64_1_0_0_1_n_n none h m
def dot3 (h : Arr F S50000x64 .f32) (m : Arr F S64x1 .f32) : Arr F S50000x1 .f32 :=
  Host.dotGeneral dot_S50000x64_S64x1_S50000x1_1_0_0_1_n_n none h m

/-- A bias row [64] broadcast to [1, 64] and then down the 50000 nodes. -/
def biasRows (b : Arr F S64 .f32) : Arr F S50000x64 .f32 :=
  broadcastInDim S50000x64 ![0, 1] bcast_S1x64_S50000x64_0_1 (broadcastInDim S1x64 ![1] bcast_S64_S1x64_1 b)

/-- The leaky rectifier as the called function computes it: where v ≥ 0 the value v, elsewhere slope · v. -/
def leaky (v : Arr F S50000x64 .f32) : Arr F S50000x64 .f32 :=
  select (cmpf .oge v (broadcastInDim S50000x64 ![] bcast_S_S50000x64 (constant S_ .f32 0x00000000#32))) v
    (mulf (broadcastInDim S50000x64 ![] bcast_S_S50000x64 (constant S_ .f32 0x3C23D70A#32)) v)

/-- The first layer before its bias: the four hop terms summed left to right. -/
def lin1 (ei : Arr F S2x1200000 .i32) (w : Arr F S1200000 .f32) (x : Arr F S50000x32 .f32) (W : Arr F S4x32x64 .f32) :
    Arr F S50000x64 .f32 :=
  addf (addf (addf (dot1 x (w1_0 W)) (dot1 (hop32 ei w x) (w1_1 W))) (dot1 (hop32 ei w (hop32 ei w x)) (w1_2 W)))
    (dot1 (hop32 ei w (hop32 ei w (hop32 ei w x))) (w1_3 W))

/-- The second layer before its bias. -/
def lin2 (ei : Arr F S2x1200000 .i32) (w : Arr F S1200000 .f32) (h : Arr F S50000x64 .f32) (W : Arr F S4x64x64 .f32) :
    Arr F S50000x64 .f32 :=
  addf (addf (addf (dot2 h (w2_0 W)) (dot2 (hop64 ei w h) (w2_1 W))) (dot2 (hop64 ei w (hop64 ei w h)) (w2_2 W)))
    (dot2 (hop64 ei w (hop64 ei w (hop64 ei w h))) (w2_3 W))

/-- The last layer: no bias, no rectifier. -/
def layer3 (ei : Arr F S2x1200000 .i32) (w : Arr F S1200000 .f32) (h : Arr F S50000x64 .f32) (W : Arr F S4x64x1 .f32) :
    Arr F S50000x1 .f32 :=
  addf (addf (addf (dot3 h (w3_0 W)) (dot3 (hop64 ei w h) (w3_1 W))) (dot3 (hop64 ei w (hop64 ei w h)) (w3_2 W)))
    (dot3 (hop64 ei w (hop64 ei w (hop64 ei w h))) (w3_3 W))

/-- The first layer: the value of %61. -/
def layer1 (ei : Arr F S2x1200000 .i32) (w : Arr F S1200000 .f32) (x : Arr F S50000x32 .f32) (W : Arr F S4x32x64 .f32)
    (b : Arr F S64 .f32) : Arr F S50000x64 .f32 :=
  leaky (addf (lin1 ei w x W) (biasRows b))

/-- The second layer: the value of %119. -/
def layer2 (ei : Arr F S2x1200000 .i32) (w : Arr F S1200000 .f32) (h : Arr F S50000x64 .f32) (W : Arr F S4x64x64 .f32)
    (b : Arr F S64 .f32) : Arr F S50000x64 .f32 :=
  leaky (addf (lin2 ei w h W) (biasRows b))

/-- The whole reference: the value of %173. -/
def out (x : Arr F S50000x32 .f32) (ei : Arr F S2x1200000 .i32) (w : Arr F S1200000 .f32) (W0 : Arr F S4x32x64 .f32)
    (b0 : Arr F S64 .f32) (W1 : Arr F S4x64x64 .f32) (b1 : Arr F S64 .f32) (W2 : Arr F S4x64x1 .f32) : Arr F S50000x1 .f32 :=
  layer3 ei w (layer2 ei w (layer1 ei w x W0 b0) W1 b1) W2

end Cert.ReferenceIdeal.HVal

end
-- ==== Proof.Ref.Stage.lean ====
/-
  Names for the pieces of a hop that a cut of the reference's operation list passes through, over the index VECTORS
  (the reference computes the source and destination vectors once and every hop reads them), and that the
  hop over the edge table is the hop over its two rows.
-/
import proofs.«401537_j29600914604721_1_alg».proof.Proof.Ref.Chain

noncomputable section

namespace Cert.ReferenceIdeal.HRun

open Idealize.ShloMosaic Cert.ReferenceIdeal Cert.ReferenceIdeal.Facts₀ Cert.ReferenceIdeal.HVal

variable {F : FTy → Type} [FloatOps F]

/-- An index vector as a one-column index table. -/
def col (d : Arr F S1200000 .i32) : Arr F S1200000x1 .i32 :=
  broadcastInDim S1200000x1 ![0] bcast_S1200000_S1200000x1_0 d

/-- The zero and the node count repeated along the edges. -/
def zeroE : Arr F S1200000 .i32 := broadcastInDim S1200000 ![] bcast_S_S1200000 (constantI S_ 32 0#32)
def countE : Arr F S1200000 .i32 := broadcastInDim S1200000 ![] bcast_S_S1200000 (constantI S_ 32 50000#32)

/-- A negative index counted from the end: s + 50000 where s < 0 (signed), else s. -/
def wrap (s : Arr F S1200000 .i32) : Arr F S1200000 .i32 :=
  select (cmpi .slt s (zeroE (F := F))) (addi s (countE (F := F))) s

/-- The edge weights repeated along the feature columns. -/
def wcol32 (w : Arr F S1200000 .f32) : Arr F S1200000x32 .f32 :=
  broadcastInDim S1200000x32 ![0, 1] bcast_S1200000x1_S1200000x32_0_1 (broadcastInDim S1200000x1 ![0] bcast_S1200000_S1200000x1_0 w)
def wcol64 (w : Arr F S1200000 .f32) : Arr F S1200000x64 .f32 :=
  broadcastInDim S1200000x64 ![0, 1] bcast_S1200000x1_S1200000x64_0_1 (broadcastInDim S1200000x1 ![0] bcast_S1200000_S1200000x1_0 w)

/-- The all-zero arrays the hops sum into. -/
def zeros32 : Arr F S50000x32 .f32 := broadcastInDim S50000x32 ![] bcast_S_S50000x32 (constant S_ .f32 0x00000000#32)
def zeros64 : Arr F S50000x64 .f32 := broadcastInDim S50000x64 ![] bcast_S_S50000x64 (constant S_ .f32 0x00000000#32)

/-- The rows at the wrapped sources, each scaled by its edge's weight. -/
def scaled32 (s : Arr F S1200000 .i32) (w : Arr F S1200000 .f32) (u : Arr F S50000x32 .f32) : Arr F S1200000x32 .f32 :=
  mulf (Host.gather gather_S50000x32_S1200000x1_S1200000x32_1_0_n_n_0_1_132 u (col (F := F) (wrap (F := F) s))) (wcol32 w)
def scaled64 (s : Arr F S1200000 .i32) (w : Arr F S1200000 .f32) (u : Arr F S50000x64 .f32) : Arr F S1200000x64 .f32 :=
  mulf (Host.gather gather_S50000x64_S1200000x1_S1200000x64_1_0_n_n_0_1_164 u (col (F := F) (wrap (F := F) s))) (wcol64 w)

/-- One hop over the source vector s and the destination vector d. -/
def hopV32 (s d : Arr F S1200000 .i32) (w : Arr F S1200000 .f32) (u : Arr F S50000x32 .f32) : Arr F S50000x32 .f32 :=
  Host.scatterAdd scatter_S50000x32_S1200000x1_S1200000x32_1_0_0_1 zeros32 (col (F := F) d) (scaled32 s w u)
def hopV64 (s d : Arr F S1200000 .i32) (w : Arr F S1200000 .f32) (u : Arr F S50000x64 .f32) : Arr F S50000x64 .f32 :=
  Host.scatterAdd scatter_S50000x64_S1200000x1_S1200000x64_1_0_0_1 zeros64 (col (F := F) d) (scaled64 s w u)

theorem hop32_eq (e : Arr F S2x1200000 .i32) (w : Arr F S1200000 .f32) (u : Arr F S50000x32 .f32) :
    hop32 e w u = hopV32 (edgeSrc (F := F) e) (edgeDst (F := F) e) w u := rfl
theorem hop64_eq (e : Arr F S2x1200000 .i32) (w : Arr F S1200000 .f32) (u : Arr F S50000x64 .f32) :
    hop64 e w u = hopV64 (edgeSrc (F := F) e) (edgeDst (F := F) e) w u := rfl

end Cert.ReferenceIdeal.HRun

end
-- ==== Proof.Ref.Run0.lean ====
/-
  Window 0 of the reference's @main (statements 1 to 60: layer 1 up to the third hop's scaled rows):
  the window is its operation list; a buffer the list does not write keeps its contents; and what the window leaves
  in each buffer a later operation reads, as a term of the contents it started from.  Each such equation is the
  fold of the operations' results unrolled at that buffer, which is the stated term by unfolding the names.
-/
import proofs.«401537_j29600914604721_1_alg».proof.Proof.Ref.Ops0
import proofs.«401537_j29600914604721_1_alg».proof.Proof.Ref.Stage

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.HVal

variable {F : FTy → Type} [FloatOps F]

/-- Window 0 is its operation list run in order. -/
theorem main_part0_eq (c : Dev nD) : main_part0 (F := F) c = seq c0 := rfl

/-- Every operation of c0 writes a buffer of the list c0_W. -/
theorem c0_writes : (c0 : List (HloOp τ sig (Elt F))).Forall fun op => op.writes ⊆ (c0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c0 does not write keeps its contents through it. -/
theorem c0_keep (W : Valuation τ sig (Elt F)) (r : Ref sig .tc) (h : r ∉ c0_W) :
    after c0 W (Proc.devRef .tc r) = W (Proc.devRef .tc r) :=
  after_of_writes_sub c0 W c0_writes h

/-! What window 0 leaves behind, from any contents W: the source and destination vectors; the first three hop
    terms of layer 1 summed; the third hop's scaled rows, not yet summed into the destinations; the zero that
    summation starts from. -/

theorem c0_v1 (W : Valuation τ sig (Elt F)) :
    after c0 W (Proc.devRef .tc main_v1) = edgeSrc (F := F) (W (Proc.devRef .tc main_arg1)) := by
  simp only [c0]
  after_results_simp <;> rfl

theorem c0_v3 (W : Valuation τ sig (Elt F)) :
    after c0 W (Proc.devRef .tc main_v3) = edgeDst (F := F) (W (Proc.devRef .tc main_arg1)) := by
  simp only [c0]
  after_results_simp <;> rfl

theorem c0_v40 (W : Valuation τ sig (Elt F)) :
    after c0 W (Proc.devRef .tc main_v40) = addf (addf (dot1 (W (Proc.devRef .tc main_arg0)) (w1_0 (W (Proc.devRef .tc main_arg3)))) (dot1 (hop32 (W (Proc.devRef .tc main_arg1)) (W (Proc.devRef .tc main_arg2)) (W (Proc.devRef .tc main_arg0))) (w1_1 (W (Proc.devRef .tc main_arg3)))))
        (dot1 (hop32 (W (Proc.devRef .tc main_arg1)) (W (Proc.devRef .tc main_arg2)) (hop32 (W (Proc.devRef .tc main_arg1)) (W (Proc.devRef .tc main_arg2)) (W (Proc.devRef .tc main_arg0)))) (w1_2 (W (Proc.devRef .tc main_arg3)))) := by
  simp only [c0]
  after_results_simp <;> rfl

theorem c0_v50 (W : Valuation τ sig (Elt F)) :
    after c0 W (Proc.devRef .tc main_v50) = scaled32 (edgeSrc (F := F) (W (Proc.devRef .tc main_arg1))) (W (Proc.devRef .tc main_arg2)) (hop32 (W (Proc.devRef .tc main_arg1)) (W (Proc.devRef .tc main_arg2)) (hop32 (W (Proc.devRef .tc main_arg1)) (W (Proc.devRef .tc main_arg2)) (W (Proc.devRef .tc main_arg0)))) := by
  simp only [c0]
  after_results_simp <;> rfl

theorem c0_cst6 (W : Valuation τ sig (Elt F)) :
    after c0 W (Proc.devRef .tc main_cst_6) = (constant S_ .f32 0x00000000#32 : Arr F S_ .f32) := by
  simp only [c0]
  after_results_simp <;> rfl

end Cert.ReferenceIdeal.HRun

end
-- ==== Proof.Ref.Ops1.lean ====
/- Tables for the reference's @main, statements of its window 1 (66 operations, a called function's operations
   listed at the call over the call's buffers): the operations in order as lists c1, c2; for each list, that every operation
   touches TensorCore buffers only, that every operation determines its result, and the buffers the list writes. -/
import proofs.«401537_j29600914604721_1_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀

variable {F : FTy → Type} [FloatOps F]

/-- 18 operations, in order. -/
abbrev c1 : List (HloOp τ sig (Elt F)) :=
  [ unary main_cst_6 main_v51 (broadcastInDim S50000x32 ![] bcast_S_S50000x32 : (⟨S_, .f32⟩ : BufTy).Contents (Elt F) → (⟨S50000x32, .f32⟩ : BufTy).Contents (Elt F)),
    unary main_v3 main_v52 (broadcastInDim S1200000x1 ![0] bcast_S1200000_S1200000x1_0 : (⟨S1200000, .i32⟩ : BufTy).Contents (Elt F) → (⟨S1200000x1, .i32⟩ : BufTy).Contents (Elt F)),
    ternary main_v51 main_v52 main_v50 main_v53 ((fun x i u => Host.scatterAdd scatter_S50000x32_S1200000x1_S1200000x32_1_0_0_1 x i u) : (⟨S50000x32, .f32⟩ : BufTy).Contents (Elt F) → (⟨S1200000x1, .i32⟩ : BufTy).Contents (Elt F) → (⟨S1200000x32, .f32⟩ : BufTy).Contents (Elt F) → (⟨S50000x32, .f32⟩ : BufTy).Contents (Elt F)),
    unary main_arg3 main_v54 ((extractStridedSlice S1x32x64 ![3, 0, 0] · slices_S4x32x64_S1x32x64_3_0_0) : (⟨S4x32x64, .f32⟩ : BufTy).Contents (Elt F) → (⟨S1x32x64, .f32⟩ : BufTy).Contents (Elt F)),
    reshape main_v54 main_v55 rfl shapeCasts_S1x32x64_S32x64,
    binary main_v53 main_v55 main_v56 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    binary main_v40 main_v56 main_v57 (addf : (⟨S50000x64, .f32⟩ : BufTy).Contents (Elt F) → (⟨S50000x64, .f32⟩ : BufTy).Contents (Elt F) → (⟨S50000x64, .f32⟩ : BufTy).Contents (Elt F)),
    unary main_arg4 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)),
    nullary main_cst_7 (constant S_ .f32 0x3C23D70A#32),
    TRef.nullary main_call0.cst (constant S_ .f32 0x00000000#32),
    TRef.unary main_call0.cst main_call0.v0 (broadcastInDim S50000x64 ![] bcast_S_S50000x64),
    TRef.binary (.of main_v60 : TRef sig ⟨S50000x64, .f32⟩) main_call0.v0 main_call0.v1 (cmpf .oge),
    TRef.unary (.of main_cst_7 : TRef sig ⟨S_, .f32⟩) main_call0.v2 id,
    TRef.unary main_call0.v2 main_call0.v3 (broadcastInDim S50000x64 ![] bcast_S_S50000x64),
    TRef.binary main_call0.v3 (.of main_v60 : TRef sig ⟨S50000x64, .f32⟩) main_call0.v4 mulf,
    TRef.ternary main_call0.v1 (.of main_v60 : TRef sig ⟨S50000x64, .f32⟩) main_call0.v4 main_call0.call0.v0 select ]

set_option maxRecDepth 8192 in
theorem c1_sub : (c1 : List (HloOp τ sig (Elt F))).Forall fun op => op.bufs ⊆ tcRefs τ sig :=
  ⟨unary_bufs_sub .., unary_bufs_sub .., ternary_bufs_sub .., unary_bufs_sub .., reshape_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers c1 writes. -/
abbrev c1_W : List (Ref sig .tc) := [main_v51, main_v52, main_v53, main_v54, main_v55, main_v56, main_v57, main_v58, main_v59, main_v60, main_cst_7, main_call0_cst, main_call0_v0, main_call0_v1, main_call0_v2, main_call0_v3, main_call0_v4, main_v61]

/-- 48 operations, in order. -/
abbrev c2 : List (HloOp τ sig (Elt F)) :=
  [ unary main_arg5 main_v62 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v62 main_v63 rfl shapeCasts_S1x64x64_S64x64,
    binary main_v61 main_v63 main_v64 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_c_8 (constantI S_ 32 0#32),
    unary main_c_8 main_v65 (broadcastInDim S1200000 ![] bcast_S_S1200000 : (⟨S_, .i32⟩ : BufTy).Contents (Elt F) → (⟨S1200000, .i32⟩ : BufTy).Contents (Elt F)),
    binary main_v1 main_v65 main_v66 (cmpi .slt : (⟨S1200000, .i32⟩ : BufTy).Contents (Elt F) → (⟨S1200000, .i32⟩ : BufTy).Contents (Elt F) → (⟨S1200000, .i1⟩ : BufTy).Contents (Elt F)),
    nullary main_c_9 (constantI S_ 32 50000#32),
    unary main_c_9 main_v67 (broadcastInDim S1200000 ![] bcast_S_S1200000 : (⟨S_, .i32⟩ : BufTy).Contents (Elt F) → (⟨S1200000, .i32⟩ : BufTy).Contents (Elt F)),
    binary main_v1 main_v67 main_v68 (addi : (⟨S1200000, .i32⟩ : BufTy).Contents (Elt F) → (⟨S1200000, .i32⟩ : BufTy).Contents (Elt F) → (⟨S1200000, .i32⟩ : BufTy).Contents (Elt F)),
    ternary main_v66 main_v68 main_v1 main_v69 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v69 main_v70 (broadcastInDim S1200000x1 ![0] bcast_S1200000_S1200000x1_0 : (⟨S1200000, .i32⟩ : BufTy).Contents (Elt F) → (⟨S1200000x1, .i32⟩ : BufTy).Contents (Elt F)),
    binary main_v61 main_v70 main_v71 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v72 (broadcastInDim S1200000x1 ![0] bcast_S1200000_S1200000x1_0 : (⟨S1200000, .f32⟩ : BufTy).Contents (Elt F) → (⟨S1200000x1, .f32⟩ : BufTy).Contents (Elt F)),
    unary main_v72 main_v73 (broadcastInDim S1200000x64 ![0, 1] bcast_S1200000x1_S1200000x64_0_1 : (⟨S1200000x1, .f32⟩ : BufTy).Contents (Elt F) → (⟨S1200000x64, .f32⟩ : BufTy).Contents (Elt F)),
    binary main_v71 main_v73 main_v74 (mulf : (⟨S1200000x64, .f32⟩ : BufTy).Contents (Elt F) → (⟨S1200000x64, .f32⟩ : BufTy).Contents (Elt F) → (⟨S1200000x64, .f32⟩ : BufTy).Contents (Elt F)),
    nullary main_cst_10 (constant S_ .f32 0x00000000#32),
    unary main_cst_10 main_v75 (broadcastInDim S50000x64 ![] bcast_S_S50000x64 : (⟨S_, .f32⟩ : BufTy).Contents (Elt F) → (⟨S50000x64, .f32⟩ : BufTy).Contents (Elt F)),
    unary main_v3 main_v76 (broadcastInDim S1200000x1 ![0] bcast_S1200000_S1200000x1_0 : (⟨S1200000, .i32⟩ : BufTy).Contents (Elt F) → (⟨S1200000x1, .i32⟩ : BufTy).Contents (Elt F)),
    ternary main_v75 main_v76 main_v74 main_v77 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg5 main_v78 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v78 main_v79 rfl shapeCasts_S1x64x64_S64x64,
    binary main_v77 main_v79 main_v80 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v64 main_v80 main_v81 (addf : (⟨S50000x64, .f32⟩ : BufTy).Contents (Elt F) → (⟨S50000x64, .f32⟩ : BufTy).Contents (Elt F) → (⟨S50000x64, .f32⟩ : BufTy).Contents (Elt F)),
    nullary main_c_11 (constantI S_ 32 0#32),
    unary main_c_11 main_v82 (broadcastInDim S1200000 ![] bcast_S_S1200000 : (⟨S_, .i32⟩ : BufTy).Contents (Elt F) → (⟨S1200000, .i32⟩ : BufTy).Contents (Elt F)),
    binary main_v1 main_v82 main_v83 (cmpi .slt : (⟨S1200000, .i32⟩ : BufTy).Contents (Elt F) → (⟨S1200000, .i32⟩ : BufTy).Contents (Elt F) → (⟨S1200000, .i1⟩ : BufTy).Contents (Elt F)),
    nullary main_c_12 (constantI S_ 32 50000#32),
    unary main_c_12 main_v84 (broadcastInDim S1200000 ![] bcast_S_S1200000 : (⟨S_, .i32⟩ : BufTy).Contents (Elt F) → (⟨S1200000, .i32⟩ : BufTy).Contents (Elt F)),
    binary main_v1 main_v84 main_v85 (addi : (⟨S1200000, .i32⟩ : BufTy).Contents (Elt F) → (⟨S1200000, .i32⟩ : BufTy).Contents (Elt F) → (⟨S1200000, .i32⟩ : BufTy).Contents (Elt F)),
    ternary main_v83 main_v85 main_v1 main_v86 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v86 main_v87 (broadcastInDim S1200000x1 ![0] bcast_S1200000_S1200000x1_0 : (⟨S1200000, .i32⟩ : BufTy).Contents (Elt F) → (⟨S1200000x1, .i32⟩ : BufTy).Contents (Elt F)),
    binary main_v77 main_v87 main_v88 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v89 (broadcastInDim S1200000x1 ![0] bcast_S1200000_S1200000x1_0 : (⟨S1200000, .f32⟩ : BufTy).Contents (Elt F) → (⟨S1200000x1, .f32⟩ : BufTy).Contents (Elt F)),
    unary main_v89 main_v90 (broadcastInDim S1200000x64 ![0, 1] bcast_S1200000x1_S1200000x64_0_1 : (⟨S1200000x1, .f32⟩ : BufTy).Contents (Elt F) → (⟨S1200000x64, .f32⟩ : BufTy).Contents (Elt F)),
    binary main_v88 main_v90 main_v91 (mulf : (⟨S1200000x64, .f32⟩ : BufTy).Contents (Elt F) → (⟨S1200000x64, .f32⟩ : BufTy).Contents (Elt F) → (⟨S1200000x64, .f32⟩ : BufTy).Contents (Elt F)),
    nullary main_cst_13 (constant S_ .f32 0x00000000#32),
    unary main_cst_13 main_v92 (broadcastInDim S50000x64 ![] bcast_S_S50000x64 : (⟨S_, .f32⟩ : BufTy).Contents (Elt F) → (⟨S50000x64, .f32⟩ : BufTy).Contents (Elt F)),
    unary main_v3 main_v93 (broadcastInDim S1200000x1 ![0] bcast_S1200000_S1200000x1_0 : (⟨S1200000, .i32⟩ : BufTy).Contents (Elt F) → (⟨S1200000x1, .i32⟩ : BufTy).Contents (Elt F)),
    ternary main_v92 main_v93 main_v91 main_v94 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg5 main_v95 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v95 main_v96 rfl shapeCasts_S1x64x64_S64x64,
    binary main_v94 main_v96 main_v97 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v81 main_v97 main_v98 (addf : (⟨S50000x64, .f32⟩ : BufTy).Contents (Elt F) → (⟨S50000x64, .f32⟩ : BufTy).Contents (Elt F) → (⟨S50000x64, .f32⟩ : BufTy).Contents (Elt F)),
    nullary main_c_14 (constantI S_ 32 0#32),
    unary main_c_14 main_v99 (broadcastInDim S1200000 ![] bcast_S_S1200000 : (⟨S_, .i32⟩ : BufTy).Contents (Elt F) → (⟨S1200000, .i32⟩ : BufTy).Contents (Elt F)),
    binary main_v1 main_v99 main_v100 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 50000#32),
    unary main_c_15 main_v101 (broadcastInDim S1200000 ![] bcast_S_S1200000 : (⟨S_, .i32⟩ : BufTy).Contents (Elt F) → (⟨S1200000, .i32⟩ : BufTy).Contents (Elt F)) ]

set_option maxRecDepth 8192 in
theorem c2_sub : (c2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub ..⟩

set_option maxRecDepth 8192 in
theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers c2 writes. -/
abbrev c2_W : List (Ref sig .tc) := [main_v62, main_v63, main_v64, main_c_8, main_v65, main_v66, main_c_9, main_v67, main_v68, main_v69, main_v70, main_v71, main_v72, main_v73, main_v74, main_cst_10, main_v75, main_v76, main_v77, main_v78, main_v79, main_v80, main_v81, main_c_11, main_v82, main_v83, main_c_12, main_v84, main_v85, main_v86, main_v87, main_v88, main_v89, main_v90, main_v91, main_cst_13, main_v92, main_v93, main_v94, main_v95, main_v96, main_v97, main_v98, main_c_14, main_v99, main_v100, main_c_15, main_v101]

end Cert.ReferenceIdeal.HRun

end
-- ==== Proof.Ref.Run1.lean ====
/-
  Window 1 of the reference's @main (statements 61 to 120), in two lists: c1 ends layer 1 (the third
  hop summed into the destinations, its term, the bias, the leaky rectifier: the call's operations over the call's
  buffers), c2 is layer 2 up to the node count repeated along the edges for its third hop.  As in window 0: the
  window is its lists run in order, unwritten buffers keep their contents, and each buffer a later operation
  reads holds a stated term of the contents the list started from.
-/
import proofs.«401537_j29600914604721_1_alg».proof.Proof.Ref.Ops1
import proofs.«401537_j29600914604721_1_alg».proof.Proof.Ref.Stage

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.HVal

variable {F : FTy → Type} [FloatOps F]

set_option maxRecDepth 8192 in
/-- Window 1 is its two operation lists run in order (the called function's body unfolded at the call). -/
theorem main_part1_eq (c : Dev nD) : main_part1 (F := F) c = seq (c1 ++ c2) := rfl

/-- Every operation of c1 writes a buffer of the list c1_W. -/
theorem c1_writes : (c1 : List (HloOp τ sig (Elt F))).Forall fun op => op.writes ⊆ (c1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c1 does not write keeps its contents through it. -/
theorem c1_keep (W : Valuation τ sig (Elt F)) (r : Ref sig .tc) (h : r ∉ c1_W) :
    after c1 W (Proc.devRef .tc r) = W (Proc.devRef .tc r) :=
  after_of_writes_sub c1 W c1_writes h

/-- Every operation of c2 writes a buffer of the list c2_W. -/
theorem c2_writes : (c2 : List (HloOp τ sig (Elt F))).Forall fun op => op.writes ⊆ (c2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c2 does not write keeps its contents through it. -/
theorem c2_keep (W : Valuation τ sig (Elt F)) (r : Ref sig .tc) (h : r ∉ c2_W) :
    after c2 W (Proc.devRef .tc r) = W (Proc.devRef .tc r) :=
  after_of_writes_sub c2 W c2_writes h

/-! The end of layer 1, from any contents W: the sum so far plus the third hop's term, plus the bias rows, through the
    rectifier. -/

theorem c1_v61 (W : Valuation τ sig (Elt F)) :
    after c1 W (Proc.devRef .tc main_v61) = leaky (addf (addf (W (Proc.devRef .tc main_v40))
        (dot1 (Host.scatterAdd scatter_S50000x32_S1200000x1_S1200000x32_1_0_0_1
            (broadcastInDim S50000x32 ![] bcast_S_S50000x32 (W (Proc.devRef .tc main_cst_6))) (col (F := F) (W (Proc.devRef .tc main_v3))) (W (Proc.devRef .tc main_v50))) (w1_3 (W (Proc.devRef .tc main_arg3)))))
        (biasRows (W (Proc.devRef .tc main_arg4)))) := by
  simp only [c1]
  after_results_simp <;> rfl

/-! Layer 2 as far as window 1 goes, from any contents W with the layer's input h in main_v61 and the source and
    destination vectors s, d in main_v1, main_v3: the first three hop terms summed; the second hop; and the two
    pieces of the third hop's index wrap that are already computed. -/

theorem c2_v98 (W : Valuation τ sig (Elt F)) :
    after c2 W (Proc.devRef .tc main_v98) = addf (addf (dot2 (W (Proc.devRef .tc main_v61)) (w2_0 (W (Proc.devRef .tc main_arg5)))) (dot2 (hopV64 (W (Proc.devRef .tc main_v1)) (W (Proc.devRef .tc main_v3)) (W (Proc.devRef .tc main_arg2)) (W (Proc.devRef .tc main_v61))) (w2_1 (W (Proc.devRef .tc main_arg5)))))
        (dot2 (hopV64 (W (Proc.devRef .tc main_v1)) (W (Proc.devRef .tc main_v3)) (W (Proc.devRef .tc main_arg2)) (hopV64 (W (Proc.devRef .tc main_v1)) (W (Proc.devRef .tc main_v3)) (W (Proc.devRef .tc main_arg2)) (W (Proc.devRef .tc main_v61)))) (w2_2 (W (Proc.devRef .tc main_arg5)))) := by
  simp only [c2]
  after_results_simp <;> rfl

theorem c2_v94 (W : Valuation τ sig (Elt F)) :
    after c2 W (Proc.devRef .tc main_v94) = hopV64 (W (Proc.devRef .tc main_v1)) (W (Proc.devRef .tc main_v3)) (W (Proc.devRef .tc main_arg2)) (hopV64 (W (Proc.devRef .tc main_v1)) (W (Proc.devRef .tc main_v3)) (W (Proc.devRef .tc main_arg2)) (W (Proc.devRef .tc main_v61))) := by
  simp only [c2]
  after_results_simp <;> rfl

theorem c2_v100 (W : Valuation τ sig (Elt F)) :
    after c2 W (Proc.devRef .tc main_v100) = cmpi .slt (W (Proc.devRef .tc main_v1)) (zeroE (F := F)) := by
  simp only [c2]
  after_results_simp <;> rfl

theorem c2_v101 (W : Valuation τ sig (Elt F)) :
    after c2 W (Proc.devRef .tc main_v101) = countE (F := F) := by
  simp only [c2]
  after_results_simp <;> rfl

end Cert.ReferenceIdeal.HRun

end
-- ==== Proof.Ref.Ops2.lean ====
/- Tables for the reference's @main, statements of its window 2 (66 operations, a called function's operations
   listed at the call over the call's buffers): the operations in order as lists c3, c4; for each list, that every operation
   touches TensorCore buffers only, that every operation determines its result, and the buffers the list writes. -/
import proofs.«401537_j29600914604721_1_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀

variable {F : FTy → Type} [FloatOps F]

/-- 26 operations, in order. -/
abbrev c3 : List (HloOp τ sig (Elt F)) :=
  [ binary main_v1 main_v101 main_v102 (addi : (⟨S1200000, .i32⟩ : BufTy).Contents (Elt F) → (⟨S1200000, .i32⟩ : BufTy).Contents (Elt F) → (⟨S1200000, .i32⟩ : BufTy).Contents (Elt F)),
    ternary main_v100 main_v102 main_v1 main_v103 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v103 main_v104 (broadcastInDim S1200000x1 ![0] bcast_S1200000_S1200000x1_0 : (⟨S1200000, .i32⟩ : BufTy).Contents (Elt F) → (⟨S1200000x1, .i32⟩ : BufTy).Contents (Elt F)),
    binary main_v94 main_v104 main_v105 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v106 (broadcastInDim S1200000x1 ![0] bcast_S1200000_S1200000x1_0 : (⟨S1200000, .f32⟩ : BufTy).Contents (Elt F) → (⟨S1200000x1, .f32⟩ : BufTy).Contents (Elt F)),
    unary main_v106 main_v107 (broadcastInDim S1200000x64 ![0, 1] bcast_S1200000x1_S1200000x64_0_1 : (⟨S1200000x1, .f32⟩ : BufTy).Contents (Elt F) → (⟨S1200000x64, .f32⟩ : BufTy).Contents (Elt F)),
    binary main_v105 main_v107 main_v108 (mulf : (⟨S1200000x64, .f32⟩ : BufTy).Contents (Elt F) → (⟨S1200000x64, .f32⟩ : BufTy).Contents (Elt F) → (⟨S1200000x64, .f32⟩ : BufTy).Contents (Elt F)),
    nullary main_cst_16 (constant S_ .f32 0x00000000#32),
    unary main_cst_16 main_v109 (broadcastInDim S50000x64 ![] bcast_S_S50000x64 : (⟨S_, .f32⟩ : BufTy).Contents (Elt F) → (⟨S50000x64, .f32⟩ : BufTy).Contents (Elt F)),
    unary main_v3 main_v110 (broadcastInDim S1200000x1 ![0] bcast_S1200000_S1200000x1_0 : (⟨S1200000, .i32⟩ : BufTy).Contents (Elt F) → (⟨S1200000x1, .i32⟩ : BufTy).Contents (Elt F)),
    ternary main_v109 main_v110 main_v108 main_v111 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg5 main_v112 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v112 main_v113 rfl shapeCasts_S1x64x64_S64x64,
    binary main_v111 main_v113 main_v114 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v98 main_v114 main_v115 (addf : (⟨S50000x64, .f32⟩ : BufTy).Contents (Elt F) → (⟨S50000x64, .f32⟩ : BufTy).Contents (Elt F) → (⟨S50000x64, .f32⟩ : BufTy).Contents (Elt F)),
    unary main_arg6 main_v116 (broadcastInDim S1x64 ![1] bcast_S64_S1x64_1 : (⟨S64, .f32⟩ : BufTy).Contents (Elt F) → (⟨S1x64, .f32⟩ : BufTy).Contents (Elt F)),
    unary main_v116 main_v117 (broadcastInDim S50000x64 ![0, 1] bcast_S1x64_S50000x64_0_1 : (⟨S1x64, .f32⟩ : BufTy).Contents (Elt F) → (⟨S50000x64, .f32⟩ : BufTy).Contents (Elt F)),
    binary main_v115 main_v117 main_v118 (addf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x3C23D70A#32),
    TRef.nullary main_call1.cst (constant S_ .f32 0x00000000#32),
    TRef.unary main_call1.cst main_call1.v0 (broadcastInDim S50000x64 ![] bcast_S_S50000x64),
    TRef.binary (.of main_v118 : TRef sig ⟨S50000x64, .f32⟩) main_call1.v0 main_call1.v1 (cmpf .oge),
    TRef.unary (.of main_cst_17 : TRef sig ⟨S_, .f32⟩) main_call1.v2 id,
    TRef.unary main_call1.v2 main_call1.v3 (broadcastInDim S50000x64 ![] bcast_S_S50000x64),
    TRef.binary main_call1.v3 (.of main_v118 : TRef sig ⟨S50000x64, .f32⟩) main_call1.v4 mulf,
    TRef.ternary main_call1.v1 (.of main_v118 : TRef sig ⟨S50000x64, .f32⟩) main_call1.v4 main_call1.call0.v0 select ]

set_option maxRecDepth 8192 in
theorem c3_sub : (c3 : List (HloOp τ sig (Elt F))).Forall fun op => op.bufs ⊆ tcRefs τ sig :=
  ⟨binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem c3_fresh : (c3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers c3 writes. -/
abbrev c3_W : List (Ref sig .tc) := [main_v102, main_v103, main_v104, main_v105, main_v106, main_v107, main_v108, main_cst_16, main_v109, main_v110, main_v111, main_v112, main_v113, main_v114, main_v115, main_v116, main_v117, main_v118, main_cst_17, main_call1_cst, main_call1_v0, main_call1_v1, main_call1_v2, main_call1_v3, main_call1_v4, main_v119]

/-- 40 operations, in order. -/
abbrev c4 : List (HloOp τ sig (Elt F)) :=
  [ unary main_arg7 main_v120 ((extractStridedSlice S1x64x1 ![0, 0, 0] · slices_S4x64x1_S1x64x1_0_0_0) : (⟨S4x64x1, .f32⟩ : BufTy).Contents (Elt F) → (⟨S1x64x1, .f32⟩ : BufTy).Contents (Elt F)),
    reshape main_v120 main_v121 rfl shapeCasts_S1x64x1_S64x1,
    binary main_v119 main_v121 main_v122 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    nullary main_c_18 (constantI S_ 32 0#32),
    unary main_c_18 main_v123 (broadcastInDim S1200000 ![] bcast_S_S1200000 : (⟨S_, .i32⟩ : BufTy).Contents (Elt F) → (⟨S1200000, .i32⟩ : BufTy).Contents (Elt F)),
    binary main_v1 main_v123 main_v124 (cmpi .slt : (⟨S1200000, .i32⟩ : BufTy).Contents (Elt F) → (⟨S1200000, .i32⟩ : BufTy).Contents (Elt F) → (⟨S1200000, .i1⟩ : BufTy).Contents (Elt F)),
    nullary main_c_19 (constantI S_ 32 50000#32),
    unary main_c_19 main_v125 (broadcastInDim S1200000 ![] bcast_S_S1200000 : (⟨S_, .i32⟩ : BufTy).Contents (Elt F) → (⟨S1200000, .i32⟩ : BufTy).Contents (Elt F)),
    binary main_v1 main_v125 main_v126 (addi : (⟨S1200000, .i32⟩ : BufTy).Contents (Elt F) → (⟨S1200000, .i32⟩ : BufTy).Contents (Elt F) → (⟨S1200000, .i32⟩ : BufTy).Contents (Elt F)),
    ternary main_v124 main_v126 main_v1 main_v127 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v127 main_v128 (broadcastInDim S1200000x1 ![0] bcast_S1200000_S1200000x1_0 : (⟨S1200000, .i32⟩ : BufTy).Contents (Elt F) → (⟨S1200000x1, .i32⟩ : BufTy).Contents (Elt F)),
    binary main_v119 main_v128 main_v129 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v130 (broadcastInDim S1200000x1 ![0] bcast_S1200000_S1200000x1_0 : (⟨S1200000, .f32⟩ : BufTy).Contents (Elt F) → (⟨S1200000x1, .f32⟩ : BufTy).Contents (Elt F)),
    unary main_v130 main_v131 (broadcastInDim S1200000x64 ![0, 1] bcast_S1200000x1_S1200000x64_0_1 : (⟨S1200000x1, .f32⟩ : BufTy).Contents (Elt F) → (⟨S1200000x64, .f32⟩ : BufTy).Contents (Elt F)),
    binary main_v129 main_v131 main_v132 (mulf : (⟨S1200000x64, .f32⟩ : BufTy).Contents (Elt F) → (⟨S1200000x64, .f32⟩ : BufTy).Contents (Elt F) → (⟨S1200000x64, .f32⟩ : BufTy).Contents (Elt F)),
    nullary main_cst_20 (constant S_ .f32 0x00000000#32),
    unary main_cst_20 main_v133 (broadcastInDim S50000x64 ![] bcast_S_S50000x64 : (⟨S_, .f32⟩ : BufTy).Contents (Elt F) → (⟨S50000x64, .f32⟩ : BufTy).Contents (Elt F)),
    unary main_v3 main_v134 (broadcastInDim S1200000x1 ![0] bcast_S1200000_S1200000x1_0 : (⟨S1200000, .i32⟩ : BufTy).Contents (Elt F) → (⟨S1200000x1, .i32⟩ : BufTy).Contents (Elt F)),
    ternary main_v133 main_v134 main_v132 main_v135 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg7 main_v136 ((extractStridedSlice S1x64x1 ![1, 0, 0] · slices_S4x64x1_S1x64x1_1_0_0) : (⟨S4x64x1, .f32⟩ : BufTy).Contents (Elt F) → (⟨S1x64x1, .f32⟩ : BufTy).Contents (Elt F)),
    reshape main_v136 main_v137 rfl shapeCasts_S1x64x1_S64x1,
    binary main_v135 main_v137 main_v138 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    binary main_v122 main_v138 main_v139 (addf : (⟨S50000x1, .f32⟩ : BufTy).Contents (Elt F) → (⟨S50000x1, .f32⟩ : BufTy).Contents (Elt F) → (⟨S50000x1, .f32⟩ : BufTy).Contents (Elt F)),
    nullary main_c_21 (constantI S_ 32 0#32),
    unary main_c_21 main_v140 (broadcastInDim S1200000 ![] bcast_S_S1200000 : (⟨S_, .i32⟩ : BufTy).Contents (Elt F) → (⟨S1200000, .i32⟩ : BufTy).Contents (Elt F)),
    binary main_v1 main_v140 main_v141 (cmpi .slt : (⟨S1200000, .i32⟩ : BufTy).Contents (Elt F) → (⟨S1200000, .i32⟩ : BufTy).Contents (Elt F) → (⟨S1200000, .i1⟩ : BufTy).Contents (Elt F)),
    nullary main_c_22 (constantI S_ 32 50000#32),
    unary main_c_22 main_v142 (broadcastInDim S1200000 ![] bcast_S_S1200000 : (⟨S_, .i32⟩ : BufTy).Contents (Elt F) → (⟨S1200000, .i32⟩ : BufTy).Contents (Elt F)),
    binary main_v1 main_v142 main_v143 (addi : (⟨S1200000, .i32⟩ : BufTy).Contents (Elt F) → (⟨S1200000, .i32⟩ : BufTy).Contents (Elt F) → (⟨S1200000, .i32⟩ : BufTy).Contents (Elt F)),
    ternary main_v141 main_v143 main_v1 main_v144 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v144 main_v145 (broadcastInDim S1200000x1 ![0] bcast_S1200000_S1200000x1_0 : (⟨S1200000, .i32⟩ : BufTy).Contents (Elt F) → (⟨S1200000x1, .i32⟩ : BufTy).Contents (Elt F)),
    binary main_v135 main_v145 main_v146 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v147 (broadcastInDim S1200000x1 ![0] bcast_S1200000_S1200000x1_0 : (⟨S1200000, .f32⟩ : BufTy).Contents (Elt F) → (⟨S1200000x1, .f32⟩ : BufTy).Contents (Elt F)),
    unary main_v147 main_v148 (broadcastInDim S1200000x64 ![0, 1] bcast_S1200000x1_S1200000x64_0_1 : (⟨S1200000x1, .f32⟩ : BufTy).Contents (Elt F) → (⟨S1200000x64, .f32⟩ : BufTy).Contents (Elt F)),
    binary main_v146 main_v148 main_v149 (mulf : (⟨S1200000x64, .f32⟩ : BufTy).Contents (Elt F) → (⟨S1200000x64, .f32⟩ : BufTy).Contents (Elt F) → (⟨S1200000x64, .f32⟩ : BufTy).Contents (Elt F)),
    nullary main_cst_23 (constant S_ .f32 0x00000000#32),
    unary main_cst_23 main_v150 (broadcastInDim S50000x64 ![] bcast_S_S50000x64 : (⟨S_, .f32⟩ : BufTy).Contents (Elt F) → (⟨S50000x64, .f32⟩ : BufTy).Contents (Elt F)),
    unary main_v3 main_v151 (broadcastInDim S1200000x1 ![0] bcast_S1200000_S1200000x1_0 : (⟨S1200000, .i32⟩ : BufTy).Contents (Elt F) → (⟨S1200000x1, .i32⟩ : BufTy).Contents (Elt F)),
    ternary main_v150 main_v151 main_v149 main_v152 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg7 main_v153 ((extractStridedSlice S1x64x1 ![2, 0, 0] · slices_S4x64x1_S1x64x1_2_0_0) : (⟨S4x64x1, .f32⟩ : BufTy).Contents (Elt F) → (⟨S1x64x1, .f32⟩ : BufTy).Contents (Elt F)) ]

set_option maxRecDepth 8192 in
theorem c4_sub : (c4 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

set_option maxRecDepth 8192 in
theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers c4 writes. -/
abbrev c4_W : List (Ref sig .tc) := [main_v120, main_v121, main_v122, main_c_18, main_v123, main_v124, main_c_19, main_v125, main_v126, main_v127, main_v128, main_v129, main_v130, main_v131, main_v132, main_cst_20, main_v133, main_v134, main_v135, main_v136, main_v137, main_v138, main_v139, main_c_21, main_v140, main_v141, main_c_22, main_v142, main_v143, main_v144, main_v145, main_v146, main_v147, main_v148, main_v149, main_cst_23, main_v150, main_v151, main_v152, main_v153]

end Cert.ReferenceIdeal.HRun

end
-- ==== Proof.Ref.Run2.lean ====
/-
  Window 2 of the reference's @main (statements 121 to 180), in two lists: c3 ends layer 2 (the third
  hop from its wrapped sources on, its term, the bias, the leaky rectifier: the call's operations over the call's
  buffers), c4 is layer 3 up to the third weight slice.  The window is its lists run in order, unwritten buffers
  keep their contents, and each buffer a later operation reads holds a stated term of the contents the list
  started from.
-/
import proofs.«401537_j29600914604721_1_alg».proof.Proof.Ref.Ops2
import proofs.«401537_j29600914604721_1_alg».proof.Proof.Ref.Stage

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.HVal

variable {F : FTy → Type} [FloatOps F]

set_option maxRecDepth 8192 in
/-- Window 2 is its two operation lists run in order (the called function's body unfolded at the call). -/
theorem main_part2_eq (c : Dev nD) : main_part2 (F := F) c = seq (c3 ++ c4) := rfl

/-- Every operation of c3 writes a buffer of the list c3_W. -/
theorem c3_writes : (c3 : List (HloOp τ sig (Elt F))).Forall fun op => op.writes ⊆ (c3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c3 does not write keeps its contents through it. -/
theorem c3_keep (W : Valuation τ sig (Elt F)) (r : Ref sig .tc) (h : r ∉ c3_W) :
    after c3 W (Proc.devRef .tc r) = W (Proc.devRef .tc r) :=
  after_of_writes_sub c3 W c3_writes h

/-- Every operation of c4 writes a buffer of the list c4_W. -/
theorem c4_writes : (c4 : List (HloOp τ sig (Elt F))).Forall fun op => op.writes ⊆ (c4_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c4 does not write keeps its contents through it. -/
theorem c4_keep (W : Valuation τ sig (Elt F)) (r : Ref sig .tc) (h : r ∉ c4_W) :
    after c4 W (Proc.devRef .tc r) = W (Proc.devRef .tc r) :=
  after_of_writes_sub c4 W c4_writes h

/-! The end of layer 2, from any contents W: the third hop of the array in main_v94 (its sources wrapped from the
    compare in main_v100 and the repeated count in main_v101), its term added to the sum so far, plus the bias rows,
    through the rectifier. -/

theorem c3_v119 (W : Valuation τ sig (Elt F)) :
    after c3 W (Proc.devRef .tc main_v119) = leaky (addf (addf (W (Proc.devRef .tc main_v98))
        (dot2 (Host.scatterAdd scatter_S50000x64_S1200000x1_S1200000x64_1_0_0_1 zeros64 (col (F := F) (W (Proc.devRef .tc main_v3)))
            (mulf (Host.gather gather_S50000x64_S1200000x1_S1200000x64_1_0_n_n_0_1_164 (W (Proc.devRef .tc main_v94))
                (col (F := F) (select (W (Proc.devRef .tc main_v100)) (addi (W (Proc.devRef .tc main_v1)) (W (Proc.devRef .tc main_v101))) (W (Proc.devRef .tc main_v1))))) (wcol64 (W (Proc.devRef .tc main_arg2)))))
          (w2_3 (W (Proc.devRef .tc main_arg5)))))
        (biasRows (W (Proc.devRef .tc main_arg6)))) := by
  simp only [c3]
  after_results_simp <;> rfl

/-! Layer 3 as far as window 2 goes, from any contents W with the layer's input h in main_v119 and the source and
    destination vectors in main_v1, main_v3: the first two hop terms summed; the second hop; the third weight
    slice before its reshape. -/

theorem c4_v139 (W : Valuation τ sig (Elt F)) :
    after c4 W (Proc.devRef .tc main_v139) = addf (dot3 (W (Proc.devRef .tc main_v119)) (w3_0 (W (Proc.devRef .tc main_arg7)))) (dot3 (hopV64 (W (Proc.devRef .tc main_v1)) (W (Proc.devRef .tc main_v3)) (W (Proc.devRef .tc main_arg2)) (W (Proc.devRef .tc main_v119))) (w3_1 (W (Proc.devRef .tc main_arg7)))) := by
  simp only [c4]
  after_results_simp <;> rfl

theorem c4_v152 (W : Valuation τ sig (Elt F)) :
    after c4 W (Proc.devRef .tc main_v152) = hopV64 (W (Proc.devRef .tc main_v1)) (W (Proc.devRef .tc main_v3)) (W (Proc.devRef .tc main_arg2)) (hopV64 (W (Proc.devRef .tc main_v1)) (W (Proc.devRef .tc main_v3)) (W (Proc.devRef .tc main_arg2)) (W (Proc.devRef .tc main_v119))) := by
  simp only [c4]
  after_results_simp <;> rfl

theorem c4_v153 (W : Valuation τ sig (Elt F)) :
    after c4 W (Proc.devRef .tc main_v153) = (extractStridedSlice S1x64x1 ![2, 0, 0] (W (Proc.devRef .tc main_arg7)) slices_S4x64x1_S1x64x1_2_0_0 : Arr F S1x64x1 .f32) := by
  simp only [c4]
  after_results_simp <;> rfl

end Cert.ReferenceIdeal.HRun

end
-- ==== Proof.Ref.Ops3.lean ====
/- Tables for the reference's @main, statements of its window 3 (23 operations, a called function's operations
   listed at the call over the call's buffers): the operations in order as lists c5; for each list, that every operation
   touches TensorCore buffers only, that every operation determines its result, and the buffers the list writes. -/
import proofs.«401537_j29600914604721_1_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀

variable {F : FTy → Type} [FloatOps F]

/-- 23 operations, in order. -/
abbrev c5 : List (HloOp τ sig (Elt F)) :=
  [ reshape main_v153 main_v154 rfl shapeCasts_S1x64x1_S64x1,
    binary main_v152 main_v154 main_v155 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    binary main_v139 main_v155 main_v156 (addf : (⟨S50000x1, .f32⟩ : BufTy).Contents (Elt F) → (⟨S50000x1, .f32⟩ : BufTy).Contents (Elt F) → (⟨S50000x1, .f32⟩ : BufTy).Contents (Elt F)),
    nullary main_c_24 (constantI S_ 32 0#32),
    unary main_c_24 main_v157 (broadcastInDim S1200000 ![] bcast_S_S1200000 : (⟨S_, .i32⟩ : BufTy).Contents (Elt F) → (⟨S1200000, .i32⟩ : BufTy).Contents (Elt F)),
    binary main_v1 main_v157 main_v158 (cmpi .slt : (⟨S1200000, .i32⟩ : BufTy).Contents (Elt F) → (⟨S1200000, .i32⟩ : BufTy).Contents (Elt F) → (⟨S1200000, .i1⟩ : BufTy).Contents (Elt F)),
    nullary main_c_25 (constantI S_ 32 50000#32),
    unary main_c_25 main_v159 (broadcastInDim S1200000 ![] bcast_S_S1200000 : (⟨S_, .i32⟩ : BufTy).Contents (Elt F) → (⟨S1200000, .i32⟩ : BufTy).Contents (Elt F)),
    binary main_v1 main_v159 main_v160 (addi : (⟨S1200000, .i32⟩ : BufTy).Contents (Elt F) → (⟨S1200000, .i32⟩ : BufTy).Contents (Elt F) → (⟨S1200000, .i32⟩ : BufTy).Contents (Elt F)),
    ternary main_v158 main_v160 main_v1 main_v161 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v161 main_v162 (broadcastInDim S1200000x1 ![0] bcast_S1200000_S1200000x1_0 : (⟨S1200000, .i32⟩ : BufTy).Contents (Elt F) → (⟨S1200000x1, .i32⟩ : BufTy).Contents (Elt F)),
    binary main_v152 main_v162 main_v163 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v164 (broadcastInDim S1200000x1 ![0] bcast_S1200000_S1200000x1_0 : (⟨S1200000, .f32⟩ : BufTy).Contents (Elt F) → (⟨S1200000x1, .f32⟩ : BufTy).Contents (Elt F)),
    unary main_v164 main_v165 (broadcastInDim S1200000x64 ![0, 1] bcast_S1200000x1_S1200000x64_0_1 : (⟨S1200000x1, .f32⟩ : BufTy).Contents (Elt F) → (⟨S1200000x64, .f32⟩ : BufTy).Contents (Elt F)),
    binary main_v163 main_v165 main_v166 (mulf : (⟨S1200000x64, .f32⟩ : BufTy).Contents (Elt F) → (⟨S1200000x64, .f32⟩ : BufTy).Contents (Elt F) → (⟨S1200000x64, .f32⟩ : BufTy).Contents (Elt F)),
    nullary main_cst_26 (constant S_ .f32 0x00000000#32),
    unary main_cst_26 main_v167 (broadcastInDim S50000x64 ![] bcast_S_S50000x64 : (⟨S_, .f32⟩ : BufTy).Contents (Elt F) → (⟨S50000x64, .f32⟩ : BufTy).Contents (Elt F)),
    unary main_v3 main_v168 (broadcastInDim S1200000x1 ![0] bcast_S1200000_S1200000x1_0 : (⟨S1200000, .i32⟩ : BufTy).Contents (Elt F) → (⟨S1200000x1, .i32⟩ : BufTy).Contents (Elt F)),
    ternary main_v167 main_v168 main_v166 main_v169 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    unary main_arg7 main_v170 ((extractStridedSlice S1x64x1 ![3, 0, 0] · slices_S4x64x1_S1x64x1_3_0_0) : (⟨S4x64x1, .f32⟩ : BufTy).Contents (Elt F) → (⟨S1x64x1, .f32⟩ : BufTy).Contents (Elt F)),
    reshape main_v170 main_v171 rfl shapeCasts_S1x64x1_S64x1,
    binary main_v169 main_v171 main_v172 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    binary main_v156 main_v172 main_v173 (addf : (⟨S50000x1, .f32⟩ : BufTy).Contents (Elt F) → (⟨S50000x1, .f32⟩ : BufTy).Contents (Elt F) → (⟨S50000x1, .f32⟩ : BufTy).Contents (Elt F)) ]

set_option maxRecDepth 8192 in
theorem c5_sub : (c5 : List (HloOp τ sig (Elt F))).Forall fun op => op.bufs ⊆ tcRefs τ sig :=
  ⟨reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub ..⟩

set_option maxRecDepth 8192 in
theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers c5 writes. -/
abbrev c5_W : List (Ref sig .tc) := [main_v154, main_v155, main_v156, main_c_24, main_v157, main_v158, main_c_25, main_v159, main_v160, main_v161, main_v162, main_v163, main_v164, main_v165, main_v166, main_cst_26, main_v167, main_v168, main_v169, main_v170, main_v171, main_v172, main_v173]

end Cert.ReferenceIdeal.HRun

end
-- ==== Proof.Ref.Run3.lean ====
/-
  Window 3 of the reference's @main (statements 181 to 204: the last two hop terms of layer 3): the
  window is its operation list, unwritten buffers keep their contents, and the result buffer holds a stated term
  of the contents the list started from.
-/
import proofs.«401537_j29600914604721_1_alg».proof.Proof.Ref.Ops3
import proofs.«401537_j29600914604721_1_alg».proof.Proof.Ref.Stage

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.HVal

variable {F : FTy → Type} [FloatOps F]

/-- Window 3 is its operation list run in order. -/
theorem main_part3_eq (c : Dev nD) : main_part3 (F := F) c = seq c5 := rfl

/-- Every operation of c5 writes a buffer of the list c5_W. -/
theorem c5_writes : (c5 : List (HloOp τ sig (Elt F))).Forall fun op => op.writes ⊆ (c5_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer c5 does not write keeps its contents through it. -/
theorem c5_keep (W : Valuation τ sig (Elt F)) (r : Ref sig .tc) (h : r ∉ c5_W) :
    after c5 W (Proc.devRef .tc r) = W (Proc.devRef .tc r) :=
  after_of_writes_sub c5 W c5_writes h

/-! The end of layer 3, from any contents W: the sum so far in main_v139, the second hop in main_v152 times the
    third weight matrix (its slice in main_v153 reshaped), and the third hop times the fourth. -/

theorem c5_v173 (W : Valuation τ sig (Elt F)) :
    after c5 W (Proc.devRef .tc main_v173) = addf (addf (W (Proc.devRef .tc main_v139)) (dot3 (W (Proc.devRef .tc main_v152)) (shapeCast S64x1 (W (Proc.devRef .tc main_v153)) shapeCasts_S1x64x1_S64x1)))
        (dot3 (hopV64 (W (Proc.devRef .tc main_v1)) (W (Proc.devRef .tc main_v3)) (W (Proc.devRef .tc main_arg2)) (W (Proc.devRef .tc main_v152))) (w3_3 (W (Proc.devRef .tc main_arg7)))) := by
  simp only [c5]
  after_results_simp <;> rfl

end Cert.ReferenceIdeal.HRun

end
-- ==== Proof.Ref.Run.lean ====
/-
  The reference's run: every weakly fair execution of its @main terminates with the result buffer at the named
  composition of the three layers over the launch contents of the eight arguments, the arguments unchanged.
-/
import proofs.«401537_j29600914604721_1_alg».proof.Proof.Ref.Run0
import proofs.«401537_j29600914604721_1_alg».proof.Proof.Ref.Run1
import proofs.«401537_j29600914604721_1_alg».proof.Proof.Ref.Run2
import proofs.«401537_j29600914604721_1_alg».proof.Proof.Ref.Run3
import Idealize.ShloMosaic.Lib.Pipeline.Frame

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.HVal

variable {F : FTy → Type} [FloatOps F]

/-- @main's operations, in order: the four windows' lists. -/
abbrev ops : List (HloOp τ sig (Elt F)) := c0 ++ ((c1 ++ c2) ++ ((c3 ++ c4) ++ c5))

/-- @main runs its four windows in order, and a list run after a list is their concatenation run. -/
theorem main_eq (c : Dev nD) : main (F := F) c = seq ops := by
  show main (F := F) c = seq (c0 ++ ((c1 ++ c2) ++ ((c3 ++ c4) ++ c5)))
  rw [seq_append c0, seq_append (c1 ++ c2), seq_append (c3 ++ c4) c5,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds of every operation of two lists holds of every operation of their concatenation. -/
private theorem forall_app {α : Type _} {p : α → Prop} {l₁ l₂ : List α} (h₁ : l₁.Forall p) (h₂ : l₂.Forall p) :
    (l₁ ++ l₂).Forall p :=
  List.forall_iff_forall_mem.mpr fun a h =>
    (List.mem_append.mp h).elim (List.forall_iff_forall_mem.mp h₁ a) (List.forall_iff_forall_mem.mp h₂ a)

theorem ops_sub : (ops : List (HloOp τ sig (Elt F))).Forall fun op => op.bufs ⊆ tcRefs τ sig :=
  forall_app c0_sub (forall_app (forall_app c1_sub c2_sub) (forall_app (forall_app c3_sub c4_sub) c5_sub))

theorem ops_fresh : (ops : List (HloOp τ sig (Elt F))).Forall fun op => op.fresh = ∅ :=
  forall_app c0_fresh (forall_app (forall_app c1_fresh c2_fresh) (forall_app (forall_app c3_fresh c4_fresh) c5_fresh))

/-- The contents after all of @main, list by list. -/
theorem after_ops (V : Valuation τ sig (Elt F)) :
    after ops V = after c5 (after c4 (after c3 (after c2 (after c1 (after c0 V))))) := by
  show after (c0 ++ ((c1 ++ c2) ++ ((c3 ++ c4) ++ c5))) V = _
  rw [after_append c0, after_append (c1 ++ c2), after_append (c3 ++ c4) c5, after_append c1 c2, after_append c3 c4]

/-- A buffer no list writes holds at the end what it held at the start. -/
theorem after_ops_keep (V : Valuation τ sig (Elt F)) (r : Ref sig .tc) (h0 : r ∉ c0_W) (h1 : r ∉ c1_W) (h2 : r ∉ c2_W)
    (h3 : r ∉ c3_W) (h4 : r ∉ c4_W) (h5 : r ∉ c5_W) : after ops V (Proc.devRef .tc r) = V (Proc.devRef .tc r) := by
  rw [after_ops, c5_keep _ r h5, c4_keep _ r h4, c3_keep _ r h3, c2_keep _ r h2, c1_keep _ r h1, c0_keep _ r h0]

/-- Layer 1: after the first two lists main_v61 holds the first layer of the arguments. -/
theorem layer1_eq (V : Valuation τ sig (Elt F)) :
    after c1 (after c0 V) (Proc.devRef .tc main_v61)
      = layer1 (V (Proc.devRef .tc main_arg1)) (V (Proc.devRef .tc main_arg2)) (V (Proc.devRef .tc main_arg0))
          (V (Proc.devRef .tc main_arg3)) (V (Proc.devRef .tc main_arg4)) := by
  rw [c1_v61, c0_v40, c0_v50, c0_cst6, c0_v3, c0_keep V main_arg3 (by decide), c0_keep V main_arg4 (by decide)]
  rfl

/-- Layer 2: from contents U whose main_v1, main_v3 hold the two rows of an edge table e, after the next two lists
    main_v119 holds the second layer of what main_v61 held. -/
theorem layer2_eq (U : Valuation τ sig (Elt F)) (e : Arr F S2x1200000 .i32)
    (hs : U (Proc.devRef .tc main_v1) = edgeSrc (F := F) e) (hd : U (Proc.devRef .tc main_v3) = edgeDst (F := F) e) :
    after c3 (after c2 U) (Proc.devRef .tc main_v119)
      = layer2 e (U (Proc.devRef .tc main_arg2)) (U (Proc.devRef .tc main_v61)) (U (Proc.devRef .tc main_arg5))
          (U (Proc.devRef .tc main_arg6)) := by
  rw [c3_v119, c2_v98, c2_v94, c2_v100, c2_v101, c2_keep U main_v1 (by decide), c2_keep U main_v3 (by decide),
    c2_keep U main_arg2 (by decide), c2_keep U main_arg5 (by decide), c2_keep U main_arg6 (by decide), hs, hd]
  rfl

/-- Layer 3: likewise, after the last two lists main_v173 holds the third layer of what main_v119 held. -/
theorem layer3_eq (U : Valuation τ sig (Elt F)) (e : Arr F S2x1200000 .i32)
    (hs : U (Proc.devRef .tc main_v1) = edgeSrc (F := F) e) (hd : U (Proc.devRef .tc main_v3) = edgeDst (F := F) e) :
    after c5 (after c4 U) (Proc.devRef .tc main_v173)
      = layer3 e (U (Proc.devRef .tc main_arg2)) (U (Proc.devRef .tc main_v119)) (U (Proc.devRef .tc main_arg7)) := by
  rw [c5_v173, c4_v139, c4_v152, c4_v153, c4_keep U main_v1 (by decide), c4_keep U main_v3 (by decide),
    c4_keep U main_arg2 (by decide), c4_keep U main_arg7 (by decide), hs, hd]
  rfl

/-- The result buffer after all of @main: the three layers composed over the arguments. -/
theorem res_eq (V : Valuation τ sig (Elt F)) :
    after ops V (Proc.devRef .tc main_v173)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  -- the source and destination vectors are computed in the first list and written by no later one
  have hs2 : after c1 (after c0 V) (Proc.devRef .tc main_v1) = edgeSrc (F := F) (V (Proc.devRef .tc main_arg1)) := by
    rw [c1_keep _ main_v1 (by decide), c0_v1]
  have hd2 : after c1 (after c0 V) (Proc.devRef .tc main_v3) = edgeDst (F := F) (V (Proc.devRef .tc main_arg1)) := by
    rw [c1_keep _ main_v3 (by decide), c0_v3]
  have hs4 : after c3 (after c2 (after c1 (after c0 V))) (Proc.devRef .tc main_v1) = edgeSrc (F := F) (V (Proc.devRef .tc main_arg1)) := by
    rw [c3_keep _ main_v1 (by decide), c2_keep _ main_v1 (by decide), hs2]
  have hd4 : after c3 (after c2 (after c1 (after c0 V))) (Proc.devRef .tc main_v3) = edgeDst (F := F) (V (Proc.devRef .tc main_arg1)) := by
    rw [c3_keep _ main_v3 (by decide), c2_keep _ main_v3 (by decide), hd2]
  rw [after_ops, layer3_eq _ _ hs4 hd4, layer2_eq _ _ hs2 hd2, layer1_eq V,
    c3_keep _ main_arg2 (by decide), c2_keep _ main_arg2 (by decide), c1_keep _ main_arg2 (by decide), c0_keep _ main_arg2 (by decide),
    c3_keep _ main_arg7 (by decide), c2_keep _ main_arg7 (by decide), c1_keep _ main_arg7 (by decide), c0_keep _ main_arg7 (by decide),
    c1_keep _ main_arg5 (by decide), c0_keep _ main_arg5 (by decide), c1_keep _ main_arg6 (by decide), c0_keep _ main_arg6 (by decide)]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v173) = HVal.out (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v173).trans (res_eq (launchContents m c)),
      (h c main_arg0).trans (after_ops_keep (launchContents m c) main_arg0 (by decide) (by decide) (by decide) (by decide) (by decide) (by decide)),
      (h c main_arg1).trans (after_ops_keep (launchContents m c) main_arg1 (by decide) (by decide) (by decide) (by decide) (by decide) (by decide)),
      (h c main_arg2).trans (after_ops_keep (launchContents m c) main_arg2 (by decide) (by decide) (by decide) (by decide) (by decide) (by decide)),
      (h c main_arg3).trans (after_ops_keep (launchContents m c) main_arg3 (by decide) (by decide) (by decide) (by decide) (by decide) (by decide)),
      (h c main_arg4).trans (after_ops_keep (launchContents m c) main_arg4 (by decide) (by decide) (by decide) (by decide) (by decide) (by decide)),
      (h c main_arg5).trans (after_ops_keep (launchContents m c) main_arg5 (by decide) (by decide) (by decide) (by decide) (by decide) (by decide)),
      (h c main_arg6).trans (after_ops_keep (launchContents m c) main_arg6 (by decide) (by decide) (by decide) (by decide) (by decide) (by decide)),
      (h c main_arg7).trans (after_ops_keep (launchContents m c) main_arg7 (by decide) (by decide) (by decide) (by decide) (by decide) (by decide))⟩)
    (run_seq scopedRefs_eq scopedSems_eq defs main (fun _ => ops) main_eq (fun _ => ops_sub) m ρ
      (fun _ op h => List.forall_iff_forall_mem.mp ops_fresh op h))

end Cert.ReferenceIdeal.HRun

end
-- ==== Proof.Ref.Val.lean ====
/-
  The reference's value: each layer's printed chain is the layer of the shared specification, applied to the layer's
  input u and its three successive hops  hop u, hop² u, hop³ u.

  At the extended reals a host matrix product read at (i, j) is the sum over the contracted coordinate of the products
  of the entries; the k-th slice of the weight stack, reshaped to a matrix, reads the stack at (k, d, j); the bias
  broadcast [E] → [1, E] → [50000, E] reads the bias at j; and the called rectifier (zero splat, ordered compare,
  slope splat, product, select) is the specification's, operation for operation.
-/
import proofs.«401537_j29600914604721_1_alg».proof.Proof.Spec
import proofs.«401537_j29600914604721_1_alg».proof.Proof.Ref.Chain
import Idealize.ShloMosaic.Lib.StackMember
import Idealize.ShloMosaic.Lib.IdealHost
import Idealize.ShloMosaic.Lib.Pipeline.Value

noncomputable section

namespace Cert.ReferenceIdeal.HVal

open Idealize.ShloMosaic Idealize.ShloMosaic.ValueIdx Cert.ReferenceIdeal Cert.ReferenceIdeal.Facts₀

/-- The k-th slice [k : k+1] of a stack of four matrices, reshaped to a matrix, read at (d, j) is the stack at (k, d, j). -/
theorem sliceMat_apply {α : Type} {D E : Nat} (k : Fin 4) (off : Nat) (hoff : k.val = off)
    (W : (⟨3, ![4, D, E]⟩ : Shape).Idx → α)
    (hs : (⟨3, ![4, D, E]⟩ : Shape).Slices ![off, 0, 0] ⟨3, ![1, D, E]⟩)
    (hc : (⟨3, ![1, D, E]⟩ : Shape).ShapeCasts ⟨2, ![D, E]⟩) (d : Fin D) (j : Fin E) :
    shapeCast ⟨2, ![D, E]⟩ (extractStridedSlice ⟨3, ![1, D, E]⟩ ![off, 0, 0] W hs) hc (ix2 d j) = W (ix3 k d j) := by
  refine (shapeCast_apply _ hc (ix2 d j) (ix3 (0 : Fin 1) d j) ?_).trans ?_
  · rw [Shape.rowMajor_val_three, Shape.rowMajor_val_two]
    show ((0 : ℕ) * D + d.val) * E + j.val = d.val * E + j.val
    rw [Nat.zero_mul, Nat.zero_add]
  · refine extractStridedSlice_apply _ W hs _ (ix3 k d j) fun a => ?_
    match a with
    | ⟨0, _⟩ => show k.val = off + 0; omega
    | ⟨1, _⟩ => show d.val = 0 + d.val; omega
    | ⟨2, _⟩ => show j.val = 0 + j.val; omega

/-- The bias row broadcast [64] → [1, 64] → [50000, 64], read at (i, j), is the bias at j. -/
theorem biasRows_apply (b : Arr Ideal S64 .f32) (i : Fin 50000) (j : Fin 64) :
    biasRows (F := Ideal) b (ix2 i j) = b (ix1 j) := by
  unfold biasRows
  refine (broadcastInDim_apply ![0, 1] bcast_S1x64_S50000x64_0_1 _ (ix2 i j) (ix2 (0 : Fin 1) j) fun a => ?_).trans
    (broadcastInDim_apply ![1] bcast_S64_S1x64_1 b (ix2 (0 : Fin 1) j) (ix1 j) fun a => ?_)
  · match a with
    | ⟨0, _⟩ => rfl
    | ⟨1, _⟩ => rfl
  · match a with
    | ⟨0, _⟩ => rfl

/-- The three host products read at (i, j): the sum over the contracted coordinate of the products of the entries. -/
theorem dot1_apply (h : Arr Ideal S50000x32 .f32) (m : Arr Ideal S32x64 .f32) (i : Fin 50000) (j : Fin 64) :
    dot1 (F := Ideal) h m (ix2 i j) = ∑ d : Fin 32, h (ix2 i d) * m (ix2 d j) :=
  StackMember.dotGeneral_plain_apply (m := 50000) (n := 64) (k := 32) none h m i j
theorem dot2_apply (h : Arr Ideal S50000x64 .f32) (m : Arr Ideal S64x64 .f32) (i : Fin 50000) (j : Fin 64) :
    dot2 (F := Ideal) h m (ix2 i j) = ∑ d : Fin 64, h (ix2 i d) * m (ix2 d j) :=
  StackMember.dotGeneral_plain_apply (m := 50000) (n := 64) (k := 64) none h m i j
theorem dot3_apply (h : Arr Ideal S50000x64 .f32) (m : Arr Ideal S64x1 .f32) (i : Fin 50000) (j : Fin 1) :
    dot3 (F := Ideal) h m (ix2 i j) = ∑ d : Fin 64, h (ix2 i d) * m (ix2 d j) :=
  StackMember.dotGeneral_plain_apply (m := 50000) (n := 1) (k := 64) none h m i j

/-- The called rectifier is the specification's: its two splats are broadcasts of the same two words. -/
theorem leaky_eq_act (v : Arr Ideal S50000x64 .f32) : leaky (F := Ideal) v = Cert.Spec.act (E := 64) v := by
  have hsplat : ∀ c : BitVec 32,
      broadcastInDim S50000x64 ![] bcast_S_S50000x64 (constant (F := Ideal) S_ .f32 c)
        = broadcast (Cert.Spec.SX 64) (Scalar.ofBits (F := Ideal) .f32 c) :=
    fun c => funext fun i => broadcastInDim_scalar_apply bcast_S_S50000x64 _ i
  unfold leaky Cert.Spec.act
  rw [hsplat, hsplat]

/-- The first layer's linear part at (i, j) is the specification's sum of four row-by-column products. -/
theorem lin1_apply (ei : Arr Ideal S2x1200000 .i32) (w : Arr Ideal S1200000 .f32) (x : Arr Ideal S50000x32 .f32)
    (W : Arr Ideal S4x32x64 .f32) (i : Fin 50000) (j : Fin 64) :
    lin1 (F := Ideal) ei w x W (ix2 i j)
      = Cert.Spec.lin (D := 32) (E := 64) x (hop32 ei w x) (hop32 ei w (hop32 ei w x))
          (hop32 ei w (hop32 ei w (hop32 ei w x))) W i j := by
  unfold lin1 Cert.Spec.lin Cert.Spec.rowdot
  rw [addf_apply, addf_apply, addf_apply, dot1_apply, dot1_apply, dot1_apply, dot1_apply]
  unfold w1_0 w1_1 w1_2 w1_3
  simp only [sliceMat_apply 0 0 rfl W, sliceMat_apply 1 1 rfl W, sliceMat_apply 2 2 rfl W, sliceMat_apply 3 3 rfl W]

/-- The second layer's linear part at (i, j). -/
theorem lin2_apply (ei : Arr Ideal S2x1200000 .i32) (w : Arr Ideal S1200000 .f32) (h : Arr Ideal S50000x64 .f32)
    (W : Arr Ideal S4x64x64 .f32) (i : Fin 50000) (j : Fin 64) :
    lin2 (F := Ideal) ei w h W (ix2 i j)
      = Cert.Spec.lin (D := 64) (E := 64) h (hop64 ei w h) (hop64 ei w (hop64 ei w h))
          (hop64 ei w (hop64 ei w (hop64 ei w h))) W i j := by
  unfold lin2 Cert.Spec.lin Cert.Spec.rowdot
  rw [addf_apply, addf_apply, addf_apply, dot2_apply, dot2_apply, dot2_apply, dot2_apply]
  unfold w2_0 w2_1 w2_2 w2_3
  simp only [sliceMat_apply 0 0 rfl W, sliceMat_apply 1 1 rfl W, sliceMat_apply 2 2 rfl W, sliceMat_apply 3 3 rfl W]

/-- The last layer at (i, j). -/
theorem layer3_apply (ei : Arr Ideal S2x1200000 .i32) (w : Arr Ideal S1200000 .f32) (h : Arr Ideal S50000x64 .f32)
    (W : Arr Ideal S4x64x1 .f32) (i : Fin 50000) (j : Fin 1) :
    layer3 (F := Ideal) ei w h W (ix2 i j)
      = Cert.Spec.lin (D := 64) (E := 1) h (hop64 ei w h) (hop64 ei w (hop64 ei w h))
          (hop64 ei w (hop64 ei w (hop64 ei w h))) W i j := by
  unfold layer3 Cert.Spec.lin Cert.Spec.rowdot
  rw [addf_apply, addf_apply, addf_apply, dot3_apply, dot3_apply, dot3_apply, dot3_apply]
  unfold w3_0 w3_1 w3_2 w3_3
  simp only [sliceMat_apply 0 0 rfl W, sliceMat_apply 1 1 rfl W, sliceMat_apply 2 2 rfl W, sliceMat_apply 3 3 rfl W]

/-- The first layer's printed chain is the specification's layer of (x, hop x, hop² x, hop³ x). -/
theorem layer1_eq (ei : Arr Ideal S2x1200000 .i32) (w : Arr Ideal S1200000 .f32) (x : Arr Ideal S50000x32 .f32)
    (W : Arr Ideal S4x32x64 .f32) (b : Arr Ideal S64 .f32) :
    layer1 (F := Ideal) ei w x W b
      = Cert.Spec.layerAct (D := 32) (E := 64) x (hop32 ei w x) (hop32 ei w (hop32 ei w x))
          (hop32 ei w (hop32 ei w (hop32 ei w x))) W b := by
  unfold layer1 Cert.Spec.layerAct
  rw [leaky_eq_act]
  refine congrArg (Cert.Spec.act (E := 64)) (funext fun ij => ?_)
  obtain ⟨i, j, rfl⟩ : ∃ (i : Fin 50000) (j : Fin 64), ij = ix2 i j := ⟨ij 0, ij 1, eq_ix2 ij⟩
  rw [addf_apply, biasRows_apply, lin1_apply]

/-- The second layer's printed chain is the specification's layer of (h, hop h, hop² h, hop³ h). -/
theorem layer2_eq (ei : Arr Ideal S2x1200000 .i32) (w : Arr Ideal S1200000 .f32) (h : Arr Ideal S50000x64 .f32)
    (W : Arr Ideal S4x64x64 .f32) (b : Arr Ideal S64 .f32) :
    layer2 (F := Ideal) ei w h W b
      = Cert.Spec.layerAct (D := 64) (E := 64) h (hop64 ei w h) (hop64 ei w (hop64 ei w h))
          (hop64 ei w (hop64 ei w (hop64 ei w h))) W b := by
  unfold layer2 Cert.Spec.layerAct
  rw [leaky_eq_act]
  refine congrArg (Cert.Spec.act (E := 64)) (funext fun ij => ?_)
  obtain ⟨i, j, rfl⟩ : ∃ (i : Fin 50000) (j : Fin 64), ij = ix2 i j := ⟨ij 0, ij 1, eq_ix2 ij⟩
  rw [addf_apply, biasRows_apply, lin2_apply]

/-- The last layer's printed chain is the specification's linear layer of (h, hop h, hop² h, hop³ h). -/
theorem layer3_eq (ei : Arr Ideal S2x1200000 .i32) (w : Arr Ideal S1200000 .f32) (h : Arr Ideal S50000x64 .f32)
    (W : Arr Ideal S4x64x1 .f32) :
    layer3 (F := Ideal) ei w h W
      = Cert.Spec.layerLin (D := 64) (E := 1) h (hop64 ei w h) (hop64 ei w (hop64 ei w h))
          (hop64 ei w (hop64 ei w (hop64 ei w h))) W := by
  unfold Cert.Spec.layerLin
  funext ij
  obtain ⟨i, j, rfl⟩ : ∃ (i : Fin 50000) (j : Fin 1), ij = ix2 i j := ⟨ij 0, ij 1, eq_ix2 ij⟩
  exact layer3_apply ei w h W i j

/-- The whole reference is the three specification layers composed. -/
theorem out_eq (x : Arr Ideal S50000x32 .f32) (ei : Arr Ideal S2x1200000 .i32) (w : Arr Ideal S1200000 .f32)
    (W0 : Arr Ideal S4x32x64 .f32) (b0 : Arr Ideal S64 .f32) (W1 : Arr Ideal S4x64x64 .f32) (b1 : Arr Ideal S64 .f32)
    (W2 : Arr Ideal S4x64x1 .f32) :
    out (F := Ideal) x ei w W0 b0 W1 b1 W2
      = (let h1 : Arr Ideal S50000x64 .f32 :=
              Cert.Spec.layerAct (D := 32) (E := 64) x (hop32 ei w x) (hop32 ei w (hop32 ei w x))
                (hop32 ei w (hop32 ei w (hop32 ei w x))) W0 b0
         let h2 : Arr Ideal S50000x64 .f32 :=
              Cert.Spec.layerAct (D := 64) (E := 64) h1 (hop64 ei w h1) (hop64 ei w (hop64 ei w h1))
                (hop64 ei w (hop64 ei w (hop64 ei w h1))) W1 b1
         Cert.Spec.layerLin (D := 64) (E := 1) h2 (hop64 ei w h2) (hop64 ei w (hop64 ei w h2))
                (hop64 ei w (hop64 ei w (hop64 ei w h2))) W2) := by
  unfold out
  rw [layer1_eq, layer2_eq, layer3_eq]

end Cert.ReferenceIdeal.HVal

end
-- ==== Proof.Ref.HopEq.lean ====
/-
  Under the precondition's range fact the reference's hop, which wraps a negative source index by the node count,
  is the plain hop over the unwrapped sources: an index that is not negative is never wrapped, so the select keeps it.
  The two programs' dimension records are the same records, so the rest is the same term.
-/
import proofs.«401537_j29600914604721_1_alg».proof.Proof.Ref.Chain
import proofs.«401537_j29600914604721_1_alg».proof.Proof.Hop
import Idealize.ShloMosaic.Lib.Affine
import Idealize.ShloMosaic.Lib.ValueIdx

noncomputable section

namespace Cert.ReferenceIdeal.HVal

open Idealize.ShloMosaic Idealize.ShloMosaic.ValueIdx Cert.ReferenceIdeal Cert.ReferenceIdeal.Facts₀

/-- An index vector [1200000] as the index column [1200000, 1] the gather and the scatter take. -/
def plainCol (v : Arr Ideal S1200000 .i32) : Arr Ideal S1200000x1 .i32 :=
  broadcastInDim S1200000x1 ![0] bcast_S1200000_S1200000x1_0 v

/-- A source column none of whose entries is negative is not changed by the wrap. -/
theorem srcCol_eq (ei : Arr Ideal S2x1200000 .i32)
    (hsrc : ∀ e : S1200000.Idx, 0 ≤ (edgeSrc (F := Ideal) ei e).toInt) :
    srcCol (F := Ideal) ei = plainCol (edgeSrc (F := Ideal) ei) := by
  unfold srcCol plainCol
  refine congrArg _ (funext fun e => ?_)
  rw [select_apply]
  have hc : cmpi .slt (edgeSrc (F := Ideal) ei) (broadcastInDim S1200000 ![] bcast_S_S1200000 (constantI S_ 32 0#32)) e = 0#1 := by
    show IntOp.cmpi .slt (edgeSrc (F := Ideal) ei e) (0#32) = 0#1
    rcases (by decide : ∀ c : BitVec 1, c = 0#1 ∨ c = 1#1) (IntOp.cmpi .slt (edgeSrc (F := Ideal) ei e) (0#32)) with h | h
    · exact h
    · have hlt := IntOp.cmpi_slt.mp h
      have h0 : (0#32 : BitVec 32).toInt = 0 := by decide
      have := hsrc e
      omega
  rw [hc, select_zero]

/-- Under the range fact the reference's 32-channel hop is the plain hop over the unwrapped sources and destinations. -/
theorem hop32_eq (ei : Arr Ideal S2x1200000 .i32) (w : Arr Ideal S1200000 .f32) (u : Arr Ideal S50000x32 .f32)
    (hsrc : ∀ e : S1200000.Idx, 0 ≤ (edgeSrc (F := Ideal) ei e).toInt) :
    hop32 (F := Ideal) ei w u
      = Cert.KernelIdeal.Hop.hop32 u (Cert.KernelIdeal.Hop.srcOf ei) (Cert.KernelIdeal.Hop.dstOf ei) w := by
  unfold hop32
  rw [srcCol_eq ei hsrc]
  rfl

/-- The same at 64 channels. -/
theorem hop64_eq (ei : Arr Ideal S2x1200000 .i32) (w : Arr Ideal S1200000 .f32) (u : Arr Ideal S50000x64 .f32)
    (hsrc : ∀ e : S1200000.Idx, 0 ≤ (edgeSrc (F := Ideal) ei e).toInt) :
    hop64 (F := Ideal) ei w u
      = Cert.KernelIdeal.Hop.hop64 u (Cert.KernelIdeal.Hop.srcOf ei) (Cert.KernelIdeal.Hop.dstOf ei) w := by
  unfold hop64
  rw [srcCol_eq ei hsrc]
  rfl

end Cert.ReferenceIdeal.HVal

end
-- ==== Proof.KI.Val0.lean ====
/-
  Region 0's result array at the extended reals, as one function of the three arrays the region reads.

  The region's grid is 10 row blocks by 4 hops, the hop innermost: point t works on hop t % 4 of row block t / 4.
  At hop k the body adds, into an accumulator zeroed at hop 0, the product of rows 5000·(t/4) … 5000·(t/4)+4999 of
  the k-th array of the feature stack with the k-th matrix of the weight stack; at hop 3 it stores, into rows
  5000·(t/4) … of the result, the leaky rectifier of the accumulator plus the bias row. So row R, column j of the
  result ends at

      act ( ((( 0 + Σ_d h₀[R,d]·W[0,d,j] ) + Σ_d h₁[R,d]·W[1,d,j] ) + Σ_d h₂[R,d]·W[2,d,j] ) + Σ_d h₃[R,d]·W[3,d,j] + b[j] ),

  and 0 + x = x on the extended reals. The ten hop-3 points' blocks tile the 50000 rows.
-/
import proofs.«401537_j29600914604721_1_alg».proof.Proof.Gen.KernelIdeal.Skeleton
import proofs.«401537_j29600914604721_1_alg».proof.Proof.Gen.KernelIdeal.Launch
import proofs.«401537_j29600914604721_1_alg».proof.Proof.Gen.KernelIdeal.Points
import proofs.«401537_j29600914604721_1_alg».proof.Proof.Spec
import proofs.«401537_j29600914604721_1_alg».proof.Proof.KI.Reg0
import Idealize.ShloMosaic.Lib.Pipeline.Value
import Idealize.ShloMosaic.Lib.Pipeline.Frame
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Val0
open Cert.KernelIdeal Cert.KernelIdeal.Gen

/-! ### The block product's operand indices, axis by axis

The product contracts axis 1 of the left block with axis 0 of the right block; the output's row is the left block's
row and the output's column the right block's column. -/

theorem lhs_0 (j : S5000x64.Idx) (k : dot_S5000x32_S32x64_S5000x64_1_0_0_1_n_n.contr.Idx) :
    (dot_S5000x32_S32x64_S5000x64_1_0_0_1_n_n.lhsIdx j k 0).val = (j 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

theorem lhs_1 (j : S5000x64.Idx) (k : dot_S5000x32_S32x64_S5000x64_1_0_0_1_n_n.contr.Idx) :
    (dot_S5000x32_S32x64_S5000x64_1_0_0_1_n_n.lhsIdx j k 1).val = (k ⟨0, by decide⟩).val :=
  DotDims.lhsIdx_val_of_single _ (cl := 1) rfl j k

theorem rhs_0 (j : S5000x64.Idx) (k : dot_S5000x32_S32x64_S5000x64_1_0_0_1_n_n.contr.Idx) :
    (dot_S5000x32_S32x64_S5000x64_1_0_0_1_n_n.rhsIdx j k 0).val = (k ⟨0, by decide⟩).val :=
  DotDims.rhsIdx_val_of_single _ (cr := 0) rfl j k

theorem rhs_1 (j : S5000x64.Idx) (k : dot_S5000x32_S32x64_S5000x64_1_0_0_1_n_n.contr.Idx) :
    (dot_S5000x32_S32x64_S5000x64_1_0_0_1_n_n.rhsIdx j k 1).val = (j 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- The block product at row r, column j: the accumulator there plus the sum over the 32 contracted positions. -/
theorem mm_apply (lhs : FVec Ideal S5000x32 .f32) (rhs : FVec Ideal S32x64 .f32) (acc : FVec Ideal S5000x64 .f32)
    (r : Fin 5000) (j : Fin 64) :
    matmul dot_S5000x32_S32x64_S5000x64_1_0_0_1_n_n none lhs rhs acc (ix2 r j)
      = acc (ix2 r j) + ∑ d : Fin 32, (lhs (ix2 r d) * rhs (ix2 d j) : EReal) := by
  refine (Ideal.matmul_apply _ none lhs rhs acc (ix2 r j)).trans ?_
  congr 1
  rw [← Equiv.sum_comp (contrEquiv1 dot_S5000x32_S32x64_S5000x64_1_0_0_1_n_n 32 rfl rfl).symm]
  refine Finset.sum_congr rfl fun d _ => ?_
  have hk := contrEquiv1_symm_val dot_S5000x32_S32x64_S5000x64_1_0_0_1_n_n 32 rfl rfl d
  congr 1
  · refine congrArg lhs (funext fun a => Fin.ext ?_)
    match a with
    | ⟨0, _⟩ => exact lhs_0 _ _
    | ⟨1, _⟩ => exact (lhs_1 _ _).trans hk
  · refine congrArg rhs (funext fun a => Fin.ext ?_)
    match a with
    | ⟨0, _⟩ => exact (rhs_0 _ _).trans hk
    | ⟨1, _⟩ => exact rhs_1 _ _

/-! ### The three stored values at an index -/

/-- A [1,5000,32] block viewed as [5000,32] reads (r, d) at (0, r, d). -/
theorem drop_h (hb : Vec Ideal S1x5000x32 .f32) (r : Fin 5000) (d : Fin 32) :
    shapeCast S5000x32 hb shapeCasts_S1x5000x32_S5000x32 (ix2 r d) = hb (ix3 0 r d) := by
  refine (shapeCast_dropUnit_apply (n := 2) ![5000, 32] hb _ (ix2 r d)).trans ?_
  exact congrArg hb (funext fun a => by match a with | ⟨0, _⟩ => rfl | ⟨1, _⟩ => rfl | ⟨2, _⟩ => rfl)

/-- A [1,32,64] block viewed as [32,64] reads (d, j) at (0, d, j). -/
theorem drop_w (wb : Vec Ideal S1x32x64 .f32) (d : Fin 32) (j : Fin 64) :
    shapeCast S32x64 wb shapeCasts_S1x32x64_S32x64 (ix2 d j) = wb (ix3 0 d j) := by
  refine (shapeCast_dropUnit_apply (n := 2) ![32, 64] wb _ (ix2 d j)).trans ?_
  exact congrArg wb (funext fun a => by match a with | ⟨0, _⟩ => rfl | ⟨1, _⟩ => rfl | ⟨2, _⟩ => rfl)

/-- The reset value is zero everywhere. -/
theorem pay1_apply (i : S5000x64.Idx) : k0_pay1 (F := Ideal) i = 0 := by
  unfold k0_pay1
  refine (congrFun (shapeCast_self _ _) i).trans ?_
  exact Ideal.ofBits_zero_f32

/-- One accumulation step at (r, j): what was there plus row r of the node block times column j of the weight block. -/
theorem pay2_apply (acc : Vec Ideal S5000x64 .f32) (hb : Vec Ideal S1x5000x32 .f32) (wb : Vec Ideal S1x32x64 .f32)
    (r : Fin 5000) (j : Fin 64) :
    k0_pay2 (F := Ideal) acc hb wb (ix2 r j) = acc (ix2 r j) + ∑ d : Fin 32, (hb (ix3 0 r d) * wb (ix3 0 d j) : EReal) := by
  unfold k0_pay2
  refine (congrFun (shapeCast_self _ _) (ix2 r j)).trans ?_
  refine (congrArg (acc (ix2 r j) + ·) (mm_apply _ _ _ r j)).trans ?_
  refine congrArg (acc (ix2 r j) + ·) ?_
  refine (congrArg (· + _) Ideal.ofBits_zero_f32).trans ?_
  refine (zero_add _).trans ?_
  exact Finset.sum_congr rfl fun d _ => by rw [drop_h, drop_w]

/-- The leaky rectifier on one extended real, as both programs write it. -/
def act1 (x : Ideal .f32) : Ideal .f32 :=
  Scalar.select (FloatOps.cmpf .oge x (Scalar.ofBits (F := Ideal) .f32 0x00000000#32)) x
    (FloatOps.mulf (Scalar.ofBits (F := Ideal) .f32 0x3C23D70A#32) x)

theorem act_apply {E : Nat} (v : FVec Ideal (Cert.Spec.SX E) .f32) (i : (Cert.Spec.SX E).Idx) : Cert.Spec.act v i = act1 (v i) := rfl

/-- The bias row broadcast down the 5000 rows reads column j of the row. -/
theorem bias_apply (bb : Vec Ideal S1x64 .f32) (r : Fin 5000) (j : Fin 64) :
    broadcastTo S5000x64 (shapeCast S1x64 bb shapeCasts_S1x64_S1x64) broadcasts_S1x64_S5000x64 (ix2 r j) = bb (ix2 0 j) := by
  rw [shapeCast_self]
  refine broadcastTo_apply bb _ (ix2 r j) (ix2 0 j) fun a => ?_
  match a with
  | ⟨0, _⟩ => rfl
  | ⟨1, _⟩ => rfl

/-- The value stored into the output block at (r, j): the rectifier of the accumulated sum plus the bias. -/
theorem pay3_apply (acc : Vec Ideal S5000x64 .f32) (bb : Vec Ideal S1x64 .f32) (r : Fin 5000) (j : Fin 64) :
    k0_pay3 (F := Ideal) acc bb (ix2 r j) = act1 (acc (ix2 r j) + bb (ix2 0 j)) := by
  unfold k0_pay3
  show act1 (acc (ix2 r j) + broadcastTo S5000x64 (shapeCast S1x64 bb shapeCasts_S1x64_S1x64) broadcasts_S1x64_S5000x64 (ix2 r j)) = _
  rw [bias_apply]

end Cert.KernelIdeal.Val0

namespace Cert.KernelIdeal.Val0
open Cert.KernelIdeal Cert.KernelIdeal.Gen

variable (V : (c : Dev nD) → (b : Ref sig .tc) → Buf (Elt Ideal) ((c : Thread nD τ).loc b))

/-- The three arrays region 0 reads, at their literal types: the stack of the four hop arrays, the weight stack, the bias row. -/
abbrev hs (c : Dev nD) : FVec Ideal S4x50000x32 .f32 := V c main_v29
abbrev wt (c : Dev nD) : FVec Ideal S4x32x64 .f32 := V c main_arg3
abbrev bs (c : Dev nD) : FVec Ideal S1x64 .f32 := V c main_v30

/-! ### Where each window's block sits in its array -/

/-- The printed index maps over the grid: point t reads hop t % 4 of row block t / 4, the t % 4-th weight matrix, the
    whole bias row, and writes row block t / 4. -/
theorem idx_facts : ∀ t : Fin cfg0.N,
    win0_0.index t (0 : Fin 3) = t.val % 4 ∧ win0_0.index t (1 : Fin 3) = t.val / 4 ∧ win0_0.index t (2 : Fin 3) = 0
    ∧ win0_1.index t (0 : Fin 3) = t.val % 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The feature block at point t reads hop k = t % 4 of the stack at row R = 5000·(t/4) + r. -/
theorem hblk_apply (c : Dev nD) (t : Fin cfg0.N) (k : Fin 4) (hk : k.val = t.val % 4) (r : Fin 5000) (R : Fin 50000)
    (hR : R.val = 5000 * (t.val / 4) + r.val) (d : Fin 32) :
    Reg0.hblk V c t (ix3 0 r d) = hs V c (ix3 k R d) := by
  obtain ⟨e0, e1, e2, -⟩ := idx_facts t
  unfold Reg0.hblk Reg0.iblk
  rw [View.read_apply]
  show V c main_v29 (((cfg0.win 0).blk t).view.emb (ix3 0 r d)) = V c main_v29 (ix3 k R d)
  refine congrArg (V c main_v29) (funext fun a => Fin.ext ?_)
  match a with
  | ⟨0, _⟩ => show win0_0.index t (0 : Fin 3) * 1 + 1 * (0 : Fin 1).val = k.val; rw [e0, hk]; simp
  | ⟨1, _⟩ => show win0_0.index t (1 : Fin 3) * 5000 + 1 * r.val = R.val; rw [e1, hR]; omega
  | ⟨2, _⟩ => show win0_0.index t (2 : Fin 3) * 32 + 1 * d.val = d.val; rw [e2]; omega

/-- The weight block at point t is the k-th matrix of the weight stack, k = t % 4. -/
theorem wblk_apply (c : Dev nD) (t : Fin cfg0.N) (k : Fin 4) (hk : k.val = t.val % 4) (d : Fin 32) (j : Fin 64) :
    Reg0.wblk V c t (ix3 0 d j) = wt V c (ix3 k d j) := by
  obtain ⟨-, -, -, e0, e1, e2, -⟩ := idx_facts t
  unfold Reg0.wblk Reg0.iblk
  rw [View.read_apply]
  show V c main_arg3 (((cfg0.win 1).blk t).view.emb (ix3 0 d j)) = V c main_arg3 (ix3 k d j)
  refine congrArg (V c main_arg3) (funext fun a => Fin.ext ?_)
  match a with
  | ⟨0, _⟩ => show win0_1.index t (0 : Fin 3) * 1 + 1 * (0 : Fin 1).val = k.val; rw [e0, hk]; simp
  | ⟨1, _⟩ => show win0_1.index t (1 : Fin 3) * 32 + 1 * d.val = d.val; rw [e1]; omega
  | ⟨2, _⟩ => show win0_1.index t (2 : Fin 3) * 64 + 1 * j.val = j.val; rw [e2]; omega

/-- The bias block at every point is the bias row. -/
theorem bblk_apply (c : Dev nD) (t : Fin cfg0.N) (j : Fin 64) :
    Reg0.bblk V c t (ix2 0 j) = bs V c (ix2 0 j) := by
  obtain ⟨-, -, -, -, -, -, e0, e1, -⟩ := idx_facts t
  unfold Reg0.bblk Reg0.iblk
  rw [View.read_apply]
  show V c main_v30 (((cfg0.win 2).blk t).view.emb (ix2 0 j)) = V c main_v30 (ix2 0 j)
  refine congrArg (V c main_v30) (funext fun a => Fin.ext ?_)
  match a with
  | ⟨0, _⟩ => show win0_2.index t (0 : Fin 2) * 1 + 1 * (0 : Fin 1).val = (0 : Fin 1).val; rw [e0]; simp
  | ⟨1, _⟩ => show win0_2.index t (1 : Fin 2) * 64 + 1 * j.val = j.val; rw [e1]; omega

/-! ### The accumulator over the four hops of a row block -/

/-- Hop k's term at row R, column j: row R of the k-th hop array times column j of the k-th weight matrix. -/
abbrev term (c : Dev nD) (k : Fin 4) (R : Fin 50000) (j : Fin 64) : EReal :=
  ∑ d : Fin 32, (hs V c (ix3 k R d) * wt V c (ix3 k d j) : EReal)

/-- The product the body adds at point t, at (r, j), is hop t % 4's term at row 5000·(t/4) + r. -/
theorem step_sum (c : Dev nD) (t : Fin cfg0.N) (k : Fin 4) (hk : k.val = t.val % 4) (r : Fin 5000) (R : Fin 50000)
    (hR : R.val = 5000 * (t.val / 4) + r.val) (j : Fin 64) :
    (∑ d : Fin 32, (Reg0.hblk V c t (ix3 0 r d) * Reg0.wblk V c t (ix3 0 d j) : EReal)) = term V c k R j :=
  Finset.sum_congr rfl fun d _ => by rw [hblk_apply V c t k hk r R hR d, wblk_apply V c t k hk d j]

/-- At a hop-0 point the accumulator restarts from zero: it holds hop 0's term. -/
theorem acc_first (c : Dev nD) (t : Fin cfg0.N) (h0 : t.val % 4 = 0) (r : Fin 5000) (R : Fin 50000)
    (hR : R.val = 5000 * (t.val / 4) + r.val) (j : Fin 64) :
    Reg0.accAt V c t.val t.isLt (ix2 r j) = term V c 0 R j := by
  rw [Reg0.accAt_first V c t h0]
  refine (pay2_apply _ _ _ r j).trans ?_
  rw [pay1_apply, zero_add]
  exact step_sum V c t 0 (by rw [h0]; rfl) r R hR j

/-- At any other point it holds what the point before left plus this hop's term. -/
theorem acc_next (c : Dev nD) (t : Fin cfg0.N) (hn : ¬ t.val % 4 = 0) (k : Fin 4) (hk : k.val = t.val % 4) (r : Fin 5000)
    (R : Fin 50000) (hR : R.val = 5000 * (t.val / 4) + r.val) (j : Fin 64) :
    Reg0.accAt V c t.val t.isLt (ix2 r j)
      = Reg0.accAt V c (t.val - 1) (Nat.lt_of_le_of_lt (Nat.sub_le _ _) t.isLt) (ix2 r j) + term V c k R j := by
  rw [Reg0.accAt_next V c t hn]
  refine (pay2_apply _ _ _ r j).trans ?_
  rw [step_sum V c t k hk r R hR j]

/-- So at a hop-3 point it holds the four terms summed in hop order. -/
theorem acc_last (c : Dev nD) (t : Fin cfg0.N) (h3 : t.val % 4 = 3) (r : Fin 5000) (R : Fin 50000)
    (hR : R.val = 5000 * (t.val / 4) + r.val) (j : Fin 64) :
    Reg0.accAt V c t.val t.isLt (ix2 r j) = ((term V c 0 R j + term V c 1 R j) + term V c 2 R j) + term V c 3 R j := by
  have hlt : t.val < cfg0.N := t.isLt
  have h2' : (t.val - 1) % 4 = 2 := by omega
  have h1' : (t.val - 1 - 1) % 4 = 1 := by omega
  have h0' : (t.val - 1 - 1 - 1) % 4 = 0 := by omega
  have e3 := acc_next V c t (by omega) 3 (by rw [h3]; rfl) r R hR j
  have e2 := acc_next V c ⟨t.val - 1, by omega⟩ (by show ¬ (t.val - 1) % 4 = 0; omega) 2
    (by show (2 : Fin 4).val = (t.val - 1) % 4; rw [h2']; rfl) r R (by show R.val = 5000 * ((t.val - 1) / 4) + r.val; omega) j
  have e1 := acc_next V c ⟨t.val - 1 - 1, by omega⟩ (by show ¬ (t.val - 1 - 1) % 4 = 0; omega) 1
    (by show (1 : Fin 4).val = (t.val - 1 - 1) % 4; rw [h1']; rfl) r R (by show R.val = 5000 * ((t.val - 1 - 1) / 4) + r.val; omega) j
  have e0 := acc_first V c ⟨t.val - 1 - 1 - 1, by omega⟩ h0' r R (by show R.val = 5000 * ((t.val - 1 - 1 - 1) / 4) + r.val; omega) j
  exact e3.trans (congrArg (· + term V c 3 R j) (e2.trans (congrArg (· + term V c 2 R j) (e1.trans (congrArg (· + term V c 1 R j) e0)))))

/-! ### The result array -/

/-- The layer's value over the whole array. -/
abbrev G (c : Dev nD) : FVec Ideal S50000x64 .f32 :=
  Cert.Spec.layerAct (D := 32) (E := 64)
    (fun i => hs V c (ix3 0 (i 0) (i 1))) (fun i => hs V c (ix3 1 (i 0) (i 1)))
    (fun i => hs V c (ix3 2 (i 0) (i 1))) (fun i => hs V c (ix3 3 (i 0) (i 1)))
    (wt V c) (fun j => bs V c (ix2 0 (j 0)))

/-- What a hop-3 point stores at (r, j) is the layer's value at row 5000·(t/4) + r. -/
theorem out_apply (c : Dev nD) (t : Fin cfg0.N) (h3 : t.val % 4 = 3) (r : Fin 5000) (R : Fin 50000)
    (hR : R.val = 5000 * (t.val / 4) + r.val) (j : Fin 64) :
    Reg0.outAt V c t (ix2 r j) = G V c (ix2 R j) := by
  unfold Reg0.outAt
  refine (pay3_apply _ _ r j).trans ?_
  rw [acc_last V c t h3 r R hR j, bblk_apply V c t j]
  rfl

/-- What a hop-3 point writes back is its block of the layer's value. -/
theorem flushed_eq (c : Dev nD) (t : Fin cfg0.N) (hf : (cfg0.win 3).flush t = true) :
    (Reg0.dat (F := Ideal) V c).flushed 3 t = ((cfg0.win 3).blk t).view.read (Elt Ideal) (G V c) := by
  have h3 : t.val % 4 = 3 := (flush0_3 t).mp hf
  have hlt : t.val < 40 := N_0 ▸ t.isLt
  obtain ⟨-, -, -, -, -, -, -, -, e0, e1⟩ := idx_facts t
  show (cfg0.win 3).cut (grid0.coords t) ((Reg0.dat (F := Ideal) V c).after 3 t) = _
  rw [Reg0.after3]
  funext y
  obtain ⟨r, j, rfl⟩ : ∃ (r : Fin 5000) (j : Fin 64), y = ix2 r j := ⟨y 0, y 1, eq_ix2 y⟩
  have hr : r.val < 5000 := r.isLt
  show Reg0.outAt V c t (ix2 r j) = G V c (((cfg0.win 3).blk t).view.emb (ix2 r j))
  rw [out_apply V c t h3 r ⟨5000 * (t.val / 4) + r.val, by omega⟩ rfl j]
  refine congrArg (G V c) (funext fun a => Fin.ext ?_)
  match a with
  | ⟨0, _⟩ => show 5000 * (t.val / 4) + r.val = win0_3.index t (0 : Fin 2) * 5000 + 1 * r.val; rw [e0]; omega
  | ⟨1, _⟩ => show j.val = win0_3.index t (1 : Fin 2) * 64 + 1 * j.val; rw [e1]; omega

/-- An index of the result array is in point t's block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v31).slice (win0_3.rect t)).set ↔ _
  rw [View.set_slice_whole, Rect.mem_set_unit]
  exact Iff.rfl

/-- Row R of the result is in the block of the hop-3 point of row block R / 5000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : 4 * ((i 0).val / 5000) + 3 < cfg0.N := by show _ < grid0.N; rw [N_0]; omega
  obtain ⟨-, -, -, -, -, -, -, -, e0, e1⟩ := idx_facts ⟨4 * ((i 0).val / 5000) + 3, hN⟩
  refine ⟨⟨4 * ((i 0).val / 5000) + 3, hN⟩, (flush0_3 _).mpr (by show (4 * ((i 0).val / 5000) + 3) % 4 = 3; omega), ?_⟩
  rw [mem_blk]
  intro a
  match a with
  | ⟨0, _⟩ =>
    show win0_3.index ⟨4 * ((i 0).val / 5000) + 3, hN⟩ (0 : Fin 2) * 5000 ≤ (i 0).val
      ∧ (i 0).val < win0_3.index ⟨4 * ((i 0).val / 5000) + 3, hN⟩ (0 : Fin 2) * 5000 + 5000
    rw [e0]
    show (4 * ((i 0).val / 5000) + 3) / 4 * 5000 ≤ (i 0).val ∧ (i 0).val < (4 * ((i 0).val / 5000) + 3) / 4 * 5000 + 5000
    omega
  | ⟨1, _⟩ =>
    show win0_3.index ⟨4 * ((i 0).val / 5000) + 3, hN⟩ (1 : Fin 2) * 64 ≤ (i 1).val
      ∧ (i 1).val < win0_3.index ⟨4 * ((i 0).val / 5000) + 3, hN⟩ (1 : Fin 2) * 64 + 64
    rw [e1]
    omega

/-- The result array after the region: the layer's value of the three arrays as the region finds them. -/
theorem arr_out (c : Dev nD) :
    (Reg0.dat (F := Ideal) V c).arrAt 3 cfg0.N
      = Cert.Spec.layerAct (D := 32) (E := 64)
          (fun i => hs V c (ix3 0 (i 0) (i 1))) (fun i => hs V c (ix3 1 (i 0) (i 1)))
          (fun i => hs V c (ix3 2 (i 0) (i 1))) (fun i => hs V c (ix3 3 (i 0) (i 1)))
          (wt V c) (fun j => bs V c (ix2 0 (j 0))) :=
  (Reg0.dat (F := Ideal) V c).arrAt_eq_of_cover 3 (G V c) (flushed_eq V c) cover

end Cert.KernelIdeal.Val0

end
-- ==== Proof.KI.Val1.lean ====
/-
  Region 1's result array at the extended reals, as one function of the three arrays the region reads.

  The region's grid is 10 row blocks by 4 hops, the hop innermost: point t works on hop t % 4 of row block t / 4.
  At hop k the body adds, into an accumulator zeroed at hop 0, the product of rows 5000·(t/4) … 5000·(t/4)+4999 of
  the k-th array of the feature stack with the k-th matrix of the weight stack; at hop 3 it stores, into rows
  5000·(t/4) … of the result, the leaky rectifier of the accumulator plus the bias row. So row R, column j of the
  result ends at

      act ( ((( 0 + Σ_d h₀[R,d]·W[0,d,j] ) + Σ_d h₁[R,d]·W[1,d,j] ) + Σ_d h₂[R,d]·W[2,d,j] ) + Σ_d h₃[R,d]·W[3,d,j] + b[j] ),

  and 0 + x = x on the extended reals. The ten hop-3 points' blocks tile the 50000 rows.
-/
import proofs.«401537_j29600914604721_1_alg».proof.Proof.Gen.KernelIdeal.Skeleton
import proofs.«401537_j29600914604721_1_alg».proof.Proof.Gen.KernelIdeal.Launch
import proofs.«401537_j29600914604721_1_alg».proof.Proof.Gen.KernelIdeal.Points
import proofs.«401537_j29600914604721_1_alg».proof.Proof.Spec
import proofs.«401537_j29600914604721_1_alg».proof.Proof.KI.Reg1
import Idealize.ShloMosaic.Lib.Pipeline.Value
import Idealize.ShloMosaic.Lib.Pipeline.Frame
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Val1
open Cert.KernelIdeal Cert.KernelIdeal.Gen

/-! ### The block product's operand indices, axis by axis

The product contracts axis 1 of the left block with axis 0 of the right block; the output's row is the left block's
row and the output's column the right block's column. -/

theorem lhs_0 (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs_1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  DotDims.lhsIdx_val_of_single _ (cl := 1) rfl j k

theorem rhs_0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  DotDims.rhsIdx_val_of_single _ (cr := 0) rfl j k

theorem rhs_1 (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product at row r, column j: the accumulator there plus the sum over the 64 contracted positions. -/
theorem mm_apply (lhs : FVec Ideal S5000x64 .f32) (rhs : FVec Ideal S64x64 .f32) (acc : FVec Ideal S5000x64 .f32)
    (r : Fin 5000) (j : Fin 64) :
    matmul dot_S5000x64_S64x64_S5000x64_1_0_0_1_n_n none lhs rhs acc (ix2 r j)
      = acc (ix2 r j) + ∑ d : Fin 64, (lhs (ix2 r d) * rhs (ix2 d j) : EReal) := by
  refine (Ideal.matmul_apply _ none lhs rhs acc (ix2 r j)).trans ?_
  congr 1
  rw [← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  congr 1
  · refine congrArg lhs (funext fun a => Fin.ext ?_)
    match a with
    | ⟨0, _⟩ => exact lhs_0 _ _
    | ⟨1, _⟩ => exact (lhs_1 _ _).trans hk
  · refine congrArg rhs (funext fun a => Fin.ext ?_)
    match a with
    | ⟨0, _⟩ => exact (rhs_0 _ _).trans hk
    | ⟨1, _⟩ => exact rhs_1 _ _

/-! ### The three stored values at an index -/

/-- A [1,5000,64] block viewed as [5000,64] reads (r, d) at (0, r, d). -/
theorem drop_h (hb : Vec Ideal S1x5000x64 .f32) (r : Fin 5000) (d : Fin 64) :
    shapeCast S5000x64 hb shapeCasts_S1x5000x64_S5000x64 (ix2 r d) = hb (ix3 0 r d) := by
  refine (shapeCast_dropUnit_apply (n := 2) ![5000, 64] hb _ (ix2 r d)).trans ?_
  exact congrArg hb (funext fun a => by match a with | ⟨0, _⟩ => rfl | ⟨1, _⟩ => rfl | ⟨2, _⟩ => rfl)

/-- A [1,64,64] block viewed as [64,64] reads (d, j) at (0, d, j). -/
theorem drop_w (wb : Vec Ideal S1x64x64 .f32) (d : Fin 64) (j : Fin 64) :
    shapeCast S64x64 wb shapeCasts_S1x64x64_S64x64 (ix2 d j) = wb (ix3 0 d j) := by
  refine (shapeCast_dropUnit_apply (n := 2) ![64, 64] wb _ (ix2 d j)).trans ?_
  exact congrArg wb (funext fun a => by match a with | ⟨0, _⟩ => rfl | ⟨1, _⟩ => rfl | ⟨2, _⟩ => rfl)

/-- The reset value is zero everywhere. -/
theorem pay1_apply (i : S5000x64.Idx) : k1_pay1 (F := Ideal) i = 0 := by
  unfold k1_pay1
  refine (congrFun (shapeCast_self _ _) i).trans ?_
  exact Ideal.ofBits_zero_f32

/-- One accumulation step at (r, j): what was there plus row r of the node block times column j of the weight block. -/
theorem pay2_apply (acc : Vec Ideal S5000x64 .f32) (hb : Vec Ideal S1x5000x64 .f32) (wb : Vec Ideal S1x64x64 .f32)
    (r : Fin 5000) (j : Fin 64) :
    k1_pay2 (F := Ideal) acc hb wb (ix2 r j) = acc (ix2 r j) + ∑ d : Fin 64, (hb (ix3 0 r d) * wb (ix3 0 d j) : EReal) := by
  unfold k1_pay2
  refine (congrFun (shapeCast_self _ _) (ix2 r j)).trans ?_
  refine (congrArg (acc (ix2 r j) + ·) (mm_apply _ _ _ r j)).trans ?_
  refine congrArg (acc (ix2 r j) + ·) ?_
  refine (congrArg (· + _) Ideal.ofBits_zero_f32).trans ?_
  refine (zero_add _).trans ?_
  exact Finset.sum_congr rfl fun d _ => by rw [drop_h, drop_w]

/-- The leaky rectifier on one extended real, as both programs write it. -/
def act1 (x : Ideal .f32) : Ideal .f32 :=
  Scalar.select (FloatOps.cmpf .oge x (Scalar.ofBits (F := Ideal) .f32 0x00000000#32)) x
    (FloatOps.mulf (Scalar.ofBits (F := Ideal) .f32 0x3C23D70A#32) x)

theorem act_apply {E : Nat} (v : FVec Ideal (Cert.Spec.SX E) .f32) (i : (Cert.Spec.SX E).Idx) : Cert.Spec.act v i = act1 (v i) := rfl

/-- The bias row broadcast down the 5000 rows reads column j of the row. -/
theorem bias_apply (bb : Vec Ideal S1x64 .f32) (r : Fin 5000) (j : Fin 64) :
    broadcastTo S5000x64 (shapeCast S1x64 bb shapeCasts_S1x64_S1x64) broadcasts_S1x64_S5000x64 (ix2 r j) = bb (ix2 0 j) := by
  rw [shapeCast_self]
  refine broadcastTo_apply bb _ (ix2 r j) (ix2 0 j) fun a => ?_
  match a with
  | ⟨0, _⟩ => rfl
  | ⟨1, _⟩ => rfl

/-- The value stored into the output block at (r, j): the rectifier of the accumulated sum plus the bias. -/
theorem pay3_apply (acc : Vec Ideal S5000x64 .f32) (bb : Vec Ideal S1x64 .f32) (r : Fin 5000) (j : Fin 64) :
    k1_pay3 (F := Ideal) acc bb (ix2 r j) = act1 (acc (ix2 r j) + bb (ix2 0 j)) := by
  unfold k1_pay3
  show act1 (acc (ix2 r j) + broadcastTo S5000x64 (shapeCast S1x64 bb shapeCasts_S1x64_S1x64) broadcasts_S1x64_S5000x64 (ix2 r j)) = _
  rw [bias_apply]

end Cert.KernelIdeal.Val1

namespace Cert.KernelIdeal.Val1
open Cert.KernelIdeal Cert.KernelIdeal.Gen

variable (V : (c : Dev nD) → (b : Ref sig .tc) → Buf (Elt Ideal) ((c : Thread nD τ).loc b))

/-- The three arrays region 1 reads, at their literal types: the stack of the four hop arrays, the weight stack, the bias row. -/
abbrev hs (c : Dev nD) : FVec Ideal S4x50000x64 .f32 := V c main_v57
abbrev wt (c : Dev nD) : FVec Ideal S4x64x64 .f32 := V c main_arg5
abbrev bs (c : Dev nD) : FVec Ideal S1x64 .f32 := V c main_v58

/-! ### Where each window's block sits in its array -/

/-- The printed index maps over the grid: point t reads hop t % 4 of row block t / 4, the t % 4-th weight matrix, the
    whole bias row, and writes row block t / 4. -/
theorem idx_facts : ∀ t : Fin cfg1.N,
    win1_0.index t (0 : Fin 3) = t.val % 4 ∧ win1_0.index t (1 : Fin 3) = t.val / 4 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- The feature block at point t reads hop k = t % 4 of the stack at row R = 5000·(t/4) + r. -/
theorem hblk_apply (c : Dev nD) (t : Fin cfg1.N) (k : Fin 4) (hk : k.val = t.val % 4) (r : Fin 5000) (R : Fin 50000)
    (hR : R.val = 5000 * (t.val / 4) + r.val) (d : Fin 64) :
    Reg1.hblk V c t (ix3 0 r d) = hs V c (ix3 k R d) := by
  obtain ⟨e0, e1, e2, -⟩ := idx_facts t
  unfold Reg1.hblk Reg1.iblk
  rw [View.read_apply]
  show V c main_v57 (((cfg1.win 0).blk t).view.emb (ix3 0 r d)) = V c main_v57 (ix3 k R d)
  refine congrArg (V c main_v57) (funext fun a => Fin.ext ?_)
  match a with
  | ⟨0, _⟩ => show win1_0.index t (0 : Fin 3) * 1 + 1 * (0 : Fin 1).val = k.val; rw [e0, hk]; simp
  | ⟨1, _⟩ => show win1_0.index t (1 : Fin 3) * 5000 + 1 * r.val = R.val; rw [e1, hR]; omega
  | ⟨2, _⟩ => show win1_0.index t (2 : Fin 3) * 64 + 1 * d.val = d.val; rw [e2]; omega

/-- The weight block at point t is the k-th matrix of the weight stack, k = t % 4. -/
theorem wblk_apply (c : Dev nD) (t : Fin cfg1.N) (k : Fin 4) (hk : k.val = t.val % 4) (d : Fin 64) (j : Fin 64) :
    Reg1.wblk V c t (ix3 0 d j) = wt V c (ix3 k d j) := by
  obtain ⟨-, -, -, e0, e1, e2, -⟩ := idx_facts t
  unfold Reg1.wblk Reg1.iblk
  rw [View.read_apply]
  show V c main_arg5 (((cfg1.win 1).blk t).view.emb (ix3 0 d j)) = V c main_arg5 (ix3 k d j)
  refine congrArg (V c main_arg5) (funext fun a => Fin.ext ?_)
  match a with
  | ⟨0, _⟩ => show win1_1.index t (0 : Fin 3) * 1 + 1 * (0 : Fin 1).val = k.val; rw [e0, hk]; simp
  | ⟨1, _⟩ => show win1_1.index t (1 : Fin 3) * 64 + 1 * d.val = d.val; rw [e1]; omega
  | ⟨2, _⟩ => show win1_1.index t (2 : Fin 3) * 64 + 1 * j.val = j.val; rw [e2]; omega

/-- The bias block at every point is the bias row. -/
theorem bblk_apply (c : Dev nD) (t : Fin cfg1.N) (j : Fin 64) :
    Reg1.bblk V c t (ix2 0 j) = bs V c (ix2 0 j) := by
  obtain ⟨-, -, -, -, -, -, e0, e1, -⟩ := idx_facts t
  unfold Reg1.bblk Reg1.iblk
  rw [View.read_apply]
  show V c main_v58 (((cfg1.win 2).blk t).view.emb (ix2 0 j)) = V c main_v58 (ix2 0 j)
  refine congrArg (V c main_v58) (funext fun a => Fin.ext ?_)
  match a with
  | ⟨0, _⟩ => show win1_2.index t (0 : Fin 2) * 1 + 1 * (0 : Fin 1).val = (0 : Fin 1).val; rw [e0]; simp
  | ⟨1, _⟩ => show win1_2.index t (1 : Fin 2) * 64 + 1 * j.val = j.val; rw [e1]; omega

/-! ### The accumulator over the four hops of a row block -/

/-- Hop k's term at row R, column j: row R of the k-th hop array times column j of the k-th weight matrix. -/
abbrev term (c : Dev nD) (k : Fin 4) (R : Fin 50000) (j : Fin 64) : EReal :=
  ∑ d : Fin 64, (hs V c (ix3 k R d) * wt V c (ix3 k d j) : EReal)

/-- The product the body adds at point t, at (r, j), is hop t % 4's term at row 5000·(t/4) + r. -/
theorem step_sum (c : Dev nD) (t : Fin cfg1.N) (k : Fin 4) (hk : k.val = t.val % 4) (r : Fin 5000) (R : Fin 50000)
    (hR : R.val = 5000 * (t.val / 4) + r.val) (j : Fin 64) :
    (∑ d : Fin 64, (Reg1.hblk V c t (ix3 0 r d) * Reg1.wblk V c t (ix3 0 d j) : EReal)) = term V c k R j :=
  Finset.sum_congr rfl fun d _ => by rw [hblk_apply V c t k hk r R hR d, wblk_apply V c t k hk d j]

/-- At a hop-0 point the accumulator restarts from zero: it holds hop 0's term. -/
theorem acc_first (c : Dev nD) (t : Fin cfg1.N) (h0 : t.val % 4 = 0) (r : Fin 5000) (R : Fin 50000)
    (hR : R.val = 5000 * (t.val / 4) + r.val) (j : Fin 64) :
    Reg1.accAt V c t.val t.isLt (ix2 r j) = term V c 0 R j := by
  rw [Reg1.accAt_first V c t h0]
  refine (pay2_apply _ _ _ r j).trans ?_
  rw [pay1_apply, zero_add]
  exact step_sum V c t 0 (by rw [h0]; rfl) r R hR j

/-- At any other point it holds what the point before left plus this hop's term. -/
theorem acc_next (c : Dev nD) (t : Fin cfg1.N) (hn : ¬ t.val % 4 = 0) (k : Fin 4) (hk : k.val = t.val % 4) (r : Fin 5000)
    (R : Fin 50000) (hR : R.val = 5000 * (t.val / 4) + r.val) (j : Fin 64) :
    Reg1.accAt V c t.val t.isLt (ix2 r j)
      = Reg1.accAt V c (t.val - 1) (Nat.lt_of_le_of_lt (Nat.sub_le _ _) t.isLt) (ix2 r j) + term V c k R j := by
  rw [Reg1.accAt_next V c t hn]
  refine (pay2_apply _ _ _ r j).trans ?_
  rw [step_sum V c t k hk r R hR j]

/-- So at a hop-3 point it holds the four terms summed in hop order. -/
theorem acc_last (c : Dev nD) (t : Fin cfg1.N) (h3 : t.val % 4 = 3) (r : Fin 5000) (R : Fin 50000)
    (hR : R.val = 5000 * (t.val / 4) + r.val) (j : Fin 64) :
    Reg1.accAt V c t.val t.isLt (ix2 r j) = ((term V c 0 R j + term V c 1 R j) + term V c 2 R j) + term V c 3 R j := by
  have hlt : t.val < cfg1.N := t.isLt
  have h2' : (t.val - 1) % 4 = 2 := by omega
  have h1' : (t.val - 1 - 1) % 4 = 1 := by omega
  have h0' : (t.val - 1 - 1 - 1) % 4 = 0 := by omega
  have e3 := acc_next V c t (by omega) 3 (by rw [h3]; rfl) r R hR j
  have e2 := acc_next V c ⟨t.val - 1, by omega⟩ (by show ¬ (t.val - 1) % 4 = 0; omega) 2
    (by show (2 : Fin 4).val = (t.val - 1) % 4; rw [h2']; rfl) r R (by show R.val = 5000 * ((t.val - 1) / 4) + r.val; omega) j
  have e1 := acc_next V c ⟨t.val - 1 - 1, by omega⟩ (by show ¬ (t.val - 1 - 1) % 4 = 0; omega) 1
    (by show (1 : Fin 4).val = (t.val - 1 - 1) % 4; rw [h1']; rfl) r R (by show R.val = 5000 * ((t.val - 1 - 1) / 4) + r.val; omega) j
  have e0 := acc_first V c ⟨t.val - 1 - 1 - 1, by omega⟩ h0' r R (by show R.val = 5000 * ((t.val - 1 - 1 - 1) / 4) + r.val; omega) j
  exact e3.trans (congrArg (· + term V c 3 R j) (e2.trans (congrArg (· + term V c 2 R j) (e1.trans (congrArg (· + term V c 1 R j) e0)))))

/-! ### The result array -/

/-- The layer's value over the whole array. -/
abbrev G (c : Dev nD) : FVec Ideal S50000x64 .f32 :=
  Cert.Spec.layerAct (D := 64) (E := 64)
    (fun i => hs V c (ix3 0 (i 0) (i 1))) (fun i => hs V c (ix3 1 (i 0) (i 1)))
    (fun i => hs V c (ix3 2 (i 0) (i 1))) (fun i => hs V c (ix3 3 (i 0) (i 1)))
    (wt V c) (fun j => bs V c (ix2 0 (j 0)))

/-- What a hop-3 point stores at (r, j) is the layer's value at row 5000·(t/4) + r. -/
theorem out_apply (c : Dev nD) (t : Fin cfg1.N) (h3 : t.val % 4 = 3) (r : Fin 5000) (R : Fin 50000)
    (hR : R.val = 5000 * (t.val / 4) + r.val) (j : Fin 64) :
    Reg1.outAt V c t (ix2 r j) = G V c (ix2 R j) := by
  unfold Reg1.outAt
  refine (pay3_apply _ _ r j).trans ?_
  rw [acc_last V c t h3 r R hR j, bblk_apply V c t j]
  rfl

/-- What a hop-3 point writes back is its block of the layer's value. -/
theorem flushed_eq (c : Dev nD) (t : Fin cfg1.N) (hf : (cfg1.win 3).flush t = true) :
    (Reg1.dat (F := Ideal) V c).flushed 3 t = ((cfg1.win 3).blk t).view.read (Elt Ideal) (G V c) := by
  have h3 : t.val % 4 = 3 := (flush1_3 t).mp hf
  have hlt : t.val < 40 := N_1 ▸ t.isLt
  obtain ⟨-, -, -, -, -, -, -, -, e0, e1⟩ := idx_facts t
  show (cfg1.win 3).cut (grid1.coords t) ((Reg1.dat (F := Ideal) V c).after 3 t) = _
  rw [Reg1.after3]
  funext y
  obtain ⟨r, j, rfl⟩ : ∃ (r : Fin 5000) (j : Fin 64), y = ix2 r j := ⟨y 0, y 1, eq_ix2 y⟩
  have hr : r.val < 5000 := r.isLt
  show Reg1.outAt V c t (ix2 r j) = G V c (((cfg1.win 3).blk t).view.emb (ix2 r j))
  rw [out_apply V c t h3 r ⟨5000 * (t.val / 4) + r.val, by omega⟩ rfl j]
  refine congrArg (G V c) (funext fun a => Fin.ext ?_)
  match a with
  | ⟨0, _⟩ => show 5000 * (t.val / 4) + r.val = win1_3.index t (0 : Fin 2) * 5000 + 1 * r.val; rw [e0]; omega
  | ⟨1, _⟩ => show j.val = win1_3.index t (1 : Fin 2) * 64 + 1 * j.val; rw [e1]; omega

/-- An index of the result array is in point t's block iff each coordinate is in the block's range on its axis. -/
theorem mem_blk (t : Fin cfg1.N) (i : S50000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole main_v59).slice (win1_3.rect t)).set ↔ _
  rw [View.set_slice_whole, Rect.mem_set_unit]
  exact Iff.rfl

/-- Row R of the result is in the block of the hop-3 point of row block R / 5000. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : 4 * ((i 0).val / 5000) + 3 < cfg1.N := by show _ < grid1.N; rw [N_1]; omega
  obtain ⟨-, -, -, -, -, -, -, -, e0, e1⟩ := idx_facts ⟨4 * ((i 0).val / 5000) + 3, hN⟩
  refine ⟨⟨4 * ((i 0).val / 5000) + 3, hN⟩, (flush1_3 _).mpr (by show (4 * ((i 0).val / 5000) + 3) % 4 = 3; omega), ?_⟩
  rw [mem_blk]
  intro a
  match a with
  | ⟨0, _⟩ =>
    show win1_3.index ⟨4 * ((i 0).val / 5000) + 3, hN⟩ (0 : Fin 2) * 5000 ≤ (i 0).val
      ∧ (i 0).val < win1_3.index ⟨4 * ((i 0).val / 5000) + 3, hN⟩ (0 : Fin 2) * 5000 + 5000
    rw [e0]
    show (4 * ((i 0).val / 5000) + 3) / 4 * 5000 ≤ (i 0).val ∧ (i 0).val < (4 * ((i 0).val / 5000) + 3) / 4 * 5000 + 5000
    omega
  | ⟨1, _⟩ =>
    show win1_3.index ⟨4 * ((i 0).val / 5000) + 3, hN⟩ (1 : Fin 2) * 64 ≤ (i 1).val
      ∧ (i 1).val < win1_3.index ⟨4 * ((i 0).val / 5000) + 3, hN⟩ (1 : Fin 2) * 64 + 64
    rw [e1]
    omega

/-- The result array after the region: the layer's value of the three arrays as the region finds them. -/
theorem arr_out (c : Dev nD) :
    (Reg1.dat (F := Ideal) V c).arrAt 3 cfg1.N
      = Cert.Spec.layerAct (D := 64) (E := 64)
          (fun i => hs V c (ix3 0 (i 0) (i 1))) (fun i => hs V c (ix3 1 (i 0) (i 1)))
          (fun i => hs V c (ix3 2 (i 0) (i 1))) (fun i => hs V c (ix3 3 (i 0) (i 1)))
          (wt V c) (fun j => bs V c (ix2 0 (j 0))) :=
  (Reg1.dat (F := Ideal) V c).arrAt_eq_of_cover 3 (G V c) (flushed_eq V c) cover

end Cert.KernelIdeal.Val1

end
-- ==== Proof.KI.Val2.lean ====
/-
  Region 2's result array at the extended reals, as one function of the three arrays the region reads.

  The region's grid is 10 row blocks by 4 hops, the hop innermost: point t works on hop t % 4 of row block t / 4.
  At hop k the body adds, into an accumulator zeroed at hop 0, the product of rows 5000·(t/4) … 5000·(t/4)+4999 of
  the k-th array of the feature stack with the k-th matrix (64 by 1) of the weight stack; at hop 3 it stores, into
  rows 5000·(t/4) … of the one-column result, the accumulator plus the one-entry bias: the last layer has no
  rectifier. So row R of the result ends at

      ((( 0 + Σ_d h₀[R,d]·W[0,d,0] ) + Σ_d h₁[R,d]·W[1,d,0] ) + Σ_d h₂[R,d]·W[2,d,0] ) + Σ_d h₃[R,d]·W[3,d,0] + b,

  and 0 + x = x on the extended reals. The ten hop-3 points' blocks tile the 50000 rows.
-/
import proofs.«401537_j29600914604721_1_alg».proof.Proof.Gen.KernelIdeal.Skeleton
import proofs.«401537_j29600914604721_1_alg».proof.Proof.Gen.KernelIdeal.Launch
import proofs.«401537_j29600914604721_1_alg».proof.Proof.Gen.KernelIdeal.Points
import proofs.«401537_j29600914604721_1_alg».proof.Proof.Spec
import proofs.«401537_j29600914604721_1_alg».proof.Proof.KI.Reg2
import Idealize.ShloMosaic.Lib.Pipeline.Value
import Idealize.ShloMosaic.Lib.Pipeline.Frame
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Val2
open Cert.KernelIdeal Cert.KernelIdeal.Gen

/-! ### The block product's operand indices, axis by axis

The product contracts axis 1 of the left block with axis 0 of the right block; the output's row is the left block's
row and the output's column the right block's column. -/

theorem lhs_0 (j : S5000x1.Idx) (k : dot_S5000x64_S64x1_S5000x1_1_0_0_1_n_n.contr.Idx) :
    (dot_S5000x64_S64x1_S5000x1_1_0_0_1_n_n.lhsIdx j k 0).val = (j 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

theorem lhs_1 (j : S5000x1.Idx) (k : dot_S5000x64_S64x1_S5000x1_1_0_0_1_n_n.contr.Idx) :
    (dot_S5000x64_S64x1_S5000x1_1_0_0_1_n_n.lhsIdx j k 1).val = (k ⟨0, by decide⟩).val :=
  DotDims.lhsIdx_val_of_single _ (cl := 1) rfl j k

theorem rhs_0 (j : S5000x1.Idx) (k : dot_S5000x64_S64x1_S5000x1_1_0_0_1_n_n.contr.Idx) :
    (dot_S5000x64_S64x1_S5000x1_1_0_0_1_n_n.rhsIdx j k 0).val = (k ⟨0, by decide⟩).val :=
  DotDims.rhsIdx_val_of_single _ (cr := 0) rfl j k

theorem rhs_1 (j : S5000x1.Idx) (k : dot_S5000x64_S64x1_S5000x1_1_0_0_1_n_n.contr.Idx) :
    (dot_S5000x64_S64x1_S5000x1_1_0_0_1_n_n.rhsIdx j k 1).val = (j 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- The block product at row r, column j: the accumulator there plus the sum over the 64 contracted positions. -/
theorem mm_apply (lhs : FVec Ideal S5000x64 .f32) (rhs : FVec Ideal S64x1 .f32) (acc : FVec Ideal S5000x1 .f32)
    (r : Fin 5000) (j : Fin 1) :
    matmul dot_S5000x64_S64x1_S5000x1_1_0_0_1_n_n none lhs rhs acc (ix2 r j)
      = acc (ix2 r j) + ∑ d : Fin 64, (lhs (ix2 r d) * rhs (ix2 d j) : EReal) := by
  refine (Ideal.matmul_apply _ none lhs rhs acc (ix2 r j)).trans ?_
  congr 1
  rw [← Equiv.sum_comp (contrEquiv1 dot_S5000x64_S64x1_S5000x1_1_0_0_1_n_n 64 rfl rfl).symm]
  refine Finset.sum_congr rfl fun d _ => ?_
  have hk := contrEquiv1_symm_val dot_S5000x64_S64x1_S5000x1_1_0_0_1_n_n 64 rfl rfl d
  congr 1
  · refine congrArg lhs (funext fun a => Fin.ext ?_)
    match a with
    | ⟨0, _⟩ => exact lhs_0 _ _
    | ⟨1, _⟩ => exact (lhs_1 _ _).trans hk
  · refine congrArg rhs (funext fun a => Fin.ext ?_)
    match a with
    | ⟨0, _⟩ => exact (rhs_0 _ _).trans hk
    | ⟨1, _⟩ => exact rhs_1 _ _

/-! ### The three stored values at an index -/

/-- A [1,5000,64] block viewed as [5000,64] reads (r, d) at (0, r, d). -/
theorem drop_h (hb : Vec Ideal S1x5000x64 .f32) (r : Fin 5000) (d : Fin 64) :
    shapeCast S5000x64 hb shapeCasts_S1x5000x64_S5000x64 (ix2 r d) = hb (ix3 0 r d) := by
  refine (shapeCast_dropUnit_apply (n := 2) ![5000, 64] hb _ (ix2 r d)).trans ?_
  exact congrArg hb (funext fun a => by match a with | ⟨0, _⟩ => rfl | ⟨1, _⟩ => rfl | ⟨2, _⟩ => rfl)

/-- A [1,64,1] block viewed as [64,1] reads (d, j) at (0, d, j). -/
theorem drop_w (wb : Vec Ideal S1x64x1 .f32) (d : Fin 64) (j : Fin 1) :
    shapeCast S64x1 wb shapeCasts_S1x64x1_S64x1 (ix2 d j) = wb (ix3 0 d j) := by
  refine (shapeCast_dropUnit_apply (n := 2) ![64, 1] wb _ (ix2 d j)).trans ?_
  exact congrArg wb (funext fun a => by match a with | ⟨0, _⟩ => rfl | ⟨1, _⟩ => rfl | ⟨2, _⟩ => rfl)

/-- The reset value is zero everywhere. -/
theorem pay1_apply (i : S5000x1.Idx) : k2_pay1 (F := Ideal) i = 0 := by
  unfold k2_pay1
  refine (congrFun (shapeCast_self _ _) i).trans ?_
  exact Ideal.ofBits_zero_f32

/-- One accumulation step at (r, j): what was there plus row r of the node block times column j of the weight block. -/
theorem pay2_apply (acc : Vec Ideal S5000x1 .f32) (hb : Vec Ideal S1x5000x64 .f32) (wb : Vec Ideal S1x64x1 .f32)
    (r : Fin 5000) (j : Fin 1) :
    k2_pay2 (F := Ideal) acc hb wb (ix2 r j) = acc (ix2 r j) + ∑ d : Fin 64, (hb (ix3 0 r d) * wb (ix3 0 d j) : EReal) := by
  unfold k2_pay2
  refine (congrFun (shapeCast_self _ _) (ix2 r j)).trans ?_
  refine (congrArg (acc (ix2 r j) + ·) (mm_apply _ _ _ r j)).trans ?_
  refine congrArg (acc (ix2 r j) + ·) ?_
  refine (congrArg (· + _) Ideal.ofBits_zero_f32).trans ?_
  refine (zero_add _).trans ?_
  exact Finset.sum_congr rfl fun d _ => by rw [drop_h, drop_w]

/-- The one-entry bias broadcast down the 5000 rows reads that entry. -/
theorem bias_apply (bb : Vec Ideal S1x1 .f32) (r : Fin 5000) (j : Fin 1) :
    broadcastTo S5000x1 (shapeCast S1x1 bb shapeCasts_S1x1_S1x1) broadcasts_S1x1_S5000x1 (ix2 r j) = bb (ix2 0 0) := by
  rw [shapeCast_self]
  refine broadcastTo_apply bb _ (ix2 r j) (ix2 0 0) fun a => ?_
  match a with
  | ⟨0, _⟩ => rfl
  | ⟨1, _⟩ => rfl

/-- The value stored into the output block at (r, j): the accumulated sum plus the bias entry. -/
theorem pay3_apply (acc : Vec Ideal S5000x1 .f32) (bb : Vec Ideal S1x1 .f32) (r : Fin 5000) (j : Fin 1) :
    k2_pay3 (F := Ideal) acc bb (ix2 r j) = acc (ix2 r j) + bb (ix2 0 0) := by
  unfold k2_pay3
  show acc (ix2 r j) + broadcastTo S5000x1 (shapeCast S1x1 bb shapeCasts_S1x1_S1x1) broadcasts_S1x1_S5000x1 (ix2 r j) = _
  rw [bias_apply]

end Cert.KernelIdeal.Val2

namespace Cert.KernelIdeal.Val2
open Cert.KernelIdeal Cert.KernelIdeal.Gen

variable (V : (c : Dev nD) → (b : Ref sig .tc) → Buf (Elt Ideal) ((c : Thread nD τ).loc b))

/-- The three arrays region 0 reads, at their literal types: the stack of the four hop arrays, the weight stack, the one-entry bias. -/
abbrev hs (c : Dev nD) : FVec Ideal S4x50000x64 .f32 := V c main_v85
abbrev wt (c : Dev nD) : FVec Ideal S4x64x1 .f32 := V c main_arg7
abbrev bs (c : Dev nD) : FVec Ideal S1x1 .f32 := V c main_v86

/-! ### Where each window's block sits in its array -/

/-- The printed index maps over the grid: point t reads hop t % 4 of row block t / 4, the t % 4-th weight matrix, the
    one-entry bias, and writes row block t / 4. -/
theorem idx_facts : ∀ t : Fin cfg2.N,
    win2_0.index t (0 : Fin 3) = t.val % 4 ∧ win2_0.index t (1 : Fin 3) = t.val / 4 ∧ win2_0.index t (2 : Fin 3) = 0
    ∧ win2_1.index t (0 : Fin 3) = t.val % 4 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- The feature block at point t reads hop k = t % 4 of the stack at row R = 5000·(t/4) + r. -/
theorem hblk_apply (c : Dev nD) (t : Fin cfg2.N) (k : Fin 4) (hk : k.val = t.val % 4) (r : Fin 5000) (R : Fin 50000)
    (hR : R.val = 5000 * (t.val / 4) + r.val) (d : Fin 64) :
    Reg2.hblk V c t (ix3 0 r d) = hs V c (ix3 k R d) := by
  obtain ⟨e0, e1, e2, -⟩ := idx_facts t
  unfold Reg2.hblk Reg2.iblk
  rw [View.read_apply]
  show V c main_v85 (((cfg2.win 0).blk t).view.emb (ix3 0 r d)) = V c main_v85 (ix3 k R d)
  refine congrArg (V c main_v85) (funext fun a => Fin.ext ?_)
  match a with
  | ⟨0, _⟩ => show win2_0.index t (0 : Fin 3) * 1 + 1 * (0 : Fin 1).val = k.val; rw [e0, hk]; simp
  | ⟨1, _⟩ => show win2_0.index t (1 : Fin 3) * 5000 + 1 * r.val = R.val; rw [e1, hR]; omega
  | ⟨2, _⟩ => show win2_0.index t (2 : Fin 3) * 64 + 1 * d.val = d.val; rw [e2]; omega

/-- The weight block at point t is the k-th matrix of the weight stack, k = t % 4. -/
theorem wblk_apply (c : Dev nD) (t : Fin cfg2.N) (k : Fin 4) (hk : k.val = t.val % 4) (d : Fin 64) (j : Fin 1) :
    Reg2.wblk V c t (ix3 0 d j) = wt V c (ix3 k d j) := by
  obtain ⟨-, -, -, e0, e1, e2, -⟩ := idx_facts t
  unfold Reg2.wblk Reg2.iblk
  rw [View.read_apply]
  show V c main_arg7 (((cfg2.win 1).blk t).view.emb (ix3 0 d j)) = V c main_arg7 (ix3 k d j)
  refine congrArg (V c main_arg7) (funext fun a => Fin.ext ?_)
  match a with
  | ⟨0, _⟩ => show win2_1.index t (0 : Fin 3) * 1 + 1 * (0 : Fin 1).val = k.val; rw [e0, hk]; simp
  | ⟨1, _⟩ => show win2_1.index t (1 : Fin 3) * 64 + 1 * d.val = d.val; rw [e1]; omega
  | ⟨2, _⟩ => show win2_1.index t (2 : Fin 3) * 1 + 1 * j.val = j.val; rw [e2]; omega

/-- The bias block at every point is the one-entry bias. -/
theorem bblk_apply (c : Dev nD) (t : Fin cfg2.N) :
    Reg2.bblk V c t (ix2 0 0) = bs V c (ix2 0 0) := by
  obtain ⟨-, -, -, -, -, -, e0, e1, -⟩ := idx_facts t
  unfold Reg2.bblk Reg2.iblk
  rw [View.read_apply]
  show V c main_v86 (((cfg2.win 2).blk t).view.emb (ix2 0 0)) = V c main_v86 (ix2 0 0)
  refine congrArg (V c main_v86) (funext fun a => Fin.ext ?_)
  match a with
  | ⟨0, _⟩ => show win2_2.index t (0 : Fin 2) * 1 + 1 * (0 : Fin 1).val = (0 : Fin 1).val; rw [e0]; simp
  | ⟨1, _⟩ => show win2_2.index t (1 : Fin 2) * 1 + 1 * (0 : Fin 1).val = (0 : Fin 1).val; rw [e1]; simp

/-! ### The accumulator over the four hops of a row block -/

/-- Hop k's term at row R, column j: row R of the k-th hop array times column j of the k-th weight matrix. -/
abbrev term (c : Dev nD) (k : Fin 4) (R : Fin 50000) (j : Fin 1) : EReal :=
  ∑ d : Fin 64, (hs V c (ix3 k R d) * wt V c (ix3 k d j) : EReal)

/-- The product the body adds at point t, at (r, j), is hop t % 4's term at row 5000·(t/4) + r. -/
theorem step_sum (c : Dev nD) (t : Fin cfg2.N) (k : Fin 4) (hk : k.val = t.val % 4) (r : Fin 5000) (R : Fin 50000)
    (hR : R.val = 5000 * (t.val / 4) + r.val) (j : Fin 1) :
    (∑ d : Fin 64, (Reg2.hblk V c t (ix3 0 r d) * Reg2.wblk V c t (ix3 0 d j) : EReal)) = term V c k R j :=
  Finset.sum_congr rfl fun d _ => by rw [hblk_apply V c t k hk r R hR d, wblk_apply V c t k hk d j]

/-- At a hop-0 point the accumulator restarts from zero: it holds hop 0's term. -/
theorem acc_first (c : Dev nD) (t : Fin cfg2.N) (h0 : t.val % 4 = 0) (r : Fin 5000) (R : Fin 50000)
    (hR : R.val = 5000 * (t.val / 4) + r.val) (j : Fin 1) :
    Reg2.accAt V c t.val t.isLt (ix2 r j) = term V c 0 R j := by
  rw [Reg2.accAt_first V c t h0]
  refine (pay2_apply _ _ _ r j).trans ?_
  rw [pay1_apply, zero_add]
  exact step_sum V c t 0 (by rw [h0]; rfl) r R hR j

/-- At any other point it holds what the point before left plus this hop's term. -/
theorem acc_next (c : Dev nD) (t : Fin cfg2.N) (hn : ¬ t.val % 4 = 0) (k : Fin 4) (hk : k.val = t.val % 4) (r : Fin 5000)
    (R : Fin 50000) (hR : R.val = 5000 * (t.val / 4) + r.val) (j : Fin 1) :
    Reg2.accAt V c t.val t.isLt (ix2 r j)
      = Reg2.accAt V c (t.val - 1) (Nat.lt_of_le_of_lt (Nat.sub_le _ _) t.isLt) (ix2 r j) + term V c k R j := by
  rw [Reg2.accAt_next V c t hn]
  refine (pay2_apply _ _ _ r j).trans ?_
  rw [step_sum V c t k hk r R hR j]

/-- So at a hop-3 point it holds the four terms summed in hop order. -/
theorem acc_last (c : Dev nD) (t : Fin cfg2.N) (h3 : t.val % 4 = 3) (r : Fin 5000) (R : Fin 50000)
    (hR : R.val = 5000 * (t.val / 4) + r.val) (j : Fin 1) :
    Reg2.accAt V c t.val t.isLt (ix2 r j) = ((term V c 0 R j + term V c 1 R j) + term V c 2 R j) + term V c 3 R j := by
  have hlt : t.val < cfg2.N := t.isLt
  have h2' : (t.val - 1) % 4 = 2 := by omega
  have h1' : (t.val - 1 - 1) % 4 = 1 := by omega
  have h0' : (t.val - 1 - 1 - 1) % 4 = 0 := by omega
  have e3 := acc_next V c t (by omega) 3 (by rw [h3]; rfl) r R hR j
  have e2 := acc_next V c ⟨t.val - 1, by omega⟩ (by show ¬ (t.val - 1) % 4 = 0; omega) 2
    (by show (2 : Fin 4).val = (t.val - 1) % 4; rw [h2']; rfl) r R (by show R.val = 5000 * ((t.val - 1) / 4) + r.val; omega) j
  have e1 := acc_next V c ⟨t.val - 1 - 1, by omega⟩ (by show ¬ (t.val - 1 - 1) % 4 = 0; omega) 1
    (by show (1 : Fin 4).val = (t.val - 1 - 1) % 4; rw [h1']; rfl) r R (by show R.val = 5000 * ((t.val - 1 - 1) / 4) + r.val; omega) j
  have e0 := acc_first V c ⟨t.val - 1 - 1 - 1, by omega⟩ h0' r R (by show R.val = 5000 * ((t.val - 1 - 1 - 1) / 4) + r.val; omega) j
  exact e3.trans (congrArg (· + term V c 3 R j) (e2.trans (congrArg (· + term V c 2 R j) (e1.trans (congrArg (· + term V c 1 R j) e0)))))

/-! ### The result array -/

/-- The layer's value over the whole array: the four terms in hop order plus the bias entry, no rectifier. -/
abbrev G (c : Dev nD) : FVec Ideal S50000x1 .f32 :=
  fun ij : S50000x1.Idx => Cert.Spec.lin (D := 64) (E := 1)
    (fun i => hs V c (ix3 0 (i 0) (i 1))) (fun i => hs V c (ix3 1 (i 0) (i 1)))
    (fun i => hs V c (ix3 2 (i 0) (i 1))) (fun i => hs V c (ix3 3 (i 0) (i 1)))
    (wt V c) (ij 0) (ij 1) + bs V c (ix2 0 0)

/-- What a hop-3 point stores at (r, j) is the layer's value at row 5000·(t/4) + r. -/
theorem out_apply (c : Dev nD) (t : Fin cfg2.N) (h3 : t.val % 4 = 3) (r : Fin 5000) (R : Fin 50000)
    (hR : R.val = 5000 * (t.val / 4) + r.val) (j : Fin 1) :
    Reg2.outAt V c t (ix2 r j) = G V c (ix2 R j) := by
  unfold Reg2.outAt
  refine (pay3_apply _ _ r j).trans ?_
  rw [acc_last V c t h3 r R hR j, bblk_apply V c t]
  rfl

/-- What a hop-3 point writes back is its block of the layer's value. -/
theorem flushed_eq (c : Dev nD) (t : Fin cfg2.N) (hf : (cfg2.win 3).flush t = true) :
    (Reg2.dat (F := Ideal) V c).flushed 3 t = ((cfg2.win 3).blk t).view.read (Elt Ideal) (G V c) := by
  have h3 : t.val % 4 = 3 := (flush2_3 t).mp hf
  have hlt : t.val < 40 := N_2 ▸ t.isLt
  obtain ⟨-, -, -, -, -, -, -, -, e0, e1⟩ := idx_facts t
  show (cfg2.win 3).cut (grid2.coords t) ((Reg2.dat (F := Ideal) V c).after 3 t) = _
  rw [Reg2.after3]
  funext y
  obtain ⟨r, j, rfl⟩ : ∃ (r : Fin 5000) (j : Fin 1), y = ix2 r j := ⟨y 0, y 1, eq_ix2 y⟩
  have hr : r.val < 5000 := r.isLt
  show Reg2.outAt V c t (ix2 r j) = G V c (((cfg2.win 3).blk t).view.emb (ix2 r j))
  rw [out_apply V c t h3 r ⟨5000 * (t.val / 4) + r.val, by omega⟩ rfl j]
  refine congrArg (G V c) (funext fun a => Fin.ext ?_)
  match a with
  | ⟨0, _⟩ => show 5000 * (t.val / 4) + r.val = win2_3.index t (0 : Fin 2) * 5000 + 1 * r.val; rw [e0]; omega
  | ⟨1, _⟩ => show j.val = win2_3.index t (1 : Fin 2) * 1 + 1 * j.val; rw [e1]; omega

/-- An index of the result array is in point t's block iff each coordinate is in the block's range on its axis. -/
theorem mem_blk (t : Fin cfg2.N) (i : S50000x1.Idx) :
    i ∈ ((cfg2.win 3).blk t).view.set
      ↔ ∀ a : Fin 2, win2_3.index t a * S5000x1.size a ≤ (i a).val ∧ (i a).val < win2_3.index t a * S5000x1.size a + S5000x1.size a := by
  show i ∈ ((View.whole main_v87).slice (win2_3.rect t)).set ↔ _
  rw [View.set_slice_whole, Rect.mem_set_unit]
  exact Iff.rfl

/-- Row R of the result is in the block of the hop-3 point of row block R / 5000. -/
theorem cover (i : S50000x1.Idx) :
    ∃ t : Fin cfg2.N, (cfg2.win 3).flush t = true ∧ i ∈ ((cfg2.win 3).blk t).view.set := by
  have hi0 : (i 0).val < 50000 := (i 0).isLt
  have hi1 : (i 1).val < 1 := (i 1).isLt
  have hN : 4 * ((i 0).val / 5000) + 3 < cfg2.N := by show _ < grid2.N; rw [N_2]; omega
  obtain ⟨-, -, -, -, -, -, -, -, e0, e1⟩ := idx_facts ⟨4 * ((i 0).val / 5000) + 3, hN⟩
  refine ⟨⟨4 * ((i 0).val / 5000) + 3, hN⟩, (flush2_3 _).mpr (by show (4 * ((i 0).val / 5000) + 3) % 4 = 3; omega), ?_⟩
  rw [mem_blk]
  intro a
  match a with
  | ⟨0, _⟩ =>
    show win2_3.index ⟨4 * ((i 0).val / 5000) + 3, hN⟩ (0 : Fin 2) * 5000 ≤ (i 0).val
      ∧ (i 0).val < win2_3.index ⟨4 * ((i 0).val / 5000) + 3, hN⟩ (0 : Fin 2) * 5000 + 5000
    rw [e0]
    show (4 * ((i 0).val / 5000) + 3) / 4 * 5000 ≤ (i 0).val ∧ (i 0).val < (4 * ((i 0).val / 5000) + 3) / 4 * 5000 + 5000
    omega
  | ⟨1, _⟩ =>
    show win2_3.index ⟨4 * ((i 0).val / 5000) + 3, hN⟩ (1 : Fin 2) * 1 ≤ (i 1).val
      ∧ (i 1).val < win2_3.index ⟨4 * ((i 0).val / 5000) + 3, hN⟩ (1 : Fin 2) * 1 + 1
    rw [e1]
    omega

/-- The result array after the region: the last layer's value of the three arrays as the region finds them. -/
theorem arr_out (c : Dev nD) :
    (Reg2.dat (F := Ideal) V c).arrAt 3 cfg2.N
      = fun ij : S50000x1.Idx => Cert.Spec.lin (D := 64) (E := 1)
          (fun i => hs V c (ix3 0 (i 0) (i 1))) (fun i => hs V c (ix3 1 (i 0) (i 1)))
          (fun i => hs V c (ix3 2 (i 0) (i 1))) (fun i => hs V c (ix3 3 (i 0) (i 1)))
          (wt V c) (ij 0) (ij 1) + bs V c (ix2 0 0) :=
  (Reg2.dat (F := Ideal) V c).arrAt_eq_of_cover 3 (G V c) (flushed_eq V c) cover

end Cert.KernelIdeal.Val2

end
-- ==== Proof.KI.HostBase.lean ====
/-
  The kernel program's row take and hop, and the range facts about them. The program's take counts a negative index
  from the end, guards each row by a range test on the index so obtained, and fills a row whose index fails the test
  with NaN; when every source index lies in [0, 50000) the wrapped index is the index itself, the test holds of every
  row, and the take is the plain gather. Beside it: four arrays stacked along a new leading axis read slab by slab,
  the hop over an already gathered array, and the edge list's two rows as the first host stretch leaves them.
-/
import proofs.«401537_j29600914604721_1_alg».proof.Proof.KI.Pre
import proofs.«401537_j29600914604721_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

set_option maxRecDepth 8192

noncomputable section

namespace Cert.KernelIdeal.HHost

open Cert.KernelIdeal Cert.KernelIdeal.Gen
open Idealize.ShloMosaic Idealize.ShloMosaic.TcCoe Idealize.SL.Sem Idealize.ShloMosaic.ValueIdx

/-! ## The program's take -/

/-- A negative index counted from the end: s + 50000 where s < 0, else s. -/
def wrapIdx (s : IVec S1200000 32) : IVec S1200000 32 :=
  select (cmpi .slt s (broadcastInDim S1200000 ![] bcast_S_S1200000 (constantI S_ 32 0#32)))
    (addi s (broadcastInDim S1200000 ![] bcast_S_S1200000 (constantI S_ 32 50000#32))) s

/-- The wrapped index as the [1200000, 1] column of start indices the gather reads. -/
def idxCol (s : IVec S1200000 32) : IVec S1200000x1 32 :=
  broadcastInDim S1200000x1 ![0] bcast_S1200000_S1200000x1_0 (wrapIdx s)

/-- The guard of the take: 1 at edge e when 0 ≤ (wrapped index of e) ≤ 49999. -/
def takeMask (s : IVec S1200000 32) : IVec S1200000 1 :=
  Host.reduce IntOp.andi
    (andi (cmpi .sge (idxCol s) (broadcastInDim S1200000x1 ![] bcast_S_S1200000x1 (constantI S_ 32 0#32)))
      (cmpi .sle (idxCol s) (broadcastInDim S1200000x1 ![0, 1] bcast_S1x1_S1200000x1_0_1
        (broadcastInDim S1x1 ![1] bcast_S1_S1x1_1 (constantI S1 32 49999#32)))))
    (constantI S_ 1 1#1) reducesTo_S1200000x1_S1200000_d1 h_S_

/-- The take of rows of a [50000, 32] array: the gathered row where the guard holds, NaN elsewhere. -/
def take32 (u : FVec Ideal S50000x32 .f32) (s : IVec S1200000 32) : FVec Ideal S1200000x32 .f32 :=
  select (broadcastInDim S1200000x32 ![0] bcast_S1200000_S1200000x32_0 (takeMask s))
    (Host.gather gather_S50000x32_S1200000x1_S1200000x32_1_0_n_n_0_1_132 u (idxCol s))
    (broadcastInDim S1200000x32 ![] bcast_S_S1200000x32 (constant (F := Ideal) S_ .f32 0x7FC00000#32))

/-- The same of a [50000, 64] array. -/
def take64 (u : FVec Ideal S50000x64 .f32) (s : IVec S1200000 32) : FVec Ideal S1200000x64 .f32 :=
  select (broadcastInDim S1200000x64 ![0] bcast_S1200000_S1200000x64_0 (takeMask s))
    (Host.gather gather_S50000x64_S1200000x1_S1200000x64_1_0_n_n_0_1_164 u (idxCol s))
    (broadcastInDim S1200000x64 ![] bcast_S_S1200000x64 (constant (F := Ideal) S_ .f32 0x7FC00000#32))

/-! ## In range: the wrap is the identity, the guard holds, the take is the gather -/

theorem wrapIdx_eq {s : IVec S1200000 32} (h : InRange s) : wrapIdx s = s := by
  funext e
  have h0 := (h e).1
  have hc : ¬ IntOp.cmpi .slt (s e) 0#32 = 1#1 := by
    rw [IntOp.cmpi_slt]
    have z : (0#32 : BitVec 32).toInt = 0 := by decide
    omega
  exact if_neg hc

theorem takeMask_eq {s : IVec S1200000 32} (h : InRange s) : takeMask s = fun _ => 1#1 := by
  have key : ∀ w : BitVec 32, 0 ≤ w.toInt → w.toInt < 50000 →
      IntOp.andi (IntOp.cmpi .sge w 0#32) (IntOp.cmpi .sle w 49999#32) = 1#1 := by
    intro w a b
    rw [IntOp.andi_eq_one, IntOp.cmpi_sge, IntOp.cmpi_sle]
    have z : (0#32 : BitVec 32).toInt = 0 := by decide
    have z' : (49999#32 : BitVec 32).toInt = 49999 := by decide
    omega
  have fold1 : ∀ (l : List S1200000x1.Idx) (f : S1200000x1.Idx → BitVec 1), (∀ i, f i = 1#1) →
      l.foldl (fun r i => IntOp.andi r (f i)) 1#1 = 1#1 := by
    intro l f hf
    induction l with
    | nil => rfl
    | cons a l ih =>
      rw [List.foldl_cons, hf a]
      have : IntOp.andi 1#1 1#1 = 1#1 := by decide
      rw [this]; exact ih
  funext e
  unfold takeMask idxCol
  rw [wrapIdx_eq h, Host.reduce_eq_foldl]
  exact fold1 _ _ (fun i => key _ (h _).1 (h _).2)

theorem take32_eq (u : FVec Ideal S50000x32 .f32) {s : IVec S1200000 32} (h : InRange s) :
    take32 u s = Host.gather gather_S50000x32_S1200000x1_S1200000x32_1_0_n_n_0_1_132 u (broadcastInDim S1200000x1 ![0] bcast_S1200000_S1200000x1_0 s) := by
  unfold take32
  rw [takeMask_eq h]
  unfold idxCol
  rw [wrapIdx_eq h]
  funext j
  exact ValueIdx.select_one _ _

theorem take64_eq (u : FVec Ideal S50000x64 .f32) {s : IVec S1200000 32} (h : InRange s) :
    take64 u s = Host.gather gather_S50000x64_S1200000x1_S1200000x64_1_0_n_n_0_1_164 u (broadcastInDim S1200000x1 ![0] bcast_S1200000_S1200000x1_0 s) := by
  unfold take64
  rw [takeMask_eq h]
  unfold idxCol
  rw [wrapIdx_eq h]
  funext j
  exact ValueIdx.select_one _ _

/-- Four [50000, 32] arrays stacked along a new leading axis, as the program builds the launch's operand: each
    given a unit leading axis, the four joined along it. -/
def stack32 (p0 p1 p2 p3 : FVec Ideal S50000x32 .f32) : FVec Ideal S4x50000x32 .f32 :=
  concatenate S4x50000x32 0 [⟨S1x50000x32, broadcastInDim S1x50000x32 ![1, 2] bcast_S50000x32_S1x50000x32_1_2 p0⟩, ⟨S1x50000x32, broadcastInDim S1x50000x32 ![1, 2] bcast_S50000x32_S1x50000x32_1_2 p1⟩, ⟨S1x50000x32, broadcastInDim S1x50000x32 ![1, 2] bcast_S50000x32_S1x50000x32_1_2 p2⟩, ⟨S1x50000x32, broadcastInDim S1x50000x32 ![1, 2] bcast_S50000x32_S1x50000x32_1_2 p3⟩] concatenates_S1x50000x32_S1x50000x32_S1x50000x32_S1x50000x32_S4x50000x32_d0

/-- Slab 0 of the stack is the first array. -/
theorem stack32_at0 (p0 p1 p2 p3 : FVec Ideal S50000x32 .f32) (i : Fin 50000) (d : Fin 32) :
    stack32 p0 p1 p2 p3 (ix3 (0 : Fin 4) i d) = p0 (ix2 i d) := by
  unfold stack32
  refine (concatenate_apply_piece (0 : Fin S4x50000x32.rank) _ _ (ix3 (0 : Fin 4) i d) 0 (by simp) S1x50000x32
    (broadcastInDim S1x50000x32 ![1, 2] bcast_S50000x32_S1x50000x32_1_2 p0) rfl rfl 0 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 1 of the stack is the second array. -/
theorem stack32_at1 (p0 p1 p2 p3 : FVec Ideal S50000x32 .f32) (i : Fin 50000) (d : Fin 32) :
    stack32 p0 p1 p2 p3 (ix3 (1 : Fin 4) i d) = p1 (ix2 i d) := by
  unfold stack32
  refine (concatenate_apply_piece (0 : Fin S4x50000x32.rank) _ _ (ix3 (1 : Fin 4) i d) 1 (by simp) S1x50000x32
    (broadcastInDim S1x50000x32 ![1, 2] bcast_S50000x32_S1x50000x32_1_2 p1) rfl rfl 1 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 2 of the stack is the third array. -/
theorem stack32_at2 (p0 p1 p2 p3 : FVec Ideal S50000x32 .f32) (i : Fin 50000) (d : Fin 32) :
    stack32 p0 p1 p2 p3 (ix3 (2 : Fin 4) i d) = p2 (ix2 i d) := by
  unfold stack32
  refine (concatenate_apply_piece (0 : Fin S4x50000x32.rank) _ _ (ix3 (2 : Fin 4) i d) 2 (by simp) S1x50000x32
    (broadcastInDim S1x50000x32 ![1, 2] bcast_S50000x32_S1x50000x32_1_2 p2) rfl rfl 2 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 3 of the stack is the fourth array. -/
theorem stack32_at3 (p0 p1 p2 p3 : FVec Ideal S50000x32 .f32) (i : Fin 50000) (d : Fin 32) :
    stack32 p0 p1 p2 p3 (ix3 (3 : Fin 4) i d) = p3 (ix2 i d) := by
  unfold stack32
  refine (concatenate_apply_piece (0 : Fin S4x50000x32.rank) _ _ (ix3 (3 : Fin 4) i d) 3 (by simp) S1x50000x32
    (broadcastInDim S1x50000x32 ![1, 2] bcast_S50000x32_S1x50000x32_1_2 p3) rfl rfl 3 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Four [50000, 64] arrays stacked along a new leading axis, as the program builds the launch's operand: each
    given a unit leading axis, the four joined along it. -/
def stack64 (p0 p1 p2 p3 : FVec Ideal S50000x64 .f32) : FVec Ideal S4x50000x64 .f32 :=
  concatenate S4x50000x64 0 [⟨S1x50000x64, broadcastInDim S1x50000x64 ![1, 2] bcast_S50000x64_S1x50000x64_1_2 p0⟩, ⟨S1x50000x64, broadcastInDim S1x50000x64 ![1, 2] bcast_S50000x64_S1x50000x64_1_2 p1⟩, ⟨S1x50000x64, broadcastInDim S1x50000x64 ![1, 2] bcast_S50000x64_S1x50000x64_1_2 p2⟩, ⟨S1x50000x64, broadcastInDim S1x50000x64 ![1, 2] bcast_S50000x64_S1x50000x64_1_2 p3⟩] concatenates_S1x50000x64_S1x50000x64_S1x50000x64_S1x50000x64_S4x50000x64_d0

/-- Slab 0 of the stack is the first array. -/
theorem stack64_at0 (p0 p1 p2 p3 : FVec Ideal S50000x64 .f32) (i : Fin 50000) (d : Fin 64) :
    stack64 p0 p1 p2 p3 (ix3 (0 : Fin 4) i d) = p0 (ix2 i d) := by
  unfold stack64
  refine (concatenate_apply_piece (0 : Fin S4x50000x64.rank) _ _ (ix3 (0 : Fin 4) i d) 0 (by simp) S1x50000x64
    (broadcastInDim S1x50000x64 ![1, 2] bcast_S50000x64_S1x50000x64_1_2 p0) rfl rfl 0 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 1 of the stack is the second array. -/
theorem stack64_at1 (p0 p1 p2 p3 : FVec Ideal S50000x64 .f32) (i : Fin 50000) (d : Fin 64) :
    stack64 p0 p1 p2 p3 (ix3 (1 : Fin 4) i d) = p1 (ix2 i d) := by
  unfold stack64
  refine (concatenate_apply_piece (0 : Fin S4x50000x64.rank) _ _ (ix3 (1 : Fin 4) i d) 1 (by simp) S1x50000x64
    (broadcastInDim S1x50000x64 ![1, 2] bcast_S50000x64_S1x50000x64_1_2 p1) rfl rfl 1 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 2 of the stack is the third array. -/
theorem stack64_at2 (p0 p1 p2 p3 : FVec Ideal S50000x64 .f32) (i : Fin 50000) (d : Fin 64) :
    stack64 p0 p1 p2 p3 (ix3 (2 : Fin 4) i d) = p2 (ix2 i d) := by
  unfold stack64
  refine (concatenate_apply_piece (0 : Fin S4x50000x64.rank) _ _ (ix3 (2 : Fin 4) i d) 2 (by simp) S1x50000x64
    (broadcastInDim S1x50000x64 ![1, 2] bcast_S50000x64_S1x50000x64_1_2 p2) rfl rfl 2 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-- Slab 3 of the stack is the fourth array. -/
theorem stack64_at3 (p0 p1 p2 p3 : FVec Ideal S50000x64 .f32) (i : Fin 50000) (d : Fin 64) :
    stack64 p0 p1 p2 p3 (ix3 (3 : Fin 4) i d) = p3 (ix2 i d) := by
  unfold stack64
  refine (concatenate_apply_piece (0 : Fin S4x50000x64.rank) _ _ (ix3 (3 : Fin 4) i d) 3 (by simp) S1x50000x64
    (broadcastInDim S1x50000x64 ![1, 2] bcast_S50000x64_S1x50000x64_1_2 p3) rfl rfl 3 rfl (ix3 (0 : Fin 1) i d) ?_ rfl).trans ?_
  · intro b hb
    fin_cases b
    · exact absurd rfl hb
    · rfl
    · rfl
  · exact broadcastInDim_apply _ _ _ _ (ix2 i d) (fun a => by fin_cases a <;> rfl)

/-! ## A hop over an already gathered [1200000, D] array -/

/-- Rows t e scaled by w e and added into row d e of zeros. -/
def hopRaw32 (t : FVec Ideal S1200000x32 .f32) (d : IVec S1200000 32) (w : FVec Ideal S1200000 .f32) : FVec Ideal S50000x32 .f32 :=
  Host.scatterAdd scatter_S50000x32_S1200000x1_S1200000x32_1_0_0_1
    (broadcastInDim S50000x32 ![] bcast_S_S50000x32 (constant (F := Ideal) S_ .f32 0x00000000#32))
    (broadcastInDim S1200000x1 ![0] bcast_S1200000_S1200000x1_0 d)
    (mulf t (broadcastInDim S1200000x32 ![0, 1] bcast_S1200000x1_S1200000x32_0_1 (broadcastInDim S1200000x1 ![0] bcast_S1200000_S1200000x1_0 w)))

def hopRaw64 (t : FVec Ideal S1200000x64 .f32) (d : IVec S1200000 32) (w : FVec Ideal S1200000 .f32) : FVec Ideal S50000x64 .f32 :=
  Host.scatterAdd scatter_S50000x64_S1200000x1_S1200000x64_1_0_0_1
    (broadcastInDim S50000x64 ![] bcast_S_S50000x64 (constant (F := Ideal) S_ .f32 0x00000000#32))
    (broadcastInDim S1200000x1 ![0] bcast_S1200000_S1200000x1_0 d)
    (mulf t (broadcastInDim S1200000x64 ![0, 1] bcast_S1200000x1_S1200000x64_0_1 (broadcastInDim S1200000x1 ![0] bcast_S1200000_S1200000x1_0 w)))

/-- Over the plain gather of the source rows it is the hop. -/
theorem hopRaw32_gather (u : FVec Ideal S50000x32 .f32) (s d : IVec S1200000 32) (w : FVec Ideal S1200000 .f32) :
    hopRaw32 (Host.gather gather_S50000x32_S1200000x1_S1200000x32_1_0_n_n_0_1_132 u (broadcastInDim S1200000x1 ![0] bcast_S1200000_S1200000x1_0 s)) d w = Hop.hop32 u s d w := rfl
theorem hopRaw64_gather (u : FVec Ideal S50000x64 .f32) (s d : IVec S1200000 32) (w : FVec Ideal S1200000 .f32) :
    hopRaw64 (Host.gather gather_S50000x64_S1200000x1_S1200000x64_1_0_n_n_0_1_164 u (broadcastInDim S1200000x1 ![0] bcast_S1200000_S1200000x1_0 s)) d w = Hop.hop64 u s d w := rfl

/-! ## The first host stretch: the edge list's rows -/

section Rows

variable (V : Valuation τ sig (Elt Ideal))

theorem st0_src : StableHlo.after hostOps0 V main_v1 = Hop.srcOf (V main_arg1) := by
  after_results; rfl
theorem st0_dst : StableHlo.after hostOps0 V main_v3 = Hop.dstOf (V main_arg1) := by
  after_results; rfl

end Rows

end Cert.KernelIdeal.HHost

end
-- ==== Proof.KI.Host.lean ====
/- (laid out by scratch/mkhost.js from its hand templates: the take, hop, stack and bias stretches of the three layers, the facts carried
   along the valuations, the per-layer chains and the reads; names and sizes substituted) -/
/-
  What each launch of the kernel program reads — the stack of (u, hop u, hop² u, hop³ u), the weights, the bias — as
  values over the arguments (and, for the later layers, over the preceding launch's result), when every source index
  lies in [0, 50000). Each stretch of host operations between two valuations is read on its own, over an arbitrary
  valuation at its start: a take stretch gives the guarded take, which in range is the plain gather; a hop stretch the
  scatter-add of the weighted rows; the last stretch of a layer the four slabs joined along a new leading axis. What a
  later stretch reads of an earlier one's results is carried along the valuations in between, none of which writes it.
-/
import proofs.«401537_j29600914604721_1_alg».proof.Proof.KI.HostBase

set_option maxRecDepth 8192

noncomputable section

namespace Cert.KernelIdeal.HHost

open Cert.KernelIdeal Cert.KernelIdeal.Gen
open Idealize.ShloMosaic Idealize.ShloMosaic.TcCoe Idealize.SL.Sem Idealize.ShloMosaic.ValueIdx

/-! ## One stretch of host operations at a time, from any contents

Each lemma reads one reference after one stretch, over an arbitrary valuation at the stretch's start. A take stretch is
read in two parts — its first 19 operations give the guard and the gathered rows, its last 4 the select between them
and the NaN splat — and the parts joined. -/

section Stretches

variable (V : Valuation τ sig (Elt Ideal))

set_option maxHeartbeats 2000000 in
theorem st0_1_mask : StableHlo.after (hostOps0_1.take 19) V main_call0_v12 = takeMask (V main_v1) := by
  dsimp only [hostOps0_1, List.take]
  after_results_simp
  (try simp only [StableHlo.TRef.ofBuf, StableHlo.TRef.toBuf, cast_eq]) <;> (try rfl)
set_option maxHeartbeats 2000000 in
theorem st0_1_gather : StableHlo.after (hostOps0_1.take 19) V main_call0_v13 = Host.gather gather_S50000x32_S1200000x1_S1200000x32_1_0_n_n_0_1_132 (V main_arg0) (idxCol (V main_v1)) := by
  dsimp only [hostOps0_1, List.take]
  after_results_simp
  (try simp only [StableHlo.TRef.ofBuf, StableHlo.TRef.toBuf, cast_eq]) <;> (try rfl)
set_option maxHeartbeats 2000000 in
theorem st0_1_tail : StableHlo.after (hostOps0_1.drop 19) V main_v4
    = select (broadcastInDim S1200000x32 ![0] bcast_S1200000_S1200000x32_0 (V main_call0_v12)) (V main_call0_v13) (broadcastInDim S1200000x32 ![] bcast_S_S1200000x32 (constant (F := Ideal) S_ .f32 0x7FC00000#32)) := by
  dsimp only [hostOps0_1, List.drop]
  after_results_simp
  (try simp only [StableHlo.TRef.ofBuf, StableHlo.TRef.toBuf, cast_eq]) <;> (try rfl)
theorem st0_1_take : StableHlo.after hostOps0_1 V main_v4 = take32 (V main_arg0) (V main_v1) := by
  have e : (hostOps0_1 : List (HloOp τ sig (Elt Ideal))) = hostOps0_1.take 19 ++ hostOps0_1.drop 19 := (List.take_append_drop 19 _).symm
  rw [e, StableHlo.after_append, st0_1_tail, st0_1_mask, st0_1_gather]
  rfl

theorem st0_2_hop : StableHlo.after hostOps0_2 V main_v10 = hopRaw32 (V main_v4) (V main_v3) (V main_arg2) := by
  after_results; rfl

set_option maxHeartbeats 2000000 in
theorem st0_3_mask : StableHlo.after (hostOps0_3.take 19) V main_call1_v12 = takeMask (V main_v1) := by
  dsimp only [hostOps0_3, List.take]
  after_results_simp
  (try simp only [StableHlo.TRef.ofBuf, StableHlo.TRef.toBuf, cast_eq]) <;> (try rfl)
set_option maxHeartbeats 2000000 in
theorem st0_3_gather : StableHlo.after (hostOps0_3.take 19) V main_call1_v13 = Host.gather gather_S50000x32_S1200000x1_S1200000x32_1_0_n_n_0_1_132 (V main_v10) (idxCol (V main_v1)) := by
  dsimp only [hostOps0_3, List.take]
  after_results_simp
  (try simp only [StableHlo.TRef.ofBuf, StableHlo.TRef.toBuf, cast_eq]) <;> (try rfl)
set_option maxHeartbeats 2000000 in
theorem st0_3_tail : StableHlo.after (hostOps0_3.drop 19) V main_v11
    = select (broadcastInDim S1200000x32 ![0] bcast_S1200000_S1200000x32_0 (V main_call1_v12)) (V main_call1_v13) (broadcastInDim S1200000x32 ![] bcast_S_S1200000x32 (constant (F := Ideal) S_ .f32 0x7FC00000#32)) := by
  dsimp only [hostOps0_3, List.drop]
  after_results_simp
  (try simp only [StableHlo.TRef.ofBuf, StableHlo.TRef.toBuf, cast_eq]) <;> (try rfl)
theorem st0_3_take : StableHlo.after hostOps0_3 V main_v11 = take32 (V main_v10) (V main_v1) := by
  have e : (hostOps0_3 : List (HloOp τ sig (Elt Ideal))) = hostOps0_3.take 19 ++ hostOps0_3.drop 19 := (List.take_append_drop 19 _).symm
  rw [e, StableHlo.after_append, st0_3_tail, st0_3_mask, st0_3_gather]
  rfl

theorem st0_4_hop : StableHlo.after hostOps0_4 V main_v17 = hopRaw32 (V main_v11) (V main_v3) (V main_arg2) := by
  after_results; rfl

set_option maxHeartbeats 2000000 in
theorem st0_5_mask : StableHlo.after (hostOps0_5.take 19) V main_call2_v12 = takeMask (V main_v1) := by
  dsimp only [hostOps0_5, List.take]
  after_results_simp
  (try simp only [StableHlo.TRef.ofBuf, StableHlo.TRef.toBuf, cast_eq]) <;> (try rfl)
set_option maxHeartbeats 2000000 in
theorem st0_5_gather : StableHlo.after (hostOps0_5.take 19) V main_call2_v13 = Host.gather gather_S50000x32_S1200000x1_S1200000x32_1_0_n_n_0_1_132 (V main_v17) (idxCol (V main_v1)) := by
  dsimp only [hostOps0_5, List.take]
  after_results_simp
  (try simp only [StableHlo.TRef.ofBuf, StableHlo.TRef.toBuf, cast_eq]) <;> (try rfl)
set_option maxHeartbeats 2000000 in
theorem st0_5_tail : StableHlo.after (hostOps0_5.drop 19) V main_v18
    = select (broadcastInDim S1200000x32 ![0] bcast_S1200000_S1200000x32_0 (V main_call2_v12)) (V main_call2_v13) (broadcastInDim S1200000x32 ![] bcast_S_S1200000x32 (constant (F := Ideal) S_ .f32 0x7FC00000#32)) := by
  dsimp only [hostOps0_5, List.drop]
  after_results_simp
  (try simp only [StableHlo.TRef.ofBuf, StableHlo.TRef.toBuf, cast_eq]) <;> (try rfl)
theorem st0_5_take : StableHlo.after hostOps0_5 V main_v18 = take32 (V main_v17) (V main_v1) := by
  have e : (hostOps0_5 : List (HloOp τ sig (Elt Ideal))) = hostOps0_5.take 19 ++ hostOps0_5.drop 19 := (List.take_append_drop 19 _).symm
  rw [e, StableHlo.after_append, st0_5_tail, st0_5_mask, st0_5_gather]
  rfl

set_option maxHeartbeats 1000000 in
theorem st0_6_stack : StableHlo.after hostOps0_6 V main_v29
    = stack32 (V main_arg0) (V main_v10) (V main_v17) (hopRaw32 (V main_v18) (V main_v3) (V main_arg2)) := by
  after_results_simp
  dsimp only [Matrix.cons_val]
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  unfold stack32 hopRaw32
  rfl

theorem st0_6_bias : StableHlo.after hostOps0_6 V main_v30 = shapeCast S1x64 (V main_arg4) shapeCasts_S64_S1x64 := by
  after_results; rfl

set_option maxHeartbeats 2000000 in
theorem st1_0_mask : StableHlo.after (hostOps1.take 19) V main_call3_v12 = takeMask (V main_v1) := by
  dsimp only [hostOps1, List.take]
  after_results_simp
  (try simp only [StableHlo.TRef.ofBuf, StableHlo.TRef.toBuf, cast_eq]) <;> (try rfl)
set_option maxHeartbeats 2000000 in
theorem st1_0_gather : StableHlo.after (hostOps1.take 19) V main_call3_v13 = Host.gather gather_S50000x64_S1200000x1_S1200000x64_1_0_n_n_0_1_164 (V main_v31) (idxCol (V main_v1)) := by
  dsimp only [hostOps1, List.take]
  after_results_simp
  (try simp only [StableHlo.TRef.ofBuf, StableHlo.TRef.toBuf, cast_eq]) <;> (try rfl)
set_option maxHeartbeats 2000000 in
theorem st1_0_tail : StableHlo.after (hostOps1.drop 19) V main_v32
    = select (broadcastInDim S1200000x64 ![0] bcast_S1200000_S1200000x64_0 (V main_call3_v12)) (V main_call3_v13) (broadcastInDim S1200000x64 ![] bcast_S_S1200000x64 (constant (F := Ideal) S_ .f32 0x7FC00000#32)) := by
  dsimp only [hostOps1, List.drop]
  after_results_simp
  (try simp only [StableHlo.TRef.ofBuf, StableHlo.TRef.toBuf, cast_eq]) <;> (try rfl)
theorem st1_0_take : StableHlo.after hostOps1 V main_v32 = take64 (V main_v31) (V main_v1) := by
  have e : (hostOps1 : List (HloOp τ sig (Elt Ideal))) = hostOps1.take 19 ++ hostOps1.drop 19 := (List.take_append_drop 19 _).symm
  rw [e, StableHlo.after_append, st1_0_tail, st1_0_mask, st1_0_gather]
  rfl

theorem st1_1_hop : StableHlo.after hostOps1_1 V main_v38 = hopRaw64 (V main_v32) (V main_v3) (V main_arg2) := by
  after_results; rfl

set_option maxHeartbeats 2000000 in
theorem st1_2_mask : StableHlo.after (hostOps1_2.take 19) V main_call4_v12 = takeMask (V main_v1) := by
  dsimp only [hostOps1_2, List.take]
  after_results_simp
  (try simp only [StableHlo.TRef.ofBuf, StableHlo.TRef.toBuf, cast_eq]) <;> (try rfl)
set_option maxHeartbeats 2000000 in
theorem st1_2_gather : StableHlo.after (hostOps1_2.take 19) V main_call4_v13 = Host.gather gather_S50000x64_S1200000x1_S1200000x64_1_0_n_n_0_1_164 (V main_v38) (idxCol (V main_v1)) := by
  dsimp only [hostOps1_2, List.take]
  after_results_simp
  (try simp only [StableHlo.TRef.ofBuf, StableHlo.TRef.toBuf, cast_eq]) <;> (try rfl)
set_option maxHeartbeats 2000000 in
theorem st1_2_tail : StableHlo.after (hostOps1_2.drop 19) V main_v39
    = select (broadcastInDim S1200000x64 ![0] bcast_S1200000_S1200000x64_0 (V main_call4_v12)) (V main_call4_v13) (broadcastInDim S1200000x64 ![] bcast_S_S1200000x64 (constant (F := Ideal) S_ .f32 0x7FC00000#32)) := by
  dsimp only [hostOps1_2, List.drop]
  after_results_simp
  (try simp only [StableHlo.TRef.ofBuf, StableHlo.TRef.toBuf, cast_eq]) <;> (try rfl)
theorem st1_2_take : StableHlo.after hostOps1_2 V main_v39 = take64 (V main_v38) (V main_v1) := by
  have e : (hostOps1_2 : List (HloOp τ sig (Elt Ideal))) = hostOps1_2.take 19 ++ hostOps1_2.drop 19 := (List.take_append_drop 19 _).symm
  rw [e, StableHlo.after_append, st1_2_tail, st1_2_mask, st1_2_gather]
  rfl

theorem st1_3_hop : StableHlo.after hostOps1_3 V main_v45 = hopRaw64 (V main_v39) (V main_v3) (V main_arg2) := by
  after_results; rfl

set_option maxHeartbeats 2000000 in
theorem st1_4_mask : StableHlo.after (hostOps1_4.take 19) V main_call5_v12 = takeMask (V main_v1) := by
  dsimp only [hostOps1_4, List.take]
  after_results_simp
  (try simp only [StableHlo.TRef.ofBuf, StableHlo.TRef.toBuf, cast_eq]) <;> (try rfl)
set_option maxHeartbeats 2000000 in
theorem st1_4_gather : StableHlo.after (hostOps1_4.take 19) V main_call5_v13 = Host.gather gather_S50000x64_S1200000x1_S1200000x64_1_0_n_n_0_1_164 (V main_v45) (idxCol (V main_v1)) := by
  dsimp only [hostOps1_4, List.take]
  after_results_simp
  (try simp only [StableHlo.TRef.ofBuf, StableHlo.TRef.toBuf, cast_eq]) <;> (try rfl)
set_option maxHeartbeats 2000000 in
theorem st1_4_tail : StableHlo.after (hostOps1_4.drop 19) V main_v46
    = select (broadcastInDim S1200000x64 ![0] bcast_S1200000_S1200000x64_0 (V main_call5_v12)) (V main_call5_v13) (broadcastInDim S1200000x64 ![] bcast_S_S1200000x64 (constant (F := Ideal) S_ .f32 0x7FC00000#32)) := by
  dsimp only [hostOps1_4, List.drop]
  after_results_simp
  (try simp only [StableHlo.TRef.ofBuf, StableHlo.TRef.toBuf, cast_eq]) <;> (try rfl)
theorem st1_4_take : StableHlo.after hostOps1_4 V main_v46 = take64 (V main_v45) (V main_v1) := by
  have e : (hostOps1_4 : List (HloOp τ sig (Elt Ideal))) = hostOps1_4.take 19 ++ hostOps1_4.drop 19 := (List.take_append_drop 19 _).symm
  rw [e, StableHlo.after_append, st1_4_tail, st1_4_mask, st1_4_gather]
  rfl

set_option maxHeartbeats 1000000 in
theorem st1_5_stack : StableHlo.after hostOps1_5 V main_v57
    = stack64 (V main_v31) (V main_v38) (V main_v45) (hopRaw64 (V main_v46) (V main_v3) (V main_arg2)) := by
  after_results_simp
  dsimp only [Matrix.cons_val]
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  unfold stack64 hopRaw64
  rfl

theorem st1_5_bias : StableHlo.after hostOps1_5 V main_v58 = shapeCast S1x64 (V main_arg6) shapeCasts_S64_S1x64 := by
  after_results; rfl

set_option maxHeartbeats 2000000 in
theorem st2_0_mask : StableHlo.after (hostOps2.take 19) V main_call6_v12 = takeMask (V main_v1) := by
  dsimp only [hostOps2, List.take]
  after_results_simp
  (try simp only [StableHlo.TRef.ofBuf, StableHlo.TRef.toBuf, cast_eq]) <;> (try rfl)
set_option maxHeartbeats 2000000 in
theorem st2_0_gather : StableHlo.after (hostOps2.take 19) V main_call6_v13 = Host.gather gather_S50000x64_S1200000x1_S1200000x64_1_0_n_n_0_1_164 (V main_v59) (idxCol (V main_v1)) := by
  dsimp only [hostOps2, List.take]
  after_results_simp
  (try simp only [StableHlo.TRef.ofBuf, StableHlo.TRef.toBuf, cast_eq]) <;> (try rfl)
set_option maxHeartbeats 2000000 in
theorem st2_0_tail : StableHlo.after (hostOps2.drop 19) V main_v60
    = select (broadcastInDim S1200000x64 ![0] bcast_S1200000_S1200000x64_0 (V main_call6_v12)) (V main_call6_v13) (broadcastInDim S1200000x64 ![] bcast_S_S1200000x64 (constant (F := Ideal) S_ .f32 0x7FC00000#32)) := by
  dsimp only [hostOps2, List.drop]
  after_results_simp
  (try simp only [StableHlo.TRef.ofBuf, StableHlo.TRef.toBuf, cast_eq]) <;> (try rfl)
theorem st2_0_take : StableHlo.after hostOps2 V main_v60 = take64 (V main_v59) (V main_v1) := by
  have e : (hostOps2 : List (HloOp τ sig (Elt Ideal))) = hostOps2.take 19 ++ hostOps2.drop 19 := (List.take_append_drop 19 _).symm
  rw [e, StableHlo.after_append, st2_0_tail, st2_0_mask, st2_0_gather]
  rfl

theorem st2_1_hop : StableHlo.after hostOps2_1 V main_v66 = hopRaw64 (V main_v60) (V main_v3) (V main_arg2) := by
  after_results; rfl

set_option maxHeartbeats 2000000 in
theorem st2_2_mask : StableHlo.after (hostOps2_2.take 19) V main_call7_v12 = takeMask (V main_v1) := by
  dsimp only [hostOps2_2, List.take]
  after_results_simp
  (try simp only [StableHlo.TRef.ofBuf, StableHlo.TRef.toBuf, cast_eq]) <;> (try rfl)
set_option maxHeartbeats 2000000 in
theorem st2_2_gather : StableHlo.after (hostOps2_2.take 19) V main_call7_v13 = Host.gather gather_S50000x64_S1200000x1_S1200000x64_1_0_n_n_0_1_164 (V main_v66) (idxCol (V main_v1)) := by
  dsimp only [hostOps2_2, List.take]
  after_results_simp
  (try simp only [StableHlo.TRef.ofBuf, StableHlo.TRef.toBuf, cast_eq]) <;> (try rfl)
set_option maxHeartbeats 2000000 in
theorem st2_2_tail : StableHlo.after (hostOps2_2.drop 19) V main_v67
    = select (broadcastInDim S1200000x64 ![0] bcast_S1200000_S1200000x64_0 (V main_call7_v12)) (V main_call7_v13) (broadcastInDim S1200000x64 ![] bcast_S_S1200000x64 (constant (F := Ideal) S_ .f32 0x7FC00000#32)) := by
  dsimp only [hostOps2_2, List.drop]
  after_results_simp
  (try simp only [StableHlo.TRef.ofBuf, StableHlo.TRef.toBuf, cast_eq]) <;> (try rfl)
theorem st2_2_take : StableHlo.after hostOps2_2 V main_v67 = take64 (V main_v66) (V main_v1) := by
  have e : (hostOps2_2 : List (HloOp τ sig (Elt Ideal))) = hostOps2_2.take 19 ++ hostOps2_2.drop 19 := (List.take_append_drop 19 _).symm
  rw [e, StableHlo.after_append, st2_2_tail, st2_2_mask, st2_2_gather]
  rfl

theorem st2_3_hop : StableHlo.after hostOps2_3 V main_v73 = hopRaw64 (V main_v67) (V main_v3) (V main_arg2) := by
  after_results; rfl

set_option maxHeartbeats 2000000 in
theorem st2_4_mask : StableHlo.after (hostOps2_4.take 19) V main_call8_v12 = takeMask (V main_v1) := by
  dsimp only [hostOps2_4, List.take]
  after_results_simp
  (try simp only [StableHlo.TRef.ofBuf, StableHlo.TRef.toBuf, cast_eq]) <;> (try rfl)
set_option maxHeartbeats 2000000 in
theorem st2_4_gather : StableHlo.after (hostOps2_4.take 19) V main_call8_v13 = Host.gather gather_S50000x64_S1200000x1_S1200000x64_1_0_n_n_0_1_164 (V main_v73) (idxCol (V main_v1)) := by
  dsimp only [hostOps2_4, List.take]
  after_results_simp
  (try simp only [StableHlo.TRef.ofBuf, StableHlo.TRef.toBuf, cast_eq]) <;> (try rfl)
set_option maxHeartbeats 2000000 in
theorem st2_4_tail : StableHlo.after (hostOps2_4.drop 19) V main_v74
    = select (broadcastInDim S1200000x64 ![0] bcast_S1200000_S1200000x64_0 (V main_call8_v12)) (V main_call8_v13) (broadcastInDim S1200000x64 ![] bcast_S_S1200000x64 (constant (F := Ideal) S_ .f32 0x7FC00000#32)) := by
  dsimp only [hostOps2_4, List.drop]
  after_results_simp
  (try simp only [StableHlo.TRef.ofBuf, StableHlo.TRef.toBuf, cast_eq]) <;> (try rfl)
theorem st2_4_take : StableHlo.after hostOps2_4 V main_v74 = take64 (V main_v73) (V main_v1) := by
  have e : (hostOps2_4 : List (HloOp τ sig (Elt Ideal))) = hostOps2_4.take 19 ++ hostOps2_4.drop 19 := (List.take_append_drop 19 _).symm
  rw [e, StableHlo.after_append, st2_4_tail, st2_4_mask, st2_4_gather]
  rfl

set_option maxHeartbeats 1000000 in
theorem st2_5_stack : StableHlo.after hostOps2_5 V main_v85
    = stack64 (V main_v59) (V main_v66) (V main_v73) (hopRaw64 (V main_v74) (V main_v3) (V main_arg2)) := by
  after_results_simp
  dsimp only [Matrix.cons_val]
  repeat (first
    | rw [StableHlo.nullary_result] | rw [StableHlo.unary_result] | rw [StableHlo.binary_result] | rw [StableHlo.ternary_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))
  unfold stack64 hopRaw64
  rfl

theorem st2_5_bias : StableHlo.after hostOps2_5 V main_v86
    = broadcastInDim S1x1 ![] bcast_S_S1x1 (constant (F := Ideal) S_ .f32 0x00000000#32) := by
  after_results <;> (try rfl)

end Stretches

/-! ## What the launches read -/

section Reads

variable (m : (ℓ : Loc nD τ sig) → Buf (Elt Ideal) ℓ) (outs : Outs (F := Ideal)) (c : Dev nD)

/- The arguments as device c holds them at launch: the input, the source and destination rows of the edge list, the
    edge weights; and the results of the first and of the second launch as the later valuations hold them. -/
set_option quotPrecheck false in
local notation "𝕏" => (m ((c : Thread nD τ).loc main_arg0) : FVec Ideal S50000x32 .f32)
set_option quotPrecheck false in
local notation "𝕊" => Hop.srcOf (m ((c : Thread nD τ).loc main_arg1))
set_option quotPrecheck false in
local notation "𝔻" => Hop.dstOf (m ((c : Thread nD τ).loc main_arg1))
set_option quotPrecheck false in
local notation "𝕎" => (m ((c : Thread nD τ).loc main_arg2) : FVec Ideal S1200000 .f32)
set_option quotPrecheck false in
local notation "𝕐₁" => (outs 8 main_v31 c : FVec Ideal S50000x64 .f32)
set_option quotPrecheck false in
local notation "𝕐₂" => (outs 15 main_v59 c : FVec Ideal S50000x64 .f32)

/-! ### What no stretch in between writes, carried along the valuations -/
theorem k_main_v1_1 : V1 m c main_v1 = 𝕊 := st0_src (V0 m c)
theorem k_main_v1_2 : V2 m c main_v1 = 𝕊 := (V2_of m c main_v1 (by decide)).trans (k_main_v1_1 m c)
theorem k_main_v1_3 : V3 m c main_v1 = 𝕊 := (V3_of m c main_v1 (by decide)).trans (k_main_v1_2 m c)
theorem k_main_v1_4 : V4 m c main_v1 = 𝕊 := (V4_of m c main_v1 (by decide)).trans (k_main_v1_3 m c)
theorem k_main_v1_5 : V5 m c main_v1 = 𝕊 := (V5_of m c main_v1 (by decide)).trans (k_main_v1_4 m c)
theorem k_main_v1_6 : V6 m c main_v1 = 𝕊 := (V6_of m c main_v1 (by decide)).trans (k_main_v1_5 m c)
theorem k_main_v1_7 : V7 m c main_v1 = 𝕊 := (V7_of m c main_v1 (by decide)).trans (k_main_v1_6 m c)
theorem k_main_v1_8 : V8 m outs c main_v1 = 𝕊 := (V8_of m outs c main_v1 (by decide)).trans (k_main_v1_7 m c)
theorem k_main_v1_9 : V9 m outs c main_v1 = 𝕊 := (V9_of m outs c main_v1 (by decide)).trans (k_main_v1_8 m outs c)
theorem k_main_v1_10 : V10 m outs c main_v1 = 𝕊 := (V10_of m outs c main_v1 (by decide)).trans (k_main_v1_9 m outs c)
theorem k_main_v1_11 : V11 m outs c main_v1 = 𝕊 := (V11_of m outs c main_v1 (by decide)).trans (k_main_v1_10 m outs c)
theorem k_main_v1_12 : V12 m outs c main_v1 = 𝕊 := (V12_of m outs c main_v1 (by decide)).trans (k_main_v1_11 m outs c)
theorem k_main_v1_13 : V13 m outs c main_v1 = 𝕊 := (V13_of m outs c main_v1 (by decide)).trans (k_main_v1_12 m outs c)
theorem k_main_v1_14 : V14 m outs c main_v1 = 𝕊 := (V14_of m outs c main_v1 (by decide)).trans (k_main_v1_13 m outs c)
theorem k_main_v1_15 : V15 m outs c main_v1 = 𝕊 := (V15_of m outs c main_v1 (by decide)).trans (k_main_v1_14 m outs c)
theorem k_main_v1_16 : V16 m outs c main_v1 = 𝕊 := (V16_of m outs c main_v1 (by decide)).trans (k_main_v1_15 m outs c)
theorem k_main_v1_17 : V17 m outs c main_v1 = 𝕊 := (V17_of m outs c main_v1 (by decide)).trans (k_main_v1_16 m outs c)
theorem k_main_v1_18 : V18 m outs c main_v1 = 𝕊 := (V18_of m outs c main_v1 (by decide)).trans (k_main_v1_17 m outs c)
theorem k_main_v1_19 : V19 m outs c main_v1 = 𝕊 := (V19_of m outs c main_v1 (by decide)).trans (k_main_v1_18 m outs c)
theorem k_main_v1_20 : V20 m outs c main_v1 = 𝕊 := (V20_of m outs c main_v1 (by decide)).trans (k_main_v1_19 m outs c)
theorem k_main_v3_1 : V1 m c main_v3 = 𝔻 := st0_dst (V0 m c)
theorem k_main_v3_2 : V2 m c main_v3 = 𝔻 := (V2_of m c main_v3 (by decide)).trans (k_main_v3_1 m c)
theorem k_main_v3_3 : V3 m c main_v3 = 𝔻 := (V3_of m c main_v3 (by decide)).trans (k_main_v3_2 m c)
theorem k_main_v3_4 : V4 m c main_v3 = 𝔻 := (V4_of m c main_v3 (by decide)).trans (k_main_v3_3 m c)
theorem k_main_v3_5 : V5 m c main_v3 = 𝔻 := (V5_of m c main_v3 (by decide)).trans (k_main_v3_4 m c)
theorem k_main_v3_6 : V6 m c main_v3 = 𝔻 := (V6_of m c main_v3 (by decide)).trans (k_main_v3_5 m c)
theorem k_main_v3_7 : V7 m c main_v3 = 𝔻 := (V7_of m c main_v3 (by decide)).trans (k_main_v3_6 m c)
theorem k_main_v3_8 : V8 m outs c main_v3 = 𝔻 := (V8_of m outs c main_v3 (by decide)).trans (k_main_v3_7 m c)
theorem k_main_v3_9 : V9 m outs c main_v3 = 𝔻 := (V9_of m outs c main_v3 (by decide)).trans (k_main_v3_8 m outs c)
theorem k_main_v3_10 : V10 m outs c main_v3 = 𝔻 := (V10_of m outs c main_v3 (by decide)).trans (k_main_v3_9 m outs c)
theorem k_main_v3_11 : V11 m outs c main_v3 = 𝔻 := (V11_of m outs c main_v3 (by decide)).trans (k_main_v3_10 m outs c)
theorem k_main_v3_12 : V12 m outs c main_v3 = 𝔻 := (V12_of m outs c main_v3 (by decide)).trans (k_main_v3_11 m outs c)
theorem k_main_v3_13 : V13 m outs c main_v3 = 𝔻 := (V13_of m outs c main_v3 (by decide)).trans (k_main_v3_12 m outs c)
theorem k_main_v3_14 : V14 m outs c main_v3 = 𝔻 := (V14_of m outs c main_v3 (by decide)).trans (k_main_v3_13 m outs c)
theorem k_main_v3_15 : V15 m outs c main_v3 = 𝔻 := (V15_of m outs c main_v3 (by decide)).trans (k_main_v3_14 m outs c)
theorem k_main_v3_16 : V16 m outs c main_v3 = 𝔻 := (V16_of m outs c main_v3 (by decide)).trans (k_main_v3_15 m outs c)
theorem k_main_v3_17 : V17 m outs c main_v3 = 𝔻 := (V17_of m outs c main_v3 (by decide)).trans (k_main_v3_16 m outs c)
theorem k_main_v3_18 : V18 m outs c main_v3 = 𝔻 := (V18_of m outs c main_v3 (by decide)).trans (k_main_v3_17 m outs c)
theorem k_main_v3_19 : V19 m outs c main_v3 = 𝔻 := (V19_of m outs c main_v3 (by decide)).trans (k_main_v3_18 m outs c)
theorem k_main_v3_20 : V20 m outs c main_v3 = 𝔻 := (V20_of m outs c main_v3 (by decide)).trans (k_main_v3_19 m outs c)
theorem k_main_arg2_0 : V0 m c main_arg2 = 𝕎 := rfl
theorem k_main_arg2_1 : V1 m c main_arg2 = 𝕎 := (V1_of m c main_arg2 (by decide)).trans (k_main_arg2_0 m c)
theorem k_main_arg2_2 : V2 m c main_arg2 = 𝕎 := (V2_of m c main_arg2 (by decide)).trans (k_main_arg2_1 m c)
theorem k_main_arg2_3 : V3 m c main_arg2 = 𝕎 := (V3_of m c main_arg2 (by decide)).trans (k_main_arg2_2 m c)
theorem k_main_arg2_4 : V4 m c main_arg2 = 𝕎 := (V4_of m c main_arg2 (by decide)).trans (k_main_arg2_3 m c)
theorem k_main_arg2_5 : V5 m c main_arg2 = 𝕎 := (V5_of m c main_arg2 (by decide)).trans (k_main_arg2_4 m c)
theorem k_main_arg2_6 : V6 m c main_arg2 = 𝕎 := (V6_of m c main_arg2 (by decide)).trans (k_main_arg2_5 m c)
theorem k_main_arg2_7 : V7 m c main_arg2 = 𝕎 := (V7_of m c main_arg2 (by decide)).trans (k_main_arg2_6 m c)
theorem k_main_arg2_8 : V8 m outs c main_arg2 = 𝕎 := (V8_of m outs c main_arg2 (by decide)).trans (k_main_arg2_7 m c)
theorem k_main_arg2_9 : V9 m outs c main_arg2 = 𝕎 := (V9_of m outs c main_arg2 (by decide)).trans (k_main_arg2_8 m outs c)
theorem k_main_arg2_10 : V10 m outs c main_arg2 = 𝕎 := (V10_of m outs c main_arg2 (by decide)).trans (k_main_arg2_9 m outs c)
theorem k_main_arg2_11 : V11 m outs c main_arg2 = 𝕎 := (V11_of m outs c main_arg2 (by decide)).trans (k_main_arg2_10 m outs c)
theorem k_main_arg2_12 : V12 m outs c main_arg2 = 𝕎 := (V12_of m outs c main_arg2 (by decide)).trans (k_main_arg2_11 m outs c)
theorem k_main_arg2_13 : V13 m outs c main_arg2 = 𝕎 := (V13_of m outs c main_arg2 (by decide)).trans (k_main_arg2_12 m outs c)
theorem k_main_arg2_14 : V14 m outs c main_arg2 = 𝕎 := (V14_of m outs c main_arg2 (by decide)).trans (k_main_arg2_13 m outs c)
theorem k_main_arg2_15 : V15 m outs c main_arg2 = 𝕎 := (V15_of m outs c main_arg2 (by decide)).trans (k_main_arg2_14 m outs c)
theorem k_main_arg2_16 : V16 m outs c main_arg2 = 𝕎 := (V16_of m outs c main_arg2 (by decide)).trans (k_main_arg2_15 m outs c)
theorem k_main_arg2_17 : V17 m outs c main_arg2 = 𝕎 := (V17_of m outs c main_arg2 (by decide)).trans (k_main_arg2_16 m outs c)
theorem k_main_arg2_18 : V18 m outs c main_arg2 = 𝕎 := (V18_of m outs c main_arg2 (by decide)).trans (k_main_arg2_17 m outs c)
theorem k_main_arg2_19 : V19 m outs c main_arg2 = 𝕎 := (V19_of m outs c main_arg2 (by decide)).trans (k_main_arg2_18 m outs c)
theorem k_main_arg2_20 : V20 m outs c main_arg2 = 𝕎 := (V20_of m outs c main_arg2 (by decide)).trans (k_main_arg2_19 m outs c)
theorem k_main_arg0_0 : V0 m c main_arg0 = 𝕏 := rfl
theorem k_main_arg0_1 : V1 m c main_arg0 = 𝕏 := (V1_of m c main_arg0 (by decide)).trans (k_main_arg0_0 m c)
theorem k_main_arg0_2 : V2 m c main_arg0 = 𝕏 := (V2_of m c main_arg0 (by decide)).trans (k_main_arg0_1 m c)
theorem k_main_arg0_3 : V3 m c main_arg0 = 𝕏 := (V3_of m c main_arg0 (by decide)).trans (k_main_arg0_2 m c)
theorem k_main_arg0_4 : V4 m c main_arg0 = 𝕏 := (V4_of m c main_arg0 (by decide)).trans (k_main_arg0_3 m c)
theorem k_main_arg0_5 : V5 m c main_arg0 = 𝕏 := (V5_of m c main_arg0 (by decide)).trans (k_main_arg0_4 m c)
theorem k_main_arg0_6 : V6 m c main_arg0 = 𝕏 := (V6_of m c main_arg0 (by decide)).trans (k_main_arg0_5 m c)
theorem k_main_arg4_0 : V0 m c main_arg4 = (m ((c : Thread nD τ).loc main_arg4) : FVec Ideal S64 .f32) := rfl
theorem k_main_arg4_1 : V1 m c main_arg4 = (m ((c : Thread nD τ).loc main_arg4) : FVec Ideal S64 .f32) := (V1_of m c main_arg4 (by decide)).trans (k_main_arg4_0 m c)
theorem k_main_arg4_2 : V2 m c main_arg4 = (m ((c : Thread nD τ).loc main_arg4) : FVec Ideal S64 .f32) := (V2_of m c main_arg4 (by decide)).trans (k_main_arg4_1 m c)
theorem k_main_arg4_3 : V3 m c main_arg4 = (m ((c : Thread nD τ).loc main_arg4) : FVec Ideal S64 .f32) := (V3_of m c main_arg4 (by decide)).trans (k_main_arg4_2 m c)
theorem k_main_arg4_4 : V4 m c main_arg4 = (m ((c : Thread nD τ).loc main_arg4) : FVec Ideal S64 .f32) := (V4_of m c main_arg4 (by decide)).trans (k_main_arg4_3 m c)
theorem k_main_arg4_5 : V5 m c main_arg4 = (m ((c : Thread nD τ).loc main_arg4) : FVec Ideal S64 .f32) := (V5_of m c main_arg4 (by decide)).trans (k_main_arg4_4 m c)
theorem k_main_arg4_6 : V6 m c main_arg4 = (m ((c : Thread nD τ).loc main_arg4) : FVec Ideal S64 .f32) := (V6_of m c main_arg4 (by decide)).trans (k_main_arg4_5 m c)
theorem k_main_arg6_0 : V0 m c main_arg6 = (m ((c : Thread nD τ).loc main_arg6) : FVec Ideal S64 .f32) := rfl
theorem k_main_arg6_1 : V1 m c main_arg6 = (m ((c : Thread nD τ).loc main_arg6) : FVec Ideal S64 .f32) := (V1_of m c main_arg6 (by decide)).trans (k_main_arg6_0 m c)
theorem k_main_arg6_2 : V2 m c main_arg6 = (m ((c : Thread nD τ).loc main_arg6) : FVec Ideal S64 .f32) := (V2_of m c main_arg6 (by decide)).trans (k_main_arg6_1 m c)
theorem k_main_arg6_3 : V3 m c main_arg6 = (m ((c : Thread nD τ).loc main_arg6) : FVec Ideal S64 .f32) := (V3_of m c main_arg6 (by decide)).trans (k_main_arg6_2 m c)
theorem k_main_arg6_4 : V4 m c main_arg6 = (m ((c : Thread nD τ).loc main_arg6) : FVec Ideal S64 .f32) := (V4_of m c main_arg6 (by decide)).trans (k_main_arg6_3 m c)
theorem k_main_arg6_5 : V5 m c main_arg6 = (m ((c : Thread nD τ).loc main_arg6) : FVec Ideal S64 .f32) := (V5_of m c main_arg6 (by decide)).trans (k_main_arg6_4 m c)
theorem k_main_arg6_6 : V6 m c main_arg6 = (m ((c : Thread nD τ).loc main_arg6) : FVec Ideal S64 .f32) := (V6_of m c main_arg6 (by decide)).trans (k_main_arg6_5 m c)
theorem k_main_arg6_7 : V7 m c main_arg6 = (m ((c : Thread nD τ).loc main_arg6) : FVec Ideal S64 .f32) := (V7_of m c main_arg6 (by decide)).trans (k_main_arg6_6 m c)
theorem k_main_arg6_8 : V8 m outs c main_arg6 = (m ((c : Thread nD τ).loc main_arg6) : FVec Ideal S64 .f32) := (V8_of m outs c main_arg6 (by decide)).trans (k_main_arg6_7 m c)
theorem k_main_arg6_9 : V9 m outs c main_arg6 = (m ((c : Thread nD τ).loc main_arg6) : FVec Ideal S64 .f32) := (V9_of m outs c main_arg6 (by decide)).trans (k_main_arg6_8 m outs c)
theorem k_main_arg6_10 : V10 m outs c main_arg6 = (m ((c : Thread nD τ).loc main_arg6) : FVec Ideal S64 .f32) := (V10_of m outs c main_arg6 (by decide)).trans (k_main_arg6_9 m outs c)
theorem k_main_arg6_11 : V11 m outs c main_arg6 = (m ((c : Thread nD τ).loc main_arg6) : FVec Ideal S64 .f32) := (V11_of m outs c main_arg6 (by decide)).trans (k_main_arg6_10 m outs c)
theorem k_main_arg6_12 : V12 m outs c main_arg6 = (m ((c : Thread nD τ).loc main_arg6) : FVec Ideal S64 .f32) := (V12_of m outs c main_arg6 (by decide)).trans (k_main_arg6_11 m outs c)
theorem k_main_arg6_13 : V13 m outs c main_arg6 = (m ((c : Thread nD τ).loc main_arg6) : FVec Ideal S64 .f32) := (V13_of m outs c main_arg6 (by decide)).trans (k_main_arg6_12 m outs c)
theorem k_main_arg3_0 : V0 m c main_arg3 = m ((c : Thread nD τ).loc main_arg3) := rfl
theorem k_main_arg3_1 : V1 m c main_arg3 = m ((c : Thread nD τ).loc main_arg3) := (V1_of m c main_arg3 (by decide)).trans (k_main_arg3_0 m c)
theorem k_main_arg3_2 : V2 m c main_arg3 = m ((c : Thread nD τ).loc main_arg3) := (V2_of m c main_arg3 (by decide)).trans (k_main_arg3_1 m c)
theorem k_main_arg3_3 : V3 m c main_arg3 = m ((c : Thread nD τ).loc main_arg3) := (V3_of m c main_arg3 (by decide)).trans (k_main_arg3_2 m c)
theorem k_main_arg3_4 : V4 m c main_arg3 = m ((c : Thread nD τ).loc main_arg3) := (V4_of m c main_arg3 (by decide)).trans (k_main_arg3_3 m c)
theorem k_main_arg3_5 : V5 m c main_arg3 = m ((c : Thread nD τ).loc main_arg3) := (V5_of m c main_arg3 (by decide)).trans (k_main_arg3_4 m c)
theorem k_main_arg3_6 : V6 m c main_arg3 = m ((c : Thread nD τ).loc main_arg3) := (V6_of m c main_arg3 (by decide)).trans (k_main_arg3_5 m c)
theorem k_main_arg3_7 : V7 m c main_arg3 = m ((c : Thread nD τ).loc main_arg3) := (V7_of m c main_arg3 (by decide)).trans (k_main_arg3_6 m c)
theorem k_main_arg5_0 : V0 m c main_arg5 = m ((c : Thread nD τ).loc main_arg5) := rfl
theorem k_main_arg5_1 : V1 m c main_arg5 = m ((c : Thread nD τ).loc main_arg5) := (V1_of m c main_arg5 (by decide)).trans (k_main_arg5_0 m c)
theorem k_main_arg5_2 : V2 m c main_arg5 = m ((c : Thread nD τ).loc main_arg5) := (V2_of m c main_arg5 (by decide)).trans (k_main_arg5_1 m c)
theorem k_main_arg5_3 : V3 m c main_arg5 = m ((c : Thread nD τ).loc main_arg5) := (V3_of m c main_arg5 (by decide)).trans (k_main_arg5_2 m c)
theorem k_main_arg5_4 : V4 m c main_arg5 = m ((c : Thread nD τ).loc main_arg5) := (V4_of m c main_arg5 (by decide)).trans (k_main_arg5_3 m c)
theorem k_main_arg5_5 : V5 m c main_arg5 = m ((c : Thread nD τ).loc main_arg5) := (V5_of m c main_arg5 (by decide)).trans (k_main_arg5_4 m c)
theorem k_main_arg5_6 : V6 m c main_arg5 = m ((c : Thread nD τ).loc main_arg5) := (V6_of m c main_arg5 (by decide)).trans (k_main_arg5_5 m c)
theorem k_main_arg5_7 : V7 m c main_arg5 = m ((c : Thread nD τ).loc main_arg5) := (V7_of m c main_arg5 (by decide)).trans (k_main_arg5_6 m c)
theorem k_main_arg5_8 : V8 m outs c main_arg5 = m ((c : Thread nD τ).loc main_arg5) := (V8_of m outs c main_arg5 (by decide)).trans (k_main_arg5_7 m c)
theorem k_main_arg5_9 : V9 m outs c main_arg5 = m ((c : Thread nD τ).loc main_arg5) := (V9_of m outs c main_arg5 (by decide)).trans (k_main_arg5_8 m outs c)
theorem k_main_arg5_10 : V10 m outs c main_arg5 = m ((c : Thread nD τ).loc main_arg5) := (V10_of m outs c main_arg5 (by decide)).trans (k_main_arg5_9 m outs c)
theorem k_main_arg5_11 : V11 m outs c main_arg5 = m ((c : Thread nD τ).loc main_arg5) := (V11_of m outs c main_arg5 (by decide)).trans (k_main_arg5_10 m outs c)
theorem k_main_arg5_12 : V12 m outs c main_arg5 = m ((c : Thread nD τ).loc main_arg5) := (V12_of m outs c main_arg5 (by decide)).trans (k_main_arg5_11 m outs c)
theorem k_main_arg5_13 : V13 m outs c main_arg5 = m ((c : Thread nD τ).loc main_arg5) := (V13_of m outs c main_arg5 (by decide)).trans (k_main_arg5_12 m outs c)
theorem k_main_arg5_14 : V14 m outs c main_arg5 = m ((c : Thread nD τ).loc main_arg5) := (V14_of m outs c main_arg5 (by decide)).trans (k_main_arg5_13 m outs c)
theorem k_main_arg7_0 : V0 m c main_arg7 = m ((c : Thread nD τ).loc main_arg7) := rfl
theorem k_main_arg7_1 : V1 m c main_arg7 = m ((c : Thread nD τ).loc main_arg7) := (V1_of m c main_arg7 (by decide)).trans (k_main_arg7_0 m c)
theorem k_main_arg7_2 : V2 m c main_arg7 = m ((c : Thread nD τ).loc main_arg7) := (V2_of m c main_arg7 (by decide)).trans (k_main_arg7_1 m c)
theorem k_main_arg7_3 : V3 m c main_arg7 = m ((c : Thread nD τ).loc main_arg7) := (V3_of m c main_arg7 (by decide)).trans (k_main_arg7_2 m c)
theorem k_main_arg7_4 : V4 m c main_arg7 = m ((c : Thread nD τ).loc main_arg7) := (V4_of m c main_arg7 (by decide)).trans (k_main_arg7_3 m c)
theorem k_main_arg7_5 : V5 m c main_arg7 = m ((c : Thread nD τ).loc main_arg7) := (V5_of m c main_arg7 (by decide)).trans (k_main_arg7_4 m c)
theorem k_main_arg7_6 : V6 m c main_arg7 = m ((c : Thread nD τ).loc main_arg7) := (V6_of m c main_arg7 (by decide)).trans (k_main_arg7_5 m c)
theorem k_main_arg7_7 : V7 m c main_arg7 = m ((c : Thread nD τ).loc main_arg7) := (V7_of m c main_arg7 (by decide)).trans (k_main_arg7_6 m c)
theorem k_main_arg7_8 : V8 m outs c main_arg7 = m ((c : Thread nD τ).loc main_arg7) := (V8_of m outs c main_arg7 (by decide)).trans (k_main_arg7_7 m c)
theorem k_main_arg7_9 : V9 m outs c main_arg7 = m ((c : Thread nD τ).loc main_arg7) := (V9_of m outs c main_arg7 (by decide)).trans (k_main_arg7_8 m outs c)
theorem k_main_arg7_10 : V10 m outs c main_arg7 = m ((c : Thread nD τ).loc main_arg7) := (V10_of m outs c main_arg7 (by decide)).trans (k_main_arg7_9 m outs c)
theorem k_main_arg7_11 : V11 m outs c main_arg7 = m ((c : Thread nD τ).loc main_arg7) := (V11_of m outs c main_arg7 (by decide)).trans (k_main_arg7_10 m outs c)
theorem k_main_arg7_12 : V12 m outs c main_arg7 = m ((c : Thread nD τ).loc main_arg7) := (V12_of m outs c main_arg7 (by decide)).trans (k_main_arg7_11 m outs c)
theorem k_main_arg7_13 : V13 m outs c main_arg7 = m ((c : Thread nD τ).loc main_arg7) := (V13_of m outs c main_arg7 (by decide)).trans (k_main_arg7_12 m outs c)
theorem k_main_arg7_14 : V14 m outs c main_arg7 = m ((c : Thread nD τ).loc main_arg7) := (V14_of m outs c main_arg7 (by decide)).trans (k_main_arg7_13 m outs c)
theorem k_main_arg7_15 : V15 m outs c main_arg7 = m ((c : Thread nD τ).loc main_arg7) := (V15_of m outs c main_arg7 (by decide)).trans (k_main_arg7_14 m outs c)
theorem k_main_arg7_16 : V16 m outs c main_arg7 = m ((c : Thread nD τ).loc main_arg7) := (V16_of m outs c main_arg7 (by decide)).trans (k_main_arg7_15 m outs c)
theorem k_main_arg7_17 : V17 m outs c main_arg7 = m ((c : Thread nD τ).loc main_arg7) := (V17_of m outs c main_arg7 (by decide)).trans (k_main_arg7_16 m outs c)
theorem k_main_arg7_18 : V18 m outs c main_arg7 = m ((c : Thread nD τ).loc main_arg7) := (V18_of m outs c main_arg7 (by decide)).trans (k_main_arg7_17 m outs c)
theorem k_main_arg7_19 : V19 m outs c main_arg7 = m ((c : Thread nD τ).loc main_arg7) := (V19_of m outs c main_arg7 (by decide)).trans (k_main_arg7_18 m outs c)
theorem k_main_arg7_20 : V20 m outs c main_arg7 = m ((c : Thread nD τ).loc main_arg7) := (V20_of m outs c main_arg7 (by decide)).trans (k_main_arg7_19 m outs c)
theorem k_main_arg7_21 : V21 m outs c main_arg7 = m ((c : Thread nD τ).loc main_arg7) := (V21_of m outs c main_arg7 (by decide)).trans (k_main_arg7_20 m outs c)

/-! ### Layer 1: the chain of takes and hops -/
theorem L0_t0 (hs : InRange 𝕊) : V2 m c main_v4 = Host.gather gather_S50000x32_S1200000x1_S1200000x32_1_0_n_n_0_1_132 (𝕏) (broadcastInDim S1200000x1 ![0] bcast_S1200000_S1200000x1_0 𝕊) :=
  (st0_1_take (V1 m c)).trans (by rw [k_main_arg0_1 m c, k_main_v1_1 m c]; exact take32_eq _ hs)
theorem k_main_v10_3 (hs : InRange 𝕊) : V3 m c main_v10 = Hop.hop32 𝕏 𝕊 𝔻 𝕎 := (st0_2_hop (V2 m c)).trans (by rw [L0_t0 m c hs, k_main_v3_2 m c, k_main_arg2_2 m c]; rfl)
theorem k_main_v10_4 (hs : InRange 𝕊) : V4 m c main_v10 = Hop.hop32 𝕏 𝕊 𝔻 𝕎 := (V4_of m c main_v10 (by decide)).trans (k_main_v10_3 m c hs)
theorem k_main_v10_5 (hs : InRange 𝕊) : V5 m c main_v10 = Hop.hop32 𝕏 𝕊 𝔻 𝕎 := (V5_of m c main_v10 (by decide)).trans (k_main_v10_4 m c hs)
theorem k_main_v10_6 (hs : InRange 𝕊) : V6 m c main_v10 = Hop.hop32 𝕏 𝕊 𝔻 𝕎 := (V6_of m c main_v10 (by decide)).trans (k_main_v10_5 m c hs)
theorem L0_t1 (hs : InRange 𝕊) : V4 m c main_v11 = Host.gather gather_S50000x32_S1200000x1_S1200000x32_1_0_n_n_0_1_132 (Hop.hop32 𝕏 𝕊 𝔻 𝕎) (broadcastInDim S1200000x1 ![0] bcast_S1200000_S1200000x1_0 𝕊) :=
  (st0_3_take (V3 m c)).trans (by rw [k_main_v10_3 m c hs, k_main_v1_3 m c]; exact take32_eq _ hs)
theorem k_main_v17_5 (hs : InRange 𝕊) : V5 m c main_v17 = Hop.hop32 (Hop.hop32 𝕏 𝕊 𝔻 𝕎) 𝕊 𝔻 𝕎 := (st0_4_hop (V4 m c)).trans (by rw [L0_t1 m c hs, k_main_v3_4 m c, k_main_arg2_4 m c]; rfl)
theorem k_main_v17_6 (hs : InRange 𝕊) : V6 m c main_v17 = Hop.hop32 (Hop.hop32 𝕏 𝕊 𝔻 𝕎) 𝕊 𝔻 𝕎 := (V6_of m c main_v17 (by decide)).trans (k_main_v17_5 m c hs)
theorem L0_t2 (hs : InRange 𝕊) : V6 m c main_v18 = Host.gather gather_S50000x32_S1200000x1_S1200000x32_1_0_n_n_0_1_132 (Hop.hop32 (Hop.hop32 𝕏 𝕊 𝔻 𝕎) 𝕊 𝔻 𝕎) (broadcastInDim S1200000x1 ![0] bcast_S1200000_S1200000x1_0 𝕊) :=
  (st0_5_take (V5 m c)).trans (by rw [k_main_v17_5 m c hs, k_main_v1_5 m c]; exact take32_eq _ hs)
theorem L0_stack : V7 m c main_v29
    = stack32 (V6 m c main_arg0) (V6 m c main_v10) (V6 m c main_v17) (hopRaw32 (V6 m c main_v18) (V6 m c main_v3) (V6 m c main_arg2)) :=
  st0_6_stack (V6 m c)

/-! ### Layer 2: the chain of takes and hops -/
theorem k_main_v31_8 : V8 m outs c main_v31 = 𝕐₁ := Function.update_self ..
theorem k_main_v31_9 : V9 m outs c main_v31 = 𝕐₁ := (V9_of m outs c main_v31 (by decide)).trans (k_main_v31_8 m outs c)
theorem k_main_v31_10 : V10 m outs c main_v31 = 𝕐₁ := (V10_of m outs c main_v31 (by decide)).trans (k_main_v31_9 m outs c)
theorem k_main_v31_11 : V11 m outs c main_v31 = 𝕐₁ := (V11_of m outs c main_v31 (by decide)).trans (k_main_v31_10 m outs c)
theorem k_main_v31_12 : V12 m outs c main_v31 = 𝕐₁ := (V12_of m outs c main_v31 (by decide)).trans (k_main_v31_11 m outs c)
theorem k_main_v31_13 : V13 m outs c main_v31 = 𝕐₁ := (V13_of m outs c main_v31 (by decide)).trans (k_main_v31_12 m outs c)
theorem L1_t0 (hs : InRange 𝕊) : V9 m outs c main_v32 = Host.gather gather_S50000x64_S1200000x1_S1200000x64_1_0_n_n_0_1_164 (𝕐₁) (broadcastInDim S1200000x1 ![0] bcast_S1200000_S1200000x1_0 𝕊) :=
  (st1_0_take (V8 m outs c)).trans (by rw [k_main_v31_8 m outs c, k_main_v1_8 m outs c]; exact take64_eq _ hs)
theorem k_main_v38_10 (hs : InRange 𝕊) : V10 m outs c main_v38 = Hop.hop64 𝕐₁ 𝕊 𝔻 𝕎 := (st1_1_hop (V9 m outs c)).trans (by rw [L1_t0 m outs c hs, k_main_v3_9 m outs c, k_main_arg2_9 m outs c]; rfl)
theorem k_main_v38_11 (hs : InRange 𝕊) : V11 m outs c main_v38 = Hop.hop64 𝕐₁ 𝕊 𝔻 𝕎 := (V11_of m outs c main_v38 (by decide)).trans (k_main_v38_10 m outs c hs)
theorem k_main_v38_12 (hs : InRange 𝕊) : V12 m outs c main_v38 = Hop.hop64 𝕐₁ 𝕊 𝔻 𝕎 := (V12_of m outs c main_v38 (by decide)).trans (k_main_v38_11 m outs c hs)
theorem k_main_v38_13 (hs : InRange 𝕊) : V13 m outs c main_v38 = Hop.hop64 𝕐₁ 𝕊 𝔻 𝕎 := (V13_of m outs c main_v38 (by decide)).trans (k_main_v38_12 m outs c hs)
theorem L1_t1 (hs : InRange 𝕊) : V11 m outs c main_v39 = Host.gather gather_S50000x64_S1200000x1_S1200000x64_1_0_n_n_0_1_164 (Hop.hop64 𝕐₁ 𝕊 𝔻 𝕎) (broadcastInDim S1200000x1 ![0] bcast_S1200000_S1200000x1_0 𝕊) :=
  (st1_2_take (V10 m outs c)).trans (by rw [k_main_v38_10 m outs c hs, k_main_v1_10 m outs c]; exact take64_eq _ hs)
theorem k_main_v45_12 (hs : InRange 𝕊) : V12 m outs c main_v45 = Hop.hop64 (Hop.hop64 𝕐₁ 𝕊 𝔻 𝕎) 𝕊 𝔻 𝕎 := (st1_3_hop (V11 m outs c)).trans (by rw [L1_t1 m outs c hs, k_main_v3_11 m outs c, k_main_arg2_11 m outs c]; rfl)
theorem k_main_v45_13 (hs : InRange 𝕊) : V13 m outs c main_v45 = Hop.hop64 (Hop.hop64 𝕐₁ 𝕊 𝔻 𝕎) 𝕊 𝔻 𝕎 := (V13_of m outs c main_v45 (by decide)).trans (k_main_v45_12 m outs c hs)
theorem L1_t2 (hs : InRange 𝕊) : V13 m outs c main_v46 = Host.gather gather_S50000x64_S1200000x1_S1200000x64_1_0_n_n_0_1_164 (Hop.hop64 (Hop.hop64 𝕐₁ 𝕊 𝔻 𝕎) 𝕊 𝔻 𝕎) (broadcastInDim S1200000x1 ![0] bcast_S1200000_S1200000x1_0 𝕊) :=
  (st1_4_take (V12 m outs c)).trans (by rw [k_main_v45_12 m outs c hs, k_main_v1_12 m outs c]; exact take64_eq _ hs)
theorem L1_stack : V14 m outs c main_v57
    = stack64 (V13 m outs c main_v31) (V13 m outs c main_v38) (V13 m outs c main_v45) (hopRaw64 (V13 m outs c main_v46) (V13 m outs c main_v3) (V13 m outs c main_arg2)) :=
  st1_5_stack (V13 m outs c)

/-! ### Layer 3: the chain of takes and hops -/
theorem k_main_v59_15 : V15 m outs c main_v59 = 𝕐₂ := Function.update_self ..
theorem k_main_v59_16 : V16 m outs c main_v59 = 𝕐₂ := (V16_of m outs c main_v59 (by decide)).trans (k_main_v59_15 m outs c)
theorem k_main_v59_17 : V17 m outs c main_v59 = 𝕐₂ := (V17_of m outs c main_v59 (by decide)).trans (k_main_v59_16 m outs c)
theorem k_main_v59_18 : V18 m outs c main_v59 = 𝕐₂ := (V18_of m outs c main_v59 (by decide)).trans (k_main_v59_17 m outs c)
theorem k_main_v59_19 : V19 m outs c main_v59 = 𝕐₂ := (V19_of m outs c main_v59 (by decide)).trans (k_main_v59_18 m outs c)
theorem k_main_v59_20 : V20 m outs c main_v59 = 𝕐₂ := (V20_of m outs c main_v59 (by decide)).trans (k_main_v59_19 m outs c)
theorem L2_t0 (hs : InRange 𝕊) : V16 m outs c main_v60 = Host.gather gather_S50000x64_S1200000x1_S1200000x64_1_0_n_n_0_1_164 (𝕐₂) (broadcastInDim S1200000x1 ![0] bcast_S1200000_S1200000x1_0 𝕊) :=
  (st2_0_take (V15 m outs c)).trans (by rw [k_main_v59_15 m outs c, k_main_v1_15 m outs c]; exact take64_eq _ hs)
theorem k_main_v66_17 (hs : InRange 𝕊) : V17 m outs c main_v66 = Hop.hop64 𝕐₂ 𝕊 𝔻 𝕎 := (st2_1_hop (V16 m outs c)).trans (by rw [L2_t0 m outs c hs, k_main_v3_16 m outs c, k_main_arg2_16 m outs c]; rfl)
theorem k_main_v66_18 (hs : InRange 𝕊) : V18 m outs c main_v66 = Hop.hop64 𝕐₂ 𝕊 𝔻 𝕎 := (V18_of m outs c main_v66 (by decide)).trans (k_main_v66_17 m outs c hs)
theorem k_main_v66_19 (hs : InRange 𝕊) : V19 m outs c main_v66 = Hop.hop64 𝕐₂ 𝕊 𝔻 𝕎 := (V19_of m outs c main_v66 (by decide)).trans (k_main_v66_18 m outs c hs)
theorem k_main_v66_20 (hs : InRange 𝕊) : V20 m outs c main_v66 = Hop.hop64 𝕐₂ 𝕊 𝔻 𝕎 := (V20_of m outs c main_v66 (by decide)).trans (k_main_v66_19 m outs c hs)
theorem L2_t1 (hs : InRange 𝕊) : V18 m outs c main_v67 = Host.gather gather_S50000x64_S1200000x1_S1200000x64_1_0_n_n_0_1_164 (Hop.hop64 𝕐₂ 𝕊 𝔻 𝕎) (broadcastInDim S1200000x1 ![0] bcast_S1200000_S1200000x1_0 𝕊) :=
  (st2_2_take (V17 m outs c)).trans (by rw [k_main_v66_17 m outs c hs, k_main_v1_17 m outs c]; exact take64_eq _ hs)
theorem k_main_v73_19 (hs : InRange 𝕊) : V19 m outs c main_v73 = Hop.hop64 (Hop.hop64 𝕐₂ 𝕊 𝔻 𝕎) 𝕊 𝔻 𝕎 := (st2_3_hop (V18 m outs c)).trans (by rw [L2_t1 m outs c hs, k_main_v3_18 m outs c, k_main_arg2_18 m outs c]; rfl)
theorem k_main_v73_20 (hs : InRange 𝕊) : V20 m outs c main_v73 = Hop.hop64 (Hop.hop64 𝕐₂ 𝕊 𝔻 𝕎) 𝕊 𝔻 𝕎 := (V20_of m outs c main_v73 (by decide)).trans (k_main_v73_19 m outs c hs)
theorem L2_t2 (hs : InRange 𝕊) : V20 m outs c main_v74 = Host.gather gather_S50000x64_S1200000x1_S1200000x64_1_0_n_n_0_1_164 (Hop.hop64 (Hop.hop64 𝕐₂ 𝕊 𝔻 𝕎) 𝕊 𝔻 𝕎) (broadcastInDim S1200000x1 ![0] bcast_S1200000_S1200000x1_0 𝕊) :=
  (st2_4_take (V19 m outs c)).trans (by rw [k_main_v73_19 m outs c hs, k_main_v1_19 m outs c]; exact take64_eq _ hs)
theorem L2_stack : V21 m outs c main_v85
    = stack64 (V20 m outs c main_v59) (V20 m outs c main_v66) (V20 m outs c main_v73) (hopRaw64 (V20 m outs c main_v74) (V20 m outs c main_v3) (V20 m outs c main_arg2)) :=
  st2_5_stack (V20 m outs c)

/-! ### Layer 1: the stack, bias and weights the first launch reads -/
theorem V7_stack0 (i : Fin 50000) (d : Fin 32) :
    (V7 m c main_v29 : FVec Ideal S4x50000x32 .f32) (ix3 (0 : Fin 4) i d) = 𝕏 (ix2 i d) := by
  rw [L0_stack, stack32_at0, k_main_arg0_6 m c]
theorem V7_stack1 (hs : InRange 𝕊) (i : Fin 50000) (d : Fin 32) :
    (V7 m c main_v29 : FVec Ideal S4x50000x32 .f32) (ix3 (1 : Fin 4) i d) = Hop.hop32 𝕏 𝕊 𝔻 𝕎 (ix2 i d) := by
  rw [L0_stack, stack32_at1, k_main_v10_6 m c hs]
theorem V7_stack2 (hs : InRange 𝕊) (i : Fin 50000) (d : Fin 32) :
    (V7 m c main_v29 : FVec Ideal S4x50000x32 .f32) (ix3 (2 : Fin 4) i d) = Hop.hop32 (Hop.hop32 𝕏 𝕊 𝔻 𝕎) 𝕊 𝔻 𝕎 (ix2 i d) := by
  rw [L0_stack, stack32_at2, k_main_v17_6 m c hs]
theorem V7_stack3 (hs : InRange 𝕊) (i : Fin 50000) (d : Fin 32) :
    (V7 m c main_v29 : FVec Ideal S4x50000x32 .f32) (ix3 (3 : Fin 4) i d) = Hop.hop32 (Hop.hop32 (Hop.hop32 𝕏 𝕊 𝔻 𝕎) 𝕊 𝔻 𝕎) 𝕊 𝔻 𝕎 (ix2 i d) := by
  rw [L0_stack, stack32_at3, L0_t2 m c hs, k_main_v3_6 m c, k_main_arg2_6 m c]
  rfl

/-- The same as functions of the [50000, 32] index. -/
theorem V7_stack0_fun : (fun j : S50000x32.Idx => (V7 m c main_v29 : FVec Ideal S4x50000x32 .f32) (ix3 (0 : Fin 4) (j 0) (j 1))) = 𝕏 := by
  funext j
  rw [V7_stack0 m c (j 0) (j 1)]
  exact congrArg _ (eq_ix2 j).symm
theorem V7_stack1_fun (hs : InRange 𝕊) : (fun j : S50000x32.Idx => (V7 m c main_v29 : FVec Ideal S4x50000x32 .f32) (ix3 (1 : Fin 4) (j 0) (j 1))) = Hop.hop32 𝕏 𝕊 𝔻 𝕎 := by
  funext j
  rw [V7_stack1 m c hs (j 0) (j 1)]
  exact congrArg _ (eq_ix2 j).symm
theorem V7_stack2_fun (hs : InRange 𝕊) : (fun j : S50000x32.Idx => (V7 m c main_v29 : FVec Ideal S4x50000x32 .f32) (ix3 (2 : Fin 4) (j 0) (j 1))) = Hop.hop32 (Hop.hop32 𝕏 𝕊 𝔻 𝕎) 𝕊 𝔻 𝕎 := by
  funext j
  rw [V7_stack2 m c hs (j 0) (j 1)]
  exact congrArg _ (eq_ix2 j).symm
theorem V7_stack3_fun (hs : InRange 𝕊) : (fun j : S50000x32.Idx => (V7 m c main_v29 : FVec Ideal S4x50000x32 .f32) (ix3 (3 : Fin 4) (j 0) (j 1))) = Hop.hop32 (Hop.hop32 (Hop.hop32 𝕏 𝕊 𝔻 𝕎) 𝕊 𝔻 𝕎) 𝕊 𝔻 𝕎 := by
  funext j
  rw [V7_stack3 m c hs (j 0) (j 1)]
  exact congrArg _ (eq_ix2 j).symm

/-- The launch's bias is the argument given a leading unit axis; its weights are the argument. -/
theorem V7_bias (j : Fin 64) : (V7 m c main_v30 : FVec Ideal S1x64 .f32) (ix2 (0 : Fin 1) j) = (m ((c : Thread nD τ).loc main_arg4) : FVec Ideal S64 .f32) (ix1 j) := by
  rw [show V7 m c main_v30 = _ from st0_6_bias (V6 m c), k_main_arg4_6 m c]
  exact shapeCast_a_1a_apply _ _ _ _
theorem V7_bias_fun : (fun j : S64.Idx => (V7 m c main_v30 : FVec Ideal S1x64 .f32) (ix2 (0 : Fin 1) (j 0))) = (m ((c : Thread nD τ).loc main_arg4) : FVec Ideal S64 .f32) := by
  funext j
  rw [V7_bias m c (j 0)]
  exact congrArg _ (eq_ix1 j).symm
theorem V7_weights : V7 m c main_arg3 = m ((c : Thread nD τ).loc main_arg3) := k_main_arg3_7 m c

/-! ### Layer 2: over the first launch's result -/
theorem V14_stack0 (i : Fin 50000) (d : Fin 64) :
    (V14 m outs c main_v57 : FVec Ideal S4x50000x64 .f32) (ix3 (0 : Fin 4) i d) = 𝕐₁ (ix2 i d) := by
  rw [L1_stack, stack64_at0, k_main_v31_13 m outs c]
theorem V14_stack1 (hs : InRange 𝕊) (i : Fin 50000) (d : Fin 64) :
    (V14 m outs c main_v57 : FVec Ideal S4x50000x64 .f32) (ix3 (1 : Fin 4) i d) = Hop.hop64 𝕐₁ 𝕊 𝔻 𝕎 (ix2 i d) := by
  rw [L1_stack, stack64_at1, k_main_v38_13 m outs c hs]
theorem V14_stack2 (hs : InRange 𝕊) (i : Fin 50000) (d : Fin 64) :
    (V14 m outs c main_v57 : FVec Ideal S4x50000x64 .f32) (ix3 (2 : Fin 4) i d) = Hop.hop64 (Hop.hop64 𝕐₁ 𝕊 𝔻 𝕎) 𝕊 𝔻 𝕎 (ix2 i d) := by
  rw [L1_stack, stack64_at2, k_main_v45_13 m outs c hs]
theorem V14_stack3 (hs : InRange 𝕊) (i : Fin 50000) (d : Fin 64) :
    (V14 m outs c main_v57 : FVec Ideal S4x50000x64 .f32) (ix3 (3 : Fin 4) i d) = Hop.hop64 (Hop.hop64 (Hop.hop64 𝕐₁ 𝕊 𝔻 𝕎) 𝕊 𝔻 𝕎) 𝕊 𝔻 𝕎 (ix2 i d) := by
  rw [L1_stack, stack64_at3, L1_t2 m outs c hs, k_main_v3_13 m outs c, k_main_arg2_13 m outs c]
  rfl

/-- The same as functions of the [50000, 64] index. -/
theorem V14_stack0_fun : (fun j : S50000x64.Idx => (V14 m outs c main_v57 : FVec Ideal S4x50000x64 .f32) (ix3 (0 : Fin 4) (j 0) (j 1))) = 𝕐₁ := by
  funext j
  rw [V14_stack0 m outs c (j 0) (j 1)]
  exact congrArg _ (eq_ix2 j).symm
theorem V14_stack1_fun (hs : InRange 𝕊) : (fun j : S50000x64.Idx => (V14 m outs c main_v57 : FVec Ideal S4x50000x64 .f32) (ix3 (1 : Fin 4) (j 0) (j 1))) = Hop.hop64 𝕐₁ 𝕊 𝔻 𝕎 := by
  funext j
  rw [V14_stack1 m outs c hs (j 0) (j 1)]
  exact congrArg _ (eq_ix2 j).symm
theorem V14_stack2_fun (hs : InRange 𝕊) : (fun j : S50000x64.Idx => (V14 m outs c main_v57 : FVec Ideal S4x50000x64 .f32) (ix3 (2 : Fin 4) (j 0) (j 1))) = Hop.hop64 (Hop.hop64 𝕐₁ 𝕊 𝔻 𝕎) 𝕊 𝔻 𝕎 := by
  funext j
  rw [V14_stack2 m outs c hs (j 0) (j 1)]
  exact congrArg _ (eq_ix2 j).symm
theorem V14_stack3_fun (hs : InRange 𝕊) : (fun j : S50000x64.Idx => (V14 m outs c main_v57 : FVec Ideal S4x50000x64 .f32) (ix3 (3 : Fin 4) (j 0) (j 1))) = Hop.hop64 (Hop.hop64 (Hop.hop64 𝕐₁ 𝕊 𝔻 𝕎) 𝕊 𝔻 𝕎) 𝕊 𝔻 𝕎 := by
  funext j
  rw [V14_stack3 m outs c hs (j 0) (j 1)]
  exact congrArg _ (eq_ix2 j).symm

/-- The launch's bias is the argument given a leading unit axis; its weights are the argument. -/
theorem V14_bias (j : Fin 64) : (V14 m outs c main_v58 : FVec Ideal S1x64 .f32) (ix2 (0 : Fin 1) j) = (m ((c : Thread nD τ).loc main_arg6) : FVec Ideal S64 .f32) (ix1 j) := by
  rw [show V14 m outs c main_v58 = _ from st1_5_bias (V13 m outs c), k_main_arg6_13 m outs c]
  exact shapeCast_a_1a_apply _ _ _ _
theorem V14_bias_fun : (fun j : S64.Idx => (V14 m outs c main_v58 : FVec Ideal S1x64 .f32) (ix2 (0 : Fin 1) (j 0))) = (m ((c : Thread nD τ).loc main_arg6) : FVec Ideal S64 .f32) := by
  funext j
  rw [V14_bias m outs c (j 0)]
  exact congrArg _ (eq_ix1 j).symm
theorem V14_weights : V14 m outs c main_arg5 = m ((c : Thread nD τ).loc main_arg5) := k_main_arg5_14 m outs c

/-! ### Layer 3: over the second launch's result; the bias is the constant zero -/
theorem V21_stack0 (i : Fin 50000) (d : Fin 64) :
    (V21 m outs c main_v85 : FVec Ideal S4x50000x64 .f32) (ix3 (0 : Fin 4) i d) = 𝕐₂ (ix2 i d) := by
  rw [L2_stack, stack64_at0, k_main_v59_20 m outs c]
theorem V21_stack1 (hs : InRange 𝕊) (i : Fin 50000) (d : Fin 64) :
    (V21 m outs c main_v85 : FVec Ideal S4x50000x64 .f32) (ix3 (1 : Fin 4) i d) = Hop.hop64 𝕐₂ 𝕊 𝔻 𝕎 (ix2 i d) := by
  rw [L2_stack, stack64_at1, k_main_v66_20 m outs c hs]
theorem V21_stack2 (hs : InRange 𝕊) (i : Fin 50000) (d : Fin 64) :
    (V21 m outs c main_v85 : FVec Ideal S4x50000x64 .f32) (ix3 (2 : Fin 4) i d) = Hop.hop64 (Hop.hop64 𝕐₂ 𝕊 𝔻 𝕎) 𝕊 𝔻 𝕎 (ix2 i d) := by
  rw [L2_stack, stack64_at2, k_main_v73_20 m outs c hs]
theorem V21_stack3 (hs : InRange 𝕊) (i : Fin 50000) (d : Fin 64) :
    (V21 m outs c main_v85 : FVec Ideal S4x50000x64 .f32) (ix3 (3 : Fin 4) i d) = Hop.hop64 (Hop.hop64 (Hop.hop64 𝕐₂ 𝕊 𝔻 𝕎) 𝕊 𝔻 𝕎) 𝕊 𝔻 𝕎 (ix2 i d) := by
  rw [L2_stack, stack64_at3, L2_t2 m outs c hs, k_main_v3_20 m outs c, k_main_arg2_20 m outs c]
  rfl

/-- The same as functions of the [50000, 64] index. -/
theorem V21_stack0_fun : (fun j : S50000x64.Idx => (V21 m outs c main_v85 : FVec Ideal S4x50000x64 .f32) (ix3 (0 : Fin 4) (j 0) (j 1))) = 𝕐₂ := by
  funext j
  rw [V21_stack0 m outs c (j 0) (j 1)]
  exact congrArg _ (eq_ix2 j).symm
theorem V21_stack1_fun (hs : InRange 𝕊) : (fun j : S50000x64.Idx => (V21 m outs c main_v85 : FVec Ideal S4x50000x64 .f32) (ix3 (1 : Fin 4) (j 0) (j 1))) = Hop.hop64 𝕐₂ 𝕊 𝔻 𝕎 := by
  funext j
  rw [V21_stack1 m outs c hs (j 0) (j 1)]
  exact congrArg _ (eq_ix2 j).symm
theorem V21_stack2_fun (hs : InRange 𝕊) : (fun j : S50000x64.Idx => (V21 m outs c main_v85 : FVec Ideal S4x50000x64 .f32) (ix3 (2 : Fin 4) (j 0) (j 1))) = Hop.hop64 (Hop.hop64 𝕐₂ 𝕊 𝔻 𝕎) 𝕊 𝔻 𝕎 := by
  funext j
  rw [V21_stack2 m outs c hs (j 0) (j 1)]
  exact congrArg _ (eq_ix2 j).symm
theorem V21_stack3_fun (hs : InRange 𝕊) : (fun j : S50000x64.Idx => (V21 m outs c main_v85 : FVec Ideal S4x50000x64 .f32) (ix3 (3 : Fin 4) (j 0) (j 1))) = Hop.hop64 (Hop.hop64 (Hop.hop64 𝕐₂ 𝕊 𝔻 𝕎) 𝕊 𝔻 𝕎) 𝕊 𝔻 𝕎 := by
  funext j
  rw [V21_stack3 m outs c hs (j 0) (j 1)]
  exact congrArg _ (eq_ix2 j).symm

/-- The launch's bias is the constant zero; its weights are the argument. -/
theorem V21_bias (j : S1x1.Idx) : (V21 m outs c main_v86 : FVec Ideal S1x1 .f32) j = Ideal.ofBits .f32 0x00000000#32 := by
  rw [show V21 m outs c main_v86 = _ from st2_5_bias (V20 m outs c)]
  rfl
theorem V21_weights : V21 m outs c main_arg7 = m ((c : Thread nD τ).loc main_arg7) := k_main_arg7_21 m outs c

end Reads

end Cert.KernelIdeal.HHost

end
-- ==== Proof.Bridge.lean ====
/-
  The two programs compute the same network.

  The reference: its printed chain is three specification layers over the wrapped hop; under the precondition's range
  fact the wrapped hop is the plain hop over the unwrapped sources, so the reference's output is the network of
  plain hops.

  The kernel program: what the third region leaves in its output array is the last layer over the stack the host
  built for it, whose four pieces are the second region's result and its three successive hops; that result is the
  second layer over the first region's result and its hops, and that one the first layer over the input and its
  hops.  The third region's bias is the zero constant, and adding zero changes nothing.
-/
import proofs.«401537_j29600914604721_1_alg».proof.Proof.Ref.Val
import proofs.«401537_j29600914604721_1_alg».proof.Proof.Ref.HopEq
import proofs.«401537_j29600914604721_1_alg».proof.Proof.KI.Asm
import proofs.«401537_j29600914604721_1_alg».proof.Proof.KI.Val0
import proofs.«401537_j29600914604721_1_alg».proof.Proof.KI.Val1
import proofs.«401537_j29600914604721_1_alg».proof.Proof.KI.Val2
import proofs.«401537_j29600914604721_1_alg».proof.Proof.KI.Host

noncomputable section

namespace Cert.Bridge

open Idealize.ShloMosaic Idealize.ShloMosaic.ValueIdx

/-! ## The reference -/

/-- The reference's output is the network of plain hops. -/
theorem ref_out_eq (x : Cert.ReferenceIdeal.HVal.Arr Ideal Cert.ReferenceIdeal.S50000x32 .f32)
    (ei : Cert.ReferenceIdeal.HVal.Arr Ideal Cert.ReferenceIdeal.S2x1200000 .i32)
    (w : Cert.ReferenceIdeal.HVal.Arr Ideal Cert.ReferenceIdeal.S1200000 .f32)
    (W0 : Cert.ReferenceIdeal.HVal.Arr Ideal Cert.ReferenceIdeal.S4x32x64 .f32)
    (b0 : Cert.ReferenceIdeal.HVal.Arr Ideal Cert.ReferenceIdeal.S64 .f32)
    (W1 : Cert.ReferenceIdeal.HVal.Arr Ideal Cert.ReferenceIdeal.S4x64x64 .f32)
    (b1 : Cert.ReferenceIdeal.HVal.Arr Ideal Cert.ReferenceIdeal.S64 .f32)
    (W2 : Cert.ReferenceIdeal.HVal.Arr Ideal Cert.ReferenceIdeal.S4x64x1 .f32)
    (hsrc : ∀ e : Cert.ReferenceIdeal.S1200000.Idx, 0 ≤ (Cert.ReferenceIdeal.HVal.edgeSrc (F := Ideal) ei e).toInt) :
    Cert.ReferenceIdeal.HVal.out (F := Ideal) x ei w W0 b0 W1 b1 W2
      = Cert.KernelIdeal.Hop.net x ei w W0 b0 W1 b1 W2 := by
  have e32 : ∀ u, Cert.ReferenceIdeal.HVal.hop32 (F := Ideal) ei w u
      = Cert.KernelIdeal.Hop.hop32 u (Cert.KernelIdeal.Hop.srcOf ei) (Cert.KernelIdeal.Hop.dstOf ei) w :=
    fun u => Cert.ReferenceIdeal.HVal.hop32_eq ei w u hsrc
  have e64 : ∀ u, Cert.ReferenceIdeal.HVal.hop64 (F := Ideal) ei w u
      = Cert.KernelIdeal.Hop.hop64 u (Cert.KernelIdeal.Hop.srcOf ei) (Cert.KernelIdeal.Hop.dstOf ei) w :=
    fun u => Cert.ReferenceIdeal.HVal.hop64_eq ei w u hsrc
  unfold Cert.ReferenceIdeal.HVal.out
  rw [Cert.ReferenceIdeal.HVal.layer1_eq, Cert.ReferenceIdeal.HVal.layer2_eq, Cert.ReferenceIdeal.HVal.layer3_eq]
  simp only [e32, e64]
  rfl

/-! ## The kernel program -/

section Kernel

open Idealize.ShloMosaic.TcCoe Idealize.SL.Sem
open Cert.KernelIdeal Cert.KernelIdeal.Gen

/-- A layer of equal arguments is the same layer. -/
theorem layerAct_congr {D E : Nat} {a0 a1 a2 a3 a0' a1' a2' a3' : FVec Ideal (Cert.Spec.SX D) .f32}
    {W W' : FVec Ideal (Cert.Spec.SW D E) .f32} {b b' : FVec Ideal (Cert.Spec.SB E) .f32}
    (h0 : a0 = a0') (h1 : a1 = a1') (h2 : a2 = a2') (h3 : a3 = a3') (hW : W = W') (hb : b = b') :
    Cert.Spec.layerAct a0 a1 a2 a3 W b = Cert.Spec.layerAct a0' a1' a2' a3' W' b' := by
  subst h0 h1 h2 h3 hW hb; rfl

theorem layerLin_congr {D E : Nat} {a0 a1 a2 a3 a0' a1' a2' a3' : FVec Ideal (Cert.Spec.SX D) .f32}
    {W W' : FVec Ideal (Cert.Spec.SW D E) .f32}
    (h0 : a0 = a0') (h1 : a1 = a1') (h2 : a2 = a2') (h3 : a3 = a3') (hW : W = W') :
    Cert.Spec.layerLin a0 a1 a2 a3 W = Cert.Spec.layerLin a0' a1' a2' a3' W' := by
  subst h0 h1 h2 h3 hW; rfl

variable (m : (ℓ : Loc nD τ sig) → Buf (Elt Ideal) ℓ)

/-- The first region's result is the first layer over the input and its three hops. -/
theorem y1_eq (hpre : Cert.Pre_KernelIdeal m) (c : Dev nD) :
    (Asm.outsA m 8 main_v31 c : FVec Ideal S50000x64 .f32)
      = Cert.Spec.layerAct (D := 32) (E := 64)
          (m ((c : Thread nD τ).loc main_arg0) : FVec Ideal S50000x32 .f32)
          (Hop.hop32 (m ((c : Thread nD τ).loc main_arg0)) (Hop.srcOf (m ((c : Thread nD τ).loc main_arg1)))
            (Hop.dstOf (m ((c : Thread nD τ).loc main_arg1))) (m ((c : Thread nD τ).loc main_arg2)))
          (Hop.hop32 (Hop.hop32 (m ((c : Thread nD τ).loc main_arg0)) (Hop.srcOf (m ((c : Thread nD τ).loc main_arg1)))
            (Hop.dstOf (m ((c : Thread nD τ).loc main_arg1))) (m ((c : Thread nD τ).loc main_arg2)))
            (Hop.srcOf (m ((c : Thread nD τ).loc main_arg1))) (Hop.dstOf (m ((c : Thread nD τ).loc main_arg1)))
            (m ((c : Thread nD τ).loc main_arg2)))
          (Hop.hop32 (Hop.hop32 (Hop.hop32 (m ((c : Thread nD τ).loc main_arg0))
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
          (m ((c : Thread nD τ).loc main_arg3)) (m ((c : Thread nD τ).loc main_arg4)) := by
  have hs := HHost.hsrc m hpre c
  have hA : Asm.outsA m 8 main_v31 c = Asm.W8 m c main_v31 := rfl
  have h0 : Asm.W8 m c main_v31 = (Reg0.dat (F := Ideal) (Asm.rd (V7 m)) c).arrAt 3 cfg0.N :=
    Pipeline.withArrays_arr spec0 launch0.win.arr_inj c _ _ 3
  exact (hA.trans h0).trans ((Val0.arr_out (Asm.rd (V7 m)) c).trans
    (layerAct_congr (HHost.V7_stack0_fun m c) (HHost.V7_stack1_fun m c hs) (HHost.V7_stack2_fun m c hs)
      (HHost.V7_stack3_fun m c hs) (HHost.V7_weights m c) (HHost.V7_bias_fun m c)))

/-- The second region's result is the second layer over the first region's result and its three hops. -/
theorem y2_eq (hpre : Cert.Pre_KernelIdeal m) (c : Dev nD) :
    (Asm.outsB m 15 main_v59 c : FVec Ideal S50000x64 .f32)
      = Cert.Spec.layerAct (D := 64) (E := 64)
          (Asm.outsA m 8 main_v31 c : FVec Ideal S50000x64 .f32)
          (Hop.hop64 (Asm.outsA m 8 main_v31 c) (Hop.srcOf (m ((c : Thread nD τ).loc main_arg1)))
            (Hop.dstOf (m ((c : Thread nD τ).loc main_arg1))) (m ((c : Thread nD τ).loc main_arg2)))
          (Hop.hop64 (Hop.hop64 (Asm.outsA m 8 main_v31 c) (Hop.srcOf (m ((c : Thread nD τ).loc main_arg1)))
            (Hop.dstOf (m ((c : Thread nD τ).loc main_arg1))) (m ((c : Thread nD τ).loc main_arg2)))
            (Hop.srcOf (m ((c : Thread nD τ).loc main_arg1))) (Hop.dstOf (m ((c : Thread nD τ).loc main_arg1)))
            (m ((c : Thread nD τ).loc main_arg2)))
          (Hop.hop64 (Hop.hop64 (Hop.hop64 (Asm.outsA m 8 main_v31 c)
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
          (m ((c : Thread nD τ).loc main_arg5)) (m ((c : Thread nD τ).loc main_arg6)) := by
  have hs := HHost.hsrc m hpre c
  have hB : Asm.outsB m 15 main_v59 c = Asm.W15 m c main_v59 := rfl
  have h0 : Asm.W15 m c main_v59 = (Reg1.dat (F := Ideal) (Asm.rd (V14 m (Asm.outsA m))) c).arrAt 3 cfg1.N :=
    Pipeline.withArrays_arr spec1 launch1.win.arr_inj c _ _ 3
  exact (hB.trans h0).trans ((Val1.arr_out (Asm.rd (V14 m (Asm.outsA m))) c).trans
    (layerAct_congr (HHost.V14_stack0_fun m (Asm.outsA m) c) (HHost.V14_stack1_fun m (Asm.outsA m) c hs)
      (HHost.V14_stack2_fun m (Asm.outsA m) c hs) (HHost.V14_stack3_fun m (Asm.outsA m) c hs)
      (HHost.V14_weights m (Asm.outsA m) c) (HHost.V14_bias_fun m (Asm.outsA m) c)))

/-- The third region's result is the last layer over the second region's result and its three hops. -/
theorem y3_eq (hpre : Cert.Pre_KernelIdeal m) (c : Dev nD) :
    (V22 m (Asm.outs m) c main_v87 : FVec Ideal S50000x1 .f32)
      = Cert.Spec.layerLin (D := 64) (E := 1)
          (Asm.outsB m 15 main_v59 c : FVec Ideal S50000x64 .f32)
          (Hop.hop64 (Asm.outsB m 15 main_v59 c) (Hop.srcOf (m ((c : Thread nD τ).loc main_arg1)))
            (Hop.dstOf (m ((c : Thread nD τ).loc main_arg1))) (m ((c : Thread nD τ).loc main_arg2)))
          (Hop.hop64 (Hop.hop64 (Asm.outsB m 15 main_v59 c) (Hop.srcOf (m ((c : Thread nD τ).loc main_arg1)))
            (Hop.dstOf (m ((c : Thread nD τ).loc main_arg1))) (m ((c : Thread nD τ).loc main_arg2)))
            (Hop.srcOf (m ((c : Thread nD τ).loc main_arg1))) (Hop.dstOf (m ((c : Thread nD τ).loc main_arg1)))
            (m ((c : Thread nD τ).loc main_arg2)))
          (Hop.hop64 (Hop.hop64 (Hop.hop64 (Asm.outsB m 15 main_v59 c)
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
            (Hop.srcOf (m ((c : Thread nD τ).loc main_arg1))) (Hop.dstOf (m ((c : Thread nD τ).loc main_arg1)))
            (m ((c : Thread nD τ).loc main_arg2)))
          (m ((c : Thread nD τ).loc main_arg7)) := by
  have hs := HHost.hsrc m hpre c
  have h22 : V22 m (Asm.outs m) c main_v87 = Asm.W22 m c main_v87 := by
    unfold V22; rw [Function.update_self]; rfl
  have h0 : Asm.W22 m c main_v87 = (Reg2.dat (F := Ideal) (Asm.rd (V21 m (Asm.outsB m))) c).arrAt 3 cfg2.N :=
    Pipeline.withArrays_arr spec2 launch2.win.arr_inj c _ _ 3
  have hz : Val2.bs (Asm.rd (V21 m (Asm.outsB m))) c (ix2 0 0) = 0 :=
    (HHost.V21_bias m (Asm.outsB m) c _).trans Ideal.ofBits_zero_f32
  have hlin : (Reg2.dat (F := Ideal) (Asm.rd (V21 m (Asm.outsB m))) c).arrAt 3 cfg2.N
      = Cert.Spec.layerLin (D := 64) (E := 1)
          (fun i => Val2.hs (Asm.rd (V21 m (Asm.outsB m))) c (ix3 0 (i 0) (i 1)))
          (fun i => Val2.hs (Asm.rd (V21 m (Asm.outsB m))) c (ix3 1 (i 0) (i 1)))
          (fun i => Val2.hs (Asm.rd (V21 m (Asm.outsB m))) c (ix3 2 (i 0) (i 1)))
          (fun i => Val2.hs (Asm.rd (V21 m (Asm.outsB m))) c (ix3 3 (i 0) (i 1)))
          (Val2.wt (Asm.rd (V21 m (Asm.outsB m))) c) :=
    (Val2.arr_out (Asm.rd (V21 m (Asm.outsB m))) c).trans (funext fun ij => by rw [hz]; exact add_zero _)
  exact h22.trans (h0.trans (hlin.trans
    (layerLin_congr (HHost.V21_stack0_fun m (Asm.outsB m) c) (HHost.V21_stack1_fun m (Asm.outsB m) c hs)
      (HHost.V21_stack2_fun m (Asm.outsB m) c hs) (HHost.V21_stack3_fun m (Asm.outsB m) c hs)
      (HHost.V21_weights m (Asm.outsB m) c))))

/-- What the kernel program leaves in its result buffer is the network of plain hops of the launch's arguments. -/
theorem kernel_out_eq (hpre : Cert.Pre_KernelIdeal m) (c : Dev nD) :
    Cert.KernelIdeal.Gen.V22 m (Asm.outs m) c main_v87
      = Cert.KernelIdeal.Hop.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (y3_eq m hpre c).trans ?_
  rw [y2_eq m hpre c, y1_eq m hpre c]
  rfl

end Kernel

end Cert.Bridge

end
-- ==== Proof.lean ====
/-
  Three stacked graph layers: each layer takes node features u, forms three successive weighted hops of u over the
  edge list (row src[e] of the current features times w[e], added into row dst[e]), and returns
  act(u·W[0] + hop(u)·W[1] + hop²(u)·W[2] + hop³(u)·W[3] + b); the last layer has neither bias nor activation.

  The kernel program computes the four matrix products of a layer in one pipelined kernel over (node block, hop),
  accumulating in a scratch buffer that is zeroed at hop 0 and read out, with bias and activation, at hop 3; the
  reference adds four whole matrix products on the host.  Over the extended reals both are the same sums: addition is
  commutative and associative with unit 0, so the zero the accumulator starts from, the block-wise order and the
  zero bias of the last layer change nothing.  The hops are the same scatter-add of the same gathered rows once the
  source indices are in range (the added precondition 0 ≤ src < 50000): there the kernel's guarded take, which would
  fill an out-of-range row with a not-a-number, and the reference's wrapped take, which would clamp, both read row
  src[e].

  The frames: each kernel region is entered from the buffers' contents after the host operations before it, runs its
  grid with the scratch carried from point to point, and leaves its output array at the folded write-backs; no
  argument array is written by a host operation or staged as an output.
-/
import proofs.«401537_j29600914604721_1_alg».proof.Defs
import proofs.«401537_j29600914604721_1_alg».proof.Proof.Gen.Kernel
import proofs.«401537_j29600914604721_1_alg».proof.Proof.Gen.KernelIdeal
import proofs.«401537_j29600914604721_1_alg».proof.Proof.Gen.ReferenceIdeal
import proofs.«401537_j29600914604721_1_alg».proof.Proof.Gen.Pre_finite_inputs
import proofs.«401537_j29600914604721_1_alg».proof.Proof.K.Asm
import proofs.«401537_j29600914604721_1_alg».proof.Proof.KI.Asm
import proofs.«401537_j29600914604721_1_alg».proof.Proof.KI.Run
import proofs.«401537_j29600914604721_1_alg».proof.Proof.KI.Pre
import proofs.«401537_j29600914604721_1_alg».proof.Proof.Ref.Run
import proofs.«401537_j29600914604721_1_alg».proof.Proof.Bridge

noncomputable section

namespace Cert.Proof

open Idealize.ShloMosaic Idealize.SL.Sem

/-- The word-level kernel program runs and leaves its arguments as launched. -/
theorem frame_k : Cert.frame_Kernel := fun m ρ _ => Cert.Kernel.Asm.frame (F := Bits) m ρ

/-- The idealized kernel program runs and leaves its arguments as launched. -/
theorem frame_ki : Cert.frame_KernelIdeal := fun m ρ _ => Cert.KernelIdeal.Asm.frame (F := Ideal) m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.HRun.run (F := Ideal) m ρ)

/-- Both idealized programs end with the network's value of the argument arrays. -/
theorem algebraic : Cert.algebraic_KernelIdeal_ReferenceIdeal := by
  intro m ρ m' ρ' hpre hagree
  refine ⟨fun c => Cert.KernelIdeal.Hop.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Bridge.kernel_out_eq m hpre c), (h c).2⟩) (Cert.KernelIdeal.Asm.run (F := Ideal) m ρ)
  · refine (θ_run Cert.ReferenceIdeal.defs _ _).mono (fun _ h c => ⟨(h c).1.trans ?_, (h c).2⟩)
      (Cert.ReferenceIdeal.HRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.Bridge.ref_out_eq _ _ _ _ _ _ _ _ (fun e => (Cert.KernelIdeal.HHost.hsrc m hpre c e).1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
